-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S512x512 : Shape := ⟨2, ![512, 512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4x2048x512 .f32) (main_arg1 : FVec F S512x512 .f32) (main_arg2 : FVec F S512x512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S4x2048x512 : Shape := ⟨3, ![4, 2048, 512]⟩
abbrev S512x512 : Shape := ⟨2, ![512, 512]⟩
abbrev S1x2048x512 : Shape := ⟨3, ![1, 2048, 512]⟩
abbrev S2048x512 : Shape := ⟨2, ![2048, 512]⟩
abbrev S2047x512 : Shape := ⟨2, ![2047, 512]⟩
abbrev S1x512 : Shape := ⟨2, ![1, 512]⟩
abbrev S2048 : Shape := ⟨1, ![2048]⟩
abbrev S2048x1 : Shape := ⟨2, ![2048, 1]⟩
abbrev S1x1 : Shape := ⟨2, ![1, 1]⟩
abbrev S2047x1 : Shape := ⟨2, ![2047, 1]⟩
abbrev S2048x128 : Shape := ⟨2, ![2048, 128]⟩
abbrev S16x128x128 : Shape := ⟨3, ![16, 128, 128]⟩
abbrev S16x1x128 : Shape := ⟨3, ![16, 1, 128]⟩
abbrev S16x127x128 : Shape := ⟨3, ![16, 127, 128]⟩
abbrev S16x2x128 : Shape := ⟨3, ![16, 2, 128]⟩
abbrev S16x126x128 : Shape := ⟨3, ![16, 126, 128]⟩
abbrev S16x4x128 : Shape := ⟨3, ![16, 4, 128]⟩
abbrev S16x124x128 : Shape := ⟨3, ![16, 124, 128]⟩
abbrev S16x8x128 : Shape := ⟨3, ![16, 8, 128]⟩
abbrev S16x120x128 : Shape := ⟨3, ![16, 120, 128]⟩
abbrev S16x16x128 : Shape := ⟨3, ![16, 16, 128]⟩
abbrev S16x112x128 : Shape := ⟨3, ![16, 112, 128]⟩
abbrev S16x32x128 : Shape := ⟨3, ![16, 32, 128]⟩
abbrev S16x96x128 : Shape := ⟨3, ![16, 96, 128]⟩
abbrev S16x64x128 : Shape := ⟨3, ![16, 64, 128]⟩
abbrev S128x128 : Shape := ⟨2, ![128, 128]⟩
abbrev S128x512 : Shape := ⟨2, ![128, 512]⟩
abbrev S16x512 : Shape := ⟨2, ![16, 512]⟩
abbrev S1x128 : Shape := ⟨2, ![1, 128]⟩
abbrev S16x128 : Shape := ⟨2, ![16, 128]⟩
abbrev S15x512 : Shape := ⟨2, ![15, 512]⟩
abbrev S15x128 : Shape := ⟨2, ![15, 128]⟩
abbrev S2x512 : Shape := ⟨2, ![2, 512]⟩
abbrev S14x512 : Shape := ⟨2, ![14, 512]⟩
abbrev S2x128 : Shape := ⟨2, ![2, 128]⟩
abbrev S14x128 : Shape := ⟨2, ![14, 128]⟩
abbrev S4x512 : Shape := ⟨2, ![4, 512]⟩
abbrev S12x512 : Shape := ⟨2, ![12, 512]⟩
abbrev S4x128 : Shape := ⟨2, ![4, 128]⟩
abbrev S12x128 : Shape := ⟨2, ![12, 128]⟩
abbrev S8x512 : Shape := ⟨2, ![8, 512]⟩
abbrev S16x1x512 : Shape := ⟨3, ![16, 1, 512]⟩
abbrev S16x128x512 : Shape := ⟨3, ![16, 128, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x2048x512, .f32⟩
  | .hbm, ⟨1, _⟩ => ⟨S512x512, .f32⟩
  | .hbm, ⟨2, _⟩ => ⟨S512x512, .f32⟩
  | .hbm, ⟨3, _⟩ => ⟨S4x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S512x512, .f32⟩
  | .local _ .vmem, ⟨3, _⟩ => ⟨S512x512, .f32⟩
  | .local _ .vmem, ⟨4, _⟩ => ⟨S1x2048x512, .f32⟩
  | .local _ .vmem, ⟨5, _⟩ => ⟨S1x2048x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  slices_S2048x512_o1_0_S2047x512 : S2048x512.Slices ![1, 0] S2047x512
  concatenates_S2047x512_S1x512_S2048x512_d0 : Shape.Concatenates [S2047x512, S1x512] S2048x512 0
  reduces_S2048x512_S2048 : S2048x512.Reduces [1] S2048
  shapeCasts_S2048_S2048x1 : S2048.ShapeCasts S2048x1
  slices_S2048x1_o0_0_S2047x1 : S2048x1.Slices ![0, 0] S2047x1
  concatenates_S1x1_S2047x1_S2048x1_d0 : Shape.Concatenates [S1x1, S2047x1] S2048x1 0
  shapeCasts_S2048x1_S2048x1 : S2048x1.ShapeCasts S2048x1
  broadcasts_S2048x1_S2048x128 : S2048x1.Broadcasts S2048x128
  iota_S16x128x128_d1_w32 : S16x128x128.Iotas .tc 32 [1]
  iota_S16x128x128_d2_w32 : S16x128x128.Iotas .tc 32 [2]
  shapeCasts_S2048x128_S16x128x128 : S2048x128.ShapeCasts S16x128x128
  slices_S16x128x128_o0_0_0_S16x127x128 : S16x128x128.Slices ![0, 0, 0] S16x127x128
  concatenates_S16x1x128_S16x127x128_S16x128x128_d1 : Shape.Concatenates [S16x1x128, S16x127x128] S16x128x128 1
  slices_S16x128x128_o0_0_0_S16x126x128 : S16x128x128.Slices ![0, 0, 0] S16x126x128
  concatenates_S16x2x128_S16x126x128_S16x128x128_d1 : Shape.Concatenates [S16x2x128, S16x126x128] S16x128x128 1
  slices_S16x128x128_o0_0_0_S16x124x128 : S16x128x128.Slices ![0, 0, 0] S16x124x128
  concatenates_S16x4x128_S16x124x128_S16x128x128_d1 : Shape.Concatenates [S16x4x128, S16x124x128] S16x128x128 1
  slices_S16x128x128_o0_0_0_S16x120x128 : S16x128x128.Slices ![0, 0, 0] S16x120x128
  concatenates_S16x8x128_S16x120x128_S16x128x128_d1 : Shape.Concatenates [S16x8x128, S16x120x128] S16x128x128 1
  slices_S16x128x128_o0_0_0_S16x112x128 : S16x128x128.Slices ![0, 0, 0] S16x112x128
  concatenates_S16x16x128_S16x112x128_S16x128x128_d1 : Shape.Concatenates [S16x16x128, S16x112x128] S16x128x128 1
  slices_S16x128x128_o0_0_0_S16x96x128 : S16x128x128.Slices ![0, 0, 0] S16x96x128
  concatenates_S16x32x128_S16x96x128_S16x128x128_d1 : Shape.Concatenates [S16x32x128, S16x96x128] S16x128x128 1
  slices_S16x128x128_o0_0_0_S16x64x128 : S16x128x128.Slices ![0, 0, 0] S16x64x128
  concatenates_S16x64x128_S16x64x128_S16x128x128_d1 : Shape.Concatenates [S16x64x128, S16x64x128] S16x128x128 1
  shapeCasts_S16x128x128_S2048x128 : S16x128x128.ShapeCasts S2048x128
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  concatenates_S2048x128_S2048x128_S2048x128_S2048x128_S2048x512_d1 : Shape.Concatenates [S2048x128, S2048x128, S2048x128, S2048x128] S2048x512 1
  slices_S2048x128_o0_0_S128x128 : S2048x128.Slices ![0, 0] S128x128
  slices_S2048x512_o0_0_S128x512 : S2048x512.Slices ![0, 0] S128x512
  slices_S2048x128_o128_0_S128x128 : S2048x128.Slices ![128, 0] S128x128
  slices_S2048x512_o128_0_S128x512 : S2048x512.Slices ![128, 0] S128x512
  slices_S2048x128_o256_0_S128x128 : S2048x128.Slices ![256, 0] S128x128
  slices_S2048x512_o256_0_S128x512 : S2048x512.Slices ![256, 0] S128x512
  slices_S2048x128_o384_0_S128x128 : S2048x128.Slices ![384, 0] S128x128
  slices_S2048x512_o384_0_S128x512 : S2048x512.Slices ![384, 0] S128x512
  slices_S2048x128_o512_0_S128x128 : S2048x128.Slices ![512, 0] S128x128
  slices_S2048x512_o512_0_S128x512 : S2048x512.Slices ![512, 0] S128x512
  slices_S2048x128_o640_0_S128x128 : S2048x128.Slices ![640, 0] S128x128
  slices_S2048x512_o640_0_S128x512 : S2048x512.Slices ![640, 0] S128x512
  slices_S2048x128_o768_0_S128x128 : S2048x128.Slices ![768, 0] S128x128
  slices_S2048x512_o768_0_S128x512 : S2048x512.Slices ![768, 0] S128x512
  slices_S2048x128_o896_0_S128x128 : S2048x128.Slices ![896, 0] S128x128
  slices_S2048x512_o896_0_S128x512 : S2048x512.Slices ![896, 0] S128x512
  slices_S2048x128_o1024_0_S128x128 : S2048x128.Slices ![1024, 0] S128x128
  slices_S2048x512_o1024_0_S128x512 : S2048x512.Slices ![1024, 0] S128x512
  slices_S2048x128_o1152_0_S128x128 : S2048x128.Slices ![1152, 0] S128x128
  slices_S2048x512_o1152_0_S128x512 : S2048x512.Slices ![1152, 0] S128x512
  slices_S2048x128_o1280_0_S128x128 : S2048x128.Slices ![1280, 0] S128x128
  slices_S2048x512_o1280_0_S128x512 : S2048x512.Slices ![1280, 0] S128x512
  slices_S2048x128_o1408_0_S128x128 : S2048x128.Slices ![1408, 0] S128x128
  slices_S2048x512_o1408_0_S128x512 : S2048x512.Slices ![1408, 0] S128x512
  slices_S2048x128_o1536_0_S128x128 : S2048x128.Slices ![1536, 0] S128x128
  slices_S2048x512_o1536_0_S128x512 : S2048x512.Slices ![1536, 0] S128x512
  slices_S2048x128_o1664_0_S128x128 : S2048x128.Slices ![1664, 0] S128x128
  slices_S2048x512_o1664_0_S128x512 : S2048x512.Slices ![1664, 0] S128x512
  slices_S2048x128_o1792_0_S128x128 : S2048x128.Slices ![1792, 0] S128x128
  slices_S2048x512_o1792_0_S128x512 : S2048x512.Slices ![1792, 0] S128x512
  slices_S2048x128_o1920_0_S128x128 : S2048x128.Slices ![1920, 0] S128x128
  slices_S2048x512_o1920_0_S128x512 : S2048x512.Slices ![1920, 0] S128x512
  slices_S128x512_o127_0_S1x512 : S128x512.Slices ![127, 0] S1x512
  concatenates_S1x512_S1x512_S1x512_S1x512_S1x512_S1x512_S1x512_S1x512_S1x512_S1x512_S1x512_S1x512_S1x512_S1x512_S1x512_S1x512_S16x512_d0 : Shape.Concatenates [S1x512, S1x512, S1x512, S1x512, S1x512, S1x512, S1x512, S1x512, S1x512, S1x512, S1x512, S1x512, S1x512, S1x512, S1x512, S1x512] S16x512 0
  slices_S2048x128_o127_0_S1x128 : S2048x128.Slices ![127, 0] S1x128
  slices_S2048x128_o255_0_S1x128 : S2048x128.Slices ![255, 0] S1x128
  slices_S2048x128_o383_0_S1x128 : S2048x128.Slices ![383, 0] S1x128
  slices_S2048x128_o511_0_S1x128 : S2048x128.Slices ![511, 0] S1x128
  slices_S2048x128_o639_0_S1x128 : S2048x128.Slices ![639, 0] S1x128
  slices_S2048x128_o767_0_S1x128 : S2048x128.Slices ![767, 0] S1x128
  slices_S2048x128_o895_0_S1x128 : S2048x128.Slices ![895, 0] S1x128
  slices_S2048x128_o1023_0_S1x128 : S2048x128.Slices ![1023, 0] S1x128
  slices_S2048x128_o1151_0_S1x128 : S2048x128.Slices ![1151, 0] S1x128
  slices_S2048x128_o1279_0_S1x128 : S2048x128.Slices ![1279, 0] S1x128
  slices_S2048x128_o1407_0_S1x128 : S2048x128.Slices ![1407, 0] S1x128
  slices_S2048x128_o1535_0_S1x128 : S2048x128.Slices ![1535, 0] S1x128
  slices_S2048x128_o1663_0_S1x128 : S2048x128.Slices ![1663, 0] S1x128
  slices_S2048x128_o1791_0_S1x128 : S2048x128.Slices ![1791, 0] S1x128
  slices_S2048x128_o1919_0_S1x128 : S2048x128.Slices ![1919, 0] S1x128
  slices_S2048x128_o2047_0_S1x128 : S2048x128.Slices ![2047, 0] S1x128
  concatenates_S1x128_S1x128_S1x128_S1x128_S1x128_S1x128_S1x128_S1x128_S1x128_S1x128_S1x128_S1x128_S1x128_S1x128_S1x128_S1x128_S16x128_d0 : Shape.Concatenates [S1x128, S1x128, S1x128, S1x128, S1x128, S1x128, S1x128, S1x128, S1x128, S1x128, S1x128, S1x128, S1x128, S1x128, S1x128, S1x128] S16x128 0
  slices_S16x512_o0_0_S15x512 : S16x512.Slices ![0, 0] S15x512
  concatenates_S1x512_S15x512_S16x512_d0 : Shape.Concatenates [S1x512, S15x512] S16x512 0
  slices_S16x128_o0_0_S15x128 : S16x128.Slices ![0, 0] S15x128
  concatenates_S1x128_S15x128_S16x128_d0 : Shape.Concatenates [S1x128, S15x128] S16x128 0
  slices_S16x512_o0_0_S16x128 : S16x512.Slices ![0, 0] S16x128
  slices_S16x512_o0_128_S16x128 : S16x512.Slices ![0, 128] S16x128
  slices_S16x512_o0_256_S16x128 : S16x512.Slices ![0, 256] S16x128
  slices_S16x512_o0_384_S16x128 : S16x512.Slices ![0, 384] S16x128
  concatenates_S16x128_S16x128_S16x128_S16x128_S16x512_d1 : Shape.Concatenates [S16x128, S16x128, S16x128, S16x128] S16x512 1
  slices_S16x512_o0_0_S14x512 : S16x512.Slices ![0, 0] S14x512
  concatenates_S2x512_S14x512_S16x512_d0 : Shape.Concatenates [S2x512, S14x512] S16x512 0
  slices_S16x128_o0_0_S14x128 : S16x128.Slices ![0, 0] S14x128
  concatenates_S2x128_S14x128_S16x128_d0 : Shape.Concatenates [S2x128, S14x128] S16x128 0
  slices_S16x512_o0_0_S12x512 : S16x512.Slices ![0, 0] S12x512
  concatenates_S4x512_S12x512_S16x512_d0 : Shape.Concatenates [S4x512, S12x512] S16x512 0
  slices_S16x128_o0_0_S12x128 : S16x128.Slices ![0, 0] S12x128
  concatenates_S4x128_S12x128_S16x128_d0 : Shape.Concatenates [S4x128, S12x128] S16x128 0
  slices_S16x512_o0_0_S8x512 : S16x512.Slices ![0, 0] S8x512
  concatenates_S8x512_S8x512_S16x512_d0 : Shape.Concatenates [S8x512, S8x512] S16x512 0
  concatenates_S128x512_S128x512_S128x512_S128x512_S128x512_S128x512_S128x512_S128x512_S128x512_S128x512_S128x512_S128x512_S128x512_S128x512_S128x512_S128x512_S2048x512_d0 : Shape.Concatenates [S128x512, S128x512, S128x512, S128x512, S128x512, S128x512, S128x512, S128x512, S128x512, S128x512, S128x512, S128x512, S128x512, S128x512, S128x512, S128x512] S2048x512 0
  shapeCasts_S16x512_S16x1x512 : S16x512.ShapeCasts S16x1x512
  shapeCasts_S16x1x512_S16x1x512 : S16x1x512.ShapeCasts S16x1x512
  broadcasts_S16x1x512_S16x128x512 : S16x1x512.Broadcasts S16x128x512
  shapeCasts_S16x128x512_S2048x512 : S16x128x512.ShapeCasts S2048x512
  shapeCasts_S2048x512_S1x2048x512 : S2048x512.ShapeCasts S1x2048x512
  dot_S2048x512_S512x512_S2048x512_1_1_0_0_n_n_wf : DotDims.WF S2048x512 S512x512 S2048x512 [1] [1] [0] [0] [] []
  dot_S128x128_S128x512_S128x512_1_0_0_1_n_n_wf : DotDims.WF S128x128 S128x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x2048x512.size a
  hwx0_0 : ∀ i : grid0.Coords, EltTy.bits .f32 = 32 ∨ (Rect.block (s := S4x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S4x2048x512.size a
  hwx0_3 : ∀ i : grid0.Coords, EltTy.bits .f32 = 32 ∨ (Rect.block (s := S4x2048x512) S1x2048x512.size (cc0_transform_3 i) (hinb0_3 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x512 : Shape := ⟨3, ![4, 2048, 512]⟩
abbrev S512x512 : Shape := ⟨2, ![512, 512]⟩
abbrev S4x2047x512 : Shape := ⟨3, ![4, 2047, 512]⟩
abbrev S_ : Shape := ⟨0, ![]⟩
abbrev S4x2047 : Shape := ⟨2, ![4, 2047]⟩
abbrev S4x2047x1 : Shape := ⟨3, ![4, 2047, 1]⟩
abbrev S4x1 : Shape := ⟨2, ![4, 1]⟩
abbrev S4x2048 : Shape := ⟨2, ![4, 2048]⟩
abbrev S1 : Shape := ⟨1, ![1]⟩
abbrev S4 : Shape := ⟨1, ![4]⟩
abbrev S4x2048x1 : Shape := ⟨3, ![4, 2048, 1]⟩
abbrev S1x1x1 : Shape := ⟨3, ![1, 1, 1]⟩
abbrev S2048 : Shape := ⟨1, ![2048]⟩
abbrev S1x2048 : Shape := ⟨2, ![1, 2048]⟩
abbrev S4x512 : Shape := ⟨2, ![4, 512]⟩
abbrev S4x1x512 : Shape := ⟨3, ![4, 1, 512]⟩
abbrev S4x2x512 : Shape := ⟨3, ![4, 2, 512]⟩
abbrev S4x2046x512 : Shape := ⟨3, ![4, 2046, 512]⟩
abbrev S4x4x512 : Shape := ⟨3, ![4, 4, 512]⟩
abbrev S4x2044x512 : Shape := ⟨3, ![4, 2044, 512]⟩
abbrev S4x8x512 : Shape := ⟨3, ![4, 8, 512]⟩
abbrev S4x2040x512 : Shape := ⟨3, ![4, 2040, 512]⟩
abbrev S4x16x512 : Shape := ⟨3, ![4, 16, 512]⟩
abbrev S4x2032x512 : Shape := ⟨3, ![4, 2032, 512]⟩
abbrev S4x32x512 : Shape := ⟨3, ![4, 32, 512]⟩
abbrev S4x2016x512 : Shape := ⟨3, ![4, 2016, 512]⟩
abbrev S4x64x512 : Shape := ⟨3, ![4, 64, 512]⟩
abbrev S4x1984x512 : Shape := ⟨3, ![4, 1984, 512]⟩
abbrev S4x128x512 : Shape := ⟨3, ![4, 128, 512]⟩
abbrev S4x1920x512 : Shape := ⟨3, ![4, 1920, 512]⟩
abbrev S4x256x512 : Shape := ⟨3, ![4, 256, 512]⟩
abbrev S4x1792x512 : Shape := ⟨3, ![4, 1792, 512]⟩
abbrev S4x512x512 : Shape := ⟨3, ![4, 512, 512]⟩
abbrev S4x1536x512 : Shape := ⟨3, ![4, 1536, 512]⟩
abbrev S4x1024x512 : Shape := ⟨3, ![4, 1024, 512]⟩

abbrev nBuf : Space → Nat
  | .hbm => 337
  | .vmem => 0
  | .smem => 0
  | _ => 0

abbrev hbmTy0_0 (i : Nat) : BufTy := match i % 128 with
  | 0 => ⟨S4x2048x512, .f32⟩
  | 1 => ⟨S512x512, .f32⟩
  | 2 => ⟨S512x512, .f32⟩
  | 3 => ⟨S4x2047x512, .f32⟩
  | 4 => ⟨S4x2047x512, .f32⟩
  | 5 => ⟨S4x2047x512, .f32⟩
  | 6 => ⟨S_, .f32⟩
  | 7 => ⟨S4x2047, .f32⟩
  | 8 => ⟨S4x2047x1, .f32⟩
  | 9 => ⟨S4x2047x1, .f32⟩
  | 10 => ⟨S_, .f32⟩
  | 11 => ⟨S4x2047x1, .f32⟩
  | 12 => ⟨S4x2047x1, .f32⟩
  | 13 => ⟨S4x2047x512, .f32⟩
  | 14 => ⟨S4x2047x512, .f32⟩
  | 15 => ⟨S4x2047x512, .f32⟩
  | 16 => ⟨S4x2047x512, .f32⟩
  | 17 => ⟨S4x2047x512, .f32⟩
  | 18 => ⟨S_, .f32⟩
  | 19 => ⟨S4x2047, .f32⟩
  | 20 => ⟨S4x2047x1, .f32⟩
  | 21 => ⟨S4x2047x1, .f32⟩
  | 22 => ⟨S_, .f32⟩
  | 23 => ⟨S4x2047x1, .f32⟩
  | 24 => ⟨S4x2047x1, .f32⟩
  | 25 => ⟨S4x2047x512, .f32⟩
  | 26 => ⟨S4x2047x512, .f32⟩
  | 27 => ⟨S4x2047x512, .f32⟩
  | 28 => ⟨S_, .f32⟩
  | 29 => ⟨S4x2047, .f32⟩
  | 30 => ⟨S_, .f32⟩
  | 31 => ⟨S4x1, .f32⟩
  | 32 => ⟨S_, .f32⟩
  | 33 => ⟨S4x2047, .f32⟩
  | 34 => ⟨S4x2047, .f32⟩
  | 35 => ⟨S_, .f32⟩
  | 36 => ⟨S4x2047, .f32⟩
  | 37 => ⟨S4x2047, .f32⟩
  | 38 => ⟨S_, .f32⟩
  | 39 => ⟨S_, .f32⟩
  | 40 => ⟨S_, .f32⟩
  | 41 => ⟨S4x2047, .f32⟩
  | 42 => ⟨S4x2047, .f32⟩
  | 43 => ⟨S_, .f32⟩
  | 44 => ⟨S4x2047, .f32⟩
  | 45 => ⟨S4x2047, .f32⟩
  | 46 => ⟨S4x2048, .f32⟩
  | 47 => ⟨S_, .i32⟩
  | 48 => ⟨S1, .i32⟩
  | 49 => ⟨S_, .f32⟩
  | 50 => ⟨S4, .f32⟩
  | 51 => ⟨S4x2048, .f32⟩
  | 52 => ⟨S_, .f32⟩
  | 53 => ⟨S4x2048, .f32⟩
  | 54 => ⟨S4x2048, .i1⟩
  | 55 => ⟨S4x2048, .i1⟩
  | 56 => ⟨S4x2048, .i32⟩
  | 57 => ⟨S4x2048, .i32⟩
  | 58 => ⟨S4x2048, .i32⟩
  | 59 => ⟨S4x2048, .i32⟩
  | 60 => ⟨S4x2048, .i32⟩
  | 61 => ⟨S_, .i32⟩
  | 62 => ⟨S4, .i32⟩
  | 63 => ⟨S4x2048x1, .i32⟩
  | 64 => ⟨S_, .i32⟩
  | 65 => ⟨S4x2048x1, .i32⟩
  | 66 => ⟨S4x2048x1, .i1⟩
  | 67 => ⟨S_, .i32⟩
  | 68 => ⟨S4x2048x1, .i32⟩
  | 69 => ⟨S4x2048x1, .i32⟩
  | 70 => ⟨S4x2048x1, .i32⟩
  | 71 => ⟨S1, .i32⟩
  | 72 => ⟨S_, .i32⟩
  | 73 => ⟨S4x2048x1, .i32⟩
  | 74 => ⟨S4x2048x1, .i1⟩
  | 75 => ⟨S1x1x1, .i32⟩
  | 76 => ⟨S4x2048x1, .i32⟩
  | 77 => ⟨S4x2048x1, .i1⟩
  | 78 => ⟨S4x2048x1, .i1⟩
  | 79 => ⟨S_, .i1⟩
  | 80 => ⟨S4x2048, .i1⟩
  | 81 => ⟨S4x2048x512, .f32⟩
  | 82 => ⟨S4x2048x512, .i1⟩
  | 83 => ⟨S_, .f32⟩
  | 84 => ⟨S4x2048x512, .f32⟩
  | 85 => ⟨S4x2048x512, .f32⟩
  | 86 => ⟨S2048, .i32⟩
  | 87 => ⟨S1x2048, .i32⟩
  | 88 => ⟨S4x1, .i32⟩
  | 89 => ⟨S4x2048, .i32⟩
  | 90 => ⟨S4x2048, .i32⟩
  | 91 => ⟨S4x2048, .i1⟩
  | 92 => ⟨S_, .i32⟩
  | 93 => ⟨S4x2048, .i32⟩
  | 94 => ⟨S4x2048, .i1⟩
  | 95 => ⟨S_, .i32⟩
  | 96 => ⟨S4x2048, .i32⟩
  | 97 => ⟨S4x2048, .i32⟩
  | 98 => ⟨S4x2048, .i32⟩
  | 99 => ⟨S4x2048x1, .i32⟩
  | 100 => ⟨S1, .i32⟩
  | 101 => ⟨S_, .i32⟩
  | 102 => ⟨S4x2048x1, .i32⟩
  | 103 => ⟨S4x2048x1, .i1⟩
  | 104 => ⟨S1x1x1, .i32⟩
  | 105 => ⟨S4x2048x1, .i32⟩
  | 106 => ⟨S4x2048x1, .i1⟩
  | 107 => ⟨S4x2048x1, .i1⟩
  | 108 => ⟨S_, .i1⟩
  | 109 => ⟨S4x2048, .i1⟩
  | 110 => ⟨S4x2048, .f32⟩
  | 111 => ⟨S_, .f32⟩
  | 112 => ⟨S4x2048, .f32⟩
  | 113 => ⟨S4x2048, .f32⟩
  | 114 => ⟨S4x2048, .f32⟩
  | 115 => ⟨S4x2048, .f32⟩
  | 116 => ⟨S_, .f32⟩
  | 117 => ⟨S4x2048, .f32⟩
  | 118 => ⟨S4x2048, .f32⟩
  | 119 => ⟨S_, .f32⟩
  | 120 => ⟨S_, .f32⟩
  | 121 => ⟨S_, .f32⟩
  | 122 => ⟨S4x2048, .f32⟩
  | 123 => ⟨S4x2048, .f32⟩
  | 124 => ⟨S_, .f32⟩
  | 125 => ⟨S4x2048, .f32⟩
  | 126 => ⟨S4x2048, .f32⟩
  | 127 => ⟨S_, .f32⟩
  | _ => ⟨S4x2048x512, .f32⟩

abbrev hbmTy0_1 (i : Nat) : BufTy := match i % 128 with
  | 0 => ⟨S4x512, .f32⟩
  | 1 => ⟨S4x2048x1, .f32⟩
  | 2 => ⟨S4x2048x512, .f32⟩
  | 3 => ⟨S_, .f32⟩
  | 4 => ⟨S4x2048, .f32⟩
  | 5 => ⟨S4x2048, .f32⟩
  | 6 => ⟨S4x2048x1, .f32⟩
  | 7 => ⟨S4x2048x512, .f32⟩
  | 8 => ⟨S4x2048x512, .f32⟩
  | 9 => ⟨S4x1x512, .f32⟩
  | 10 => ⟨S4x1x512, .f32⟩
  | 11 => ⟨S4x1x512, .f32⟩
  | 12 => ⟨S4x1x512, .f32⟩
  | 13 => ⟨S4x1x512, .f32⟩
  | 14 => ⟨S4x2047x512, .f32⟩
  | 15 => ⟨S4x2048x512, .f32⟩
  | 16 => ⟨S4x1x512, .f32⟩
  | 17 => ⟨S4x2047x512, .f32⟩
  | 18 => ⟨S4x2047x512, .f32⟩
  | 19 => ⟨S4x2047x512, .f32⟩
  | 20 => ⟨S4x2047x512, .f32⟩
  | 21 => ⟨S4x2047x512, .f32⟩
  | 22 => ⟨S4x2048x512, .f32⟩
  | 23 => ⟨S4x1x512, .f32⟩
  | 24 => ⟨S4x2047x512, .f32⟩
  | 25 => ⟨S4x2047x512, .f32⟩
  | 26 => ⟨S4x2047x512, .f32⟩
  | 27 => ⟨S4x2048x512, .f32⟩
  | 28 => ⟨S4x2x512, .f32⟩
  | 29 => ⟨S4x2046x512, .f32⟩
  | 30 => ⟨S4x2046x512, .f32⟩
  | 31 => ⟨S4x2046x512, .f32⟩
  | 32 => ⟨S4x2046x512, .f32⟩
  | 33 => ⟨S4x2046x512, .f32⟩
  | 34 => ⟨S4x2048x512, .f32⟩
  | 35 => ⟨S4x2x512, .f32⟩
  | 36 => ⟨S4x2046x512, .f32⟩
  | 37 => ⟨S4x2046x512, .f32⟩
  | 38 => ⟨S4x2046x512, .f32⟩
  | 39 => ⟨S4x2048x512, .f32⟩
  | 40 => ⟨S4x4x512, .f32⟩
  | 41 => ⟨S4x2044x512, .f32⟩
  | 42 => ⟨S4x2044x512, .f32⟩
  | 43 => ⟨S4x2044x512, .f32⟩
  | 44 => ⟨S4x2044x512, .f32⟩
  | 45 => ⟨S4x2044x512, .f32⟩
  | 46 => ⟨S4x2048x512, .f32⟩
  | 47 => ⟨S4x4x512, .f32⟩
  | 48 => ⟨S4x2044x512, .f32⟩
  | 49 => ⟨S4x2044x512, .f32⟩
  | 50 => ⟨S4x2044x512, .f32⟩
  | 51 => ⟨S4x2048x512, .f32⟩
  | 52 => ⟨S4x8x512, .f32⟩
  | 53 => ⟨S4x2040x512, .f32⟩
  | 54 => ⟨S4x2040x512, .f32⟩
  | 55 => ⟨S4x2040x512, .f32⟩
  | 56 => ⟨S4x2040x512, .f32⟩
  | 57 => ⟨S4x2040x512, .f32⟩
  | 58 => ⟨S4x2048x512, .f32⟩
  | 59 => ⟨S4x8x512, .f32⟩
  | 60 => ⟨S4x2040x512, .f32⟩
  | 61 => ⟨S4x2040x512, .f32⟩
  | 62 => ⟨S4x2040x512, .f32⟩
  | 63 => ⟨S4x2048x512, .f32⟩
  | 64 => ⟨S4x16x512, .f32⟩
  | 65 => ⟨S4x2032x512, .f32⟩
  | 66 => ⟨S4x2032x512, .f32⟩
  | 67 => ⟨S4x2032x512, .f32⟩
  | 68 => ⟨S4x2032x512, .f32⟩
  | 69 => ⟨S4x2032x512, .f32⟩
  | 70 => ⟨S4x2048x512, .f32⟩
  | 71 => ⟨S4x16x512, .f32⟩
  | 72 => ⟨S4x2032x512, .f32⟩
  | 73 => ⟨S4x2032x512, .f32⟩
  | 74 => ⟨S4x2032x512, .f32⟩
  | 75 => ⟨S4x2048x512, .f32⟩
  | 76 => ⟨S4x32x512, .f32⟩
  | 77 => ⟨S4x2016x512, .f32⟩
  | 78 => ⟨S4x2016x512, .f32⟩
  | 79 => ⟨S4x2016x512, .f32⟩
  | 80 => ⟨S4x2016x512, .f32⟩
  | 81 => ⟨S4x2016x512, .f32⟩
  | 82 => ⟨S4x2048x512, .f32⟩
  | 83 => ⟨S4x32x512, .f32⟩
  | 84 => ⟨S4x2016x512, .f32⟩
  | 85 => ⟨S4x2016x512, .f32⟩
  | 86 => ⟨S4x2016x512, .f32⟩
  | 87 => ⟨S4x2048x512, .f32⟩
  | 88 => ⟨S4x64x512, .f32⟩
  | 89 => ⟨S4x1984x512, .f32⟩
  | 90 => ⟨S4x1984x512, .f32⟩
  | 91 => ⟨S4x1984x512, .f32⟩
  | 92 => ⟨S4x1984x512, .f32⟩
  | 93 => ⟨S4x1984x512, .f32⟩
  | 94 => ⟨S4x2048x512, .f32⟩
  | 95 => ⟨S4x64x512, .f32⟩
  | 96 => ⟨S4x1984x512, .f32⟩
  | 97 => ⟨S4x1984x512, .f32⟩
  | 98 => ⟨S4x1984x512, .f32⟩
  | 99 => ⟨S4x2048x512, .f32⟩
  | 100 => ⟨S4x128x512, .f32⟩
  | 101 => ⟨S4x1920x512, .f32⟩
  | 102 => ⟨S4x1920x512, .f32⟩
  | 103 => ⟨S4x1920x512, .f32⟩
  | 104 => ⟨S4x1920x512, .f32⟩
  | 105 => ⟨S4x1920x512, .f32⟩
  | 106 => ⟨S4x2048x512, .f32⟩
  | 107 => ⟨S4x128x512, .f32⟩
  | 108 => ⟨S4x1920x512, .f32⟩
  | 109 => ⟨S4x1920x512, .f32⟩
  | 110 => ⟨S4x1920x512, .f32⟩
  | 111 => ⟨S4x2048x512, .f32⟩
  | 112 => ⟨S4x256x512, .f32⟩
  | 113 => ⟨S4x1792x512, .f32⟩
  | 114 => ⟨S4x1792x512, .f32⟩
  | 115 => ⟨S4x1792x512, .f32⟩
  | 116 => ⟨S4x1792x512, .f32⟩
  | 117 => ⟨S4x1792x512, .f32⟩
  | 118 => ⟨S4x2048x512, .f32⟩
  | 119 => ⟨S4x256x512, .f32⟩
  | 120 => ⟨S4x1792x512, .f32⟩
  | 121 => ⟨S4x1792x512, .f32⟩
  | 122 => ⟨S4x1792x512, .f32⟩
  | 123 => ⟨S4x2048x512, .f32⟩
  | 124 => ⟨S4x512x512, .f32⟩
  | 125 => ⟨S4x1536x512, .f32⟩
  | 126 => ⟨S4x1536x512, .f32⟩
  | 127 => ⟨S4x1536x512, .f32⟩
  | _ => ⟨S4x2048x512, .f32⟩

abbrev hbmTy0_2 (i : Nat) : BufTy := match i % 128 with
  | 0 => ⟨S4x1536x512, .f32⟩
  | 1 => ⟨S4x1536x512, .f32⟩
  | 2 => ⟨S4x2048x512, .f32⟩
  | 3 => ⟨S4x512x512, .f32⟩
  | 4 => ⟨S4x1536x512, .f32⟩
  | 5 => ⟨S4x1536x512, .f32⟩
  | 6 => ⟨S4x1536x512, .f32⟩
  | 7 => ⟨S4x2048x512, .f32⟩
  | 8 => ⟨S4x1024x512, .f32⟩
  | 9 => ⟨S4x1024x512, .f32⟩
  | 10 => ⟨S4x1024x512, .f32⟩
  | 11 => ⟨S4x1024x512, .f32⟩
  | 12 => ⟨S4x1024x512, .f32⟩
  | 13 => ⟨S4x1024x512, .f32⟩
  | 14 => ⟨S4x2048x512, .f32⟩
  | 15 => ⟨S4x1024x512, .f32⟩
  | 16 => ⟨S4x1024x512, .f32⟩
  | 17 => ⟨S4x1024x512, .f32⟩
  | 18 => ⟨S4x1024x512, .f32⟩
  | 19 => ⟨S4x2048x512, .f32⟩
  | 20 => ⟨S4x2048x1, .i1⟩
  | 21 => ⟨S4x2048x1, .f32⟩
  | 22 => ⟨S4x2048x512, .f32⟩
  | 23 => ⟨S4x2048x512, .f32⟩
  | 24 => ⟨S4x2048, .i32⟩
  | 25 => ⟨S_, .i32⟩
  | 26 => ⟨S_, .i32⟩
  | 27 => ⟨S4x2048, .i32⟩
  | 28 => ⟨S_, .i32⟩
  | 29 => ⟨S4x2048, .i32⟩
  | 30 => ⟨S4x2048, .i32⟩
  | 31 => ⟨S_, .i32⟩
  | 32 => ⟨S_, .i32⟩
  | 33 => ⟨S_, .i32⟩
  | 34 => ⟨S4x2048, .i32⟩
  | 35 => ⟨S4x2048, .i32⟩
  | 36 => ⟨S_, .i32⟩
  | 37 => ⟨S4x2048, .i32⟩
  | 38 => ⟨S4x2048, .i32⟩
  | 39 => ⟨S_, .i32⟩
  | 40 => ⟨S4x2048, .i32⟩
  | 41 => ⟨S4x2048, .i1⟩
  | 42 => ⟨S4x2048x1, .i32⟩
  | 43 => ⟨S_, .i32⟩
  | 44 => ⟨S4x2048x1, .i32⟩
  | 45 => ⟨S4x2048x1, .i1⟩
  | 46 => ⟨S_, .i32⟩
  | 47 => ⟨S4x2048x1, .i32⟩
  | 48 => ⟨S4x2048x1, .i32⟩
  | 49 => ⟨S4x2048x1, .i32⟩
  | 50 => ⟨S1, .i32⟩
  | 51 => ⟨S_, .i32⟩
  | 52 => ⟨S4x2048x1, .i32⟩
  | 53 => ⟨S4x2048x1, .i1⟩
  | 54 => ⟨S1x1x1, .i32⟩
  | 55 => ⟨S4x2048x1, .i32⟩
  | 56 => ⟨S4x2048x1, .i1⟩
  | 57 => ⟨S4x2048x1, .i1⟩
  | 58 => ⟨S_, .i1⟩
  | 59 => ⟨S4x2048, .i1⟩
  | 60 => ⟨S4x2048x512, .f32⟩
  | 61 => ⟨S4x2048x512, .i1⟩
  | 62 => ⟨S_, .f32⟩
  | 63 => ⟨S4x2048x512, .f32⟩
  | 64 => ⟨S4x2048x512, .f32⟩
  | 65 => ⟨S4x2048x1, .i1⟩
  | 66 => ⟨S4x2048x1, .f32⟩
  | 67 => ⟨S4x2048x512, .f32⟩
  | 68 => ⟨S4x2048x512, .f32⟩
  | 69 => ⟨S_, .f32⟩
  | 70 => ⟨S4x2048, .f32⟩
  | 71 => ⟨S4x2048, .f32⟩
  | 72 => ⟨S4x2048, .f32⟩
  | 73 => ⟨S_, .f32⟩
  | 74 => ⟨S4x2048, .f32⟩
  | 75 => ⟨S4x2048, .f32⟩
  | 76 => ⟨S4x2048, .f32⟩
  | 77 => ⟨S4x2048x1, .f32⟩
  | 78 => ⟨S4x2048x512, .f32⟩
  | 79 => ⟨S4x2048x512, .f32⟩
  | 80 => ⟨S4x2048x512, .f32⟩
  | _ => ⟨S4x2048x512, .f32⟩

abbrev hbmTy (i : Nat) : BufTy := match i / 128 with
  | 0 => hbmTy0_0 i
  | 1 => hbmTy0_1 i
  | 2 => hbmTy0_2 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_cst_8 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_v28 : Ref sig .tc := ⟨.hbm, 46, rfl⟩
abbrev main_c : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_call1_v1_0 : Ref sig .tc := ⟨.hbm, 58, rfl⟩
abbrev main_v36 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_v39 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_c_2 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_c_3 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_cst : Ref sig .tc := ⟨.hbm, 111, rfl⟩
abbrev main_call3_v14 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_cst_12 : Ref sig .tc := ⟨.hbm, 116, rfl⟩
abbrev main_v50 : Ref sig .tc := ⟨.hbm, 117, rfl⟩
abbrev main_v51 : Ref sig .tc := ⟨.hbm, 118, rfl⟩
abbrev main_cst_13 : Ref sig .tc := ⟨.hbm, 119, rfl⟩
abbrev main_cst_14 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_v52 : Ref sig .tc := ⟨.hbm, 126, rfl⟩
abbrev main_cst_15 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_cst_16 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_call5_call0_c : Ref sig .tc := ⟨.hbm, 281, rfl⟩
abbrev main_call5_call0_v0 : Ref sig .tc := ⟨.hbm, 282, rfl⟩
abbrev main_v205 : Ref sig .tc := ⟨.hbm, 283, rfl⟩
abbrev main_c_17 : Ref sig .tc := ⟨.hbm, 284, rfl⟩
abbrev main_v206 : Ref sig .tc := ⟨.hbm, 285, rfl⟩
abbrev main_v207 : Ref sig .tc := ⟨.hbm, 286, rfl⟩
abbrev main_c_18 : Ref sig .tc := ⟨.hbm, 287, rfl⟩
abbrev main_c_19 : Ref sig .tc := ⟨.hbm, 288, rfl⟩
abbrev main_call6_v0 : Ref sig .tc := ⟨.hbm, 289, rfl⟩
abbrev main_call6_v1 : Ref sig .tc := ⟨.hbm, 290, rfl⟩
abbrev main_call6_v2 : Ref sig .tc := ⟨.hbm, 291, rfl⟩
abbrev main_call6_v3 : Ref sig .tc := ⟨.hbm, 292, rfl⟩
abbrev main_call6_v4 : Ref sig .tc := ⟨.hbm, 293, rfl⟩
abbrev main_v208 : Ref sig .tc := ⟨.hbm, 294, rfl⟩
abbrev main_c_20 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_call7_c : Ref sig .tc := ⟨.hbm, 299, rfl⟩
abbrev main_call7_v0 : Ref sig .tc := ⟨.hbm, 300, rfl⟩
abbrev main_call7_v1 : Ref sig .tc := ⟨.hbm, 301, rfl⟩
abbrev main_call7_c_0 : Ref sig .tc := ⟨.hbm, 302, rfl⟩
abbrev main_call7_v2 : Ref sig .tc := ⟨.hbm, 303, rfl⟩
abbrev main_call7_v3 : Ref sig .tc := ⟨.hbm, 304, rfl⟩
abbrev main_call7_v4 : Ref sig .tc := ⟨.hbm, 305, rfl⟩
abbrev main_call7_c_1 : Ref sig .tc := ⟨.hbm, 306, rfl⟩
abbrev main_call7_c_2 : Ref sig .tc := ⟨.hbm, 307, rfl⟩
abbrev main_call7_v5 : Ref sig .tc := ⟨.hbm, 308, rfl⟩
abbrev main_call7_v6 : Ref sig .tc := ⟨.hbm, 309, rfl⟩
abbrev main_call7_v7 : Ref sig .tc := ⟨.hbm, 310, rfl⟩
abbrev main_call7_v8 : Ref sig .tc := ⟨.hbm, 311, rfl⟩
abbrev main_call7_v9 : Ref sig .tc := ⟨.hbm, 312, rfl⟩
abbrev main_call7_v10 : Ref sig .tc := ⟨.hbm, 313, rfl⟩
abbrev main_call7_c_3 : Ref sig .tc := ⟨.hbm, 314, rfl⟩
abbrev main_call7_v11 : Ref sig .tc := ⟨.hbm, 315, rfl⟩
abbrev main_call7_v12 : Ref sig .tc := ⟨.hbm, 316, rfl⟩
abbrev main_call7_v13 : Ref sig .tc := ⟨.hbm, 317, rfl⟩
abbrev main_call7_cst : Ref sig .tc := ⟨.hbm, 318, rfl⟩
abbrev main_call7_v14 : Ref sig .tc := ⟨.hbm, 319, rfl⟩
abbrev main_v212 : Ref sig .tc := ⟨.hbm, 320, rfl⟩
abbrev main_v213 : Ref sig .tc := ⟨.hbm, 321, rfl⟩
abbrev main_v214 : Ref sig .tc := ⟨.hbm, 322, rfl⟩
abbrev main_v215 : Ref sig .tc := ⟨.hbm, 323, rfl⟩
abbrev main_v216 : Ref sig .tc := ⟨.hbm, 324, rfl⟩
abbrev main_cst_21 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_cst_22 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩

abbrev nD : Nat := 1
abbrev τ : Topo := Topo.v7x

variable {F : FTy → Type} [FloatOps F]

class Facts₀ : Prop where
  slices_S4x2048x512_S4x2047x512_0_0_0 : S4x2048x512.Slices ![0, 0, 0] S4x2047x512
  reducesTo_S4x2047x512_S4x2047_d2 : S4x2047x512.ReducesTo [2] S4x2047
  h_S_ : 0 < S_.numel
  bcast_S4x2047_S4x2047x1_0_1 : S4x2047.BroadcastsInDim S4x2047x1 (![0, 1] : Fin 2 → Fin S4x2047x1.rank)
  bcast_S_S4x2047x1 : S_.BroadcastsInDim S4x2047x1 (![] : Fin 0 → Fin S4x2047x1.rank)
  bcast_S4x2047x1_S4x2047x512_0_1_2 : S4x2047x1.BroadcastsInDim S4x2047x512 (![0, 1, 2] : Fin 3 → Fin S4x2047x512.rank)
  slices_S4x2048x512_S4x2047x512_0_1_0 : S4x2048x512.Slices ![0, 1, 0] S4x2047x512
  bcast_S_S4x1 : S_.BroadcastsInDim S4x1 (![] : Fin 0 → Fin S4x1.rank)
  bcast_S_S4x2047 : S_.BroadcastsInDim S4x2047 (![] : Fin 0 → Fin S4x2047.rank)
  concatenates_S4x1_S4x2047_S4x2048_d1 : Shape.Concatenates [S4x1, S4x2047] S4x2048 1
  bcast_S_S1 : S_.BroadcastsInDim S1 (![] : Fin 0 → Fin S1.rank)
  bcast_S_S4 : S_.BroadcastsInDim S4 (![] : Fin 0 → Fin S4.rank)
  bcast_S_S4x2048 : S_.BroadcastsInDim S4x2048 (![] : Fin 0 → Fin S4x2048.rank)
  natLt_1_32 : 1 < 32
  reducesTo_S4x2048_S4_d1 : S4x2048.ReducesTo [1] S4
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S1_S1x1x1_2 : S1.BroadcastsInDim S1x1x1 (![2] : Fin 1 → Fin S1x1x1.rank)
  bcast_S1x1x1_S4x2048x1_0_1_2 : S1x1x1.BroadcastsInDim S4x2048x1 (![0, 1, 2] : Fin 3 → Fin S4x2048x1.rank)
  reducesTo_S4x2048x1_S4x2048_d2 : S4x2048x1.ReducesTo [2] S4x2048
  bcast_S4x2048_S4x2048x512_0_1 : S4x2048.BroadcastsInDim S4x2048x512 (![0, 1] : Fin 2 → Fin S4x2048x512.rank)
  bcast_S_S4x2048x512 : S_.BroadcastsInDim S4x2048x512 (![] : Fin 0 → Fin S4x2048x512.rank)
  bcast_S2048_S1x2048_1 : S2048.BroadcastsInDim S1x2048 (![1] : Fin 1 → Fin S1x2048.rank)
  bcast_S4_S4x1_0 : S4.BroadcastsInDim S4x1 (![0] : Fin 1 → Fin S4x1.rank)
  bcast_S1x2048_S4x2048_0_1 : S1x2048.BroadcastsInDim S4x2048 (![0, 1] : Fin 2 → Fin S4x2048.rank)
  bcast_S4x1_S4x2048_0_1 : S4x1.BroadcastsInDim S4x2048 (![0, 1] : Fin 2 → Fin S4x2048.rank)
  shapeCasts_S4x2048_S4x2048x1 : S4x2048.ShapeCasts S4x2048x1
  bcast_S_S4x512 : S_.BroadcastsInDim S4x512 (![] : Fin 0 → Fin S4x512.rank)
  bcast_S4x2048x1_S4x2048x512_0_1_2 : S4x2048x1.BroadcastsInDim S4x2048x512 (![0, 1, 2] : Fin 3 → Fin S4x2048x512.rank)
  slices_S4x2048x512_S4x1x512_0_0_0 : S4x2048x512.Slices ![0, 0, 0] S4x1x512
  bcast_S4x512_S4x1x512_0_2 : S4x512.BroadcastsInDim S4x1x512 (![0, 2] : Fin 2 → Fin S4x1x512.rank)
  concatenates_S4x1x512_S4x2047x512_S4x2048x512_d1 : Shape.Concatenates [S4x1x512, S4x2047x512] S4x2048x512 1
  slices_S4x2048x512_S4x2x512_0_0_0 : S4x2048x512.Slices ![0, 0, 0] S4x2x512
  slices_S4x2048x512_S4x2046x512_0_2_0 : S4x2048x512.Slices ![0, 2, 0] S4x2046x512
  slices_S4x2048x512_S4x2046x512_0_0_0 : S4x2048x512.Slices ![0, 0, 0] S4x2046x512
  concatenates_S4x2x512_S4x2046x512_S4x2048x512_d1 : Shape.Concatenates [S4x2x512, S4x2046x512] S4x2048x512 1
  slices_S4x2048x512_S4x4x512_0_0_0 : S4x2048x512.Slices ![0, 0, 0] S4x4x512
  slices_S4x2048x512_S4x2044x512_0_4_0 : S4x2048x512.Slices ![0, 4, 0] S4x2044x512
  slices_S4x2048x512_S4x2044x512_0_0_0 : S4x2048x512.Slices ![0, 0, 0] S4x2044x512
  concatenates_S4x4x512_S4x2044x512_S4x2048x512_d1 : Shape.Concatenates [S4x4x512, S4x2044x512] S4x2048x512 1
  slices_S4x2048x512_S4x8x512_0_0_0 : S4x2048x512.Slices ![0, 0, 0] S4x8x512
  slices_S4x2048x512_S4x2040x512_0_8_0 : S4x2048x512.Slices ![0, 8, 0] S4x2040x512
  slices_S4x2048x512_S4x2040x512_0_0_0 : S4x2048x512.Slices ![0, 0, 0] S4x2040x512
  concatenates_S4x8x512_S4x2040x512_S4x2048x512_d1 : Shape.Concatenates [S4x8x512, S4x2040x512] S4x2048x512 1
  slices_S4x2048x512_S4x16x512_0_0_0 : S4x2048x512.Slices ![0, 0, 0] S4x16x512
  slices_S4x2048x512_S4x2032x512_0_16_0 : S4x2048x512.Slices ![0, 16, 0] S4x2032x512
  slices_S4x2048x512_S4x2032x512_0_0_0 : S4x2048x512.Slices ![0, 0, 0] S4x2032x512
  concatenates_S4x16x512_S4x2032x512_S4x2048x512_d1 : Shape.Concatenates [S4x16x512, S4x2032x512] S4x2048x512 1
  slices_S4x2048x512_S4x32x512_0_0_0 : S4x2048x512.Slices ![0, 0, 0] S4x32x512
  slices_S4x2048x512_S4x2016x512_0_32_0 : S4x2048x512.Slices ![0, 32, 0] S4x2016x512
  slices_S4x2048x512_S4x2016x512_0_0_0 : S4x2048x512.Slices ![0, 0, 0] S4x2016x512
  concatenates_S4x32x512_S4x2016x512_S4x2048x512_d1 : Shape.Concatenates [S4x32x512, S4x2016x512] S4x2048x512 1
  slices_S4x2048x512_S4x64x512_0_0_0 : S4x2048x512.Slices ![0, 0, 0] S4x64x512
  slices_S4x2048x512_S4x1984x512_0_64_0 : S4x2048x512.Slices ![0, 64, 0] S4x1984x512
  slices_S4x2048x512_S4x1984x512_0_0_0 : S4x2048x512.Slices ![0, 0, 0] S4x1984x512
  concatenates_S4x64x512_S4x1984x512_S4x2048x512_d1 : Shape.Concatenates [S4x64x512, S4x1984x512] S4x2048x512 1
  slices_S4x2048x512_S4x128x512_0_0_0 : S4x2048x512.Slices ![0, 0, 0] S4x128x512
  slices_S4x2048x512_S4x1920x512_0_128_0 : S4x2048x512.Slices ![0, 128, 0] S4x1920x512
  slices_S4x2048x512_S4x1920x512_0_0_0 : S4x2048x512.Slices ![0, 0, 0] S4x1920x512
  concatenates_S4x128x512_S4x1920x512_S4x2048x512_d1 : Shape.Concatenates [S4x128x512, S4x1920x512] S4x2048x512 1
  slices_S4x2048x512_S4x256x512_0_0_0 : S4x2048x512.Slices ![0, 0, 0] S4x256x512
  slices_S4x2048x512_S4x1792x512_0_256_0 : S4x2048x512.Slices ![0, 256, 0] S4x1792x512
  slices_S4x2048x512_S4x1792x512_0_0_0 : S4x2048x512.Slices ![0, 0, 0] S4x1792x512
  concatenates_S4x256x512_S4x1792x512_S4x2048x512_d1 : Shape.Concatenates [S4x256x512, S4x1792x512] S4x2048x512 1
  slices_S4x2048x512_S4x512x512_0_0_0 : S4x2048x512.Slices ![0, 0, 0] S4x512x512
  slices_S4x2048x512_S4x1536x512_0_512_0 : S4x2048x512.Slices ![0, 512, 0] S4x1536x512
  slices_S4x2048x512_S4x1536x512_0_0_0 : S4x2048x512.Slices ![0, 0, 0] S4x1536x512
  concatenates_S4x512x512_S4x1536x512_S4x2048x512_d1 : Shape.Concatenates [S4x512x512, S4x1536x512] S4x2048x512 1
  slices_S4x2048x512_S4x1024x512_0_0_0 : S4x2048x512.Slices ![0, 0, 0] S4x1024x512
  slices_S4x2048x512_S4x1024x512_0_1024_0 : S4x2048x512.Slices ![0, 1024, 0] S4x1024x512
  concatenates_S4x1024x512_S4x1024x512_S4x2048x512_d1 : Shape.Concatenates [S4x1024x512, S4x1024x512] S4x2048x512 1
  bcast_S_S_ : S_.BroadcastsInDim S_ (![] : Fin 0 → Fin S_.rank)
  reduceWindows_S4x2048_S4x2048_w1s1p0_0_w2048s1p2047_0 : S4x2048.ReduceWindows (![1, 2048] : Fin 2 → Nat) ![1, 1] ![0, 2047] ![0, 0] S4x2048
  dot_S4x2047x512_S512x512_S4x2047x512_2_1_01_0_n_n_wf : DotDims.WF S4x2047x512 S512x512 S4x2047x512 [2] [1] [0, 1] [0] [] []
  scatter_S4x2048_S1_S4_0_1_1_0_wf : ScatterDims.WF S4x2048 S1 S4 [0] [1] [1] 0
  gather_S4x2048x512_S4x2048x1_S4x2048x512_2_1_0_0_1_2_11512_wf : GatherDims.WF S4x2048x512 S4x2048x1 S4x2048x512 [2] [1] [0] [1] [0] 2 ![1, 1, 512]
  gather_S4x2048_S4x2048x1_S4x2048_n_1_0_0_1_2_11_wf : GatherDims.WF S4x2048 S4x2048x1 S4x2048 [] [1] [0] [1] [0] 2 ![1, 1]

variable [Facts₀]

def dot_S4x2047x512_S512x512_S4x2047x512_2_1_01_0_n_n : DotDims S4x2047x512 S512x512 S4x2047x512 where
  lhsContracting := [2]
  rhsContracting := [1]
  lhsNonContracting := [0, 1]
  rhsNonContracting := [0]
  lhsBatch := []
  rhsBatch := []
  wf := dot_S4x2047x512_S512x512_S4x2047x512_2_1_01_0_n_n_wf
def scatter_S4x2048_S1_S4_0_1_1_0 : ScatterDims S4x2048 S1 S4 where
  updateWindowDims := [0]
  insertedWindowDims := [1]
  scatterDimsToOperandDims := [1]
  indexVectorDim := 0
  wf := scatter_S4x2048_S1_S4_0_1_1_0_wf
def comparator_i32_i32_d1 : BitVec 32 × BitVec 32 → BitVec 32 × BitVec 32 → BitVec 1 :=
  fun l r =>
    let v2 := IntOp.cmpi .slt l.1 r.1
    v2
def gather_S4x2048x512_S4x2048x1_S4x2048x512_2_1_0_0_1_2_11512 : GatherDims S4x2048x512 S4x2048x1 S4x2048x512 where
  offsetDims := [2]
  collapsedSliceDims := [1]
  operandBatchingDims := [0]
  startIndicesBatchingDims := [0]
  startIndexMap := [1]
  indexVectorDim := 2
  sliceSizes := ![1, 1, 512]
  wf := gather_S4x2048x512_S4x2048x1_S4x2048x512_2_1_0_0_1_2_11512_wf
def gather_S4x2048_S4x2048x1_S4x2048_n_1_0_0_1_2_11 : GatherDims S4x2048 S4x2048x1 S4x2048 where
  offsetDims := []
  collapsedSliceDims := [1]
  operandBatchingDims := [0]
  startIndicesBatchingDims := [0]
  startIndexMap := [1]
  indexVectorDim := 2
  sliceSizes := ![1, 1]
  wf := gather_S4x2048_S4x2048x1_S4x2048_n_1_0_0_1_2_11_wf

class Facts : Prop extends Facts₀ where

variable [Facts]
-- ==== Proof.Finite.lean ====
import proofs.«109756_g14800457302192_cont_week2b_463_21_alg».proof.Pre_finite_inputs
import Idealize.ShloMosaic.Lib.ReduceAll
import Idealize.ShloMosaic.Lib.ValueIdx
import Idealize.ShloMosaic.Lib.IdealHost
import Idealize.ShloMosaic.Lib.Affine

noncomputable section

/-! A precondition "every float input is finite" makes every input entry a real number. -/

namespace Cert.HNet

open Idealize.ShloMosaic Idealize.ShloMosaic.ValueIdx

instance : Subsingleton Cert.Pre_finite_inputs.S_.Idx := ⟨fun a b => funext fun d => d.elim0⟩

/-- An extended real whose absolute value is below `+∞` is a real. -/
theorem real_of_abs_lt_top (x : EReal) (h : Ideal.cmp .olt (max x (-x)) (Ideal.ofBits .f32 0x7F800000#32) = 1#1) :
    ∃ r : ℝ, x = (r : EReal) := by
  induction x using EReal.rec with
  | bot => simp [Ideal.cmp, Ideal.ofBits, Ideal.ieee] at h
  | coe r => exact ⟨r, rfl⟩
  | top => simp [Ideal.cmp, Ideal.ofBits, Ideal.ieee] at h

variable [Cert.Pre_finite_inputs.Facts]

/-- Each entry of an array that passes the test `|x| < +∞` everywhere is a real. -/
theorem real_of_all {S : Shape} (A : FVec Ideal S .f32) (hb : Cert.Pre_finite_inputs.S_.BroadcastsInDim S ![])
    (hr : ∀ i, cmpf .olt (Host.absf A) (broadcastInDim S ![] hb (constant (F := Ideal) Cert.Pre_finite_inputs.S_ .f32 0x7F800000#32)) i = 1#1)
    (i : S.Idx) : ∃ r : ℝ, A i = (r : EReal) := by
  have h := hr i
  rw [cmpf_apply, broadcastInDim_scalar_apply] at h
  exact real_of_abs_lt_top (A i) h

theorem finite_of_pre (A0 : FVec Ideal Cert.Pre_finite_inputs.S4x2048x512 .f32) (A1 A2 : FVec Ideal Cert.Pre_finite_inputs.S512x512 .f32)
    (h : Cert.Pre_finite_inputs.fn (F := Ideal) A0 A1 A2 = fun _ => 1#1) :
    (∀ i, ∃ r : ℝ, A0 i = (r : EReal)) ∧ (∀ i, ∃ r : ℝ, A1 i = (r : EReal)) ∧ (∀ i, ∃ r : ℝ, A2 i = (r : EReal)) := by
  have h' := congrFun h ix0
  dsimp only [Cert.Pre_finite_inputs.fn] at h'
  obtain ⟨h01, h2⟩ := IntOp.andi_eq_one.1 h'
  obtain ⟨h0, h1⟩ := IntOp.andi_eq_one.1 h01
  exact ⟨fun i => real_of_all A0 _ (fun i => Host.reduce_andi_all _ _ _ _ _ h0 i) i,
    fun i => real_of_all A1 _ (fun i => Host.reduce_andi_all _ _ _ _ _ h1 i) i,
    fun i => real_of_all A2 _ (fun i => Host.reduce_andi_all _ _ _ _ _ h2 i) i⟩

end Cert.HNet

end
-- ==== Proof.Spec.lean ====
import Idealize.ShloMosaic.PureOps.Ideal

noncomputable section

open scoped BigOperators

/-! The result both programs compute, over the reals, for ONE batch row block.

A sequence of `2048` rows `h l` of width `512` is routed by the cosine between the
projection `W_q h_l` and the projection `W_k h_{l+1}` of the next row: the boundary
probability of row `l+1` is `(1 - cos) / 2` clamped to `[0, 1]`, and row `0` is a
boundary with probability `1`.  A row whose probability exceeds one half is a boundary.
The state `s` is the exponential moving average over the boundary rows only,
`s_l = (1 - p_l) s_{l-1} + p_l h_l` at a boundary and `s_l = s_{l-1}` elsewhere, from
`s_{-1} = 0`; the result is `h_l + s_l`. -/

namespace Cert.HNet

open Idealize.ShloMosaic

/-- The clamp below which a norm is not allowed to fall: the value of the word both programs share. -/
def eps : ℝ := (Ideal.ofBits .f32 0x2B8CBCCC#32).toReal

/-- Row `l` of the sequence projected by the weight `W`, the weight's SECOND index contracted. -/
def proj (W h : ℕ → ℕ → ℝ) (l e : ℕ) : ℝ := ∑ d : Fin 512, h l d * W e d

/-- The Euclidean norm of a row of width `512`, clamped below by `eps`. -/
def nrm (x : ℕ → ℝ) : ℝ := max (Real.sqrt (∑ e : Fin 512, x e * x e)) eps

/-- The cosine between row `l`'s query projection and row `l + 1`'s key projection. -/
def cosAt (Wq Wk h : ℕ → ℕ → ℝ) (l : ℕ) : ℝ :=
  (∑ e : Fin 512, proj Wq h l e * proj Wk h (l + 1) e) / (nrm (proj Wq h l) * nrm (proj Wk h (l + 1)))

/-- The boundary probability of each row. -/
def prob (Wq Wk h : ℕ → ℕ → ℝ) : ℕ → ℝ
  | 0 => 1
  | l + 1 => min 1 (max 0 ((1 - cosAt Wq Wk h l) * (1 / 2)))

/-- What a row keeps of the previous state: `1 - p` at a boundary, all of it elsewhere. -/
def decay (p : ℕ → ℝ) (l : ℕ) : ℝ := if 1 / 2 < p l then 1 - p l else 1

/-- What a row takes of its own input: `p` at a boundary, nothing elsewhere. -/
def gain (p : ℕ → ℝ) (l : ℕ) : ℝ := if 1 / 2 < p l then p l else 0

/-- The first-order recurrence `x_0 = b_0`, `x_{i+1} = a_{i+1} x_i + b_{i+1}`. -/
def affRec (a b : ℕ → ℝ) : ℕ → ℝ
  | 0 => b 0
  | i + 1 => a (i + 1) * affRec a b i + b (i + 1)

/-- The running products `A_i = a_0 a_1 ⋯ a_i`. -/
def prodTo (a : ℕ → ℝ) : ℕ → ℝ
  | 0 => a 0
  | i + 1 => a (i + 1) * prodTo a i

/-- The moving-average state of column `d` after row `l`. -/
def state (Wq Wk h : ℕ → ℕ → ℝ) (l d : ℕ) : ℝ :=
  affRec (decay (prob Wq Wk h)) (fun i => gain (prob Wq Wk h) i * h i d) l

/-- The result at row `l`, column `d`. -/
def outR (Wq Wk h : ℕ → ℕ → ℝ) (l d : ℕ) : ℝ := h l d + state Wq Wk h l d

/-! ## The doubling scan

One step at stride `s` composes each position's affine map with the one `s` places before it;
positions below `s` are left alone.  After the strides `1, 2, 4, …, 2^(k-1)` every position below
`2^k` holds the composite of all the maps up to it: the running product and the recurrence. -/

/-- One step of the doubling scan at stride `s`. -/
def scanStep (s : ℕ) (ab : (ℕ → ℝ) × (ℕ → ℝ)) : (ℕ → ℝ) × (ℕ → ℝ) :=
  (fun i => if i < s then ab.1 i else ab.1 i * ab.1 (i - s),
   fun i => if i < s then ab.2 i else ab.1 i * ab.2 (i - s) + ab.2 i)

/-- The strides `1, 2, …, 2^(k-1)` in turn. -/
def scanIter : ℕ → (ℕ → ℝ) × (ℕ → ℝ) → (ℕ → ℝ) × (ℕ → ℝ)
  | 0, ab => ab
  | k + 1, ab => scanStep (2 ^ k) (scanIter k ab)

end Cert.HNet

end
-- ==== Proof.Scan.lean ====
import proofs.«109756_g14800457302192_cont_week2b_463_21_alg».proof.Proof.Spec

noncomputable section

/-! The doubling scan computes the running product and the first-order recurrence. -/

namespace Cert.HNet

/-- The product of the `n` coefficients `a s, a (s+1), …, a (s+n-1)`. -/
def segProd (a : ℕ → ℝ) (s : ℕ) : ℕ → ℝ
  | 0 => 1
  | n + 1 => a (s + n) * segProd a s n

/-- The offset of the composite of the `n` affine maps `x ↦ a j * x + b j`, `j = s, …, s+n-1`,
applied in that order: the composite is `x ↦ segProd a s n * x + segRec a b s n`. -/
def segRec (a b : ℕ → ℝ) (s : ℕ) : ℕ → ℝ
  | 0 => 0
  | n + 1 => a (s + n) * segRec a b s n + b (s + n)

theorem segProd_zero (a : ℕ → ℝ) (s : ℕ) : segProd a s 0 = 1 := rfl

theorem segProd_succ (a : ℕ → ℝ) (s n : ℕ) : segProd a s (n + 1) = a (s + n) * segProd a s n := rfl

theorem segRec_zero (a b : ℕ → ℝ) (s : ℕ) : segRec a b s 0 = 0 := rfl

theorem segRec_succ (a b : ℕ → ℝ) (s n : ℕ) :
    segRec a b s (n + 1) = a (s + n) * segRec a b s n + b (s + n) := rfl

/-- A segment of length `m + n` is the segment of length `m` followed by the adjacent one of length `n`. -/
theorem segProd_add (a : ℕ → ℝ) (s m : ℕ) :
    ∀ n, segProd a s (m + n) = segProd a (s + m) n * segProd a s m
  | 0 => by rw [Nat.add_zero, segProd_zero, one_mul]
  | n + 1 => by
    rw [← Nat.add_assoc, segProd_succ, segProd_succ, segProd_add a s m n, Nat.add_assoc s m n]
    ring

/-- The composite of two adjacent segments of affine maps: the later segment's map applied to the
earlier segment's offset. -/
theorem segRec_add (a b : ℕ → ℝ) (s m : ℕ) :
    ∀ n, segRec a b s (m + n) = segProd a (s + m) n * segRec a b s m + segRec a b (s + m) n
  | 0 => by rw [Nat.add_zero, segProd_zero, segRec_zero, one_mul, add_zero]
  | n + 1 => by
    rw [← Nat.add_assoc, segRec_succ, segRec_succ, segProd_succ, segRec_add a b s m n,
      Nat.add_assoc s m n]
    ring

/-- After `k` rounds position `i` holds the composite of the last `min (i + 1) (2 ^ k)` maps ending at `i`. -/
theorem scanIter_seg (a b : ℕ → ℝ) : ∀ k i s n, s + n = i + 1 → n = min (i + 1) (2 ^ k) →
    (scanIter k (a, b)).1 i = segProd a s n ∧ (scanIter k (a, b)).2 i = segRec a b s n
  | 0, i, s, n, hs, hn => by
    rw [pow_zero] at hn
    have hn1 : n = 1 := by omega
    subst hn1
    have hsi : s = i := by omega
    subst hsi
    refine ⟨?_, ?_⟩
    · show a s = a (s + 0) * 1
      rw [Nat.add_zero, mul_one]
    · show b s = a (s + 0) * 0 + b (s + 0)
      rw [Nat.add_zero, mul_zero, zero_add]
  | k + 1, i, s, n, hs, hn => by
    have ih := scanIter_seg a b k
    have h2 : 2 ^ (k + 1) = 2 * 2 ^ k := by rw [pow_succ, mul_comm]
    have hpos : 0 < 2 ^ k := Nat.two_pow_pos k
    rw [h2] at hn
    by_cases h : i < 2 ^ k
    · obtain ⟨p, q⟩ := ih i s n hs (by omega)
      refine ⟨?_, ?_⟩
      · show (if i < 2 ^ k then (scanIter k (a, b)).1 i
          else (scanIter k (a, b)).1 i * (scanIter k (a, b)).1 (i - 2 ^ k)) = _
        rw [if_pos h, p]
      · show (if i < 2 ^ k then (scanIter k (a, b)).2 i
          else (scanIter k (a, b)).1 i * (scanIter k (a, b)).2 (i - 2 ^ k) + (scanIter k (a, b)).2 i) = _
        rw [if_pos h, q]
    · obtain ⟨m, rfl⟩ : ∃ m, n = m + 2 ^ k := ⟨n - 2 ^ k, by omega⟩
      obtain ⟨p1, q1⟩ := ih i (s + m) (2 ^ k) (by omega) (by omega)
      obtain ⟨p0, q0⟩ := ih (i - 2 ^ k) s m (by omega) (by omega)
      refine ⟨?_, ?_⟩
      · show (if i < 2 ^ k then (scanIter k (a, b)).1 i
          else (scanIter k (a, b)).1 i * (scanIter k (a, b)).1 (i - 2 ^ k)) = _
        rw [if_neg h, p1, p0, segProd_add]
      · show (if i < 2 ^ k then (scanIter k (a, b)).2 i
          else (scanIter k (a, b)).1 i * (scanIter k (a, b)).2 (i - 2 ^ k) + (scanIter k (a, b)).2 i) = _
        rw [if_neg h, p1, q1, q0, segRec_add]

/-- The segment starting at `0` is the running product. -/
theorem segProd_from_zero (a : ℕ → ℝ) : ∀ i, segProd a 0 (i + 1) = prodTo a i
  | 0 => by
    show a (0 + 0) * 1 = a 0
    rw [Nat.add_zero, mul_one]
  | i + 1 => by
    rw [segProd_succ, segProd_from_zero a i, Nat.zero_add]
    rfl

/-- The segment starting at `0` is the recurrence. -/
theorem segRec_from_zero (a b : ℕ → ℝ) : ∀ i, segRec a b 0 (i + 1) = affRec a b i
  | 0 => by
    show a (0 + 0) * 0 + b (0 + 0) = b 0
    rw [Nat.add_zero, mul_zero, zero_add]
  | i + 1 => by
    rw [segRec_succ, segRec_from_zero a b i, Nat.zero_add]
    rfl

theorem scanIter_fst (a b : ℕ → ℝ) (k i : ℕ) (hi : i < 2 ^ k) : (scanIter k (a, b)).1 i = prodTo a i := by
  rw [(scanIter_seg a b k i 0 (i + 1) (by omega) (by omega)).1, segProd_from_zero]

theorem scanIter_snd (a b : ℕ → ℝ) (k i : ℕ) (hi : i < 2 ^ k) : (scanIter k (a, b)).2 i = affRec a b i := by
  rw [(scanIter_seg a b k i 0 (i + 1) (by omega) (by omega)).2, segRec_from_zero]

end Cert.HNet

end
-- ==== Proof.Words.lean ====
import proofs.«109756_g14800457302192_cont_week2b_463_21_alg».proof.Proof.Spec

noncomputable section

/-! The float words both programs use, as reals. -/

namespace Cert.HNet

open Idealize.ShloMosaic

/-- The word `0x2B8CBCCC`: sign `0`, exponent field `87`, trailing significand `834764`, so the normal
number `(2 ^ 23 + 834764) * 2 ^ (87 - 127 - 23) = 9223372 * 2 ^ (-63)`. -/
theorem ofBits_eps_val :
    Ideal.ofBits .f32 0x2B8CBCCC#32 = (((9223372 : ℝ) * (2 : ℝ) ^ (-63 : ℤ) : ℝ) : EReal) := by
  simp [Ideal.ofBits, Ideal.ieee]

theorem ofBits_eps : Ideal.ofBits .f32 0x2B8CBCCC#32 = ((eps : ℝ) : EReal) := by
  unfold eps
  rw [ofBits_eps_val, EReal.toReal_coe]

theorem eps_pos : 0 < eps := by
  unfold eps
  rw [ofBits_eps_val, EReal.toReal_coe]
  positivity

/-- `0x3F800000`: exponent field `127`, significand `0`: `2 ^ 23 * 2 ^ (127 - 127 - 23) = 1`. -/
theorem ofBits_one : Ideal.ofBits .f32 0x3F800000#32 = ((1 : ℝ) : EReal) := by
  simp [Ideal.ofBits, Ideal.ieee]
  rw [← EReal.coe_mul]
  norm_num

/-- `0x3F000000`: exponent field `126`, significand `0`: `2 ^ 23 * 2 ^ (126 - 127 - 23) = 1 / 2`. -/
theorem ofBits_half : Ideal.ofBits .f32 0x3F000000#32 = ((1 / 2 : ℝ) : EReal) := by
  simp [Ideal.ofBits, Ideal.ieee]
  rw [← EReal.coe_mul]
  norm_num

/-- `0x40000000`: exponent field `128`, significand `0`: `2 ^ 23 * 2 ^ (128 - 127 - 23) = 2`. -/
theorem ofBits_two : Ideal.ofBits .f32 0x40000000#32 = ((2 : ℝ) : EReal) := by
  simp [Ideal.ofBits, Ideal.ieee]
  rw [← EReal.coe_mul]
  norm_num

/-- The all-zero word: exponent field `0`, significand `0`: the zero. -/
theorem ofBits_zero : Ideal.ofBits .f32 0x00000000#32 = ((0 : ℝ) : EReal) := by
  simp [Ideal.ofBits, Ideal.ieee]

end Cert.HNet

end
-- ==== Proof.KStep.lean ====
import proofs.«109756_g14800457302192_cont_week2b_463_21_alg».proof.Proof.Gen.KernelIdeal.Skeleton
import proofs.«109756_g14800457302192_cont_week2b_463_21_alg».proof.Proof.Spec
import proofs.«109756_g14800457302192_cont_week2b_463_21_alg».proof.Proof.Words
import Idealize.ShloMosaic.Lib.ValueIdx
import Idealize.ShloMosaic.Lib.Pipeline.Value
import Idealize.ShloMosaic.PureOps.Ideal.Laws

noncomputable section

open scoped BigOperators

/-! Layout and scan-step lemmas shared by the kernel-side modules: a finite sum of coercions, a block shifted
along an axis behind a constant block, one doubling-scan step on vectors whose entries are real numbers,
and a row of four lane blocks. -/

namespace Cert.HNet

open Idealize.ShloMosaic Idealize.ShloMosaic.ValueIdx Cert.KernelIdeal Cert.KernelIdeal.Gen

/-- A finite sum of real numbers, each read as an extended real, is the sum read as one. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## A block shifted down axis 1 of `(16, 128, 128)` behind `s` constant rows -/

/-- Above the shift the constant. -/
theorem shift3_lt {α : Type} (s r : ℕ) (c : α) (X : S16x128x128.Idx → α)
    (hsl : S16x128x128.Slices ![0, 0, 0] ⟨3, ![16, r, 128]⟩)
    (hc : Shape.Concatenates [⟨3, ![16, s, 128]⟩, ⟨3, ![16, r, 128]⟩] S16x128x128 1)
    (g : Fin 16) (t j : Fin 128) (ht : t.val < s) :
    concatenate S16x128x128 1 [⟨⟨3, ![16, s, 128]⟩, broadcast ⟨3, ![16, s, 128]⟩ c⟩,
      ⟨⟨3, ![16, r, 128]⟩, extractStridedSlice ⟨3, ![16, r, 128]⟩ ![0, 0, 0] X hsl⟩] hc (ix3 g t j) = c := by
  refine (concatenate_pair_apply_left _ _ _ hc (ix3 g t j) rfl (ix3 g ⟨t.val, ht⟩ j) ?_).trans rfl
  intro b
  match b with
  | ⟨0, _⟩ => rfl
  | ⟨1, _⟩ => rfl
  | ⟨2, _⟩ => rfl

/-- From the shift on, the operand `s` rows up. -/
theorem shift3_ge {α : Type} (s r : ℕ) (c : α) (X : S16x128x128.Idx → α)
    (hsl : S16x128x128.Slices ![0, 0, 0] ⟨3, ![16, r, 128]⟩)
    (hc : Shape.Concatenates [⟨3, ![16, s, 128]⟩, ⟨3, ![16, r, 128]⟩] S16x128x128 1)
    (g : Fin 16) (t j t' : Fin 128) (ht : t'.val + s = t.val) :
    concatenate S16x128x128 1 [⟨⟨3, ![16, s, 128]⟩, broadcast ⟨3, ![16, s, 128]⟩ c⟩,
      ⟨⟨3, ![16, r, 128]⟩, extractStridedSlice ⟨3, ![16, r, 128]⟩ ![0, 0, 0] X hsl⟩] hc (ix3 g t j) = X (ix3 g t' j) := by
  -- the two extents along the axis add up to the whole
  have e : s + (r + 0) = 128 := hc.2.2
  have hlt : t'.val < r := by have := t.isLt; omega
  refine (concatenate_pair_apply_right _ _ _ hc (ix3 g t j) rfl rfl (ix3 g ⟨t'.val, hlt⟩ j) ?_ ht).trans ?_
  · intro b
    match b with
    | ⟨0, _⟩ => exact fun _ => rfl
    | ⟨1, _⟩ => exact fun h => absurd rfl h
    | ⟨2, _⟩ => exact fun _ => rfl
  · refine extractStridedSlice_apply _ X hsl _ (ix3 g t' j) ?_
    intro a
    match a with
    | ⟨0, _⟩ => show g.val = 0 + g.val; omega
    | ⟨1, _⟩ => show t'.val = 0 + t'.val; omega
    | ⟨2, _⟩ => show j.val = 0 + j.val; omega

/-! ## A block shifted down axis 0 of `(16, N)` behind `s` constant rows -/

theorem shift2_lt {α : Type} (N s r : ℕ) (c : α) (X : (⟨2, ![16, N]⟩ : Shape).Idx → α)
    (hsl : Shape.Slices (⟨2, ![16, N]⟩ : Shape) ![0, 0] ⟨2, ![r, N]⟩)
    (hc : Shape.Concatenates [⟨2, ![s, N]⟩, ⟨2, ![r, N]⟩] (⟨2, ![16, N]⟩ : Shape) 0)
    (g : Fin 16) (d : Fin N) (hg : g.val < s) :
    concatenate (⟨2, ![16, N]⟩ : Shape) 0 [⟨⟨2, ![s, N]⟩, broadcast ⟨2, ![s, N]⟩ c⟩,
      ⟨⟨2, ![r, N]⟩, extractStridedSlice ⟨2, ![r, N]⟩ ![0, 0] X hsl⟩] hc (ix2 g d) = c := by
  refine (concatenate_pair_apply_left _ _ _ hc (ix2 g d) rfl (ix2 ⟨g.val, hg⟩ d) ?_).trans rfl
  intro b
  match b with
  | ⟨0, _⟩ => rfl
  | ⟨1, _⟩ => rfl

theorem shift2_ge {α : Type} (N s r : ℕ) (c : α) (X : (⟨2, ![16, N]⟩ : Shape).Idx → α)
    (hsl : Shape.Slices (⟨2, ![16, N]⟩ : Shape) ![0, 0] ⟨2, ![r, N]⟩)
    (hc : Shape.Concatenates [⟨2, ![s, N]⟩, ⟨2, ![r, N]⟩] (⟨2, ![16, N]⟩ : Shape) 0)
    (g g' : Fin 16) (d : Fin N) (hg : g'.val + s = g.val) :
    concatenate (⟨2, ![16, N]⟩ : Shape) 0 [⟨⟨2, ![s, N]⟩, broadcast ⟨2, ![s, N]⟩ c⟩,
      ⟨⟨2, ![r, N]⟩, extractStridedSlice ⟨2, ![r, N]⟩ ![0, 0] X hsl⟩] hc (ix2 g d) = X (ix2 g' d) := by
  -- the two extents along the axis add up to the whole
  have e : s + (r + 0) = 16 := hc.2.2
  have hlt : g'.val < r := by have := g.isLt; omega
  refine (concatenate_pair_apply_right _ _ _ hc (ix2 g d) rfl rfl (ix2 ⟨g'.val, hlt⟩ d) ?_ hg).trans ?_
  · intro b
    match b with
    | ⟨0, _⟩ => exact fun h => absurd rfl h
    | ⟨1, _⟩ => exact fun _ => rfl
  · refine extractStridedSlice_apply _ X hsl _ (ix2 g' d) ?_
    intro a
    match a with
    | ⟨0, _⟩ => show g'.val = 0 + g'.val; omega
    | ⟨1, _⟩ => show d.val = 0 + d.val; omega

/-! ## Four lane blocks of width 128 side by side -/

/-- The row of four blocks read at column `128 k + j` is block `k` at column `j`. -/
theorem lanes4_apply {α : Type} (n : ℕ) (Z0 Z1 Z2 Z3 : (⟨2, ![n, 128]⟩ : Shape).Idx → α)
    (hc : Shape.Concatenates [⟨2, ![n, 128]⟩, ⟨2, ![n, 128]⟩, ⟨2, ![n, 128]⟩, ⟨2, ![n, 128]⟩] (⟨2, ![n, 512]⟩ : Shape) 1)
    (l : Fin n) (d : Fin 512) (j : Fin 128) (k : ℕ) (hd : d.val = 128 * k + j.val) :
    concatenate (⟨2, ![n, 512]⟩ : Shape) 1 [⟨⟨2, ![n, 128]⟩, Z0⟩, ⟨⟨2, ![n, 128]⟩, Z1⟩, ⟨⟨2, ![n, 128]⟩, Z2⟩, ⟨⟨2, ![n, 128]⟩, Z3⟩] hc (ix2 l d)
      = (if k = 0 then Z0 else if k = 1 then Z1 else if k = 2 then Z2 else Z3) (ix2 l j) := by
  have hk4 : k < 4 := by have := d.isLt; have := j.isLt; omega
  -- off the axis the coordinates agree
  have hi : ∀ b : Fin 2, b.cast (rfl : (⟨2, ![n, 128]⟩ : Shape).rank = (⟨2, ![n, 512]⟩ : Shape).rank) ≠ (1 : Fin 2) →
      ((ix2 l j : (⟨2, ![n, 128]⟩ : Shape).Idx) b).val = ((ix2 l d : (⟨2, ![n, 512]⟩ : Shape).Idx) (b.cast rfl)).val := by
    intro b
    match b with
    | ⟨0, _⟩ => exact fun _ => rfl
    | ⟨1, _⟩ => exact fun h => absurd rfl h
  interval_cases k
  · exact concatenate_apply_piece (t := ⟨2, ![n, 512]⟩) 1 [⟨⟨2, ![n, 128]⟩, Z0⟩, ⟨⟨2, ![n, 128]⟩, Z1⟩, ⟨⟨2, ![n, 128]⟩, Z2⟩, ⟨⟨2, ![n, 128]⟩, Z3⟩] hc (ix2 l d) 0 (by simp) _ Z0 rfl rfl 0 rfl (ix2 l j) hi
      (by show 0 + j.val = d.val; omega)
  · exact concatenate_apply_piece (t := ⟨2, ![n, 512]⟩) 1 [⟨⟨2, ![n, 128]⟩, Z0⟩, ⟨⟨2, ![n, 128]⟩, Z1⟩, ⟨⟨2, ![n, 128]⟩, Z2⟩, ⟨⟨2, ![n, 128]⟩, Z3⟩] hc (ix2 l d) 1 (by simp) _ Z1 rfl rfl 128 rfl (ix2 l j) hi
      (by show 128 + j.val = d.val; omega)
  · exact concatenate_apply_piece (t := ⟨2, ![n, 512]⟩) 1 [⟨⟨2, ![n, 128]⟩, Z0⟩, ⟨⟨2, ![n, 128]⟩, Z1⟩, ⟨⟨2, ![n, 128]⟩, Z2⟩, ⟨⟨2, ![n, 128]⟩, Z3⟩] hc (ix2 l d) 2 (by simp) _ Z2 rfl rfl 256 rfl (ix2 l j) hi
      (by show 256 + j.val = d.val; omega)
  · exact concatenate_apply_piece (t := ⟨2, ![n, 512]⟩) 1 [⟨⟨2, ![n, 128]⟩, Z0⟩, ⟨⟨2, ![n, 128]⟩, Z1⟩, ⟨⟨2, ![n, 128]⟩, Z2⟩, ⟨⟨2, ![n, 128]⟩, Z3⟩] hc (ix2 l d) 3 (by simp) _ Z3 rfl rfl 384 rfl (ix2 l j) hi
      (by show 384 + j.val = d.val; omega)

/-- A lane block of a wide array read at a column is the array at the column moved along by the block's offset. -/
private theorem laneSlice_apply {α : Type} (n o : ℕ) (Y : (⟨2, ![n, 512]⟩ : Shape).Idx → α)
    (h : Shape.Slices (⟨2, ![n, 512]⟩ : Shape) ![0, o] ⟨2, ![n, 128]⟩)
    (l : Fin n) (j : Fin 128) (d : Fin 512) (hd : d.val = o + j.val) :
    extractStridedSlice ⟨2, ![n, 128]⟩ ![0, o] Y h (ix2 l j) = Y (ix2 l d) := by
  refine extractStridedSlice_apply _ Y h _ (ix2 l d) ?_
  intro a
  match a with
  | ⟨0, _⟩ => show l.val = 0 + l.val; omega
  | ⟨1, _⟩ => exact hd

/-- A lane-replicated column times each of the four lane blocks of a wide array, side by side: the column times the array. -/
theorem lanesMul_apply (n : ℕ) (A : FVec Ideal ⟨2, ![n, 128]⟩ .f32) (Y : FVec Ideal ⟨2, ![n, 512]⟩ .f32) (a : ℕ → ℝ) (y : ℕ → ℕ → ℝ)
    (hA : ∀ (l : Fin n) (j : Fin 128), A (ix2 l j) = ((a l.val : ℝ) : EReal))
    (hY : ∀ (l : Fin n) (d : Fin 512), Y (ix2 l d) = ((y l.val d.val : ℝ) : EReal))
    (h0 : Shape.Slices (⟨2, ![n, 512]⟩ : Shape) ![0, 0] ⟨2, ![n, 128]⟩) (h1 : Shape.Slices (⟨2, ![n, 512]⟩ : Shape) ![0, 128] ⟨2, ![n, 128]⟩)
    (h2 : Shape.Slices (⟨2, ![n, 512]⟩ : Shape) ![0, 256] ⟨2, ![n, 128]⟩) (h3 : Shape.Slices (⟨2, ![n, 512]⟩ : Shape) ![0, 384] ⟨2, ![n, 128]⟩)
    (hc : Shape.Concatenates [⟨2, ![n, 128]⟩, ⟨2, ![n, 128]⟩, ⟨2, ![n, 128]⟩, ⟨2, ![n, 128]⟩] (⟨2, ![n, 512]⟩ : Shape) 1)
    (l : Fin n) (d : Fin 512) :
    concatenate (⟨2, ![n, 512]⟩ : Shape) 1
      [⟨⟨2, ![n, 128]⟩, mulf A (extractStridedSlice ⟨2, ![n, 128]⟩ ![0, 0] Y h0)⟩,
       ⟨⟨2, ![n, 128]⟩, mulf A (extractStridedSlice ⟨2, ![n, 128]⟩ ![0, 128] Y h1)⟩,
       ⟨⟨2, ![n, 128]⟩, mulf A (extractStridedSlice ⟨2, ![n, 128]⟩ ![0, 256] Y h2)⟩,
       ⟨⟨2, ![n, 128]⟩, mulf A (extractStridedSlice ⟨2, ![n, 128]⟩ ![0, 384] Y h3)⟩] hc (ix2 l d)
      = ((a l.val * y l.val d.val : ℝ) : EReal) := by
  have hj : d.val % 128 < 128 := Nat.mod_lt _ (by norm_num)
  have hd : d.val = 128 * (d.val / 128) + (⟨d.val % 128, hj⟩ : Fin 128).val := (Nat.div_add_mod d.val 128).symm
  have hk4 : d.val / 128 < 4 := by have := d.isLt; omega
  rw [lanes4_apply n _ _ _ _ hc l d ⟨d.val % 128, hj⟩ (d.val / 128) hd]
  generalize d.val / 128 = k at hd hk4
  interval_cases k
  · show mulf A (extractStridedSlice ⟨2, ![n, 128]⟩ ![0, 0] Y h0) (ix2 l ⟨d.val % 128, hj⟩) = _
    rw [mulf_apply, hA, laneSlice_apply n 0 Y h0 l _ d (by show d.val = 0 + d.val % 128; omega), hY, ← EReal.coe_mul]
  · show mulf A (extractStridedSlice ⟨2, ![n, 128]⟩ ![0, 128] Y h1) (ix2 l ⟨d.val % 128, hj⟩) = _
    rw [mulf_apply, hA, laneSlice_apply n 128 Y h1 l _ d (by show d.val = 128 + d.val % 128; omega), hY, ← EReal.coe_mul]
  · show mulf A (extractStridedSlice ⟨2, ![n, 128]⟩ ![0, 256] Y h2) (ix2 l ⟨d.val % 128, hj⟩) = _
    rw [mulf_apply, hA, laneSlice_apply n 256 Y h2 l _ d (by show d.val = 256 + d.val % 128; omega), hY, ← EReal.coe_mul]
  · show mulf A (extractStridedSlice ⟨2, ![n, 128]⟩ ![0, 384] Y h3) (ix2 l ⟨d.val % 128, hj⟩) = _
    rw [mulf_apply, hA, laneSlice_apply n 384 Y h3 l _ d (by show d.val = 384 + d.val % 128; omega), hY, ← EReal.coe_mul]

/-! ## One doubling-scan step on `(16, 128, 128)` vectors of real numbers (scan along axis 1) -/

/-- The running-product component. -/
theorem step3_fst (s r : ℕ) (A : FVec Ideal S16x128x128 .f32) (ab : ℕ → ℕ → (ℕ → ℝ) × (ℕ → ℝ))
    (hA : ∀ (g : Fin 16) (t j : Fin 128), A (ix3 g t j) = (((ab g.val j.val).1 t.val : ℝ) : EReal))
    (hsl : S16x128x128.Slices ![0, 0, 0] ⟨3, ![16, r, 128]⟩)
    (hc : Shape.Concatenates [⟨3, ![16, s, 128]⟩, ⟨3, ![16, r, 128]⟩] S16x128x128 1)
    (g : Fin 16) (t j : Fin 128) :
    mulf A (concatenate S16x128x128 1 [⟨⟨3, ![16, s, 128]⟩, broadcast ⟨3, ![16, s, 128]⟩ (Scalar.ofBits .f32 0x3F800000#32 : Ideal .f32)⟩,
      ⟨⟨3, ![16, r, 128]⟩, extractStridedSlice ⟨3, ![16, r, 128]⟩ ![0, 0, 0] A hsl⟩] hc) (ix3 g t j)
      = (((scanStep s (ab g.val j.val)).1 t.val : ℝ) : EReal) := by
  rw [mulf_apply, hA]
  show _ = (((if t.val < s then (ab g.val j.val).1 t.val
    else (ab g.val j.val).1 t.val * (ab g.val j.val).1 (t.val - s) : ℝ)) : EReal)
  by_cases ht : t.val < s
  · -- above the stride the shifted operand is the constant one
    rw [if_pos ht, shift3_lt s r _ A hsl hc g t j ht]
    show _ * Ideal.ofBits .f32 0x3F800000#32 = _
    rw [ofBits_one, ← EReal.coe_mul, mul_one]
  · -- from the stride on it is the operand `s` places before
    have hts : t.val - s < 128 := by have := t.isLt; omega
    rw [if_neg ht, shift3_ge s r _ A hsl hc g t j ⟨t.val - s, hts⟩ (by show t.val - s + s = t.val; omega), hA,
      ← EReal.coe_mul]

/-- The recurrence component. -/
theorem step3_snd (s r : ℕ) (A L : FVec Ideal S16x128x128 .f32) (ab : ℕ → ℕ → (ℕ → ℝ) × (ℕ → ℝ))
    (hA : ∀ (g : Fin 16) (t j : Fin 128), A (ix3 g t j) = (((ab g.val j.val).1 t.val : ℝ) : EReal))
    (hL : ∀ (g : Fin 16) (t j : Fin 128), L (ix3 g t j) = (((ab g.val j.val).2 t.val : ℝ) : EReal))
    (hsl : S16x128x128.Slices ![0, 0, 0] ⟨3, ![16, r, 128]⟩)
    (hc : Shape.Concatenates [⟨3, ![16, s, 128]⟩, ⟨3, ![16, r, 128]⟩] S16x128x128 1)
    (g : Fin 16) (t j : Fin 128) :
    addf L (mulf A (concatenate S16x128x128 1 [⟨⟨3, ![16, s, 128]⟩, broadcast ⟨3, ![16, s, 128]⟩ (Scalar.ofBits .f32 0x00000000#32 : Ideal .f32)⟩,
      ⟨⟨3, ![16, r, 128]⟩, extractStridedSlice ⟨3, ![16, r, 128]⟩ ![0, 0, 0] L hsl⟩] hc)) (ix3 g t j)
      = (((scanStep s (ab g.val j.val)).2 t.val : ℝ) : EReal) := by
  rw [addf_apply, mulf_apply, hA, hL]
  show _ = (((if t.val < s then (ab g.val j.val).2 t.val
    else (ab g.val j.val).1 t.val * (ab g.val j.val).2 (t.val - s) + (ab g.val j.val).2 t.val : ℝ)) : EReal)
  by_cases ht : t.val < s
  · -- above the stride the shifted operand is the constant zero
    rw [if_pos ht, shift3_lt s r _ L hsl hc g t j ht]
    show _ + _ * Ideal.ofBits .f32 0x00000000#32 = _
    rw [ofBits_zero, ← EReal.coe_mul, ← EReal.coe_add, mul_zero, add_zero]
  · -- from the stride on it is the operand `s` places before
    have hts : t.val - s < 128 := by have := t.isLt; omega
    rw [if_neg ht, shift3_ge s r _ L hsl hc g t j ⟨t.val - s, hts⟩ (by show t.val - s + s = t.val; omega), hL,
      ← EReal.coe_mul, ← EReal.coe_add, add_comm]

/-! ## One doubling-scan step over the 16 chunks: a lane-replicated `(16, 128)` product column and a `(16, 512)` state -/

/-- The running-product component. -/
theorem step2_fst (s r : ℕ) (A : FVec Ideal S16x128 .f32) (a : ℕ → ℝ) (z : ℕ → ℝ)
    (hA : ∀ (g : Fin 16) (j : Fin 128), A (ix2 g j) = ((a g.val : ℝ) : EReal))
    (hsl : S16x128.Slices ![0, 0] ⟨2, ![r, 128]⟩)
    (hc : Shape.Concatenates [⟨2, ![s, 128]⟩, ⟨2, ![r, 128]⟩] S16x128 0)
    (g : Fin 16) (j : Fin 128) :
    mulf A (concatenate S16x128 0 [⟨⟨2, ![s, 128]⟩, broadcast ⟨2, ![s, 128]⟩ (Scalar.ofBits .f32 0x3F800000#32 : Ideal .f32)⟩,
      ⟨⟨2, ![r, 128]⟩, extractStridedSlice ⟨2, ![r, 128]⟩ ![0, 0] A hsl⟩] hc) (ix2 g j)
      = (((scanStep s (a, z)).1 g.val : ℝ) : EReal) := by
  rw [mulf_apply, hA]
  show _ = (((if g.val < s then a g.val else a g.val * a (g.val - s) : ℝ)) : EReal)
  by_cases hg : g.val < s
  · rw [if_pos hg, shift2_lt 128 s r _ A hsl hc g j hg]
    show _ * Ideal.ofBits .f32 0x3F800000#32 = _
    rw [ofBits_one, ← EReal.coe_mul, mul_one]
  · have hgs : g.val - s < 16 := by have := g.isLt; omega
    rw [if_neg hg, shift2_ge 128 s r _ A hsl hc g ⟨g.val - s, hgs⟩ j (by show g.val - s + s = g.val; omega), hA,
      ← EReal.coe_mul]

/-- The state component, column by column. -/
theorem step2_snd (s r : ℕ) (A : FVec Ideal S16x128 .f32) (S : FVec Ideal S16x512 .f32) (a : ℕ → ℝ) (σ : ℕ → ℕ → ℝ)
    (hA : ∀ (g : Fin 16) (j : Fin 128), A (ix2 g j) = ((a g.val : ℝ) : EReal))
    (hS : ∀ (g : Fin 16) (d : Fin 512), S (ix2 g d) = ((σ g.val d.val : ℝ) : EReal))
    (hsl : S16x512.Slices ![0, 0] ⟨2, ![r, 512]⟩)
    (hc : Shape.Concatenates [⟨2, ![s, 512]⟩, ⟨2, ![r, 512]⟩] S16x512 0)
    (h0 : S16x512.Slices ![0, 0] S16x128) (h1 : S16x512.Slices ![0, 128] S16x128)
    (h2 : S16x512.Slices ![0, 256] S16x128) (h3 : S16x512.Slices ![0, 384] S16x128)
    (hcl : Shape.Concatenates [S16x128, S16x128, S16x128, S16x128] S16x512 1)
    (g : Fin 16) (d : Fin 512) :
    addf S (concatenate S16x512 1
      [⟨S16x128, mulf A (extractStridedSlice S16x128 ![0, 0] (concatenate S16x512 0 [⟨⟨2, ![s, 512]⟩, broadcast ⟨2, ![s, 512]⟩ (Scalar.ofBits .f32 0x00000000#32 : Ideal .f32)⟩, ⟨⟨2, ![r, 512]⟩, extractStridedSlice ⟨2, ![r, 512]⟩ ![0, 0] S hsl⟩] hc) h0)⟩,
       ⟨S16x128, mulf A (extractStridedSlice S16x128 ![0, 128] (concatenate S16x512 0 [⟨⟨2, ![s, 512]⟩, broadcast ⟨2, ![s, 512]⟩ (Scalar.ofBits .f32 0x00000000#32 : Ideal .f32)⟩, ⟨⟨2, ![r, 512]⟩, extractStridedSlice ⟨2, ![r, 512]⟩ ![0, 0] S hsl⟩] hc) h1)⟩,
       ⟨S16x128, mulf A (extractStridedSlice S16x128 ![0, 256] (concatenate S16x512 0 [⟨⟨2, ![s, 512]⟩, broadcast ⟨2, ![s, 512]⟩ (Scalar.ofBits .f32 0x00000000#32 : Ideal .f32)⟩, ⟨⟨2, ![r, 512]⟩, extractStridedSlice ⟨2, ![r, 512]⟩ ![0, 0] S hsl⟩] hc) h2)⟩,
       ⟨S16x128, mulf A (extractStridedSlice S16x128 ![0, 384] (concatenate S16x512 0 [⟨⟨2, ![s, 512]⟩, broadcast ⟨2, ![s, 512]⟩ (Scalar.ofBits .f32 0x00000000#32 : Ideal .f32)⟩, ⟨⟨2, ![r, 512]⟩, extractStridedSlice ⟨2, ![r, 512]⟩ ![0, 0] S hsl⟩] hc) h3)⟩] hcl) (ix2 g d)
      = (((scanStep s (a, fun g' => σ g' d.val)).2 g.val : ℝ) : EReal) := by
  -- the state shifted `s` chunks down behind zero rows, as a real function
  have hY : ∀ (g : Fin 16) (d : Fin 512),
      concatenate S16x512 0 [⟨⟨2, ![s, 512]⟩, broadcast ⟨2, ![s, 512]⟩ (Scalar.ofBits .f32 0x00000000#32 : Ideal .f32)⟩,
        ⟨⟨2, ![r, 512]⟩, extractStridedSlice ⟨2, ![r, 512]⟩ ![0, 0] S hsl⟩] hc (ix2 g d)
        = (((fun (g' d' : ℕ) => if g' < s then 0 else σ (g' - s) d') g.val d.val : ℝ) : EReal) := by
    intro g d
    show _ = (((if g.val < s then 0 else σ (g.val - s) d.val : ℝ)) : EReal)
    by_cases hg : g.val < s
    · rw [if_pos hg, shift2_lt 512 s r _ S hsl hc g d hg]
      exact ofBits_zero
    · have hgs : g.val - s < 16 := by have := g.isLt; omega
      rw [if_neg hg, shift2_ge 512 s r _ S hsl hc g ⟨g.val - s, hgs⟩ d (by show g.val - s + s = g.val; omega), hS]
  rw [addf_apply, hS,
    lanesMul_apply 16 A _ a (fun (g' d' : ℕ) => if g' < s then 0 else σ (g' - s) d') hA hY h0 h1 h2 h3 hcl g d]
  show _ = (((if g.val < s then σ g.val d.val else a g.val * σ (g.val - s) d.val + σ g.val d.val : ℝ)) : EReal)
  rw [← EReal.coe_add]
  show (((σ g.val d.val + a g.val * (if g.val < s then 0 else σ (g.val - s) d.val) : ℝ)) : EReal) = _
  by_cases hg : g.val < s
  · rw [if_pos hg, if_pos hg, mul_zero, add_zero]
  · rw [if_neg hg, if_neg hg, add_comm]

end Cert.HNet

end
-- ==== Proof.KCols.lean ====
import proofs.«109756_g14800457302192_cont_week2b_463_21_alg».proof.Proof.Gen.KernelIdeal.Skeleton
import proofs.«109756_g14800457302192_cont_week2b_463_21_alg».proof.Proof.Spec
import proofs.«109756_g14800457302192_cont_week2b_463_21_alg».proof.Proof.Words
import proofs.«109756_g14800457302192_cont_week2b_463_21_alg».proof.Proof.KStep
import Idealize.ShloMosaic.Lib.ValueIdx
import Idealize.ShloMosaic.Lib.Pipeline.Value
import Idealize.ShloMosaic.PureOps.Ideal.Laws

noncomputable section

open scoped BigOperators

/-! The input block as a matrix, the boundary mask, the decay and gain columns, and the driving term `c * h`. -/

namespace Cert.HNet

open Idealize.ShloMosaic Idealize.ShloMosaic.ValueIdx Cert.KernelIdeal Cert.KernelIdeal.Gen

/-- The input block with its unit batch axis dropped. -/
theorem pay2_apply (P0 : Vec Ideal S1x2048x512 .f32) (l : Fin 2048) (d : Fin 512) :
    k0_pay2 P0 (ix2 l d) = P0 (ix3 (0 : Fin 1) l d) := by
  unfold k0_pay2
  refine shapeCast_apply P0 _ (ix2 l d) (ix3 (0 : Fin 1) l d) ?_
  rw [Shape.rowMajor_val_three, Shape.rowMajor_val_two]
  show (0 * 2048 + l.val) * 512 + d.val = l.val * 512 + d.val
  omega

/-- The boundary mask at row `l`: set exactly when the probability exceeds one half. -/
private theorem mask_apply (V36 : FVec Ideal S2048x1 .f32) (p : ℕ → ℝ)
    (hV : ∀ l : Fin 2048, V36 (ix2 l (0 : Fin 1)) = ((p l.val : ℝ) : EReal)) (l : Fin 2048) :
    k0_pay5 V36 (k0_pay4 (F := Ideal)) (ix2 l (0 : Fin 1)) = if 1 / 2 < p l.val then 1#1 else 0#1 := by
  unfold k0_pay5 k0_pay4
  show FloatOps.cmpf .ogt (V36 (ix2 l (0 : Fin 1))) (Ideal.ofBits .f32 0x3F000000#32) = _
  rw [hV, ofBits_half, Ideal.cmpf_def]
  show BitVec.ofBool (decide (((1 / 2 : ℝ) : EReal) < ((p l.val : ℝ) : EReal))) = _
  by_cases h : 1 / 2 < p l.val
  · rw [if_pos h, decide_eq_true (EReal.coe_lt_coe_iff.2 h)]; rfl
  · rw [if_neg h, decide_eq_false (fun h' => h (EReal.coe_lt_coe_iff.1 h'))]; rfl

/-- A column recast to its own shape and replicated over 128 lanes reads, in every lane, the column's entry. -/
private theorem col_apply (X : FVec Ideal S2048x1 .f32) (l : Fin 2048) (j : Fin 128) :
    broadcastTo S2048x128 (shapeCast S2048x1 X shapeCasts_S2048x1_S2048x1) broadcasts_S2048x1_S2048x128 (ix2 l j)
      = X (ix2 l (0 : Fin 1)) := by
  refine (broadcastTo_apply _ _ (ix2 l j) (ix2 l (0 : Fin 1)) ?_).trans ?_
  · exact fun a => match a with
      | ⟨0, _⟩ => rfl
      | ⟨1, _⟩ => rfl
  · exact shapeCast_apply X _ (ix2 l (0 : Fin 1)) (ix2 l (0 : Fin 1)) rfl

/-- The gain column, lane-replicated: `p` at a boundary, `0` elsewhere. -/
theorem pay6_apply (V36 : FVec Ideal S2048x1 .f32) (p : ℕ → ℝ)
    (hV : ∀ l : Fin 2048, V36 (ix2 l (0 : Fin 1)) = ((p l.val : ℝ) : EReal))
    (l : Fin 2048) (j : Fin 128) :
    k0_pay6 V36 (k0_pay4 (F := Ideal)) (ix2 l j) = ((gain p l.val : ℝ) : EReal) := by
  unfold k0_pay6
  refine (col_apply _ l j).trans ?_
  rw [select_apply, mask_apply V36 p hV l, broadcast_apply, hV]
  unfold gain
  by_cases h : 1 / 2 < p l.val
  · rw [if_pos h, if_pos h, select_one]
  · rw [if_neg h, if_neg h, select_zero]
    exact ofBits_zero

/-- The decay column, lane-replicated and cut into chunks: `1 - p` at a boundary, `1` elsewhere. -/
theorem pay7_apply (V36 : FVec Ideal S2048x1 .f32) (p : ℕ → ℝ)
    (hV : ∀ l : Fin 2048, V36 (ix2 l (0 : Fin 1)) = ((p l.val : ℝ) : EReal))
    (g : Fin 16) (t j : Fin 128) :
    k0_pay7 V36 (k0_pay4 (F := Ideal)) (ix3 g t j) = ((decay p (g.val * 128 + t.val) : ℝ) : EReal) := by
  have hl : g.val * 128 + t.val < 2048 := by have := g.isLt; have := t.isLt; omega
  unfold k0_pay7
  refine (shapeCast_apply _ _ (ix3 g t j) (ix2 (⟨g.val * 128 + t.val, hl⟩ : Fin 2048) j) ?_).trans ?_
  · rw [Shape.rowMajor_val_three, Shape.rowMajor_val_two]
    show (g.val * 128 + t.val) * 128 + j.val = (g.val * 128 + t.val) * 128 + j.val
    rfl
  refine (col_apply _ ⟨g.val * 128 + t.val, hl⟩ j).trans ?_
  rw [select_apply, mask_apply V36 p hV ⟨g.val * 128 + t.val, hl⟩, subf_apply, broadcast_apply, hV]
  show Scalar.select (if 1 / 2 < p (g.val * 128 + t.val) then 1#1 else 0#1)
      (Ideal.ofBits .f32 0x3F800000#32 - ((p (g.val * 128 + t.val) : ℝ) : EReal)) (Ideal.ofBits .f32 0x3F800000#32) = _
  rw [ofBits_one]
  unfold decay
  by_cases h : 1 / 2 < p (g.val * 128 + t.val)
  · rw [if_pos h, if_pos h, select_one, EReal.coe_sub]
  · rw [if_neg h, if_neg h, select_zero]

/-- The driving term: the gain column times the input, lane block by lane block. -/
theorem pay18_apply (V1 : FVec Ideal S2048x512 .f32) (V48 : FVec Ideal S2048x128 .f32) (h : ℕ → ℕ → ℝ) (c : ℕ → ℝ)
    (hV1 : ∀ (l : Fin 2048) (d : Fin 512), V1 (ix2 l d) = ((h l.val d.val : ℝ) : EReal))
    (hV48 : ∀ (l : Fin 2048) (j : Fin 128), V48 (ix2 l j) = ((c l.val : ℝ) : EReal))
    (l : Fin 2048) (d : Fin 512) :
    k0_pay18 V1 V48 (ix2 l d) = ((c l.val * h l.val d.val : ℝ) : EReal) := by
  unfold k0_pay18
  exact lanesMul_apply 2048 V48 V1 c h hV48 hV1 _ _ _ _ _ l d

end Cert.HNet

end
-- ==== Proof.KProb.lean ====
import proofs.«109756_g14800457302192_cont_week2b_463_21_alg».proof.Proof.Gen.KernelIdeal.Skeleton
import proofs.«109756_g14800457302192_cont_week2b_463_21_alg».proof.Proof.Spec
import proofs.«109756_g14800457302192_cont_week2b_463_21_alg».proof.Proof.Words
import Idealize.ShloMosaic.Lib.ValueIdx
import Idealize.ShloMosaic.Lib.Pipeline.Value
import Idealize.ShloMosaic.PureOps.Ideal.Laws

noncomputable section

open scoped BigOperators

/-! The boundary-probability column from the two projections. -/

namespace Cert.HNet

open Idealize.ShloMosaic Idealize.ShloMosaic.ValueIdx Cert.KernelIdeal Cert.KernelIdeal.Gen

/-- A finite sum of real numbers, each read as an extended real, is the sum read as one. -/
private theorem coe_sum_fin {ι : Type} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The maximum of two real numbers read as extended reals. -/
private theorem coe_max' (a b : ℝ) : max ((a : ℝ) : EReal) ((b : ℝ) : EReal) = ((max a b : ℝ) : EReal) :=
  (Monotone.map_max EReal.coe_strictMono.monotone).symm

/-- The minimum of two real numbers read as extended reals. -/
private theorem coe_min' (a b : ℝ) : min ((a : ℝ) : EReal) ((b : ℝ) : EReal) = ((min a b : ℝ) : EReal) :=
  (Monotone.map_min EReal.coe_strictMono.monotone).symm

/-! ## The pieces of the column, over any two matrices -/

/-- The sum over the 512 columns of each row, as a column. -/
private def colSum (X : FVec Ideal S2048x512 .f32) : FVec Ideal S2048x1 .f32 :=
  shapeCast S2048x1 (multiReduction .add [1] S2048 X 0x00000000#32 reduces_S2048x512_S2048 (.inl rfl) rfl) shapeCasts_S2048_S2048x1

/-- The matrix moved up one row, a zero row behind it. -/
private def shiftUp (K : FVec Ideal S2048x512 .f32) : FVec Ideal S2048x512 .f32 :=
  concatenate S2048x512 0 [⟨S2047x512, extractStridedSlice S2047x512 ![1, 0] K slices_S2048x512_o1_0_S2047x512⟩,
    ⟨S1x512, broadcast S1x512 (Scalar.ofBits .f32 0x00000000#32 : Ideal .f32)⟩] concatenates_S2047x512_S1x512_S2048x512_d0

/-- The clamped Euclidean norm of each row, as a column. -/
private def normCol (X : FVec Ideal S2048x512 .f32) : FVec Ideal S2048x1 .f32 :=
  maximumf (sqrt (colSum (mulf X X))) (broadcast S2048x1 (Scalar.ofBits .f32 0x2B8CBCCC#32 : Ideal .f32))

/-- Half of one minus the cosine of each row of `Q` with the next row of `K`, clipped to the unit interval. -/
private def clipCol (Q K : FVec Ideal S2048x512 .f32) : FVec Ideal S2048x1 .f32 :=
  minimumf (broadcast S2048x1 (Scalar.ofBits .f32 0x3F800000#32 : Ideal .f32))
    (maximumf (broadcast S2048x1 (Scalar.ofBits .f32 0x00000000#32 : Ideal .f32))
      (mulf (subf (broadcast S2048x1 (Scalar.ofBits .f32 0x3F800000#32 : Ideal .f32))
          (divf (colSum (mulf Q (shiftUp K))) (mulf (normCol Q) (normCol (shiftUp K)))))
        (broadcast S2048x1 (Scalar.ofBits .f32 0x3F000000#32 : Ideal .f32))))

/-- The probability column is a leading one in front of the clipped column's first 2047 rows. -/
private theorem pay3_eq (P0 : Vec Ideal S1x2048x512 .f32) (P1 P2 : Vec Ideal S512x512 .f32) :
    k0_pay3 P0 P1 P2 = concatenate S2048x1 0 [⟨S1x1, broadcast S1x1 (Scalar.ofBits .f32 0x3F800000#32 : Ideal .f32)⟩,
      ⟨S2047x1, extractStridedSlice S2047x1 ![0, 0]
        (clipCol (matmul (φ₂ := .f32) dot_S2048x512_S512x512_S2048x512_1_1_0_0_n_n none (k0_pay2 P0) P1 (constant S2048x512 .f32 0x00000000#32))
          (matmul (φ₂ := .f32) dot_S2048x512_S512x512_S2048x512_1_1_0_0_n_n none (k0_pay2 P0) P2 (constant S2048x512 .f32 0x00000000#32)))
        slices_S2048x1_o0_0_S2047x1⟩] concatenates_S1x1_S2047x1_S2048x1_d0 := rfl

/-! ## Each piece read at a row -/

/-- The column of lane sums at row `l` is the sum of row `l`. -/
private theorem colSum_apply (X : FVec Ideal S2048x512 .f32) (l : Fin 2048) (x : ℕ → ℝ)
    (hX : ∀ e : Fin 512, X (ix2 l e) = ((x e.val : ℝ) : EReal)) :
    colSum X (ix2 l (0 : Fin 1)) = ((∑ e : Fin 512, x e.val : ℝ) : EReal) := by
  unfold colSum
  rw [shapeCast_apply _ shapeCasts_S2048_S2048x1 (ix2 l (0 : Fin 1)) (ix1 l)
    (by rw [Shape.rowMajor_val_one, Shape.rowMajor_val_two]; show l.val = l.val * 1 + 0; omega)]
  refine (Ideal.multiReduction_add_single X _ reduces_S2048x512_S2048 _ _ (ix1 l)).trans ?_
  rw [← coe_sum_fin]
  refine Finset.sum_congr rfl fun e _ => ?_
  have hidx : reduces_S2048x512_S2048.lift (ix1 l) e = ix2 l e := by
    funext c
    match c with
    | ⟨0, _⟩ => rfl
    | ⟨1, _⟩ => rfl
  rw [hidx]
  exact hX e

/-- Below the last row the shifted matrix reads the next row. -/
private theorem shiftUp_apply_lt (K : FVec Ideal S2048x512 .f32) (l : Fin 2048) (e : Fin 512) (h : l.val + 1 < 2048) :
    shiftUp K (ix2 l e) = K (ix2 (⟨l.val + 1, h⟩ : Fin 2048) e) := by
  unfold shiftUp
  rw [concatenate_pair_apply_left _ _ _ concatenates_S2047x512_S1x512_S2048x512_d0 (ix2 l e) rfl
    (ix2 (⟨l.val, by omega⟩ : Fin 2047) e) (fun b => match b with | ⟨0, _⟩ => rfl | ⟨1, _⟩ => rfl)]
  exact extractStridedSlice_apply _ _ _ _ (ix2 (⟨l.val + 1, h⟩ : Fin 2048) e)
    (fun a => match a with
      | ⟨0, _⟩ => by show l.val + 1 = 1 + l.val; omega
      | ⟨1, _⟩ => by show e.val = 0 + e.val; omega)

/-- The clamped norm is positive. -/
private theorem nrm_pos (x : ℕ → ℝ) : 0 < nrm x := lt_max_of_lt_right eps_pos

/-- The norm column at row `l` is the clamped norm of row `l`. -/
private theorem normCol_apply (X : FVec Ideal S2048x512 .f32) (l : Fin 2048) (x : ℕ → ℝ)
    (hX : ∀ e : Fin 512, X (ix2 l e) = ((x e.val : ℝ) : EReal)) :
    normCol X (ix2 l (0 : Fin 1)) = ((nrm x : ℝ) : EReal) := by
  unfold normCol
  show max (Ideal.sqrt (colSum (mulf X X) (ix2 l (0 : Fin 1)))) (Ideal.ofBits .f32 0x2B8CBCCC#32) = _
  rw [colSum_apply (mulf X X) l (fun e => x e * x e) (fun e => by rw [mulf_apply, hX e, ← EReal.coe_mul]), ofBits_eps,
    Ideal.sqrt_coe, if_neg (not_lt.mpr (Finset.sum_nonneg fun e _ => mul_self_nonneg _)), coe_max']
  rfl

/-- The clipped column at a row `l` below the last: the rows' cosine, halved from one and clipped. -/
private theorem clipCol_apply (Q K : FVec Ideal S2048x512 .f32) (l : Fin 2048) (h : l.val + 1 < 2048) (q k : ℕ → ℝ)
    (hQ : ∀ e : Fin 512, Q (ix2 l e) = ((q e.val : ℝ) : EReal))
    (hK : ∀ e : Fin 512, K (ix2 (⟨l.val + 1, h⟩ : Fin 2048) e) = ((k e.val : ℝ) : EReal)) :
    clipCol Q K (ix2 l (0 : Fin 1))
      = ((min 1 (max 0 ((1 - (∑ e : Fin 512, q e.val * k e.val) / (nrm q * nrm k)) * (1 / 2))) : ℝ) : EReal) := by
  have hS : ∀ e : Fin 512, shiftUp K (ix2 l e) = ((k e.val : ℝ) : EReal) := fun e => (shiftUp_apply_lt K l e h).trans (hK e)
  unfold clipCol
  show min (Ideal.ofBits .f32 0x3F800000#32) (max (Ideal.ofBits .f32 0x00000000#32)
    ((Ideal.ofBits .f32 0x3F800000#32 - Ideal.div (colSum (mulf Q (shiftUp K)) (ix2 l (0 : Fin 1)))
      (normCol Q (ix2 l (0 : Fin 1)) * normCol (shiftUp K) (ix2 l (0 : Fin 1)))) * Ideal.ofBits .f32 0x3F000000#32)) = _
  rw [colSum_apply (mulf Q (shiftUp K)) l (fun e => q e * k e) (fun e => by rw [mulf_apply, hQ e, hS e, ← EReal.coe_mul]),
    normCol_apply Q l q hQ, normCol_apply (shiftUp K) l k hS, ofBits_one, ofBits_zero, ofBits_half,
    ← EReal.coe_mul, Ideal.div_coe (ne_of_gt (mul_pos (nrm_pos q) (nrm_pos k))), ← EReal.coe_mul, ← EReal.coe_sub,
    ← EReal.coe_mul, coe_max', coe_min', div_eq_mul_one_div (∑ e : Fin 512, q e.val * k e.val) (nrm q * nrm k)]

/-- Row `l` of the probability column is the specification's boundary probability of row `l`, once the two
    matrix products are known to be the query and key projections. -/
theorem pay3_apply_of (P0 : Vec Ideal S1x2048x512 .f32) (P1 P2 : Vec Ideal S512x512 .f32) (Wq Wk h : ℕ → ℕ → ℝ)
    (hq : ∀ (l : Fin 2048) (e : Fin 512),
      matmul (φ₂ := .f32) dot_S2048x512_S512x512_S2048x512_1_1_0_0_n_n none (k0_pay2 P0) P1 (constant S2048x512 .f32 0x00000000#32) (ix2 l e) = ((proj Wq h l.val e.val : ℝ) : EReal))
    (hk : ∀ (l : Fin 2048) (e : Fin 512),
      matmul (φ₂ := .f32) dot_S2048x512_S512x512_S2048x512_1_1_0_0_n_n none (k0_pay2 P0) P2 (constant S2048x512 .f32 0x00000000#32) (ix2 l e) = ((proj Wk h l.val e.val : ℝ) : EReal))
    (l : Fin 2048) :
    k0_pay3 P0 P1 P2 (ix2 l (0 : Fin 1)) = ((prob Wq Wk h l.val : ℝ) : EReal) := by
  rw [pay3_eq]
  obtain ⟨lv, hl⟩ := l
  cases lv with
  | zero =>
    rw [concatenate_pair_apply_left _ _ _ concatenates_S1x1_S2047x1_S2048x1_d0 (ix2 (⟨0, hl⟩ : Fin 2048) (0 : Fin 1)) rfl
      (ix2 (0 : Fin 1) (0 : Fin 1)) (fun b => match b with | ⟨0, _⟩ => rfl | ⟨1, _⟩ => rfl)]
    show Ideal.ofBits .f32 0x3F800000#32 = _
    rw [ofBits_one]
    rfl
  | succ l' =>
    rw [concatenate_pair_apply_right _ _ _ concatenates_S1x1_S2047x1_S2048x1_d0 (ix2 (⟨l' + 1, hl⟩ : Fin 2048) (0 : Fin 1)) rfl rfl
      (ix2 (⟨l', by omega⟩ : Fin 2047) (0 : Fin 1))
      (fun b hb => match b, hb with
        | ⟨0, _⟩, hb => (hb (Fin.ext rfl)).elim
        | ⟨1, _⟩, _ => rfl)
      (by show l' + 1 = l' + 1; rfl)]
    rw [extractStridedSlice_apply _ _ slices_S2048x1_o0_0_S2047x1 _ (ix2 (⟨l', by omega⟩ : Fin 2048) (0 : Fin 1))
      (fun a => match a with
        | ⟨0, _⟩ => by show l' = 0 + l'; omega
        | ⟨1, _⟩ => by show 0 = 0 + 0; rfl)]
    rw [clipCol_apply _ _ (⟨l', by omega⟩ : Fin 2048) hl (proj Wq h l') (proj Wk h (l' + 1)) (fun e => hq _ e) (fun e => hk _ e)]
    rfl

end Cert.HNet

end
-- ==== Proof.KMat.lean ====
import proofs.«109756_g14800457302192_cont_week2b_463_21_alg».proof.Proof.Gen.KernelIdeal.Skeleton
import proofs.«109756_g14800457302192_cont_week2b_463_21_alg».proof.Proof.Spec
import proofs.«109756_g14800457302192_cont_week2b_463_21_alg».proof.Proof.Words
import Idealize.ShloMosaic.Lib.ValueIdx
import Idealize.ShloMosaic.Lib.Pipeline.Value
import Idealize.ShloMosaic.PureOps.Ideal.Laws

noncomputable section

open scoped BigOperators

/-! The matrix products read at an index: the two projections (the weight's second index contracted) and the
sixteen chunk-local scans (a chunk's transfer matrix times the chunk's rows of the driving term). -/

namespace Cert.HNet

open Idealize.ShloMosaic Idealize.ShloMosaic.ValueIdx Cert.KernelIdeal Cert.KernelIdeal.Gen

/-- The coercion of a finite sum of reals is the sum of the coercions. -/
private theorem coe_finsum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The left operand's row coordinate is the output's row. -/
private theorem lhs_proj_0 (j : S2048x512.Idx) (k : dot_S2048x512_S512x512_S2048x512_1_1_0_0_n_n.contr.Idx) :
    (dot_S2048x512_S512x512_S2048x512_1_1_0_0_n_n.lhsIdx j k 0).val = (j 0).val := by
  simp [DotDims.lhsIdx, dot_S2048x512_S512x512_S2048x512_1_1_0_0_n_n]
  rfl

/-- The left operand's column coordinate is the contracted position. -/
private theorem lhs_proj_1 (j : S2048x512.Idx) (k : dot_S2048x512_S512x512_S2048x512_1_1_0_0_n_n.contr.Idx) :
    (dot_S2048x512_S512x512_S2048x512_1_1_0_0_n_n.lhsIdx j k 1).val = (k ⟨0, by decide⟩).val :=
  dot_S2048x512_S512x512_S2048x512_1_1_0_0_n_n.lhsIdx_val_of_single rfl j k

/-- The weight's row coordinate is the output's column. -/
private theorem rhs_proj_0 (j : S2048x512.Idx) (k : dot_S2048x512_S512x512_S2048x512_1_1_0_0_n_n.contr.Idx) :
    (dot_S2048x512_S512x512_S2048x512_1_1_0_0_n_n.rhsIdx j k 0).val = (j 1).val := by
  simp [DotDims.rhsIdx, dot_S2048x512_S512x512_S2048x512_1_1_0_0_n_n]
  rfl

/-- The weight's column coordinate (its second index) is the contracted position. -/
private theorem rhs_proj_1 (j : S2048x512.Idx) (k : dot_S2048x512_S512x512_S2048x512_1_1_0_0_n_n.contr.Idx) :
    (dot_S2048x512_S512x512_S2048x512_1_1_0_0_n_n.rhsIdx j k 1).val = (k ⟨0, by decide⟩).val :=
  dot_S2048x512_S512x512_S2048x512_1_1_0_0_n_n.rhsIdx_val_of_single rfl j k

/-- The transfer block's row coordinate is the output's row. -/
private theorem lhs_chunk_0 (j : S128x512.Idx) (k : dot_S128x128_S128x512_S128x512_1_0_0_1_n_n.contr.Idx) :
    (dot_S128x128_S128x512_S128x512_1_0_0_1_n_n.lhsIdx j k 0).val = (j 0).val := by
  simp [DotDims.lhsIdx, dot_S128x128_S128x512_S128x512_1_0_0_1_n_n]
  rfl

/-- The transfer block's column coordinate is the contracted position. -/
private theorem lhs_chunk_1 (j : S128x512.Idx) (k : dot_S128x128_S128x512_S128x512_1_0_0_1_n_n.contr.Idx) :
    (dot_S128x128_S128x512_S128x512_1_0_0_1_n_n.lhsIdx j k 1).val = (k ⟨0, by decide⟩).val :=
  dot_S128x128_S128x512_S128x512_1_0_0_1_n_n.lhsIdx_val_of_single rfl j k

/-- The driving term's row coordinate is the contracted position. -/
private theorem rhs_chunk_0 (j : S128x512.Idx) (k : dot_S128x128_S128x512_S128x512_1_0_0_1_n_n.contr.Idx) :
    (dot_S128x128_S128x512_S128x512_1_0_0_1_n_n.rhsIdx j k 0).val = (k ⟨0, by decide⟩).val :=
  dot_S128x128_S128x512_S128x512_1_0_0_1_n_n.rhsIdx_val_of_single rfl j k

/-- The driving term's column coordinate is the output's column. -/
private theorem rhs_chunk_1 (j : S128x512.Idx) (k : dot_S128x128_S128x512_S128x512_1_0_0_1_n_n.contr.Idx) :
    (dot_S128x128_S128x512_S128x512_1_0_0_1_n_n.rhsIdx j k 1).val = (j 1).val := by
  simp [DotDims.rhsIdx, dot_S128x128_S128x512_S128x512_1_0_0_1_n_n]
  rfl

/-- A projection: row `l` of the sequence against row `e` of the weight. -/
theorem proj_apply (V1 : FVec Ideal S2048x512 .f32) (W : Vec Ideal S512x512 .f32) (h w : ℕ → ℕ → ℝ)
    (hV : ∀ (l : Fin 2048) (d : Fin 512), V1 (ix2 l d) = ((h l.val d.val : ℝ) : EReal))
    (hW : ∀ e d : Fin 512, W (ix2 e d) = ((w e.val d.val : ℝ) : EReal))
    (l : Fin 2048) (e : Fin 512) :
    matmul (φ₂ := .f32) dot_S2048x512_S512x512_S2048x512_1_1_0_0_n_n none V1 W (constant S2048x512 .f32 0x00000000#32) (ix2 l e) = ((proj w h l.val e.val : ℝ) : EReal) := by
  show FloatOps.matmul dot_S2048x512_S512x512_S2048x512_1_1_0_0_n_n none V1 W (constant S2048x512 .f32 0x00000000#32) (ix2 l e) = _
  rw [Ideal.matmul_constant_zero_apply,
    ← Equiv.sum_comp (contrEquiv1 dot_S2048x512_S512x512_S2048x512_1_1_0_0_n_n 512 rfl rfl).symm]
  unfold proj
  rw [coe_finsum]
  refine Finset.sum_congr rfl fun c _ => ?_
  have hc := contrEquiv1_symm_val dot_S2048x512_S512x512_S2048x512_1_1_0_0_n_n 512 rfl rfl c
  have hl : dot_S2048x512_S512x512_S2048x512_1_1_0_0_n_n.lhsIdx (ix2 l e)
      ((contrEquiv1 dot_S2048x512_S512x512_S2048x512_1_1_0_0_n_n 512 rfl rfl).symm c) = ix2 l c := by
    funext ax; apply Fin.ext
    match ax with
    | ⟨0, _⟩ => exact lhs_proj_0 _ _
    | ⟨1, _⟩ => exact (lhs_proj_1 _ _).trans hc
  have hr : dot_S2048x512_S512x512_S2048x512_1_1_0_0_n_n.rhsIdx (ix2 l e)
      ((contrEquiv1 dot_S2048x512_S512x512_S2048x512_1_1_0_0_n_n 512 rfl rfl).symm c) = ix2 e c := by
    funext ax; apply Fin.ext
    match ax with
    | ⟨0, _⟩ => exact rhs_proj_0 _ _
    | ⟨1, _⟩ => exact (rhs_proj_1 _ _).trans hc
  rw [hl, hr, hV, hW, EReal.coe_mul]

/-- The chunk at row offset `r`: its 128 by 128 transfer block times its 128 rows of the driving term. -/
theorem chunk_matmul (r : ℕ) (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (hs1 : S2048x128.Slices ![r, 0] S128x128) (hs2 : S2048x512.Slices ![r, 0] S128x512) (t : Fin 128) (d : Fin 512) :
    matmul dot_S128x128_S128x512_S128x512_1_0_0_1_n_n none (extractStridedSlice S128x128 ![r, 0] V119 hs1)
      (extractStridedSlice S128x512 ![r, 0] V129 hs2) (constant S128x512 .f32 0x00000000#32) (ix2 t d)
      = ((∑ j : Fin 128, Lm (r + t.val) j.val * b (r + j.val) d.val : ℝ) : EReal) := by
  show FloatOps.matmul dot_S128x128_S128x512_S128x512_1_0_0_1_n_n none (extractStridedSlice S128x128 ![r, 0] V119 hs1)
      (extractStridedSlice S128x512 ![r, 0] V129 hs2) (constant S128x512 .f32 0x00000000#32) (ix2 t d) = _
  rw [Ideal.matmul_constant_zero_apply,
    ← Equiv.sum_comp (contrEquiv1 dot_S128x128_S128x512_S128x512_1_0_0_1_n_n 128 rfl rfl).symm, coe_finsum]
  refine Finset.sum_congr rfl fun c _ => ?_
  have hc := contrEquiv1_symm_val dot_S128x128_S128x512_S128x512_1_0_0_1_n_n 128 rfl rfl c
  have hl : dot_S128x128_S128x512_S128x512_1_0_0_1_n_n.lhsIdx (ix2 t d)
      ((contrEquiv1 dot_S128x128_S128x512_S128x512_1_0_0_1_n_n 128 rfl rfl).symm c) = ix2 t c := by
    funext ax; apply Fin.ext
    match ax with
    | ⟨0, _⟩ => exact lhs_chunk_0 _ _
    | ⟨1, _⟩ => exact (lhs_chunk_1 _ _).trans hc
  have hr : dot_S128x128_S128x512_S128x512_1_0_0_1_n_n.rhsIdx (ix2 t d)
      ((contrEquiv1 dot_S128x128_S128x512_S128x512_1_0_0_1_n_n 128 rfl rfl).symm c) = ix2 c d := by
    funext ax; apply Fin.ext
    match ax with
    | ⟨0, _⟩ => exact (rhs_chunk_0 _ _).trans hc
    | ⟨1, _⟩ => exact rhs_chunk_1 _ _
  have hrow : r + 128 ≤ 2048 := hs1.2 (0 : Fin 2)
  have ht := t.isLt
  have hcl := c.isLt
  rw [hl, hr,
    extractStridedSlice_apply ![r, 0] V119 hs1 (ix2 t c) (ix2 (⟨r + t.val, by omega⟩ : Fin 2048) c)
      (fun a => match a with
        | ⟨0, _⟩ => rfl
        | ⟨1, _⟩ => (Nat.zero_add _).symm),
    extractStridedSlice_apply ![r, 0] V129 hs2 (ix2 c d) (ix2 (⟨r + c.val, by omega⟩ : Fin 2048) d)
      (fun a => match a with
        | ⟨0, _⟩ => rfl
        | ⟨1, _⟩ => (Nat.zero_add _).symm),
    hL, hb, EReal.coe_mul]

/-- Chunk 0. -/
theorem pay19_apply (V1 : FVec Ideal S2048x512 .f32) (V48 : FVec Ideal S2048x128 .f32) (V81 V82 V85 : FVec Ideal S16x128x128 .f32) (Lm b : ℕ → ℕ → ℝ)
    (hL : ∀ (l : Fin 2048) (j : Fin 128), k0_pay16 V81 V82 V85 (ix2 l j) = ((Lm l.val j.val : ℝ) : EReal))
    (hb : ∀ (l : Fin 2048) (d : Fin 512), k0_pay18 V1 V48 (ix2 l d) = ((b l.val d.val : ℝ) : EReal))
    (t : Fin 128) (d : Fin 512) :
    k0_pay19 V1 V48 V81 V82 V85 (ix2 t d) = ((∑ j : Fin 128, Lm (0 + t.val) j.val * b (0 + j.val) d.val : ℝ) : EReal) := by
  unfold k0_pay19
  exact chunk_matmul 0 _ _ Lm b hL hb _ _ t d

/-- Chunk 1. -/
theorem pay20_apply (V1 : FVec Ideal S2048x512 .f32) (V48 : FVec Ideal S2048x128 .f32) (V81 V82 V85 : FVec Ideal S16x128x128 .f32) (Lm b : ℕ → ℕ → ℝ)
    (hL : ∀ (l : Fin 2048) (j : Fin 128), k0_pay16 V81 V82 V85 (ix2 l j) = ((Lm l.val j.val : ℝ) : EReal))
    (hb : ∀ (l : Fin 2048) (d : Fin 512), k0_pay18 V1 V48 (ix2 l d) = ((b l.val d.val : ℝ) : EReal))
    (t : Fin 128) (d : Fin 512) :
    k0_pay20 V1 V48 V81 V82 V85 (ix2 t d) = ((∑ j : Fin 128, Lm (128 + t.val) j.val * b (128 + j.val) d.val : ℝ) : EReal) := by
  unfold k0_pay20
  exact chunk_matmul 128 _ _ Lm b hL hb _ _ t d

/-- Chunk 2. -/
theorem pay22_apply (V129 : FVec Ideal S2048x512 .f32) (V81 V82 V85 : FVec Ideal S16x128x128 .f32) (Lm b : ℕ → ℕ → ℝ)
    (hL : ∀ (l : Fin 2048) (j : Fin 128), k0_pay16 V81 V82 V85 (ix2 l j) = ((Lm l.val j.val : ℝ) : EReal))
    (hb : ∀ (l : Fin 2048) (d : Fin 512), V129 (ix2 l d) = ((b l.val d.val : ℝ) : EReal))
    (t : Fin 128) (d : Fin 512) :
    k0_pay22 V129 (k0_pay21 V81 V82 V85) (ix2 t d) = ((∑ j : Fin 128, Lm (256 + t.val) j.val * b (256 + j.val) d.val : ℝ) : EReal) := by
  unfold k0_pay22 k0_pay21
  exact chunk_matmul 256 _ _ Lm b hL hb _ _ t d

/-- Chunk 3. -/
theorem pay23_apply (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (t : Fin 128) (d : Fin 512) :
    k0_pay23 V119 V129 (ix2 t d) = ((∑ j : Fin 128, Lm (384 + t.val) j.val * b (384 + j.val) d.val : ℝ) : EReal) := by
  unfold k0_pay23
  exact chunk_matmul 384 _ _ Lm b hL hb _ _ t d

/-- Chunk 4. -/
theorem pay24_apply (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (t : Fin 128) (d : Fin 512) :
    k0_pay24 V119 V129 (ix2 t d) = ((∑ j : Fin 128, Lm (512 + t.val) j.val * b (512 + j.val) d.val : ℝ) : EReal) := by
  unfold k0_pay24
  exact chunk_matmul 512 _ _ Lm b hL hb _ _ t d

/-- Chunk 5. -/
theorem pay25_apply (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (t : Fin 128) (d : Fin 512) :
    k0_pay25 V119 V129 (ix2 t d) = ((∑ j : Fin 128, Lm (640 + t.val) j.val * b (640 + j.val) d.val : ℝ) : EReal) := by
  unfold k0_pay25
  exact chunk_matmul 640 _ _ Lm b hL hb _ _ t d

/-- Chunk 6. -/
theorem pay26_apply (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (t : Fin 128) (d : Fin 512) :
    k0_pay26 V119 V129 (ix2 t d) = ((∑ j : Fin 128, Lm (768 + t.val) j.val * b (768 + j.val) d.val : ℝ) : EReal) := by
  unfold k0_pay26
  exact chunk_matmul 768 _ _ Lm b hL hb _ _ t d

/-- Chunk 7. -/
theorem pay27_apply (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (t : Fin 128) (d : Fin 512) :
    k0_pay27 V119 V129 (ix2 t d) = ((∑ j : Fin 128, Lm (896 + t.val) j.val * b (896 + j.val) d.val : ℝ) : EReal) := by
  unfold k0_pay27
  exact chunk_matmul 896 _ _ Lm b hL hb _ _ t d

/-- Chunk 8. -/
theorem pay28_apply (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (t : Fin 128) (d : Fin 512) :
    k0_pay28 V119 V129 (ix2 t d) = ((∑ j : Fin 128, Lm (1024 + t.val) j.val * b (1024 + j.val) d.val : ℝ) : EReal) := by
  unfold k0_pay28
  exact chunk_matmul 1024 _ _ Lm b hL hb _ _ t d

/-- Chunk 9. -/
theorem pay29_apply (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (t : Fin 128) (d : Fin 512) :
    k0_pay29 V119 V129 (ix2 t d) = ((∑ j : Fin 128, Lm (1152 + t.val) j.val * b (1152 + j.val) d.val : ℝ) : EReal) := by
  unfold k0_pay29
  exact chunk_matmul 1152 _ _ Lm b hL hb _ _ t d

/-- Chunk 10. -/
theorem pay30_apply (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (t : Fin 128) (d : Fin 512) :
    k0_pay30 V119 V129 (ix2 t d) = ((∑ j : Fin 128, Lm (1280 + t.val) j.val * b (1280 + j.val) d.val : ℝ) : EReal) := by
  unfold k0_pay30
  exact chunk_matmul 1280 _ _ Lm b hL hb _ _ t d

/-- Chunk 11. -/
theorem pay31_apply (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (t : Fin 128) (d : Fin 512) :
    k0_pay31 V119 V129 (ix2 t d) = ((∑ j : Fin 128, Lm (1408 + t.val) j.val * b (1408 + j.val) d.val : ℝ) : EReal) := by
  unfold k0_pay31
  exact chunk_matmul 1408 _ _ Lm b hL hb _ _ t d

/-- Chunk 12. -/
theorem pay32_apply (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (t : Fin 128) (d : Fin 512) :
    k0_pay32 V119 V129 (ix2 t d) = ((∑ j : Fin 128, Lm (1536 + t.val) j.val * b (1536 + j.val) d.val : ℝ) : EReal) := by
  unfold k0_pay32
  exact chunk_matmul 1536 _ _ Lm b hL hb _ _ t d

/-- Chunk 13. -/
theorem pay33_apply (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (t : Fin 128) (d : Fin 512) :
    k0_pay33 V119 V129 (ix2 t d) = ((∑ j : Fin 128, Lm (1664 + t.val) j.val * b (1664 + j.val) d.val : ℝ) : EReal) := by
  unfold k0_pay33
  exact chunk_matmul 1664 _ _ Lm b hL hb _ _ t d

/-- Chunk 14. -/
theorem pay34_apply (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (t : Fin 128) (d : Fin 512) :
    k0_pay34 V119 V129 (ix2 t d) = ((∑ j : Fin 128, Lm (1792 + t.val) j.val * b (1792 + j.val) d.val : ℝ) : EReal) := by
  unfold k0_pay34
  exact chunk_matmul 1792 _ _ Lm b hL hb _ _ t d

/-- Chunk 15. -/
theorem pay35_apply (V119 : FVec Ideal S2048x128 .f32) (V129 : FVec Ideal S2048x512 .f32) (Lm b : ℕ → ℕ → ℝ)
    (hL : ∀ (l : Fin 2048) (j : Fin 128), V119 (ix2 l j) = ((Lm l.val j.val : ℝ) : EReal))
    (hb : ∀ (l : Fin 2048) (d : Fin 512), V129 (ix2 l d) = ((b l.val d.val : ℝ) : EReal))
    (t : Fin 128) (d : Fin 512) :
    k0_pay35 V119 V129 (ix2 t d) = ((∑ j : Fin 128, Lm (1920 + t.val) j.val * b (1920 + j.val) d.val : ℝ) : EReal) := by
  unfold k0_pay35
  exact chunk_matmul 1920 _ _ Lm b hL hb _ _ t d

end Cert.HNet

end
-- ==== Proof.KScan.lean ====
import proofs.«109756_g14800457302192_cont_week2b_463_21_alg».proof.Proof.Gen.KernelIdeal.Skeleton
import proofs.«109756_g14800457302192_cont_week2b_463_21_alg».proof.Proof.Spec
import proofs.«109756_g14800457302192_cont_week2b_463_21_alg».proof.Proof.Words
import proofs.«109756_g14800457302192_cont_week2b_463_21_alg».proof.Proof.KStep
import Idealize.ShloMosaic.Lib.ValueIdx
import Idealize.ShloMosaic.Lib.Pipeline.Value
import Idealize.ShloMosaic.PureOps.Ideal.Laws

noncomputable section

open scoped BigOperators

/-! The seven doubling-scan steps along each chunk: the transfer matrix and the chunk-local running products. -/

namespace Cert.HNet

open Idealize.ShloMosaic Idealize.ShloMosaic.ValueIdx Cert.KernelIdeal Cert.KernelIdeal.Gen

/-! ## The scan's input in one chunk, and the two step operations on vectors -/

/-- The scan's input in chunk `g` for the impulse at lane `j`: the chunk's decays and the unit impulse at `j`. -/
def chunkScanIn (a : ℕ → ℝ) (g j : ℕ) : (ℕ → ℝ) × (ℕ → ℝ) :=
  (fun i => a (g * 128 + i), fun i => if i = j then 1 else 0)

/-- The running-product step at stride `s`: the array times itself shifted `s` places down the chunk behind ones. -/
abbrev scanFstOp (s r : ℕ) (A : FVec Ideal S16x128x128 .f32)
    (hsl : S16x128x128.Slices ![0, 0, 0] ⟨3, ![16, r, 128]⟩)
    (hc : Shape.Concatenates [⟨3, ![16, s, 128]⟩, ⟨3, ![16, r, 128]⟩] S16x128x128 1) : FVec Ideal S16x128x128 .f32 :=
  mulf A (concatenate S16x128x128 1 [⟨⟨3, ![16, s, 128]⟩, broadcast ⟨3, ![16, s, 128]⟩ (Scalar.ofBits .f32 0x3F800000#32 : Ideal .f32)⟩,
    ⟨⟨3, ![16, r, 128]⟩, extractStridedSlice ⟨3, ![16, r, 128]⟩ ![0, 0, 0] A hsl⟩] hc)

/-- The recurrence step at stride `s`: the array plus the products times the array shifted `s` places down behind zeros. -/
abbrev scanSndOp (s r : ℕ) (A L : FVec Ideal S16x128x128 .f32)
    (hsl : S16x128x128.Slices ![0, 0, 0] ⟨3, ![16, r, 128]⟩)
    (hc : Shape.Concatenates [⟨3, ![16, s, 128]⟩, ⟨3, ![16, r, 128]⟩] S16x128x128 1) : FVec Ideal S16x128x128 .f32 :=
  addf L (mulf A (concatenate S16x128x128 1 [⟨⟨3, ![16, s, 128]⟩, broadcast ⟨3, ![16, s, 128]⟩ (Scalar.ofBits .f32 0x00000000#32 : Ideal .f32)⟩,
    ⟨⟨3, ![16, r, 128]⟩, extractStridedSlice ⟨3, ![16, r, 128]⟩ ![0, 0, 0] L hsl⟩] hc))

/-- Round `k + 1` of the running products from round `k`, the stride being `2 ^ k`. -/
theorem scanFstOp_apply (k s r : ℕ) (A : FVec Ideal S16x128x128 .f32) (a : ℕ → ℝ) (hs : 2 ^ k = s)
    (hA : ∀ (g : Fin 16) (t j : Fin 128), A (ix3 g t j) = (((scanIter k (chunkScanIn a g.val j.val)).1 t.val : ℝ) : EReal))
    (hsl : S16x128x128.Slices ![0, 0, 0] ⟨3, ![16, r, 128]⟩)
    (hc : Shape.Concatenates [⟨3, ![16, s, 128]⟩, ⟨3, ![16, r, 128]⟩] S16x128x128 1)
    (g : Fin 16) (t j : Fin 128) :
    scanFstOp s r A hsl hc (ix3 g t j) = (((scanIter (k + 1) (chunkScanIn a g.val j.val)).1 t.val : ℝ) : EReal) := by
  subst hs
  exact step3_fst (2 ^ k) r A (fun g j => scanIter k (chunkScanIn a g j)) hA hsl hc g t j

/-- Round `k + 1` of the recurrence from round `k` of both components. -/
theorem scanSndOp_apply (k s r : ℕ) (A L : FVec Ideal S16x128x128 .f32) (a : ℕ → ℝ) (hs : 2 ^ k = s)
    (hA : ∀ (g : Fin 16) (t j : Fin 128), A (ix3 g t j) = (((scanIter k (chunkScanIn a g.val j.val)).1 t.val : ℝ) : EReal))
    (hL : ∀ (g : Fin 16) (t j : Fin 128), L (ix3 g t j) = (((scanIter k (chunkScanIn a g.val j.val)).2 t.val : ℝ) : EReal))
    (hsl : S16x128x128.Slices ![0, 0, 0] ⟨3, ![16, r, 128]⟩)
    (hc : Shape.Concatenates [⟨3, ![16, s, 128]⟩, ⟨3, ![16, r, 128]⟩] S16x128x128 1)
    (g : Fin 16) (t j : Fin 128) :
    scanSndOp s r A L hsl hc (ix3 g t j) = (((scanIter (k + 1) (chunkScanIn a g.val j.val)).2 t.val : ℝ) : EReal) := by
  subst hs
  exact step3_snd (2 ^ k) r A L (fun g j => scanIter k (chunkScanIn a g j)) hA hL hsl hc g t j

/-! ## The unit impulses -/

private theorem cmpi_eq_self {w : ℕ} (x : BitVec w) : IntOp.cmpi .eq x x = 1#1 := by
  show BitVec.ofBool (x == x) = 1#1
  rw [beq_self_eq_true]
  rfl

private theorem cmpi_eq_of_ne {w : ℕ} {x y : BitVec w} (h : x ≠ y) : IntOp.cmpi .eq x y = 0#1 := by
  show BitVec.ofBool (x == y) = 0#1
  rw [beq_eq_false_iff_ne.mpr h]
  rfl

/-- The array that is one where the position along the chunk equals the lane and zero elsewhere. -/
abbrev scanEye : FVec Ideal S16x128x128 .f32 :=
  select (cmpi .eq (iota .tc S16x128x128 32 [1] iota_S16x128x128_d1_w32) (iota .tc S16x128x128 32 [2] iota_S16x128x128_d2_w32))
    (broadcast S16x128x128 (Scalar.ofBits .f32 0x3F800000#32 : Ideal .f32))
    (broadcast S16x128x128 (Scalar.ofBits .f32 0x00000000#32 : Ideal .f32))

theorem scanEye_apply (g : Fin 16) (t j : Fin 128) :
    scanEye (ix3 g t j) = (((if t.val = j.val then 1 else 0 : ℝ)) : EReal) := by
  have h1 : iota .tc S16x128x128 32 [1] iota_S16x128x128_d1_w32 (ix3 g t j) = BitVec.ofNat 32 t.val := by
    show BitVec.ofNat 32 (0 * 128 + t.val) = _
    rw [Nat.zero_mul, Nat.zero_add]
  have h2 : iota .tc S16x128x128 32 [2] iota_S16x128x128_d2_w32 (ix3 g t j) = BitVec.ofNat 32 j.val := by
    show BitVec.ofNat 32 (0 * 128 + j.val) = _
    rw [Nat.zero_mul, Nat.zero_add]
  show Scalar.select (IntOp.cmpi .eq (iota .tc S16x128x128 32 [1] iota_S16x128x128_d1_w32 (ix3 g t j))
      (iota .tc S16x128x128 32 [2] iota_S16x128x128_d2_w32 (ix3 g t j)))
    (Ideal.ofBits .f32 0x3F800000#32) (Ideal.ofBits .f32 0x00000000#32) = _
  rw [h1, h2, ofBits_one, ofBits_zero]
  by_cases h : t.val = j.val
  · rw [if_pos h, h, cmpi_eq_self, select_one]
  · rw [if_neg h]
    have hne : BitVec.ofNat 32 t.val ≠ BitVec.ofNat 32 j.val := by
      intro hc
      have hv := congrArg BitVec.toNat hc
      rw [BitVec.toNat_ofNat, BitVec.toNat_ofNat] at hv
      have ht := t.isLt
      have hj := j.isLt
      omega
    rw [cmpi_eq_of_ne hne, select_zero]

/-! ## The running products, round by round -/

theorem pay8_apply (V36 V37 : FVec Ideal S2048x1 .f32) (a : ℕ → ℝ)
    (h55 : ∀ (g : Fin 16) (t j : Fin 128), k0_pay7 V36 V37 (ix3 g t j) = ((a (g.val * 128 + t.val) : ℝ) : EReal))
    (g : Fin 16) (t j : Fin 128) :
    k0_pay8 V36 V37 (ix3 g t j) = (((scanIter 1 (chunkScanIn a g.val j.val)).1 t.val : ℝ) : EReal) :=
  scanFstOp_apply 0 1 127 (k0_pay7 V36 V37) a (by norm_num) h55 slices_S16x128x128_o0_0_0_S16x127x128 concatenates_S16x1x128_S16x127x128_S16x128x128_d1 g t j

theorem pay9_apply (V36 V37 : FVec Ideal S2048x1 .f32) (a : ℕ → ℝ)
    (h55 : ∀ (g : Fin 16) (t j : Fin 128), k0_pay7 V36 V37 (ix3 g t j) = ((a (g.val * 128 + t.val) : ℝ) : EReal))
    (g : Fin 16) (t j : Fin 128) :
    k0_pay9 V36 V37 (ix3 g t j) = (((scanIter 2 (chunkScanIn a g.val j.val)).1 t.val : ℝ) : EReal) :=
  scanFstOp_apply 1 2 126 (k0_pay8 V36 V37) a (by norm_num) (pay8_apply V36 V37 a h55) slices_S16x128x128_o0_0_0_S16x126x128 concatenates_S16x2x128_S16x126x128_S16x128x128_d1 g t j

theorem pay11_apply (V36 V37 : FVec Ideal S2048x1 .f32) (a : ℕ → ℝ)
    (h55 : ∀ (g : Fin 16) (t j : Fin 128), k0_pay7 V36 V37 (ix3 g t j) = ((a (g.val * 128 + t.val) : ℝ) : EReal))
    (g : Fin 16) (t j : Fin 128) :
    k0_pay11 V36 V37 (ix3 g t j) = (((scanIter 3 (chunkScanIn a g.val j.val)).1 t.val : ℝ) : EReal) :=
  scanFstOp_apply 2 4 124 (k0_pay9 V36 V37) a (by norm_num) (pay9_apply V36 V37 a h55) slices_S16x128x128_o0_0_0_S16x124x128 concatenates_S16x4x128_S16x124x128_S16x128x128_d1 g t j

theorem pay13_apply (V36 V37 : FVec Ideal S2048x1 .f32) (a : ℕ → ℝ)
    (h55 : ∀ (g : Fin 16) (t j : Fin 128), k0_pay7 V36 V37 (ix3 g t j) = ((a (g.val * 128 + t.val) : ℝ) : EReal))
    (g : Fin 16) (t j : Fin 128) :
    k0_pay13 (k0_pay11 V36 V37) (k0_pay12 V36 V37) (ix3 g t j) = (((scanIter 4 (chunkScanIn a g.val j.val)).1 t.val : ℝ) : EReal) :=
  scanFstOp_apply 3 8 120 (k0_pay11 V36 V37) a (by norm_num) (pay11_apply V36 V37 a h55) slices_S16x128x128_o0_0_0_S16x120x128 concatenates_S16x8x128_S16x120x128_S16x128x128_d1 g t j

theorem pay14_apply (V36 V37 : FVec Ideal S2048x1 .f32) (a : ℕ → ℝ)
    (h55 : ∀ (g : Fin 16) (t j : Fin 128), k0_pay7 V36 V37 (ix3 g t j) = ((a (g.val * 128 + t.val) : ℝ) : EReal))
    (g : Fin 16) (t j : Fin 128) :
    k0_pay14 (k0_pay11 V36 V37) (k0_pay12 V36 V37) (ix3 g t j) = (((scanIter 5 (chunkScanIn a g.val j.val)).1 t.val : ℝ) : EReal) :=
  scanFstOp_apply 4 16 112 (k0_pay13 (k0_pay11 V36 V37) (k0_pay12 V36 V37)) a (by norm_num) (pay13_apply V36 V37 a h55) slices_S16x128x128_o0_0_0_S16x112x128 concatenates_S16x16x128_S16x112x128_S16x128x128_d1 g t j

theorem pay15_apply (V36 V37 : FVec Ideal S2048x1 .f32) (a : ℕ → ℝ)
    (h55 : ∀ (g : Fin 16) (t j : Fin 128), k0_pay7 V36 V37 (ix3 g t j) = ((a (g.val * 128 + t.val) : ℝ) : EReal))
    (g : Fin 16) (t j : Fin 128) :
    k0_pay15 (k0_pay11 V36 V37) (k0_pay12 V36 V37) (ix3 g t j) = (((scanIter 6 (chunkScanIn a g.val j.val)).1 t.val : ℝ) : EReal) :=
  scanFstOp_apply 5 32 96 (k0_pay14 (k0_pay11 V36 V37) (k0_pay12 V36 V37)) a (by norm_num) (pay14_apply V36 V37 a h55) slices_S16x128x128_o0_0_0_S16x96x128 concatenates_S16x32x128_S16x96x128_S16x128x128_d1 g t j

/-! ## The recurrence component after the first three rounds -/

theorem pay10_apply (V36 V37 : FVec Ideal S2048x1 .f32) (a : ℕ → ℝ)
    (h55 : ∀ (g : Fin 16) (t j : Fin 128), k0_pay7 V36 V37 (ix3 g t j) = ((a (g.val * 128 + t.val) : ℝ) : EReal))
    (g : Fin 16) (t j : Fin 128) :
    k0_pay10 V36 V37 (ix3 g t j) = (((scanIter 3 (chunkScanIn a g.val j.val)).2 t.val : ℝ) : EReal) := by
  have l0 : ∀ (g : Fin 16) (t j : Fin 128), scanEye (ix3 g t j) = (((scanIter 0 (chunkScanIn a g.val j.val)).2 t.val : ℝ) : EReal) :=
    fun g t j => scanEye_apply g t j
  have l1 := fun (g : Fin 16) (t j : Fin 128) =>
    scanSndOp_apply 0 1 127 (k0_pay7 V36 V37) scanEye a (by norm_num) h55 l0 slices_S16x128x128_o0_0_0_S16x127x128 concatenates_S16x1x128_S16x127x128_S16x128x128_d1 g t j
  have l2 := fun (g : Fin 16) (t j : Fin 128) =>
    scanSndOp_apply 1 2 126 (k0_pay8 V36 V37) _ a (by norm_num) (pay8_apply V36 V37 a h55) l1 slices_S16x128x128_o0_0_0_S16x126x128 concatenates_S16x2x128_S16x126x128_S16x128x128_d1 g t j
  exact scanSndOp_apply 2 4 124 (k0_pay9 V36 V37) _ a (by norm_num) (pay9_apply V36 V37 a h55) l2 slices_S16x128x128_o0_0_0_S16x124x128 concatenates_S16x4x128_S16x124x128_S16x128x128_d1 g t j

/-! ## The cast of `(16, 128, 128)` to `(2048, 128)`: row `l` is chunk `l / 128`, offset `l % 128` -/

theorem scanCast_apply (X : FVec Ideal S16x128x128 .f32) (l : Fin 2048) (j : Fin 128) :
    shapeCast S2048x128 X shapeCasts_S16x128x128_S2048x128 (ix2 l j)
      = X (ix3 (⟨l.val / 128, by have := l.isLt; omega⟩ : Fin 16) (⟨l.val % 128, by omega⟩ : Fin 128) j) := by
  refine shapeCast_apply X _ (ix2 l j) _ ?_
  rw [Shape.rowMajor_val_three, Shape.rowMajor_val_two]
  show (l.val / 128 * 128 + l.val % 128) * 128 + j.val = l.val * 128 + j.val
  omega

/-- The transfer matrix after the seven steps: entry `(l, j)` is the scan, over the chunk of row `l`, of the
    chunk's decays and the unit impulse at `j`, read at `l`'s offset in the chunk. -/
theorem pay16_apply (V36 V37 : FVec Ideal S2048x1 .f32) (a : ℕ → ℝ)
    (h55 : ∀ (g : Fin 16) (t j : Fin 128), k0_pay7 V36 V37 (ix3 g t j) = ((a (g.val * 128 + t.val) : ℝ) : EReal))
    (l : Fin 2048) (j : Fin 128) :
    k0_pay16 (k0_pay10 V36 V37) (k0_pay11 V36 V37) (k0_pay12 V36 V37) (ix2 l j)
      = (((scanIter 7 (fun i => a (l.val / 128 * 128 + i), fun i => if i = j.val then 1 else 0)).2 (l.val % 128) : ℝ) : EReal) := by
  have l4 := fun (g : Fin 16) (t j : Fin 128) =>
    scanSndOp_apply 3 8 120 (k0_pay11 V36 V37) (k0_pay10 V36 V37) a (by norm_num) (pay11_apply V36 V37 a h55) (pay10_apply V36 V37 a h55)
      slices_S16x128x128_o0_0_0_S16x120x128 concatenates_S16x8x128_S16x120x128_S16x128x128_d1 g t j
  have l5 := fun (g : Fin 16) (t j : Fin 128) =>
    scanSndOp_apply 4 16 112 (k0_pay13 (k0_pay11 V36 V37) (k0_pay12 V36 V37)) _ a (by norm_num) (pay13_apply V36 V37 a h55) l4
      slices_S16x128x128_o0_0_0_S16x112x128 concatenates_S16x16x128_S16x112x128_S16x128x128_d1 g t j
  have l6 := fun (g : Fin 16) (t j : Fin 128) =>
    scanSndOp_apply 5 32 96 (k0_pay14 (k0_pay11 V36 V37) (k0_pay12 V36 V37)) _ a (by norm_num) (pay14_apply V36 V37 a h55) l5
      slices_S16x128x128_o0_0_0_S16x96x128 concatenates_S16x32x128_S16x96x128_S16x128x128_d1 g t j
  have l7 := fun (g : Fin 16) (t j : Fin 128) =>
    scanSndOp_apply 6 64 64 (k0_pay15 (k0_pay11 V36 V37) (k0_pay12 V36 V37)) _ a (by norm_num) (pay15_apply V36 V37 a h55) l6
      slices_S16x128x128_o0_0_0_S16x64x128 concatenates_S16x64x128_S16x64x128_S16x128x128_d1 g t j
  exact (scanCast_apply _ l j).trans (l7 _ _ _)

/-- The chunk-local running products after the seven steps, lane-replicated. -/
theorem pay17_apply (V36 V37 : FVec Ideal S2048x1 .f32) (a : ℕ → ℝ)
    (h55 : ∀ (g : Fin 16) (t j : Fin 128), k0_pay7 V36 V37 (ix3 g t j) = ((a (g.val * 128 + t.val) : ℝ) : EReal))
    (l : Fin 2048) (j : Fin 128) :
    k0_pay17 (k0_pay11 V36 V37) (k0_pay12 V36 V37) (ix2 l j)
      = (((scanIter 7 (fun i => a (l.val / 128 * 128 + i), fun i => if i = j.val then 1 else 0)).1 (l.val % 128) : ℝ) : EReal) := by
  have p7 := fun (g : Fin 16) (t j : Fin 128) =>
    scanFstOp_apply 6 64 64 (k0_pay15 (k0_pay11 V36 V37) (k0_pay12 V36 V37)) a (by norm_num) (pay15_apply V36 V37 a h55)
      slices_S16x128x128_o0_0_0_S16x64x128 concatenates_S16x64x128_S16x64x128_S16x128x128_d1 g t j
  exact (scanCast_apply _ l j).trans (p7 _ _ _)

end Cert.HNet

end
-- ==== Proof.KAgg.lean ====
import proofs.«109756_g14800457302192_cont_week2b_463_21_alg».proof.Proof.Gen.KernelIdeal.Skeleton
import proofs.«109756_g14800457302192_cont_week2b_463_21_alg».proof.Proof.Spec
import proofs.«109756_g14800457302192_cont_week2b_463_21_alg».proof.Proof.Words
import Idealize.ShloMosaic.Lib.ValueIdx
import Idealize.ShloMosaic.Lib.Pipeline.Value
import Idealize.ShloMosaic.PureOps.Ideal.Laws

noncomputable section

open scoped BigOperators

/-! The chunk aggregates: the last row of each chunk's running products and of each chunk's local scan, stacked;
the sixteen local scans stacked; a per-chunk row repeated down its chunk. -/

namespace Cert.HNet

open Idealize.ShloMosaic Idealize.ShloMosaic.ValueIdx Cert.KernelIdeal Cert.KernelIdeal.Gen

/-- A unit-stride slice read at an index, with the operand's value there given. -/
theorem slice_eq {α : Type} {s t : Shape} {off : Fin s.rank → Nat} {x : s.Idx → α} {h : s.Slices off t} {j : t.Idx} {r : α}
    (k : s.Idx) (hk : ∀ a : Fin s.rank, (k a).val = off a + (j (a.cast h.1.symm)).val) (hval : x k = r) :
    extractStridedSlice t off x h j = r :=
  (extractStridedSlice_apply off x h j k hk).trans hval

/-- A shape cast read at an index, with the operand's value at the same row-major position given. -/
theorem cast_eq {α : Type} {s t : Shape} {x : s.Idx → α} {h : s.ShapeCasts t} {j : t.Idx} {r : α}
    (k : s.Idx) (hk : (s.rowMajor k).val = (t.rowMajor j).val) (hval : x k = r) :
    shapeCast t x h j = r :=
  (shapeCast_apply x h j k hk).trans hval

/-- A broadcast read at an index, with the operand's value there given. -/
theorem bcast_eq {α : Type} {s t : Shape} {x : s.Idx → α} {h : s.Broadcasts t} {j : t.Idx} {r : α}
    (k : s.Idx)
    (hk : ∀ a : Fin s.rank, (k a).val = if s.size a = 1 then 0 else (j ⟨a.val + (t.rank - s.rank), by have := h.1; have := a.isLt; omega⟩).val)
    (hval : x k = r) :
    broadcastTo t x h j = r :=
  (broadcastTo_apply x h j k hk).trans hval

/-- Off the stacking axis a row index and the stacked index have the same coordinate. -/
theorem row_hi {n0 n1 m0 : Nat} (i0 : Fin n0) (g : Fin m0) (j : Fin n1) :
    ∀ b : Fin 2, b.cast (rfl : (2 : Nat) = 2) ≠ (0 : Fin 2) → ((ix2 i0 j) b).val = ((ix2 g j) (b.cast (rfl : (2 : Nat) = 2))).val :=
  fun b hb => match b, hb with
    | ⟨0, _⟩, hb => absurd rfl hb
    | ⟨1, _⟩, _ => rfl

/-- The last row of a chunk's local scan, cut out. -/
theorem lastRow_cut (X : FVec Ideal S128x512 .f32) (sl : ℕ → ℕ → ℝ) (c : ℕ)
    (hX : ∀ (t : Fin 128) (d : Fin 512), X (ix2 t d) = ((sl (c + t.val) d.val : ℝ) : EReal)) (d : Fin 512) :
    extractStridedSlice S1x512 ![127, 0] X slices_S128x512_o127_0_S1x512 (ix2 (0 : Fin 1) d)
      = ((sl (c + 127) d.val : ℝ) : EReal) :=
  slice_eq (ix2 ⟨127, by omega⟩ d) (fun a => match a with | ⟨0, _⟩ => rfl | ⟨1, _⟩ => (Nat.zero_add _).symm) (hX _ d)

/-- The last rows of the chunk-local running products, stacked: row `g` is the product over all of chunk `g`. -/
theorem pay41_apply (V120 : FVec Ideal S2048x128 .f32) (ap : ℕ → ℝ)
    (hV : ∀ (l : Fin 2048) (j : Fin 128), V120 (ix2 l j) = ((ap l.val : ℝ) : EReal))
    (g : Fin 16) (j : Fin 128) :
    k0_pay41 V120 (ix2 g j) = ((ap (g.val * 128 + 127) : ℝ) : EReal) := by
  unfold k0_pay41
  have hgl := g.isLt
  have hs : ∀ n : Fin 16, S2048x128.Slices ![128 * n.val + 127, 0] S1x128 := by decide
  refine (concatenate_ofFn_unit_apply (t := S16x128) (s₁ := S1x128) (0 : Fin 2)
    (fun n : Fin 16 => extractStridedSlice S1x128 ![128 * n.val + 127, 0] V120 (hs n)) _ rfl rfl (ix2 g j) g rfl
    (ix2 (0 : Fin 1) j) (row_hi _ _ _)).trans ?_
  refine slice_eq (ix2 ⟨128 * g.val + 127, by omega⟩ j)
    (fun a => match a with | ⟨0, _⟩ => rfl | ⟨1, _⟩ => (Nat.zero_add _).symm) ((hV _ j).trans ?_)
  show ((ap (128 * g.val + 127) : ℝ) : EReal) = _
  rw [Nat.mul_comm]

/-- The last rows of the sixteen chunk-local scans, stacked (the first five already cut out). -/
theorem lastRows_apply (X5 X6 X7 X8 X9 X10 X11 X12 X13 X14 X15 : FVec Ideal S128x512 .f32) (R0 R1 R2 R3 R4 : FVec Ideal S1x512 .f32)
    (sl : ℕ → ℕ → ℝ)
    (hX5 : ∀ (t : Fin 128) (d : Fin 512), X5 (ix2 t d) = ((sl (640 + t.val) d.val : ℝ) : EReal))
    (hX6 : ∀ (t : Fin 128) (d : Fin 512), X6 (ix2 t d) = ((sl (768 + t.val) d.val : ℝ) : EReal))
    (hX7 : ∀ (t : Fin 128) (d : Fin 512), X7 (ix2 t d) = ((sl (896 + t.val) d.val : ℝ) : EReal))
    (hX8 : ∀ (t : Fin 128) (d : Fin 512), X8 (ix2 t d) = ((sl (1024 + t.val) d.val : ℝ) : EReal))
    (hX9 : ∀ (t : Fin 128) (d : Fin 512), X9 (ix2 t d) = ((sl (1152 + t.val) d.val : ℝ) : EReal))
    (hX10 : ∀ (t : Fin 128) (d : Fin 512), X10 (ix2 t d) = ((sl (1280 + t.val) d.val : ℝ) : EReal))
    (hX11 : ∀ (t : Fin 128) (d : Fin 512), X11 (ix2 t d) = ((sl (1408 + t.val) d.val : ℝ) : EReal))
    (hX12 : ∀ (t : Fin 128) (d : Fin 512), X12 (ix2 t d) = ((sl (1536 + t.val) d.val : ℝ) : EReal))
    (hX13 : ∀ (t : Fin 128) (d : Fin 512), X13 (ix2 t d) = ((sl (1664 + t.val) d.val : ℝ) : EReal))
    (hX14 : ∀ (t : Fin 128) (d : Fin 512), X14 (ix2 t d) = ((sl (1792 + t.val) d.val : ℝ) : EReal))
    (hX15 : ∀ (t : Fin 128) (d : Fin 512), X15 (ix2 t d) = ((sl (1920 + t.val) d.val : ℝ) : EReal))
    (hR0 : ∀ d : Fin 512, R0 (ix2 (0 : Fin 1) d) = ((sl 127 d.val : ℝ) : EReal))
    (hR1 : ∀ d : Fin 512, R1 (ix2 (0 : Fin 1) d) = ((sl 255 d.val : ℝ) : EReal))
    (hR2 : ∀ d : Fin 512, R2 (ix2 (0 : Fin 1) d) = ((sl 383 d.val : ℝ) : EReal))
    (hR3 : ∀ d : Fin 512, R3 (ix2 (0 : Fin 1) d) = ((sl 511 d.val : ℝ) : EReal))
    (hR4 : ∀ d : Fin 512, R4 (ix2 (0 : Fin 1) d) = ((sl 639 d.val : ℝ) : EReal))
    (g : Fin 16) (d : Fin 512) :
    concatenate S16x512 0 [⟨S1x512, R0⟩, ⟨S1x512, R1⟩, ⟨S1x512, R2⟩, ⟨S1x512, R3⟩, ⟨S1x512, R4⟩,
      ⟨S1x512, extractStridedSlice S1x512 ![127, 0] X5 slices_S128x512_o127_0_S1x512⟩,
      ⟨S1x512, extractStridedSlice S1x512 ![127, 0] X6 slices_S128x512_o127_0_S1x512⟩,
      ⟨S1x512, extractStridedSlice S1x512 ![127, 0] X7 slices_S128x512_o127_0_S1x512⟩,
      ⟨S1x512, extractStridedSlice S1x512 ![127, 0] X8 slices_S128x512_o127_0_S1x512⟩,
      ⟨S1x512, extractStridedSlice S1x512 ![127, 0] X9 slices_S128x512_o127_0_S1x512⟩,
      ⟨S1x512, extractStridedSlice S1x512 ![127, 0] X10 slices_S128x512_o127_0_S1x512⟩,
      ⟨S1x512, extractStridedSlice S1x512 ![127, 0] X11 slices_S128x512_o127_0_S1x512⟩,
      ⟨S1x512, extractStridedSlice S1x512 ![127, 0] X12 slices_S128x512_o127_0_S1x512⟩,
      ⟨S1x512, extractStridedSlice S1x512 ![127, 0] X13 slices_S128x512_o127_0_S1x512⟩,
      ⟨S1x512, extractStridedSlice S1x512 ![127, 0] X14 slices_S128x512_o127_0_S1x512⟩,
      ⟨S1x512, extractStridedSlice S1x512 ![127, 0] X15 slices_S128x512_o127_0_S1x512⟩]
      concatenates_S1x512_S1x512_S1x512_S1x512_S1x512_S1x512_S1x512_S1x512_S1x512_S1x512_S1x512_S1x512_S1x512_S1x512_S1x512_S1x512_S16x512_d0 (ix2 g d)
      = ((sl (g.val * 128 + 127) d.val : ℝ) : EReal) := by
  refine (concatenate_ofFn_unit_apply (t := S16x512) (s₁ := S1x512) (0 : Fin 2)
    ![R0, R1, R2, R3, R4,
      extractStridedSlice S1x512 ![127, 0] X5 slices_S128x512_o127_0_S1x512,
      extractStridedSlice S1x512 ![127, 0] X6 slices_S128x512_o127_0_S1x512,
      extractStridedSlice S1x512 ![127, 0] X7 slices_S128x512_o127_0_S1x512,
      extractStridedSlice S1x512 ![127, 0] X8 slices_S128x512_o127_0_S1x512,
      extractStridedSlice S1x512 ![127, 0] X9 slices_S128x512_o127_0_S1x512,
      extractStridedSlice S1x512 ![127, 0] X10 slices_S128x512_o127_0_S1x512,
      extractStridedSlice S1x512 ![127, 0] X11 slices_S128x512_o127_0_S1x512,
      extractStridedSlice S1x512 ![127, 0] X12 slices_S128x512_o127_0_S1x512,
      extractStridedSlice S1x512 ![127, 0] X13 slices_S128x512_o127_0_S1x512,
      extractStridedSlice S1x512 ![127, 0] X14 slices_S128x512_o127_0_S1x512,
      extractStridedSlice S1x512 ![127, 0] X15 slices_S128x512_o127_0_S1x512] _ rfl rfl (ix2 g d) g rfl
    (ix2 (0 : Fin 1) d) (row_hi _ _ _)).trans ?_
  match g with
  | ⟨0, _⟩ => exact hR0 d
  | ⟨1, _⟩ => exact hR1 d
  | ⟨2, _⟩ => exact hR2 d
  | ⟨3, _⟩ => exact hR3 d
  | ⟨4, _⟩ => exact hR4 d
  | ⟨5, _⟩ => exact lastRow_cut X5 sl 640 hX5 d
  | ⟨6, _⟩ => exact lastRow_cut X6 sl 768 hX6 d
  | ⟨7, _⟩ => exact lastRow_cut X7 sl 896 hX7 d
  | ⟨8, _⟩ => exact lastRow_cut X8 sl 1024 hX8 d
  | ⟨9, _⟩ => exact lastRow_cut X9 sl 1152 hX9 d
  | ⟨10, _⟩ => exact lastRow_cut X10 sl 1280 hX10 d
  | ⟨11, _⟩ => exact lastRow_cut X11 sl 1408 hX11 d
  | ⟨12, _⟩ => exact lastRow_cut X12 sl 1536 hX12 d
  | ⟨13, _⟩ => exact lastRow_cut X13 sl 1664 hX13 d
  | ⟨14, _⟩ => exact lastRow_cut X14 sl 1792 hX14 d
  | ⟨15, _⟩ => exact lastRow_cut X15 sl 1920 hX15 d
  | ⟨n + 16, h⟩ => exact absurd h (by omega)

/-- The sixteen chunk-local scans stacked are the local scan of every row. -/
theorem blocks_apply (X0 X1 X2 X3 X4 X5 X6 X7 X8 X9 X10 X11 X12 X13 X14 X15 : FVec Ideal S128x512 .f32) (sl : ℕ → ℕ → ℝ)
    (hX0 : ∀ (t : Fin 128) (d : Fin 512), X0 (ix2 t d) = ((sl (0 + t.val) d.val : ℝ) : EReal))
    (hX1 : ∀ (t : Fin 128) (d : Fin 512), X1 (ix2 t d) = ((sl (128 + t.val) d.val : ℝ) : EReal))
    (hX2 : ∀ (t : Fin 128) (d : Fin 512), X2 (ix2 t d) = ((sl (256 + t.val) d.val : ℝ) : EReal))
    (hX3 : ∀ (t : Fin 128) (d : Fin 512), X3 (ix2 t d) = ((sl (384 + t.val) d.val : ℝ) : EReal))
    (hX4 : ∀ (t : Fin 128) (d : Fin 512), X4 (ix2 t d) = ((sl (512 + t.val) d.val : ℝ) : EReal))
    (hX5 : ∀ (t : Fin 128) (d : Fin 512), X5 (ix2 t d) = ((sl (640 + t.val) d.val : ℝ) : EReal))
    (hX6 : ∀ (t : Fin 128) (d : Fin 512), X6 (ix2 t d) = ((sl (768 + t.val) d.val : ℝ) : EReal))
    (hX7 : ∀ (t : Fin 128) (d : Fin 512), X7 (ix2 t d) = ((sl (896 + t.val) d.val : ℝ) : EReal))
    (hX8 : ∀ (t : Fin 128) (d : Fin 512), X8 (ix2 t d) = ((sl (1024 + t.val) d.val : ℝ) : EReal))
    (hX9 : ∀ (t : Fin 128) (d : Fin 512), X9 (ix2 t d) = ((sl (1152 + t.val) d.val : ℝ) : EReal))
    (hX10 : ∀ (t : Fin 128) (d : Fin 512), X10 (ix2 t d) = ((sl (1280 + t.val) d.val : ℝ) : EReal))
    (hX11 : ∀ (t : Fin 128) (d : Fin 512), X11 (ix2 t d) = ((sl (1408 + t.val) d.val : ℝ) : EReal))
    (hX12 : ∀ (t : Fin 128) (d : Fin 512), X12 (ix2 t d) = ((sl (1536 + t.val) d.val : ℝ) : EReal))
    (hX13 : ∀ (t : Fin 128) (d : Fin 512), X13 (ix2 t d) = ((sl (1664 + t.val) d.val : ℝ) : EReal))
    (hX14 : ∀ (t : Fin 128) (d : Fin 512), X14 (ix2 t d) = ((sl (1792 + t.val) d.val : ℝ) : EReal))
    (hX15 : ∀ (t : Fin 128) (d : Fin 512), X15 (ix2 t d) = ((sl (1920 + t.val) d.val : ℝ) : EReal))
    (l : Fin 2048) (d : Fin 512) :
    concatenate S2048x512 0 [⟨S128x512, X0⟩, ⟨S128x512, X1⟩, ⟨S128x512, X2⟩, ⟨S128x512, X3⟩, ⟨S128x512, X4⟩, ⟨S128x512, X5⟩, ⟨S128x512, X6⟩, ⟨S128x512, X7⟩, ⟨S128x512, X8⟩, ⟨S128x512, X9⟩, ⟨S128x512, X10⟩, ⟨S128x512, X11⟩, ⟨S128x512, X12⟩, ⟨S128x512, X13⟩, ⟨S128x512, X14⟩, ⟨S128x512, X15⟩]
      concatenates_S128x512_S128x512_S128x512_S128x512_S128x512_S128x512_S128x512_S128x512_S128x512_S128x512_S128x512_S128x512_S128x512_S128x512_S128x512_S128x512_S2048x512_d0 (ix2 l d)
      = ((sl l.val d.val : ℝ) : EReal) := by
  have hl := l.isLt
  have hf : ∀ (n : Fin 16) (t : Fin 128), (![X0, X1, X2, X3, X4, X5, X6, X7, X8, X9, X10, X11, X12, X13, X14, X15] : Fin 16 → FVec Ideal S128x512 .f32) n (ix2 t d)
      = ((sl (128 * n.val + t.val) d.val : ℝ) : EReal) := by
    intro n t
    match n with
    | ⟨0, _⟩ => exact hX0 t d
    | ⟨1, _⟩ => exact hX1 t d
    | ⟨2, _⟩ => exact hX2 t d
    | ⟨3, _⟩ => exact hX3 t d
    | ⟨4, _⟩ => exact hX4 t d
    | ⟨5, _⟩ => exact hX5 t d
    | ⟨6, _⟩ => exact hX6 t d
    | ⟨7, _⟩ => exact hX7 t d
    | ⟨8, _⟩ => exact hX8 t d
    | ⟨9, _⟩ => exact hX9 t d
    | ⟨10, _⟩ => exact hX10 t d
    | ⟨11, _⟩ => exact hX11 t d
    | ⟨12, _⟩ => exact hX12 t d
    | ⟨13, _⟩ => exact hX13 t d
    | ⟨14, _⟩ => exact hX14 t d
    | ⟨15, _⟩ => exact hX15 t d
    | ⟨n + 16, h⟩ => exact absurd h (by omega)
  have e : 128 * (l.val / 128) + l.val % 128 = l.val := by omega
  refine (concatenate_ofFn_apply (t := S2048x512) (s₁ := S128x512) (0 : Fin 2) ![X0, X1, X2, X3, X4, X5, X6, X7, X8, X9, X10, X11, X12, X13, X14, X15] _ rfl 128 rfl (ix2 l d)
    (⟨l.val / 128, by omega⟩ : Fin 16) rfl (ix2 (⟨l.val % 128, by omega⟩ : Fin 128) d) rfl (row_hi _ _ _)).trans ?_
  refine (hf _ _).trans ?_
  show ((sl (128 * (l.val / 128) + l.val % 128) d.val : ℝ) : EReal) = _
  rw [e]

/-- A row per chunk, repeated down the chunk's 128 rows. -/
theorem bcastRows_apply (Y : FVec Ideal S16x512 .f32) (l : Fin 2048) (d : Fin 512) (g : Fin 16) (hg : g.val = l.val / 128) :
    shapeCast S2048x512 (broadcastTo S16x128x512 (shapeCast S16x1x512 (shapeCast S16x1x512 Y shapeCasts_S16x512_S16x1x512)
      shapeCasts_S16x1x512_S16x1x512) broadcasts_S16x1x512_S16x128x512) shapeCasts_S16x128x512_S2048x512 (ix2 l d) = Y (ix2 g d) := by
  have hl := l.isLt
  have hgl := g.isLt
  refine cast_eq (ix3 g (⟨l.val % 128, by omega⟩ : Fin 128) d) ?_ ?_
  · rw [Shape.rowMajor_val_three, Shape.rowMajor_val_two]
    show (g.val * 128 + l.val % 128) * 512 + d.val = l.val * 512 + d.val
    omega
  refine bcast_eq (ix3 g (0 : Fin 1) d) (fun a => match a with | ⟨0, _⟩ => rfl | ⟨1, _⟩ => rfl | ⟨2, _⟩ => rfl) ?_
  refine cast_eq (ix3 g (0 : Fin 1) d) rfl ?_
  refine cast_eq (ix2 g d) ?_ rfl
  rw [Shape.rowMajor_val_three, Shape.rowMajor_val_two]
  show g.val * 512 + d.val = (g.val * 1 + 0) * 512 + d.val
  omega

end Cert.HNet

end
-- ==== Proof.KCarry.lean ====
import proofs.«109756_g14800457302192_cont_week2b_463_21_alg».proof.Proof.Gen.KernelIdeal.Skeleton
import proofs.«109756_g14800457302192_cont_week2b_463_21_alg».proof.Proof.Spec
import proofs.«109756_g14800457302192_cont_week2b_463_21_alg».proof.Proof.Words
import proofs.«109756_g14800457302192_cont_week2b_463_21_alg».proof.Proof.KStep
import proofs.«109756_g14800457302192_cont_week2b_463_21_alg».proof.Proof.KAgg
import Idealize.ShloMosaic.Lib.ValueIdx
import Idealize.ShloMosaic.Lib.Pipeline.Value
import Idealize.ShloMosaic.PureOps.Ideal.Laws

noncomputable section

open scoped BigOperators

/-! The carry across chunks and the final sum: four doubling-scan steps over the sixteen chunk aggregates, the state
before each chunk, and `h + local scan + running product * state before the chunk`. -/

namespace Cert.HNet

open Idealize.ShloMosaic Idealize.ShloMosaic.ValueIdx Cert.KernelIdeal Cert.KernelIdeal.Gen

/-- The pair the scan over the chunks starts from, for column `e`: each chunk's product and the last row of its local scan. -/
private def agg (ap : ℕ → ℝ) (sl : ℕ → ℕ → ℝ) (e : ℕ) : (ℕ → ℝ) × (ℕ → ℝ) :=
  (fun g => ap (g * 128 + 127), fun g => sl (g * 128 + 127) e)

/-- The scanned states moved down one chunk behind a zero row and repeated down each chunk: row `l` reads the state
    before its chunk, `0` in chunk `0` and the state after chunk `l / 128 - 1` elsewhere. -/
private theorem before_apply (T : FVec Ideal S16x512 .f32) (τ : ℕ → ℕ → ℝ)
    (hT : ∀ (g : Fin 16) (d : Fin 512), T (ix2 g d) = ((τ g.val d.val : ℝ) : EReal))
    (l : Fin 2048) (d : Fin 512) :
    shapeCast S2048x512 (broadcastTo S16x128x512 (shapeCast S16x1x512 (shapeCast S16x1x512
      (concatenate S16x512 0 [⟨S1x512, broadcast S1x512 (Scalar.ofBits .f32 0x00000000#32 : Ideal .f32)⟩,
        ⟨S15x512, extractStridedSlice S15x512 ![0, 0] T slices_S16x512_o0_0_S15x512⟩] concatenates_S1x512_S15x512_S16x512_d0)
      shapeCasts_S16x512_S16x1x512) shapeCasts_S16x1x512_S16x1x512) broadcasts_S16x1x512_S16x128x512)
      shapeCasts_S16x128x512_S2048x512 (ix2 l d)
      = (((if l.val / 128 = 0 then 0 else τ (l.val / 128 - 1) d.val : ℝ)) : EReal) := by
  have hg : l.val / 128 < 16 := by have := l.isLt; omega
  rw [bcastRows_apply _ l d ⟨l.val / 128, hg⟩ rfl]
  by_cases h0 : l.val / 128 = 0
  · rw [if_pos h0]
    refine (shift2_lt 512 1 15 _ T _ _ ⟨l.val / 128, hg⟩ d (by show l.val / 128 < 1; omega)).trans ?_
    exact ofBits_zero
  · rw [if_neg h0]
    refine (shift2_ge 512 1 15 _ T _ _ ⟨l.val / 128, hg⟩ ⟨l.val / 128 - 1, by omega⟩ d
      (by show l.val / 128 - 1 + 1 = l.val / 128; omega)).trans ?_
    exact hT _ d

/-- The input plus the stacked chunk-local scans plus the running products times a wide array, lane block by lane block. -/
private theorem tail_apply (V1 : FVec Ideal S2048x512 .f32) (V120 : FVec Ideal S2048x128 .f32)
    (X0 X1 X2 X3 X4 X5 X6 X7 X8 X9 X10 X11 X12 X13 X14 X15 : FVec Ideal S128x512 .f32) (Y : FVec Ideal S2048x512 .f32)
    (h : ℕ → ℕ → ℝ) (ap : ℕ → ℝ) (sl y : ℕ → ℕ → ℝ)
    (hV1 : ∀ (l : Fin 2048) (d : Fin 512), V1 (ix2 l d) = ((h l.val d.val : ℝ) : EReal))
    (hV120 : ∀ (l : Fin 2048) (j : Fin 128), V120 (ix2 l j) = ((ap l.val : ℝ) : EReal))
    (hX0 : ∀ (t : Fin 128) (d : Fin 512), X0 (ix2 t d) = ((sl (0 + t.val) d.val : ℝ) : EReal))
    (hX1 : ∀ (t : Fin 128) (d : Fin 512), X1 (ix2 t d) = ((sl (128 + t.val) d.val : ℝ) : EReal))
    (hX2 : ∀ (t : Fin 128) (d : Fin 512), X2 (ix2 t d) = ((sl (256 + t.val) d.val : ℝ) : EReal))
    (hX3 : ∀ (t : Fin 128) (d : Fin 512), X3 (ix2 t d) = ((sl (384 + t.val) d.val : ℝ) : EReal))
    (hX4 : ∀ (t : Fin 128) (d : Fin 512), X4 (ix2 t d) = ((sl (512 + t.val) d.val : ℝ) : EReal))
    (hX5 : ∀ (t : Fin 128) (d : Fin 512), X5 (ix2 t d) = ((sl (640 + t.val) d.val : ℝ) : EReal))
    (hX6 : ∀ (t : Fin 128) (d : Fin 512), X6 (ix2 t d) = ((sl (768 + t.val) d.val : ℝ) : EReal))
    (hX7 : ∀ (t : Fin 128) (d : Fin 512), X7 (ix2 t d) = ((sl (896 + t.val) d.val : ℝ) : EReal))
    (hX8 : ∀ (t : Fin 128) (d : Fin 512), X8 (ix2 t d) = ((sl (1024 + t.val) d.val : ℝ) : EReal))
    (hX9 : ∀ (t : Fin 128) (d : Fin 512), X9 (ix2 t d) = ((sl (1152 + t.val) d.val : ℝ) : EReal))
    (hX10 : ∀ (t : Fin 128) (d : Fin 512), X10 (ix2 t d) = ((sl (1280 + t.val) d.val : ℝ) : EReal))
    (hX11 : ∀ (t : Fin 128) (d : Fin 512), X11 (ix2 t d) = ((sl (1408 + t.val) d.val : ℝ) : EReal))
    (hX12 : ∀ (t : Fin 128) (d : Fin 512), X12 (ix2 t d) = ((sl (1536 + t.val) d.val : ℝ) : EReal))
    (hX13 : ∀ (t : Fin 128) (d : Fin 512), X13 (ix2 t d) = ((sl (1664 + t.val) d.val : ℝ) : EReal))
    (hX14 : ∀ (t : Fin 128) (d : Fin 512), X14 (ix2 t d) = ((sl (1792 + t.val) d.val : ℝ) : EReal))
    (hX15 : ∀ (t : Fin 128) (d : Fin 512), X15 (ix2 t d) = ((sl (1920 + t.val) d.val : ℝ) : EReal))
    (hY : ∀ (l : Fin 2048) (d : Fin 512), Y (ix2 l d) = ((y l.val d.val : ℝ) : EReal))
    (l : Fin 2048) (d : Fin 512) :
    addf (addf V1 (concatenate S2048x512 0 [⟨S128x512, X0⟩, ⟨S128x512, X1⟩, ⟨S128x512, X2⟩, ⟨S128x512, X3⟩, ⟨S128x512, X4⟩, ⟨S128x512, X5⟩, ⟨S128x512, X6⟩, ⟨S128x512, X7⟩, ⟨S128x512, X8⟩, ⟨S128x512, X9⟩, ⟨S128x512, X10⟩, ⟨S128x512, X11⟩, ⟨S128x512, X12⟩, ⟨S128x512, X13⟩, ⟨S128x512, X14⟩, ⟨S128x512, X15⟩] concatenates_S128x512_S128x512_S128x512_S128x512_S128x512_S128x512_S128x512_S128x512_S128x512_S128x512_S128x512_S128x512_S128x512_S128x512_S128x512_S128x512_S2048x512_d0))
      (concatenate S2048x512 1
        [⟨S2048x128, mulf V120 (extractStridedSlice S2048x128 ![0, 0] Y slices_S2048x512_o0_0_S2048x128)⟩,
         ⟨S2048x128, mulf V120 (extractStridedSlice S2048x128 ![0, 128] Y slices_S2048x512_o0_128_S2048x128)⟩,
         ⟨S2048x128, mulf V120 (extractStridedSlice S2048x128 ![0, 256] Y slices_S2048x512_o0_256_S2048x128)⟩,
         ⟨S2048x128, mulf V120 (extractStridedSlice S2048x128 ![0, 384] Y slices_S2048x512_o0_384_S2048x128)⟩]
        concatenates_S2048x128_S2048x128_S2048x128_S2048x128_S2048x512_d1) (ix2 l d)
      = ((h l.val d.val + sl l.val d.val + ap l.val * y l.val d.val : ℝ) : EReal) := by
  rw [addf_apply, addf_apply, hV1 l d, blocks_apply X0 X1 X2 X3 X4 X5 X6 X7 X8 X9 X10 X11 X12 X13 X14 X15 sl hX0 hX1 hX2 hX3 hX4 hX5 hX6 hX7 hX8 hX9 hX10 hX11 hX12 hX13 hX14 hX15 l d,
    lanesMul_apply 2048 V120 Y ap y hV120 hY _ _ _ _ _ l d]
  rw [EReal.coe_add, EReal.coe_add]

/-- The block's value at row `l`, column `d`, from the input `h`, the chunk-local running products `ap` and the
    chunk-local scans `sl`. -/
theorem pay48_apply (V1 : FVec Ideal S2048x512 .f32) (V120 : FVec Ideal S2048x128 .f32)
    (X0 X1 X2 X3 X4 X5 X6 X7 X8 X9 X10 X11 X12 X13 X14 X15 : FVec Ideal S128x512 .f32) (R0 R1 R2 R3 R4 : FVec Ideal S1x512 .f32)
    (h : ℕ → ℕ → ℝ) (ap : ℕ → ℝ) (sl : ℕ → ℕ → ℝ)
    (hV1 : ∀ (l : Fin 2048) (d : Fin 512), V1 (ix2 l d) = ((h l.val d.val : ℝ) : EReal))
    (hV120 : ∀ (l : Fin 2048) (j : Fin 128), V120 (ix2 l j) = ((ap l.val : ℝ) : EReal))
    (hX0 : ∀ (t : Fin 128) (d : Fin 512), X0 (ix2 t d) = ((sl (0 + t.val) d.val : ℝ) : EReal))
    (hX1 : ∀ (t : Fin 128) (d : Fin 512), X1 (ix2 t d) = ((sl (128 + t.val) d.val : ℝ) : EReal))
    (hX2 : ∀ (t : Fin 128) (d : Fin 512), X2 (ix2 t d) = ((sl (256 + t.val) d.val : ℝ) : EReal))
    (hX3 : ∀ (t : Fin 128) (d : Fin 512), X3 (ix2 t d) = ((sl (384 + t.val) d.val : ℝ) : EReal))
    (hX4 : ∀ (t : Fin 128) (d : Fin 512), X4 (ix2 t d) = ((sl (512 + t.val) d.val : ℝ) : EReal))
    (hX5 : ∀ (t : Fin 128) (d : Fin 512), X5 (ix2 t d) = ((sl (640 + t.val) d.val : ℝ) : EReal))
    (hX6 : ∀ (t : Fin 128) (d : Fin 512), X6 (ix2 t d) = ((sl (768 + t.val) d.val : ℝ) : EReal))
    (hX7 : ∀ (t : Fin 128) (d : Fin 512), X7 (ix2 t d) = ((sl (896 + t.val) d.val : ℝ) : EReal))
    (hX8 : ∀ (t : Fin 128) (d : Fin 512), X8 (ix2 t d) = ((sl (1024 + t.val) d.val : ℝ) : EReal))
    (hX9 : ∀ (t : Fin 128) (d : Fin 512), X9 (ix2 t d) = ((sl (1152 + t.val) d.val : ℝ) : EReal))
    (hX10 : ∀ (t : Fin 128) (d : Fin 512), X10 (ix2 t d) = ((sl (1280 + t.val) d.val : ℝ) : EReal))
    (hX11 : ∀ (t : Fin 128) (d : Fin 512), X11 (ix2 t d) = ((sl (1408 + t.val) d.val : ℝ) : EReal))
    (hX12 : ∀ (t : Fin 128) (d : Fin 512), X12 (ix2 t d) = ((sl (1536 + t.val) d.val : ℝ) : EReal))
    (hX13 : ∀ (t : Fin 128) (d : Fin 512), X13 (ix2 t d) = ((sl (1664 + t.val) d.val : ℝ) : EReal))
    (hX14 : ∀ (t : Fin 128) (d : Fin 512), X14 (ix2 t d) = ((sl (1792 + t.val) d.val : ℝ) : EReal))
    (hX15 : ∀ (t : Fin 128) (d : Fin 512), X15 (ix2 t d) = ((sl (1920 + t.val) d.val : ℝ) : EReal))
    (hR0 : ∀ d : Fin 512, R0 (ix2 (0 : Fin 1) d) = ((sl 127 d.val : ℝ) : EReal))
    (hR1 : ∀ d : Fin 512, R1 (ix2 (0 : Fin 1) d) = ((sl 255 d.val : ℝ) : EReal))
    (hR2 : ∀ d : Fin 512, R2 (ix2 (0 : Fin 1) d) = ((sl 383 d.val : ℝ) : EReal))
    (hR3 : ∀ d : Fin 512, R3 (ix2 (0 : Fin 1) d) = ((sl 511 d.val : ℝ) : EReal))
    (hR4 : ∀ d : Fin 512, R4 (ix2 (0 : Fin 1) d) = ((sl 639 d.val : ℝ) : EReal))
    (l : Fin 2048) (d : Fin 512) :
    k0_pay48 V1 V120 X0 X1 X2 X3 X4 X5 X6 X7 X8 X9 X10 X11 X12 X13 X14 X15
      (k0_pay42 V120 X5 X6 X7 X8 X9 X10 X11 X12 X13 X14 X15 R0 R1 R2 R3 R4) (k0_pay43 V120) (k0_pay44 V120 X5 X6 X7 X8 X9 X10 X11 X12 X13 X14 X15 R0 R1 R2 R3 R4) (k0_pay45 V120)
      (k0_pay46 V120 X5 X6 X7 X8 X9 X10 X11 X12 X13 X14 X15 R0 R1 R2 R3 R4) (k0_pay47 V120 X5 X6 X7 X8 X9 X10 X11 X12 X13 X14 X15 R0 R1 R2 R3 R4) (ix2 l d)
      = ((h l.val d.val + sl l.val d.val
          + ap l.val * (if l.val / 128 = 0 then 0 else
              (scanIter 4 (fun g => ap (g * 128 + 127), fun g => sl (g * 128 + 127) d.val)).2 (l.val / 128 - 1)) : ℝ) : EReal) := by
  -- the chunk products and the chunk-local last rows are the pair the scan starts from; one step at stride 1
  have hA1 : ∀ (g : Fin 16) (j : Fin 128) (e : ℕ),
      k0_pay43 V120 (ix2 g j) = (((scanIter 1 (agg ap sl e)).1 g.val : ℝ) : EReal) := fun g j e =>
    step2_fst 1 15 (k0_pay41 V120) (agg ap sl e).1 (agg ap sl e).2 (pay41_apply V120 ap hV120)
      slices_S16x128_o0_0_S15x128 concatenates_S1x128_S15x128_S16x128_d0 g j
  have hS1 : ∀ (g : Fin 16) (e : Fin 512),
      k0_pay42 V120 X5 X6 X7 X8 X9 X10 X11 X12 X13 X14 X15 R0 R1 R2 R3 R4 (ix2 g e) = (((scanIter 1 (agg ap sl e.val)).2 g.val : ℝ) : EReal) := fun g e =>
    step2_snd 1 15 (k0_pay41 V120) _ (fun g => ap (g * 128 + 127)) (fun g e => sl (g * 128 + 127) e)
      (pay41_apply V120 ap hV120)
      (lastRows_apply X5 X6 X7 X8 X9 X10 X11 X12 X13 X14 X15 R0 R1 R2 R3 R4 sl hX5 hX6 hX7 hX8 hX9 hX10 hX11 hX12 hX13 hX14 hX15 hR0 hR1 hR2 hR3 hR4)
      slices_S16x512_o0_0_S15x512 concatenates_S1x512_S15x512_S16x512_d0 slices_S16x512_o0_0_S16x128 slices_S16x512_o0_128_S16x128 slices_S16x512_o0_256_S16x128 slices_S16x512_o0_384_S16x128 concatenates_S16x128_S16x128_S16x128_S16x128_S16x512_d1 g e
  -- the products after the stride-2 step
  have hA2 : ∀ (g : Fin 16) (j : Fin 128) (e : ℕ),
      mulf (k0_pay43 V120) (k0_pay45 V120) (ix2 g j) = (((scanIter 2 (agg ap sl e)).1 g.val : ℝ) : EReal) := fun g j e =>
    step2_fst 2 14 (k0_pay43 V120) (scanIter 1 (agg ap sl e)).1 (scanIter 1 (agg ap sl e)).2 (fun g j => hA1 g j e)
      slices_S16x128_o0_0_S14x128 concatenates_S2x128_S14x128_S16x128_d0 g j
  -- the sum, with the state before each chunk read off the four-step scan
  refine tail_apply V1 V120 X0 X1 X2 X3 X4 X5 X6 X7 X8 X9 X10 X11 X12 X13 X14 X15 _ h ap sl
    (fun l e => if l / 128 = 0 then 0 else (scanIter 4 (agg ap sl e)).2 (l / 128 - 1))
    hV1 hV120 hX0 hX1 hX2 hX3 hX4 hX5 hX6 hX7 hX8 hX9 hX10 hX11 hX12 hX13 hX14 hX15 ?_ l d
  intro l d
  refine before_apply _ (fun g e => (scanIter 4 (agg ap sl e)).2 g) ?_ l d
  -- the stride-8 step
  intro g d
  refine step2_snd 8 8 _ _ (scanIter 3 (agg ap sl d.val)).1 (fun g' e => (scanIter 3 (agg ap sl e)).2 g') ?_ ?_
    slices_S16x512_o0_0_S8x512 concatenates_S8x512_S8x512_S16x512_d0 slices_S16x512_o0_0_S16x128 slices_S16x512_o0_128_S16x128 slices_S16x512_o0_256_S16x128 slices_S16x512_o0_384_S16x128 concatenates_S16x128_S16x128_S16x128_S16x128_S16x512_d1 g d
  · -- the products after the stride-4 step
    intro g j
    exact step2_fst 4 12 _ (scanIter 2 (agg ap sl d.val)).1 (scanIter 2 (agg ap sl d.val)).2 (fun g j => hA2 g j d.val)
      slices_S16x128_o0_0_S12x128 concatenates_S4x128_S12x128_S16x128_d0 g j
  · -- the states after the stride-4 step
    intro g d
    refine step2_snd 4 12 _ _ (scanIter 2 (agg ap sl d.val)).1 (fun g' e => (scanIter 2 (agg ap sl e)).2 g')
      (fun g j => hA2 g j d.val) ?_
      slices_S16x512_o0_0_S12x512 concatenates_S4x512_S12x512_S16x512_d0 slices_S16x512_o0_0_S16x128 slices_S16x512_o0_128_S16x128 slices_S16x512_o0_256_S16x128 slices_S16x512_o0_384_S16x128 concatenates_S16x128_S16x128_S16x128_S16x128_S16x512_d1 g d
    -- the states after the stride-2 step
    intro g d
    exact step2_snd 2 14 _ _ (scanIter 1 (agg ap sl d.val)).1 (fun g' e => (scanIter 1 (agg ap sl e)).2 g')
      (fun g j => hA1 g j d.val) hS1
      slices_S16x512_o0_0_S14x512 concatenates_S2x512_S14x512_S16x512_d0 slices_S16x512_o0_0_S16x128 slices_S16x512_o0_128_S16x128 slices_S16x512_o0_256_S16x128 slices_S16x512_o0_384_S16x128 concatenates_S16x128_S16x128_S16x128_S16x128_S16x512_d1 g d

end Cert.HNet

end
-- ==== Proof.AffRec.lean ====
import proofs.«109756_g14800457302192_cont_week2b_463_21_alg».proof.Proof.Spec

noncomputable section

open scoped BigOperators

/-! Facts about the first-order recurrence `affRec`: it vanishes while its offsets vanish, it is linear in
its offsets, and it can be restarted at a chunk boundary from the state carried in. -/

namespace Cert.HNet

/-- The recurrence is zero as long as every offset so far is zero. -/
theorem affRec_eq_zero (a b : ℕ → ℝ) : ∀ t, (∀ i, i ≤ t → b i = 0) → affRec a b t = 0
  | 0, h => by
    show b 0 = 0
    exact h 0 (Nat.le_refl 0)
  | t + 1, h => by
    show a (t + 1) * affRec a b t + b (t + 1) = 0
    rw [affRec_eq_zero a b t (fun i hi => h i (Nat.le_succ_of_le hi)), h (t + 1) (Nat.le_refl _),
      mul_zero, add_zero]

/-- The response to a unit impulse at `j` is zero before `j`. -/
theorem affRec_impulse_lt (a : ℕ → ℝ) (j t : ℕ) (ht : t < j) :
    affRec a (fun i => if i = j then 1 else 0) t = 0 :=
  affRec_eq_zero a _ t (fun i hi => if_neg (by omega))

/-- The recurrence is linear in its offsets: a finite combination of offset sequences gives the same
combination of the recurrences. -/
theorem affRec_sum {ι : Type*} (a : ℕ → ℝ) (s : Finset ι) (c : ι → ℝ) (β : ι → ℕ → ℝ) :
    ∀ t, affRec a (fun i => ∑ j ∈ s, c j * β j i) t = ∑ j ∈ s, c j * affRec a (β j) t
  | 0 => rfl
  | t + 1 => by
    show a (t + 1) * affRec a (fun i => ∑ j ∈ s, c j * β j i) t + ∑ j ∈ s, c j * β j (t + 1)
      = ∑ j ∈ s, c j * (a (t + 1) * affRec a (β j) t + β j (t + 1))
    rw [affRec_sum a s c β t, Finset.mul_sum, ← Finset.sum_add_distrib]
    exact Finset.sum_congr rfl (fun j _ => by ring)

/-- Restarting the recurrence after position `n`: the recurrence of the shifted coefficients from a zero
state, plus the shifted running product times the state at `n`. -/
theorem affRec_shift (a b : ℕ → ℝ) (n : ℕ) :
    ∀ t, affRec a b (n + 1 + t) =
      affRec (fun i => a (n + 1 + i)) (fun i => b (n + 1 + i)) t
        + prodTo (fun i => a (n + 1 + i)) t * affRec a b n
  | 0 => by
    show a (n + 1) * affRec a b n + b (n + 1) = b (n + 1 + 0) + a (n + 1 + 0) * affRec a b n
    rw [Nat.add_zero]
    ring
  | t + 1 => by
    show a (n + 1 + t + 1) * affRec a b (n + 1 + t) + b (n + 1 + t + 1)
      = a (n + 1 + (t + 1)) * affRec (fun i => a (n + 1 + i)) (fun i => b (n + 1 + i)) t
          + b (n + 1 + (t + 1))
        + a (n + 1 + (t + 1)) * prodTo (fun i => a (n + 1 + i)) t * affRec a b n
    rw [affRec_shift a b n t, ← Nat.add_assoc (n + 1) t 1]
    ring

/-- The recurrence inside chunk `g` of length `T`: the chunk's own recurrence from a zero state, plus the
chunk's running product times the state carried in from the end of the previous chunk (nothing is carried
into chunk `0`). -/
theorem affRec_chunk (a b : ℕ → ℝ) (g T t : ℕ) (hT : 0 < T) :
    affRec a b (g * T + t) =
      affRec (fun i => a (g * T + i)) (fun i => b (g * T + i)) t
        + prodTo (fun i => a (g * T + i)) t * (if g = 0 then 0 else affRec a b (g * T - 1)) := by
  rcases Nat.eq_zero_or_pos g with hg | hg
  · subst hg
    rw [if_pos rfl, mul_zero, add_zero, Nat.zero_mul, Nat.zero_add]
    have ha : (fun i => a (0 + i)) = a := funext fun i => by rw [Nat.zero_add]
    have hb : (fun i => b (0 + i)) = b := funext fun i => by rw [Nat.zero_add]
    rw [ha, hb]
  · obtain ⟨n, hn⟩ : ∃ n, g * T = n + 1 := ⟨g * T - 1, by have := Nat.mul_pos hg hT; omega⟩
    rw [if_neg (by omega), hn, Nat.add_sub_cancel]
    exact affRec_shift a b n t

end Cert.HNet

end
-- ==== Proof.KChunk.lean ====
import proofs.«109756_g14800457302192_cont_week2b_463_21_alg».proof.Proof.Spec
import proofs.«109756_g14800457302192_cont_week2b_463_21_alg».proof.Proof.Scan
import proofs.«109756_g14800457302192_cont_week2b_463_21_alg».proof.Proof.AffRec

noncomputable section

open scoped BigOperators

/-! The first-order recurrence cut into chunks of 128: inside a chunk it is the chunk-local recurrence
(a combination of the chunk's unit-impulse responses) plus the chunk-local running product times the
state at the end of the previous chunk, and the chunk-end states are again a recurrence over the chunks. -/

namespace Cert.HNet

/-- The recurrence up to `t` only reads the offsets up to `t`. -/
theorem affRec_congr_offsets (a b b' : ℕ → ℝ) :
    ∀ t, (∀ i, i ≤ t → b i = b' i) → affRec a b t = affRec a b' t
  | 0, h => by
    show b 0 = b' 0
    exact h 0 (Nat.le_refl 0)
  | t + 1, h => by
    show a (t + 1) * affRec a b t + b (t + 1) = a (t + 1) * affRec a b' t + b' (t + 1)
    rw [affRec_congr_offsets a b b' t (fun i hi => h i (Nat.le_succ_of_le hi)), h (t + 1) (Nat.le_refl _)]

/-- Below `T` the recurrence is the combination of the unit-impulse responses at `j < T` with the
offsets as weights: the offsets below `T` are that combination of impulses, and the recurrence is linear. -/
theorem affRec_impulse_sum (a b : ℕ → ℝ) (T t : ℕ) (ht : t < T) :
    affRec a b t = ∑ j : Fin T, affRec a (fun i => if i = j.val then 1 else 0) t * b j.val := by
  have hb : ∀ i, i ≤ t → b i = ∑ j : Fin T, b j.val * (if i = j.val then 1 else 0) := by
    intro i hi
    have hiT : i < T := by omega
    rw [Finset.sum_eq_single (⟨i, hiT⟩ : Fin T)]
    · show b i = b i * (if i = i then 1 else 0)
      rw [if_pos rfl, mul_one]
    · intro j _ hj
      have hne : i ≠ j.val := fun h => hj (Fin.ext h.symm)
      rw [if_neg hne, mul_zero]
    · intro h
      exact absurd (Finset.mem_univ _) h
  rw [affRec_congr_offsets a b _ t hb,
    affRec_sum a Finset.univ (fun j : Fin T => b j.val) (fun j i => if i = j.val then 1 else 0) t]
  exact Finset.sum_congr rfl (fun j _ => mul_comm _ _)

/-- The states at the chunk ends are the recurrence over the chunks whose coefficient is the chunk's full
running product and whose offset is the chunk's own recurrence from a zero state. -/
theorem affRec_chunkEnd (a b A B : ℕ → ℝ)
    (hA : ∀ g, A g = prodTo (fun i => a (g * 128 + i)) 127)
    (hB : ∀ g, B g = ∑ j : Fin 128,
      affRec (fun i => a (g * 128 + i)) (fun i => if i = j.val then 1 else 0) 127 * b (g * 128 + j.val)) :
    ∀ g, affRec a b (g * 128 + 127) = affRec A B g
  | 0 => by
    rw [affRec_chunk a b 0 128 127 (by norm_num), if_pos rfl, mul_zero, add_zero]
    show _ = B 0
    rw [hB 0]
    exact affRec_impulse_sum (fun i => a (0 * 128 + i)) (fun i => b (0 * 128 + i)) 128 127 (by norm_num)
  | g + 1 => by
    have hidx : (g + 1) * 128 - 1 = g * 128 + 127 := by omega
    rw [affRec_chunk a b (g + 1) 128 127 (by norm_num), if_neg (Nat.succ_ne_zero g), hidx,
      affRec_chunkEnd a b A B hA hB g]
    show _ = A (g + 1) * affRec A B g + B (g + 1)
    rw [hA (g + 1), hB (g + 1), add_comm]
    congr 1
    exact affRec_impulse_sum (fun i => a ((g + 1) * 128 + i)) (fun i => b ((g + 1) * 128 + i)) 128 127
      (by norm_num)

/-- The recurrence read inside chunk `g` at offset `t`. -/
theorem affRec_chunked (a b : ℕ → ℝ) (g t : ℕ) (ht : t < 128) :
    affRec a b (g * 128 + t)
      = (∑ j : Fin 128, affRec (fun i => a (g * 128 + i)) (fun i => if i = j.val then 1 else 0) t * b (g * 128 + j.val))
        + prodTo (fun i => a (g * 128 + i)) t
          * (if g = 0 then 0 else
              affRec (fun g' => prodTo (fun i => a (g' * 128 + i)) 127)
                (fun g' => ∑ j : Fin 128,
                  affRec (fun i => a (g' * 128 + i)) (fun i => if i = j.val then 1 else 0) 127 * b (g' * 128 + j.val))
                (g - 1)) := by
  rw [affRec_chunk a b g 128 t (by norm_num),
    affRec_impulse_sum (fun i => a (g * 128 + i)) (fun i => b (g * 128 + i)) 128 t ht]
  rcases Nat.eq_zero_or_pos g with hg | hg
  · subst hg
    rw [if_pos rfl, if_pos rfl]
  · have hne : g ≠ 0 := by omega
    have hidx : g * 128 - 1 = (g - 1) * 128 + 127 := by omega
    rw [if_neg hne, if_neg hne, hidx,
      affRec_chunkEnd a b _ _ (fun _ => rfl) (fun _ => rfl) (g - 1)]

end Cert.HNet

end
-- ==== Proof.KFinal.lean ====
import proofs.«109756_g14800457302192_cont_week2b_463_21_alg».proof.Proof.Spec
import proofs.«109756_g14800457302192_cont_week2b_463_21_alg».proof.Proof.Scan
import proofs.«109756_g14800457302192_cont_week2b_463_21_alg».proof.Proof.KChunk

noncomputable section

open scoped BigOperators

/-! What the kernel's pieces are as real numbers, row by row, and why they add up to the recurrence. -/

namespace Cert.HNet

/-- The running product of the decays from the start of row `l`'s chunk to `l`. -/
def apR (a : ℕ → ℝ) (l : ℕ) : ℝ := prodTo (fun i => a (l / 128 * 128 + i)) (l % 128)

/-- The response at row `l` to a unit impulse at offset `j` of `l`'s chunk. -/
def lmR (a : ℕ → ℝ) (l j : ℕ) : ℝ :=
  affRec (fun i => a (l / 128 * 128 + i)) (fun i => if i = j then 1 else 0) (l % 128)

/-- The chunk-local recurrence at row `l`, column `d`: the chunk's impulse responses weighted by the chunk's driving terms. -/
def slR (a : ℕ → ℝ) (b : ℕ → ℕ → ℝ) (l d : ℕ) : ℝ :=
  ∑ j : Fin 128, lmR a l j.val * b (l / 128 * 128 + j.val) d

theorem apR_end (a : ℕ → ℝ) (g : ℕ) : apR a (g * 128 + 127) = prodTo (fun i => a (g * 128 + i)) 127 := by
  unfold apR
  rw [show (g * 128 + 127) / 128 = g by omega, show (g * 128 + 127) % 128 = 127 by omega]

theorem slR_end (a : ℕ → ℝ) (b : ℕ → ℕ → ℝ) (g d : ℕ) :
    slR a b (g * 128 + 127) d
      = ∑ j : Fin 128, affRec (fun i => a (g * 128 + i)) (fun i => if i = j.val then 1 else 0) 127 * b (g * 128 + j.val) d := by
  unfold slR lmR
  rw [show (g * 128 + 127) / 128 = g by omega, show (g * 128 + 127) % 128 = 127 by omega]

/-- The chunk-local recurrence plus the chunk-local running product times the state before the chunk — that state
    being the doubling scan, over the chunks, of the chunks' full products and end values — is the recurrence. -/
theorem final_real (a : ℕ → ℝ) (b : ℕ → ℕ → ℝ) (l d : ℕ) (hl : l < 2048) :
    slR a b l d + apR a l * (if l / 128 = 0 then 0 else
        (scanIter 4 (fun g => apR a (g * 128 + 127), fun g => slR a b (g * 128 + 127) d)).2 (l / 128 - 1))
      = affRec a (fun i => b i d) l := by
  have hg : l / 128 - 1 < 2 ^ 4 := by
    have : l / 128 < 16 := by omega
    norm_num; omega
  rw [scanIter_snd _ _ 4 _ hg]
  have hl' : l / 128 * 128 + l % 128 = l := by omega
  conv_rhs => rw [← hl']
  rw [affRec_chunked a (fun i => b i d) (l / 128) (l % 128) (Nat.mod_lt _ (by norm_num))]
  rw [funext (apR_end a), funext (fun g => slR_end a b g d)]
  rfl

end Cert.HNet

end
-- ==== Proof.KernelBlock.lean ====
import proofs.«109756_g14800457302192_cont_week2b_463_21_alg».proof.Proof.Gen.KernelIdeal.Value
import proofs.«109756_g14800457302192_cont_week2b_463_21_alg».proof.Proof.Spec
import proofs.«109756_g14800457302192_cont_week2b_463_21_alg».proof.Proof.Scan
import proofs.«109756_g14800457302192_cont_week2b_463_21_alg».proof.Proof.Words
import proofs.«109756_g14800457302192_cont_week2b_463_21_alg».proof.Proof.KCols
import proofs.«109756_g14800457302192_cont_week2b_463_21_alg».proof.Proof.KProb
import proofs.«109756_g14800457302192_cont_week2b_463_21_alg».proof.Proof.KMat
import proofs.«109756_g14800457302192_cont_week2b_463_21_alg».proof.Proof.KScan
import proofs.«109756_g14800457302192_cont_week2b_463_21_alg».proof.Proof.KCarry
import proofs.«109756_g14800457302192_cont_week2b_463_21_alg».proof.Proof.KFinal
import Idealize.ShloMosaic.Lib.ValueIdx
import Idealize.ShloMosaic.Lib.Pipeline.Value

noncomputable section

/-! One grid point of the kernel computes the specification's result for its batch row block. -/

namespace Cert.HNet

open Idealize.ShloMosaic Idealize.ShloMosaic.ValueIdx Cert.KernelIdeal Cert.KernelIdeal.Gen

/-! ## The intermediate vectors of the body, as functions of the three input blocks -/

/-- The input block as a matrix. -/
abbrev V1 (P0 : Vec Ideal S1x2048x512 .f32) : FVec Ideal S2048x512 .f32 := k0_pay2 P0
/-- The boundary-probability column. -/
abbrev V36 (P0 : Vec Ideal S1x2048x512 .f32) (P1 P2 : Vec Ideal S512x512 .f32) : FVec Ideal S2048x1 .f32 := k0_pay3 P0 P1 P2
/-- The threshold one half. -/
abbrev V37 : FVec Ideal S2048x1 .f32 := k0_pay4 (F := Ideal)
/-- The gain column. -/
abbrev V48 (P0 : Vec Ideal S1x2048x512 .f32) (P1 P2 : Vec Ideal S512x512 .f32) : FVec Ideal S2048x128 .f32 := k0_pay6 (V36 P0 P1 P2) V37
/-- The transfer matrices after three steps. -/
abbrev V81 (P0 : Vec Ideal S1x2048x512 .f32) (P1 P2 : Vec Ideal S512x512 .f32) : FVec Ideal S16x128x128 .f32 := k0_pay10 (V36 P0 P1 P2) V37
/-- The running products after three steps. -/
abbrev V82 (P0 : Vec Ideal S1x2048x512 .f32) (P1 P2 : Vec Ideal S512x512 .f32) : FVec Ideal S16x128x128 .f32 := k0_pay11 (V36 P0 P1 P2) V37
/-- Those products shifted by eight rows. -/
abbrev V85 (P0 : Vec Ideal S1x2048x512 .f32) (P1 P2 : Vec Ideal S512x512 .f32) : FVec Ideal S16x128x128 .f32 := k0_pay12 (V36 P0 P1 P2) V37
/-- The transfer matrices. -/
abbrev V119 (P0 : Vec Ideal S1x2048x512 .f32) (P1 P2 : Vec Ideal S512x512 .f32) : FVec Ideal S2048x128 .f32 := k0_pay16 (V81 P0 P1 P2) (V82 P0 P1 P2) (V85 P0 P1 P2)
/-- The chunk-local running products. -/
abbrev V120 (P0 : Vec Ideal S1x2048x512 .f32) (P1 P2 : Vec Ideal S512x512 .f32) : FVec Ideal S2048x128 .f32 := k0_pay17 (V82 P0 P1 P2) (V85 P0 P1 P2)
/-- The driving term. -/
abbrev V129 (P0 : Vec Ideal S1x2048x512 .f32) (P1 P2 : Vec Ideal S512x512 .f32) : FVec Ideal S2048x512 .f32 := k0_pay18 (V1 P0) (V48 P0 P1 P2)
/-- The local scan of chunk 0. -/
abbrev X0 (P0 : Vec Ideal S1x2048x512 .f32) (P1 P2 : Vec Ideal S512x512 .f32) : FVec Ideal S128x512 .f32 := k0_pay19 (V1 P0) (V48 P0 P1 P2) (V81 P0 P1 P2) (V82 P0 P1 P2) (V85 P0 P1 P2)
/-- The local scan of chunk 1. -/
abbrev X1 (P0 : Vec Ideal S1x2048x512 .f32) (P1 P2 : Vec Ideal S512x512 .f32) : FVec Ideal S128x512 .f32 := k0_pay20 (V1 P0) (V48 P0 P1 P2) (V81 P0 P1 P2) (V82 P0 P1 P2) (V85 P0 P1 P2)
/-- The local scan of chunk 2. -/
abbrev X2 (P0 : Vec Ideal S1x2048x512 .f32) (P1 P2 : Vec Ideal S512x512 .f32) : FVec Ideal S128x512 .f32 := k0_pay22 (V129 P0 P1 P2) (k0_pay21 (V81 P0 P1 P2) (V82 P0 P1 P2) (V85 P0 P1 P2))
/-- The local scan of chunk 3. -/
abbrev X3 (P0 : Vec Ideal S1x2048x512 .f32) (P1 P2 : Vec Ideal S512x512 .f32) : FVec Ideal S128x512 .f32 := k0_pay23 (V119 P0 P1 P2) (V129 P0 P1 P2)
/-- The local scan of chunk 4. -/
abbrev X4 (P0 : Vec Ideal S1x2048x512 .f32) (P1 P2 : Vec Ideal S512x512 .f32) : FVec Ideal S128x512 .f32 := k0_pay24 (V119 P0 P1 P2) (V129 P0 P1 P2)
/-- The local scan of chunk 5. -/
abbrev X5 (P0 : Vec Ideal S1x2048x512 .f32) (P1 P2 : Vec Ideal S512x512 .f32) : FVec Ideal S128x512 .f32 := k0_pay25 (V119 P0 P1 P2) (V129 P0 P1 P2)
/-- The local scan of chunk 6. -/
abbrev X6 (P0 : Vec Ideal S1x2048x512 .f32) (P1 P2 : Vec Ideal S512x512 .f32) : FVec Ideal S128x512 .f32 := k0_pay26 (V119 P0 P1 P2) (V129 P0 P1 P2)
/-- The local scan of chunk 7. -/
abbrev X7 (P0 : Vec Ideal S1x2048x512 .f32) (P1 P2 : Vec Ideal S512x512 .f32) : FVec Ideal S128x512 .f32 := k0_pay27 (V119 P0 P1 P2) (V129 P0 P1 P2)
/-- The local scan of chunk 8. -/
abbrev X8 (P0 : Vec Ideal S1x2048x512 .f32) (P1 P2 : Vec Ideal S512x512 .f32) : FVec Ideal S128x512 .f32 := k0_pay28 (V119 P0 P1 P2) (V129 P0 P1 P2)
/-- The local scan of chunk 9. -/
abbrev X9 (P0 : Vec Ideal S1x2048x512 .f32) (P1 P2 : Vec Ideal S512x512 .f32) : FVec Ideal S128x512 .f32 := k0_pay29 (V119 P0 P1 P2) (V129 P0 P1 P2)
/-- The local scan of chunk 10. -/
abbrev X10 (P0 : Vec Ideal S1x2048x512 .f32) (P1 P2 : Vec Ideal S512x512 .f32) : FVec Ideal S128x512 .f32 := k0_pay30 (V119 P0 P1 P2) (V129 P0 P1 P2)
/-- The local scan of chunk 11. -/
abbrev X11 (P0 : Vec Ideal S1x2048x512 .f32) (P1 P2 : Vec Ideal S512x512 .f32) : FVec Ideal S128x512 .f32 := k0_pay31 (V119 P0 P1 P2) (V129 P0 P1 P2)
/-- The local scan of chunk 12. -/
abbrev X12 (P0 : Vec Ideal S1x2048x512 .f32) (P1 P2 : Vec Ideal S512x512 .f32) : FVec Ideal S128x512 .f32 := k0_pay32 (V119 P0 P1 P2) (V129 P0 P1 P2)
/-- The local scan of chunk 13. -/
abbrev X13 (P0 : Vec Ideal S1x2048x512 .f32) (P1 P2 : Vec Ideal S512x512 .f32) : FVec Ideal S128x512 .f32 := k0_pay33 (V119 P0 P1 P2) (V129 P0 P1 P2)
/-- The local scan of chunk 14. -/
abbrev X14 (P0 : Vec Ideal S1x2048x512 .f32) (P1 P2 : Vec Ideal S512x512 .f32) : FVec Ideal S128x512 .f32 := k0_pay34 (V119 P0 P1 P2) (V129 P0 P1 P2)
/-- The local scan of chunk 15. -/
abbrev X15 (P0 : Vec Ideal S1x2048x512 .f32) (P1 P2 : Vec Ideal S512x512 .f32) : FVec Ideal S128x512 .f32 := k0_pay35 (V119 P0 P1 P2) (V129 P0 P1 P2)
/-- The last row of the local scan of chunk 0. -/
abbrev R0 (P0 : Vec Ideal S1x2048x512 .f32) (P1 P2 : Vec Ideal S512x512 .f32) : FVec Ideal S1x512 .f32 := k0_pay36 (X0 P0 P1 P2)
/-- The last row of the local scan of chunk 1. -/
abbrev R1 (P0 : Vec Ideal S1x2048x512 .f32) (P1 P2 : Vec Ideal S512x512 .f32) : FVec Ideal S1x512 .f32 := k0_pay37 (X1 P0 P1 P2)
/-- The last row of the local scan of chunk 2. -/
abbrev R2 (P0 : Vec Ideal S1x2048x512 .f32) (P1 P2 : Vec Ideal S512x512 .f32) : FVec Ideal S1x512 .f32 := k0_pay38 (V129 P0 P1 P2) (k0_pay21 (V81 P0 P1 P2) (V82 P0 P1 P2) (V85 P0 P1 P2))
/-- The last row of the local scan of chunk 3. -/
abbrev R3 (P0 : Vec Ideal S1x2048x512 .f32) (P1 P2 : Vec Ideal S512x512 .f32) : FVec Ideal S1x512 .f32 := k0_pay39 (V119 P0 P1 P2) (V129 P0 P1 P2)
/-- The last row of the local scan of chunk 4. -/
abbrev R4 (P0 : Vec Ideal S1x2048x512 .f32) (P1 P2 : Vec Ideal S512x512 .f32) : FVec Ideal S1x512 .f32 := k0_pay40 (V119 P0 P1 P2) (V129 P0 P1 P2)

/-- The last row of a chunk's local scan, cut out. -/
theorem lastRow_apply (X : FVec Ideal S128x512 .f32) (d : Fin 512) :
    extractStridedSlice S1x512 ![127, 0] X slices_S128x512_o127_0_S1x512 (ix2 (0 : Fin 1) d)
      = X (ix2 (⟨127, by norm_num⟩ : Fin 128) d) :=
  extractStridedSlice_apply _ _ _ _ _ (fun a => match a with
    | ⟨0, _⟩ => by show 127 = 127 + 0; rfl
    | ⟨1, _⟩ => by show d.val = 0 + d.val; omega)

/-- The stored block is the final sum with a unit batch axis in front. -/
theorem pay1_apply (v : FVec Ideal S2048x512 .f32) (l : Fin 2048) (d : Fin 512) :
    k0_pay1 v (ix3 (0 : Fin 1) l d) = v (ix2 l d) := by
  unfold k0_pay1
  refine shapeCast_apply v shapeCasts_S2048x512_S1x2048x512 (ix3 (0 : Fin 1) l d) (ix2 l d) ?_
  rw [Shape.rowMajor_val_two, Shape.rowMajor_val_three]
  show l.val * 512 + d.val = (0 * 2048 + l.val) * 512 + d.val
  omega

/-- A chunk's matrix product is the chunk-local recurrence of its rows. -/
theorem sl_of (a : ℕ → ℝ) (b : ℕ → ℕ → ℝ) (r g : ℕ) (hr : r = g * 128) (t : Fin 128) (d : ℕ) :
    (∑ j : Fin 128, lmR a (r + t.val) j.val * b (r + j.val) d) = slR a b (r + t.val) d := by
  unfold slR
  have h1 : (r + t.val) / 128 * 128 = r := by have := t.isLt; omega
  rw [h1]

/-- The piece's window starts at the block's origin with unit strides: its index map is the identity. -/
theorem r0_0_idx (x : S1x2048x512.Idx) : r0_0.idx x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- The block one grid point leaves, read at row `l` and column `d`, is the specification's result there,
    when the three input blocks hold the reals `h`, `Wq`, `Wk`. -/
theorem kernel_block (P0 : Vec Ideal S1x2048x512 .f32) (P1 P2 : Vec Ideal S512x512 .f32)
    (h Wq Wk : ℕ → ℕ → ℝ)
    (hP0 : ∀ (l : Fin 2048) (d : Fin 512), P0 (ix3 (0 : Fin 1) l d) = ((h l d : ℝ) : EReal))
    (hP1 : ∀ e d : Fin 512, P1 (ix2 e d) = ((Wq e d : ℝ) : EReal))
    (hP2 : ∀ e d : Fin 512, P2 (ix2 e d) = ((Wk e d : ℝ) : EReal))
    (l : Fin 2048) (d : Fin 512) :
    Cert.KernelIdeal.Value.E3 (F := Ideal) P0 P1 P2 (ix3 (0 : Fin 1) l d) = ((outR Wq Wk h l d : ℝ) : EReal) := by
  -- the real functions: the decays, the gains and the driving term
  let a : ℕ → ℝ := decay (prob Wq Wk h)
  let b : ℕ → ℕ → ℝ := fun i e => gain (prob Wq Wk h) i * h i e
  -- the vectors, stage by stage
  have hV1 : ∀ (l : Fin 2048) (d : Fin 512), V1 P0 (ix2 l d) = ((h l.val d.val : ℝ) : EReal) :=
    fun l d => (pay2_apply P0 l d).trans (hP0 l d)
  have hq := proj_apply (V1 P0) P1 h Wq hV1 hP1
  have hk := proj_apply (V1 P0) P2 h Wk hV1 hP2
  have hV36 : ∀ l : Fin 2048, V36 P0 P1 P2 (ix2 l (0 : Fin 1)) = ((prob Wq Wk h l.val : ℝ) : EReal) :=
    pay3_apply_of P0 P1 P2 Wq Wk h hq hk
  have hV48 := pay6_apply (V36 P0 P1 P2) (prob Wq Wk h) hV36
  have h55 := pay7_apply (V36 P0 P1 P2) (prob Wq Wk h) hV36
  have hlt : ∀ l : Fin 2048, l.val % 128 < 2 ^ 7 := fun l => Nat.mod_lt _ (by norm_num)
  have hL : ∀ (l : Fin 2048) (j : Fin 128), V119 P0 P1 P2 (ix2 l j) = ((lmR a l.val j.val : ℝ) : EReal) :=
    fun l j => (pay16_apply (V36 P0 P1 P2) V37 a h55 l j).trans (congrArg _ (scanIter_snd _ _ 7 _ (hlt l)))
  have hV120 : ∀ (l : Fin 2048) (j : Fin 128), V120 P0 P1 P2 (ix2 l j) = ((apR a l.val : ℝ) : EReal) :=
    fun l j => (pay17_apply (V36 P0 P1 P2) V37 a h55 l j).trans (congrArg _ (scanIter_fst _ _ 7 _ (hlt l)))
  have hb : ∀ (l : Fin 2048) (d : Fin 512), V129 P0 P1 P2 (ix2 l d) = ((b l.val d.val : ℝ) : EReal) :=
    pay18_apply (V1 P0) (V48 P0 P1 P2) h (gain (prob Wq Wk h)) hV1 hV48
  have hX0 : ∀ (t : Fin 128) (d : Fin 512), X0 P0 P1 P2 (ix2 t d) = ((slR a b (0 + t.val) d.val : ℝ) : EReal) :=
    fun t d => (pay19_apply (V1 P0) (V48 P0 P1 P2) (V81 P0 P1 P2) (V82 P0 P1 P2) (V85 P0 P1 P2) (lmR a) b hL hb t d).trans (congrArg _ (sl_of a b 0 0 (by norm_num) t d.val))
  have hX1 : ∀ (t : Fin 128) (d : Fin 512), X1 P0 P1 P2 (ix2 t d) = ((slR a b (128 + t.val) d.val : ℝ) : EReal) :=
    fun t d => (pay20_apply (V1 P0) (V48 P0 P1 P2) (V81 P0 P1 P2) (V82 P0 P1 P2) (V85 P0 P1 P2) (lmR a) b hL hb t d).trans (congrArg _ (sl_of a b 128 1 (by norm_num) t d.val))
  have hX2 : ∀ (t : Fin 128) (d : Fin 512), X2 P0 P1 P2 (ix2 t d) = ((slR a b (256 + t.val) d.val : ℝ) : EReal) :=
    fun t d => (pay22_apply (V129 P0 P1 P2) (V81 P0 P1 P2) (V82 P0 P1 P2) (V85 P0 P1 P2) (lmR a) b hL hb t d).trans (congrArg _ (sl_of a b 256 2 (by norm_num) t d.val))
  have hX3 : ∀ (t : Fin 128) (d : Fin 512), X3 P0 P1 P2 (ix2 t d) = ((slR a b (384 + t.val) d.val : ℝ) : EReal) :=
    fun t d => (pay23_apply (V119 P0 P1 P2) (V129 P0 P1 P2) (lmR a) b hL hb t d).trans (congrArg _ (sl_of a b 384 3 (by norm_num) t d.val))
  have hX4 : ∀ (t : Fin 128) (d : Fin 512), X4 P0 P1 P2 (ix2 t d) = ((slR a b (512 + t.val) d.val : ℝ) : EReal) :=
    fun t d => (pay24_apply (V119 P0 P1 P2) (V129 P0 P1 P2) (lmR a) b hL hb t d).trans (congrArg _ (sl_of a b 512 4 (by norm_num) t d.val))
  have hX5 : ∀ (t : Fin 128) (d : Fin 512), X5 P0 P1 P2 (ix2 t d) = ((slR a b (640 + t.val) d.val : ℝ) : EReal) :=
    fun t d => (pay25_apply (V119 P0 P1 P2) (V129 P0 P1 P2) (lmR a) b hL hb t d).trans (congrArg _ (sl_of a b 640 5 (by norm_num) t d.val))
  have hX6 : ∀ (t : Fin 128) (d : Fin 512), X6 P0 P1 P2 (ix2 t d) = ((slR a b (768 + t.val) d.val : ℝ) : EReal) :=
    fun t d => (pay26_apply (V119 P0 P1 P2) (V129 P0 P1 P2) (lmR a) b hL hb t d).trans (congrArg _ (sl_of a b 768 6 (by norm_num) t d.val))
  have hX7 : ∀ (t : Fin 128) (d : Fin 512), X7 P0 P1 P2 (ix2 t d) = ((slR a b (896 + t.val) d.val : ℝ) : EReal) :=
    fun t d => (pay27_apply (V119 P0 P1 P2) (V129 P0 P1 P2) (lmR a) b hL hb t d).trans (congrArg _ (sl_of a b 896 7 (by norm_num) t d.val))
  have hX8 : ∀ (t : Fin 128) (d : Fin 512), X8 P0 P1 P2 (ix2 t d) = ((slR a b (1024 + t.val) d.val : ℝ) : EReal) :=
    fun t d => (pay28_apply (V119 P0 P1 P2) (V129 P0 P1 P2) (lmR a) b hL hb t d).trans (congrArg _ (sl_of a b 1024 8 (by norm_num) t d.val))
  have hX9 : ∀ (t : Fin 128) (d : Fin 512), X9 P0 P1 P2 (ix2 t d) = ((slR a b (1152 + t.val) d.val : ℝ) : EReal) :=
    fun t d => (pay29_apply (V119 P0 P1 P2) (V129 P0 P1 P2) (lmR a) b hL hb t d).trans (congrArg _ (sl_of a b 1152 9 (by norm_num) t d.val))
  have hX10 : ∀ (t : Fin 128) (d : Fin 512), X10 P0 P1 P2 (ix2 t d) = ((slR a b (1280 + t.val) d.val : ℝ) : EReal) :=
    fun t d => (pay30_apply (V119 P0 P1 P2) (V129 P0 P1 P2) (lmR a) b hL hb t d).trans (congrArg _ (sl_of a b 1280 10 (by norm_num) t d.val))
  have hX11 : ∀ (t : Fin 128) (d : Fin 512), X11 P0 P1 P2 (ix2 t d) = ((slR a b (1408 + t.val) d.val : ℝ) : EReal) :=
    fun t d => (pay31_apply (V119 P0 P1 P2) (V129 P0 P1 P2) (lmR a) b hL hb t d).trans (congrArg _ (sl_of a b 1408 11 (by norm_num) t d.val))
  have hX12 : ∀ (t : Fin 128) (d : Fin 512), X12 P0 P1 P2 (ix2 t d) = ((slR a b (1536 + t.val) d.val : ℝ) : EReal) :=
    fun t d => (pay32_apply (V119 P0 P1 P2) (V129 P0 P1 P2) (lmR a) b hL hb t d).trans (congrArg _ (sl_of a b 1536 12 (by norm_num) t d.val))
  have hX13 : ∀ (t : Fin 128) (d : Fin 512), X13 P0 P1 P2 (ix2 t d) = ((slR a b (1664 + t.val) d.val : ℝ) : EReal) :=
    fun t d => (pay33_apply (V119 P0 P1 P2) (V129 P0 P1 P2) (lmR a) b hL hb t d).trans (congrArg _ (sl_of a b 1664 13 (by norm_num) t d.val))
  have hX14 : ∀ (t : Fin 128) (d : Fin 512), X14 P0 P1 P2 (ix2 t d) = ((slR a b (1792 + t.val) d.val : ℝ) : EReal) :=
    fun t d => (pay34_apply (V119 P0 P1 P2) (V129 P0 P1 P2) (lmR a) b hL hb t d).trans (congrArg _ (sl_of a b 1792 14 (by norm_num) t d.val))
  have hX15 : ∀ (t : Fin 128) (d : Fin 512), X15 P0 P1 P2 (ix2 t d) = ((slR a b (1920 + t.val) d.val : ℝ) : EReal) :=
    fun t d => (pay35_apply (V119 P0 P1 P2) (V129 P0 P1 P2) (lmR a) b hL hb t d).trans (congrArg _ (sl_of a b 1920 15 (by norm_num) t d.val))
  have hR0 : ∀ d : Fin 512, R0 P0 P1 P2 (ix2 (0 : Fin 1) d) = ((slR a b 127 d.val : ℝ) : EReal) :=
    fun d => (lastRow_apply (X0 P0 P1 P2) d).trans (hX0 ⟨127, by norm_num⟩ d)
  have hR1 : ∀ d : Fin 512, R1 P0 P1 P2 (ix2 (0 : Fin 1) d) = ((slR a b 255 d.val : ℝ) : EReal) :=
    fun d => (lastRow_apply (X1 P0 P1 P2) d).trans (hX1 ⟨127, by norm_num⟩ d)
  have hR2 : ∀ d : Fin 512, R2 P0 P1 P2 (ix2 (0 : Fin 1) d) = ((slR a b 383 d.val : ℝ) : EReal) :=
    fun d => (lastRow_apply (X2 P0 P1 P2) d).trans (hX2 ⟨127, by norm_num⟩ d)
  have hR3 : ∀ d : Fin 512, R3 P0 P1 P2 (ix2 (0 : Fin 1) d) = ((slR a b 511 d.val : ℝ) : EReal) :=
    fun d => (lastRow_apply (X3 P0 P1 P2) d).trans (hX3 ⟨127, by norm_num⟩ d)
  have hR4 : ∀ d : Fin 512, R4 P0 P1 P2 (ix2 (0 : Fin 1) d) = ((slR a b 639 d.val : ℝ) : EReal) :=
    fun d => (lastRow_apply (X4 P0 P1 P2) d).trans (hX4 ⟨127, by norm_num⟩ d)
  have main := pay48_apply (V1 P0) (V120 P0 P1 P2) (X0 P0 P1 P2) (X1 P0 P1 P2) (X2 P0 P1 P2) (X3 P0 P1 P2) (X4 P0 P1 P2) (X5 P0 P1 P2) (X6 P0 P1 P2) (X7 P0 P1 P2) (X8 P0 P1 P2) (X9 P0 P1 P2) (X10 P0 P1 P2) (X11 P0 P1 P2) (X12 P0 P1 P2) (X13 P0 P1 P2) (X14 P0 P1 P2) (X15 P0 P1 P2)
    (R0 P0 P1 P2) (R1 P0 P1 P2) (R2 P0 P1 P2) (R3 P0 P1 P2) (R4 P0 P1 P2) h (apR a) (slR a b) hV1 hV120
    hX0 hX1 hX2 hX3 hX4 hX5 hX6 hX7 hX8 hX9 hX10 hX11 hX12 hX13 hX14 hX15 hR0 hR1 hR2 hR3 hR4 l d
  -- the block is the piece's payload, a shape cast of the final sum
  have hp := Cert.KernelIdeal.Value.piece3_0 (F := Ideal) P0 P1 P2 (ix3 (0 : Fin 1) l d)
  rw [r0_0_idx] at hp
  rw [← hp]
  refine (pay1_apply _ l d).trans ?_
  refine main.trans ?_
  -- the real numbers: the chunked form is the recurrence
  have hfin := final_real a b l.val d.val l.isLt
  show ((h l.val d.val + slR a b l.val d.val + apR a l.val * _ : ℝ) : EReal) = ((h l.val d.val + affRec a (fun i => b i d.val) l.val : ℝ) : EReal)
  rw [← hfin, add_assoc]

end Cert.HNet

end
-- ==== Proof.KernelRun.lean ====
import proofs.«109756_g14800457302192_cont_week2b_463_21_alg».proof.Proof.Gen.KernelIdeal.Value
import proofs.«109756_g14800457302192_cont_week2b_463_21_alg».proof.Proof.KernelBlock
import proofs.«109756_g14800457302192_cont_week2b_463_21_alg».proof.Proof.Spec
import Idealize.ShloMosaic.Lib.ValueIdx
import Idealize.ShloMosaic.Lib.Pipeline.Value

noncomputable section

/-! The kernel program runs and leaves the specification's result: grid point `t` reads batch row block `t`
    of the sequence and both whole weights, writes batch row block `t` of the result, and the four blocks
    tile the result array. -/

namespace Cert.HNet

open Idealize.ShloMosaic Idealize.ShloMosaic.ValueIdx Idealize.ShloMosaic.TcCoe Idealize.SL.Sem Cert.KernelIdeal Cert.KernelIdeal.Gen
open Idealize.ShloMosaic.Pipeline (Dat)

/-- The whole result array: the specification at every batch row, row and column. -/
abbrev resultArr (hs : ℕ → ℕ → ℕ → ℝ) (Wq Wk : ℕ → ℕ → ℝ) : S4x2048x512.Idx → EReal :=
  fun i => ((outR Wq Wk (hs (i 0).val) (i 1).val (i 2).val : ℝ) : EReal)

theorem zero3 : (![0, 0, 0] : Fin 3 → Nat) = fun _ => 0 := funext fun a => by fin_cases a <;> rfl
theorem zero2 : (![0, 0] : Fin 2 → Nat) = fun _ => 0 := funext fun a => by fin_cases a <;> rfl

/-- What one grid point leaves in the output block, over variables: the specification's result of the batch row
    block it read. -/
theorem out_block (x0 : Vec Ideal S1x2048x512 .f32) (x1 x2 : Vec Ideal S512x512 .f32)
    (h Wq Wk : ℕ → ℕ → ℝ)
    (h0 : ∀ (l : Fin 2048) (d : Fin 512), x0 (ix3 (0 : Fin 1) l d) = ((h l d : ℝ) : EReal))
    (h1 : ∀ e d : Fin 512, x1 (ix2 e d) = ((Wq e d : ℝ) : EReal))
    (h2 : ∀ e d : Fin 512, x2 (ix2 e d) = ((Wk e d : ℝ) : EReal))
    (y : S1x2048x512.Idx) :
    out0_3 (F := Ideal) x0 x1 x2 y = ((outR Wq Wk h (y 1).val (y 2).val : ℝ) : EReal) := by
  unfold out0_3
  simp only [View.ld_unit_zero (S := S1x2048x512) zero3, View.ld_unit_zero (S := S512x512) zero2]
  rw [Cert.KernelIdeal.Value.canon3_eq]
  obtain ⟨a, l, d, rfl⟩ : ∃ (a : Fin 1) (l : Fin 2048) (d : Fin 512), y = ix3 a l d := ⟨y 0, y 1, y 2, eq_ix3 y⟩
  obtain rfl : a = 0 := Subsingleton.elim _ _
  exact kernel_block x0 x1 x2 h Wq Wk h0 h1 h2 l d

/-- The printed index maps over the four grid points: the sequence and the result move with the point along the
    batch axis, the weights stay. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 ∧ t.val < 4 :=
  (by decide +kernel : ∀ t : Fin grid0.N, _)

section
variable (m : (ℓ : Loc nD τ sig) → Buf (Elt Ideal) ℓ) (ρ : Dev nD → PrngReg)
variable (hs : ℕ → ℕ → ℕ → ℝ) (Wq Wk : ℕ → ℕ → ℝ)

theorem flushed_eq
    (h0 : ∀ (c : Dev nD) (b : Fin 4) (l : Fin 2048) (d : Fin 512),
      (m ((c.tc : Thread nD τ).loc main_arg0) : Vec Ideal S4x2048x512 .f32) (ix3 b l d) = ((hs b l d : ℝ) : EReal))
    (h1 : ∀ (c : Dev nD) (e d : Fin 512),
      (m ((c.tc : Thread nD τ).loc main_arg1) : Vec Ideal S512x512 .f32) (ix2 e d) = ((Wq e d : ℝ) : EReal))
    (h2 : ∀ (c : Dev nD) (e d : Fin 512),
      (m ((c.tc : Thread nD τ).loc main_arg2) : Vec Ideal S512x512 .f32) (ix2 e d) = ((Wk e d : ℝ) : EReal))
    (c : Dev nD) (t : Fin cfg0.N) :
    (dats m 0 c).flushed 3 t = ((cfg0.win 3).blk t).view.read (Elt Ideal) (resultArr hs Wq Wk) := by
  rw [Cert.KernelIdeal.Value.flushed3]
  obtain ⟨e00, e01, e02, e10, e11, e20, e21, e30, e31, e32, ht⟩ := idx_facts t
  funext y
  show out0_3 (iblk m c 0 t) (iblk m c 1 t) (iblk m c 2 t) y = resultArr hs Wq Wk (((cfg0.win 3).blk t).view.emb y)
  have hy0 : (y 0).val < 1 := (y 0).isLt
  have hy1 : (y 1).val < 2048 := (y 1).isLt
  have hy2 : (y 2).val < 512 := (y 2).isLt
  refine (out_block (iblk m c 0 t) (iblk m c 1 t) (iblk m c 2 t) (hs t.val) Wq Wk ?_ ?_ ?_ y).trans ?_
  · intro l d
    show V m c main_arg0 (((cfg0.win 0).blk t).view.emb (ix3 (0 : Fin 1) l d)) = _
    have hl : l.val < 2048 := l.isLt
    have hd : d.val < 512 := d.isLt
    have he : ((cfg0.win 0).blk t).view.emb (ix3 (0 : Fin 1) l d) = (ix3 (⟨t.val, ht⟩ : Fin 4) l d : S4x2048x512.Idx) := by
      funext a; apply Fin.ext
      match a with
      | ⟨0, _⟩ => show win0_0.index t (0 : Fin 3) * 1 + 1 * 0 = t.val; omega
      | ⟨1, _⟩ => show win0_0.index t (1 : Fin 3) * 2048 + 1 * l.val = l.val; omega
      | ⟨2, _⟩ => show win0_0.index t (2 : Fin 3) * 512 + 1 * d.val = d.val; omega
    rw [he]
    exact h0 c ⟨t.val, ht⟩ l d
  · intro e d
    show V m c main_arg1 (((cfg0.win 1).blk t).view.emb (ix2 e d)) = _
    have he : ((cfg0.win 1).blk t).view.emb (ix2 e d) = (ix2 e d : S512x512.Idx) := by
      funext a; apply Fin.ext
      match a with
      | ⟨0, _⟩ => show win0_1.index t (0 : Fin 2) * 512 + 1 * e.val = e.val; omega
      | ⟨1, _⟩ => show win0_1.index t (1 : Fin 2) * 512 + 1 * d.val = d.val; omega
    rw [he]
    exact h1 c e d
  · intro e d
    show V m c main_arg2 (((cfg0.win 2).blk t).view.emb (ix2 e d)) = _
    have he : ((cfg0.win 2).blk t).view.emb (ix2 e d) = (ix2 e d : S512x512.Idx) := by
      funext a; apply Fin.ext
      match a with
      | ⟨0, _⟩ => show win0_2.index t (0 : Fin 2) * 512 + 1 * e.val = e.val; omega
      | ⟨1, _⟩ => show win0_2.index t (1 : Fin 2) * 512 + 1 * d.val = d.val; omega
    rw [he]
    exact h2 c e d
  · show _ = ((outR Wq Wk (hs (((cfg0.win 3).blk t).view.emb y 0).val) (((cfg0.win 3).blk t).view.emb y 1).val (((cfg0.win 3).blk t).view.emb y 2).val : ℝ) : EReal)
    have c0 : (((cfg0.win 3).blk t).view.emb y 0).val = t.val := by
      show win0_3.index t (0 : Fin 3) * 1 + 1 * (y 0).val = t.val; omega
    have c1 : (((cfg0.win 3).blk t).view.emb y 1).val = (y 1).val := by
      show win0_3.index t (1 : Fin 3) * 2048 + 1 * (y 1).val = (y 1).val; omega
    have c2 : (((cfg0.win 3).blk t).view.emb y 2).val = (y 2).val := by
      show win0_3.index t (2 : Fin 3) * 512 + 1 * (y 2).val = (y 2).val; omega
    rw [c0, c1, c2]

/-- An index of the result array is in grid point `t`'s block iff each coordinate is in the block's range. -/
theorem mem_blk (t : Fin cfg0.N) (i : S4x2048x512.Idx) :
    i ∈ ((cfg0.win 3).blk t).view.set ↔ ∀ a : Fin 3, win0_3.index t a * S1x2048x512.size a ≤ (i a).val ∧ (i a).val < win0_3.index t a * S1x2048x512.size a + S1x2048x512.size a := by
  show i ∈ ((View.whole main_v0).slice (win0_3.rect t)).set ↔ _
  rw [View.set_slice_whole, Rect.mem_set_unit]
  exact Iff.rfl

/-- Every batch row is some grid point's. -/
theorem idx_onto : ∀ q : Fin 4, ∃ t : Fin cfg0.N, win0_3.index t = ![q.val, 0, 0] :=
  (by decide +kernel : ∀ q : Fin 4, ∃ t : Fin grid0.N, win0_3.index t = ![q.val, 0, 0])

theorem cover (i : S4x2048x512.Idx) : ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 512 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

/-- From a memory whose argument arrays hold the reals `hs`, `Wq`, `Wk`, every weakly fair execution of the
    idealized kernel ends with its result array at the specification's value, index by index, and its arguments unchanged. -/
theorem kernel_run
    (h0 : ∀ (c : Dev nD) (b : Fin 4) (l : Fin 2048) (d : Fin 512),
      (m ((c.tc : Thread nD τ).loc main_arg0) : Vec Ideal S4x2048x512 .f32) (ix3 b l d) = ((hs b l d : ℝ) : EReal))
    (h1 : ∀ (c : Dev nD) (e d : Fin 512),
      (m ((c.tc : Thread nD τ).loc main_arg1) : Vec Ideal S512x512 .f32) (ix2 e d) = ((Wq e d : ℝ) : EReal))
    (h2 : ∀ (c : Dev nD) (e d : Fin 512),
      (m ((c.tc : Thread nD τ).loc main_arg2) : Vec Ideal S512x512 .f32) (ix2 e d) = ((Wk e d : ℝ) : EReal)) :
    θ_run (defs (F := Ideal)) (onTc (τ := τ) (main (F := Ideal))) ⟨m, fun _ => 0, ρ⟩ fun r => ∀ c : Dev nD,
      r.2.mem ((c.tc : Thread nD τ).loc main_v0) = resultArr hs Wq Wk
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans
      ((dats m 0 c).arrAt_eq_of_cover 3 (resultArr hs Wq Wk) (fun t _ => flushed_eq m hs Wq Wk h0 h1 h2 c t) cover),
      (h c).2⟩)
    (Cert.KernelIdeal.Value.run_blocks m ρ)

end

end Cert.HNet

end
-- ==== Proof.RMath.lean ====
import proofs.«109756_g14800457302192_cont_week2b_463_21_alg».proof.Proof.Spec

noncomputable section

/-! The compaction of the boundary rows, over the reals: the objects the reference's sort, count and gathers compute. -/

namespace Cert.HNet

/-- How many boundary rows (probability above one half) lie below row `n`. -/
def cnt (p : ℕ → ℝ) (n : ℕ) : ℕ := ((Finset.range n).filter fun l => 1 / 2 < p l).card

/-- `σ` lists the rows below `L` with the boundary rows first, each class in increasing order:
    along `σ` the pair (not a boundary, row) increases strictly. -/
def IsOrder (L : ℕ) (p : ℕ → ℝ) (σ : ℕ → ℕ) : Prop :=
  (∀ j, j < L → σ j < L) ∧
  ∀ i j, i < j → j < L →
    (1 / 2 < p (σ i) ∧ ¬ 1 / 2 < p (σ j)) ∨ ((1 / 2 < p (σ i) ↔ 1 / 2 < p (σ j)) ∧ σ i < σ j)

/-- What compacted row `j` keeps of the previous state: `1 - p` of the `j`-th boundary row, all of it past the last. -/
def cdecay (L : ℕ) (p : ℕ → ℝ) (σ : ℕ → ℕ) (j : ℕ) : ℝ := if j < cnt p L then 1 - p (σ j) else 1

/-- What compacted row `j` takes of its input `x`: `p x` at the `j`-th boundary row, nothing past the last. -/
def cgain (L : ℕ) (p : ℕ → ℝ) (σ : ℕ → ℕ) (x : ℕ → ℝ) (j : ℕ) : ℝ := if j < cnt p L then p (σ j) * x (σ j) else 0

end Cert.HNet

end
-- ==== Proof.RCompact.lean ====
import proofs.«109756_g14800457302192_cont_week2b_463_21_alg».proof.Proof.RMath

noncomputable section

/-! The compaction of the boundary rows: an order `σ` that lists the boundary rows first, each class in
increasing order, sends rank `j` to the `j`-th boundary row, and the recurrence over the compacted rows,
read at a row's rank, is the recurrence over all rows in which the other rows pass the state through. -/

namespace Cert.HNet

/-! ## Counting the boundary rows -/

theorem cnt_zero (p : ℕ → ℝ) : cnt p 0 = 0 := by
  unfold cnt
  rw [Finset.range_zero, Finset.filter_empty, Finset.card_empty]

theorem cnt_succ (p : ℕ → ℝ) (n : ℕ) : cnt p (n + 1) = cnt p n + if 1 / 2 < p n then 1 else 0 := by
  unfold cnt
  rw [Finset.range_add_one, Finset.filter_insert]
  by_cases h : 1 / 2 < p n
  · rw [if_pos h, if_pos h, Finset.card_insert_of_notMem]
    intro hmem
    exact absurd (Finset.mem_range.mp (Finset.mem_filter.mp hmem).1) (lt_irrefl n)
  · rw [if_neg h, if_neg h, Nat.add_zero]

theorem cnt_mono (p : ℕ → ℝ) {m n : ℕ} (h : m ≤ n) : cnt p m ≤ cnt p n := by
  unfold cnt
  exact Finset.card_le_card (Finset.filter_subset_filter _ (Finset.range_mono h))

theorem cnt_le (p : ℕ → ℝ) (n : ℕ) : cnt p n ≤ n := by
  unfold cnt
  exact (Finset.card_filter_le _ _).trans (Finset.card_range n).le

theorem cnt_pos (p : ℕ → ℝ) (h0 : 1 / 2 < p 0) {n : ℕ} (hn : 0 < n) : 0 < cnt p n := by
  unfold cnt
  exact Finset.card_pos.mpr ⟨0, Finset.mem_filter.mpr ⟨Finset.mem_range.mpr hn, h0⟩⟩

/-! ## The boundary probability -/

theorem prob_zero (Wq Wk h : ℕ → ℕ → ℝ) : prob Wq Wk h 0 = 1 := rfl

theorem prob_mem (Wq Wk h : ℕ → ℕ → ℝ) (l : ℕ) : 0 ≤ prob Wq Wk h l ∧ prob Wq Wk h l ≤ 1 := by
  cases l with
  | zero =>
    show (0 : ℝ) ≤ 1 ∧ (1 : ℝ) ≤ 1
    exact ⟨zero_le_one, le_refl 1⟩
  | succ l =>
    show (0 : ℝ) ≤ min 1 (max 0 ((1 - cosAt Wq Wk h l) * (1 / 2)))
      ∧ min 1 (max 0 ((1 - cosAt Wq Wk h l) * (1 / 2))) ≤ (1 : ℝ)
    exact ⟨le_min zero_le_one (le_max_left _ _), min_le_left _ _⟩

/-! ## The order lists the boundary rows first, in increasing order -/

section Order

variable {L : ℕ} {p : ℕ → ℝ} {σ : ℕ → ℕ}

/-- Two positions below `L` carry different rows: the pair (not a boundary, row) increases strictly. -/
theorem IsOrder.ne (hσ : IsOrder L p σ) {i j : ℕ} (hij : i < j) (hj : j < L) : σ i ≠ σ j := by
  intro h
  rcases hσ.2 i j hij hj with ⟨hi, hnj⟩ | ⟨_, hlt⟩
  · rw [h] at hi
    exact hnj hi
  · rw [h] at hlt
    exact lt_irrefl _ hlt

theorem IsOrder.injOn (hσ : IsOrder L p σ) : Set.InjOn σ (↑(Finset.range L) : Set ℕ) := by
  intro i hi j hj h
  have hi' : i < L := Finset.mem_range.mp (Finset.mem_coe.mp hi)
  have hj' : j < L := Finset.mem_range.mp (Finset.mem_coe.mp hj)
  rcases Nat.lt_trichotomy i j with hlt | heq | hgt
  · exact absurd h (hσ.ne hlt hj')
  · exact heq
  · exact absurd h.symm (hσ.ne hgt hi')

/-- An injection of the rows below `L` into themselves reaches every one of them. -/
theorem IsOrder.surj (hσ : IsOrder L p σ) {m : ℕ} (hm : m < L) : ∃ j, j < L ∧ σ j = m := by
  have himg : (Finset.range L).image σ = Finset.range L := by
    apply Finset.eq_of_subset_of_card_le
    · intro m hm
      obtain ⟨j, hj, rfl⟩ := Finset.mem_image.mp hm
      exact Finset.mem_range.mpr (hσ.1 j (Finset.mem_range.mp hj))
    · rw [Finset.card_image_of_injOn hσ.injOn]
  have hmem : m ∈ (Finset.range L).image σ := by
    rw [himg]
    exact Finset.mem_range.mpr hm
  obtain ⟨j, hj, hjm⟩ := Finset.mem_image.mp hmem
  exact ⟨j, Finset.mem_range.mp hj, hjm⟩

/-- The positions that carry a boundary row are exactly the first `cnt p L`: they are as many as the
boundary rows, and every position before one of them is one of them. -/
theorem IsOrder.boundary_iff (hσ : IsOrder L p σ) {j : ℕ} (hj : j < L) :
    1 / 2 < p (σ j) ↔ j < cnt p L := by
  obtain ⟨T, hmemT⟩ : ∃ T : Finset ℕ, ∀ j, j ∈ T ↔ j < L ∧ 1 / 2 < p (σ j) :=
    ⟨(Finset.range L).filter (fun j => 1 / 2 < p (σ j)), fun j => by
      rw [Finset.mem_filter, Finset.mem_range]⟩
  have hTsub : (↑T : Set ℕ) ⊆ ↑(Finset.range L) := fun j hj =>
    Finset.mem_coe.mpr (Finset.mem_range.mpr ((hmemT j).mp (Finset.mem_coe.mp hj)).1)
  have hcard : T.card = cnt p L := by
    unfold cnt
    rw [← Finset.card_image_of_injOn (hσ.injOn.mono hTsub)]
    congr 1
    ext m
    rw [Finset.mem_image, Finset.mem_filter, Finset.mem_range]
    constructor
    · rintro ⟨j, hj, rfl⟩
      exact ⟨hσ.1 j ((hmemT j).mp hj).1, ((hmemT j).mp hj).2⟩
    · rintro ⟨hm, hb⟩
      obtain ⟨j, hj, rfl⟩ := hσ.surj hm
      exact ⟨j, (hmemT j).mpr ⟨hj, hb⟩, rfl⟩
  have hdown : ∀ j, j ∈ T → ∀ i, i < j → i ∈ T := by
    intro j hj i hij
    obtain ⟨hjL, hbj⟩ := (hmemT j).mp hj
    refine (hmemT i).mpr ⟨lt_trans hij hjL, ?_⟩
    rcases hσ.2 i j hij hjL with ⟨_, hnj⟩ | ⟨hiff, _⟩
    · exact absurd hbj hnj
    · exact hiff.mpr hbj
  have hsub : T ⊆ Finset.range T.card := by
    intro j hj
    have hseg : Finset.range (j + 1) ⊆ T := by
      intro i hi
      rcases Nat.lt_succ_iff_lt_or_eq.mp (Finset.mem_range.mp hi) with h | h
      · exact hdown j hj i h
      · rw [h]
        exact hj
    have hle := Finset.card_le_card hseg
    rw [Finset.card_range] at hle
    exact Finset.mem_range.mpr hle
  have hTeq : T = Finset.range T.card :=
    Finset.eq_of_subset_of_card_le hsub (by rw [Finset.card_range])
  rw [← hcard]
  constructor
  · intro hb
    have hjT : j ∈ T := (hmemT j).mpr ⟨hj, hb⟩
    exact Finset.mem_range.mp (hsub hjT)
  · intro hlt
    have hjT : j ∈ T := by
      rw [hTeq]
      exact Finset.mem_range.mpr hlt
    exact ((hmemT j).mp hjT).2

/-- Along the first `cnt p L` positions the rows increase. -/
theorem IsOrder.lt_of_lt (hσ : IsOrder L p σ) {i j : ℕ} (hij : i < j) (hj : j < cnt p L) :
    σ i < σ j := by
  have hjL : j < L := lt_of_lt_of_le hj (cnt_le p L)
  rcases hσ.2 i j hij hjL with ⟨_, hnj⟩ | ⟨_, hlt⟩
  · exact absurd ((hσ.boundary_iff hjL).mpr hj) hnj
  · exact hlt

/-- Position `j` below `cnt p L` carries the `j`-th boundary row: the boundary rows before it are
the rows of the positions before `j`. -/
theorem IsOrder.cnt_apply (hσ : IsOrder L p σ) {j : ℕ} (hj : j < cnt p L) : cnt p (σ j) = j := by
  have hjL : j < L := lt_of_lt_of_le hj (cnt_le p L)
  have hset : (Finset.range (σ j)).filter (fun l => 1 / 2 < p l) = (Finset.range j).image σ := by
    ext m
    rw [Finset.mem_filter, Finset.mem_range, Finset.mem_image]
    constructor
    · rintro ⟨hm, hb⟩
      have hmL : m < L := lt_trans hm (hσ.1 j hjL)
      obtain ⟨i, hiL, rfl⟩ := hσ.surj hmL
      have hiK : i < cnt p L := (hσ.boundary_iff hiL).mp hb
      refine ⟨i, Finset.mem_range.mpr ?_, rfl⟩
      by_contra hge
      rcases Nat.lt_or_eq_of_le (Nat.le_of_not_lt hge) with h | h
      · exact absurd (hσ.lt_of_lt h hiK) (by omega)
      · rw [h] at hm
        exact lt_irrefl _ hm
    · rintro ⟨i, hi, rfl⟩
      have hij : i < j := Finset.mem_range.mp hi
      exact ⟨hσ.lt_of_lt hij hj, (hσ.boundary_iff (lt_trans hij hjL)).mpr (lt_trans hij hj)⟩
  have hsub : (↑(Finset.range j) : Set ℕ) ⊆ ↑(Finset.range L) := fun i hi =>
    Finset.mem_coe.mpr (Finset.mem_range.mpr (lt_trans (Finset.mem_range.mp (Finset.mem_coe.mp hi)) hjL))
  unfold cnt
  rw [hset, Finset.card_image_of_injOn (hσ.injOn.mono hsub), Finset.card_range]

/-- A boundary row below `L` sits at the position its rank names. -/
theorem IsOrder.apply_cnt (hσ : IsOrder L p σ) {m : ℕ} (hm : m < L) (hb : 1 / 2 < p m) :
    σ (cnt p m) = m ∧ cnt p m < cnt p L := by
  obtain ⟨j, hjL, rfl⟩ := hσ.surj hm
  have hjK : j < cnt p L := (hσ.boundary_iff hjL).mp hb
  rw [hσ.cnt_apply hjK]
  exact ⟨rfl, hjK⟩

end Order

/-! ## The compacted recurrence -/

theorem cdecay_of_lt (L : ℕ) (p : ℕ → ℝ) (σ : ℕ → ℕ) {j : ℕ} (h : j < cnt p L) :
    cdecay L p σ j = 1 - p (σ j) := if_pos h

theorem cgain_of_lt (L : ℕ) (p : ℕ → ℝ) (σ : ℕ → ℕ) (x : ℕ → ℝ) {j : ℕ} (h : j < cnt p L) :
    cgain L p σ x j = p (σ j) * x (σ j) := if_pos h

theorem decay_of_boundary (p : ℕ → ℝ) {l : ℕ} (h : 1 / 2 < p l) : decay p l = 1 - p l := if_pos h

theorem decay_of_not_boundary (p : ℕ → ℝ) {l : ℕ} (h : ¬ 1 / 2 < p l) : decay p l = 1 := if_neg h

theorem gain_of_boundary (p : ℕ → ℝ) {l : ℕ} (h : 1 / 2 < p l) : gain p l = p l := if_pos h

theorem gain_of_not_boundary (p : ℕ → ℝ) {l : ℕ} (h : ¬ 1 / 2 < p l) : gain p l = 0 := if_neg h

/-- The recurrence over the compacted rows, read at the rank of row `l`, is the recurrence over all rows:
a boundary row raises the rank by one and is the row at that rank; any other row leaves the rank alone
and passes the state through. -/
theorem compact_affRec (L : ℕ) (p : ℕ → ℝ) (σ : ℕ → ℕ) (x : ℕ → ℝ) (h0 : 1 / 2 < p 0)
    (hσ : IsOrder L p σ) (l : ℕ) (hl : l < L) :
    affRec (cdecay L p σ) (cgain L p σ x) (cnt p (l + 1) - 1)
      = affRec (decay p) (fun i => gain p i * x i) l := by
  induction l with
  | zero =>
    obtain ⟨hs, hK⟩ := hσ.apply_cnt hl h0
    rw [cnt_zero] at hs hK
    have hc1 : cnt p (0 + 1) - 1 = 0 := by
      have h := cnt_succ p 0
      rw [cnt_zero, if_pos h0] at h
      omega
    rw [hc1]
    show cgain L p σ x 0 = gain p 0 * x 0
    rw [cgain_of_lt L p σ x hK, gain_of_boundary p h0, hs]
  | succ l ih =>
    have ih' := ih (Nat.lt_of_succ_lt hl)
    have hr : 0 < cnt p (l + 1) := cnt_pos p h0 (Nat.succ_pos l)
    show _ = decay p (l + 1) * affRec (decay p) (fun i => gain p i * x i) l + gain p (l + 1) * x (l + 1)
    rw [← ih']
    by_cases hb : 1 / 2 < p (l + 1)
    · obtain ⟨hs, hK⟩ := hσ.apply_cnt hl hb
      have hc : cnt p (l + 1 + 1) - 1 = (cnt p (l + 1) - 1) + 1 := by
        have h := cnt_succ p (l + 1)
        rw [if_pos hb] at h
        omega
      have hidx : cnt p (l + 1) - 1 + 1 = cnt p (l + 1) := by omega
      rw [hc]
      show cdecay L p σ (cnt p (l + 1) - 1 + 1)
            * affRec (cdecay L p σ) (cgain L p σ x) (cnt p (l + 1) - 1)
          + cgain L p σ x (cnt p (l + 1) - 1 + 1) = _
      rw [hidx, cdecay_of_lt L p σ hK, cgain_of_lt L p σ x hK, decay_of_boundary p hb,
        gain_of_boundary p hb, hs]
    · have hc : cnt p (l + 1 + 1) - 1 = cnt p (l + 1) - 1 := by
        have h := cnt_succ p (l + 1)
        rw [if_neg hb] at h
        omega
      rw [hc, decay_of_not_boundary p hb, gain_of_not_boundary p hb, one_mul, zero_mul, add_zero]

end Cert.HNet

end
-- ==== Proof.ROps.lean ====
/- A table, no argument: the reference's host operations in program order, each callee's operations inline over
   its call's buffer record, as consecutive literal lists cut after fixed result buffers. -/
import proofs.«109756_g14800457302192_cont_week2b_463_21_alg».proof.Proof.Gen.ReferenceIdeal
import Idealize.ShloMosaic.Lib.StableHlo.Run

noncomputable section

namespace Cert.HNet.Ops

open Cert.ReferenceIdeal Cert.ReferenceIdeal.Gen Idealize.ShloMosaic Idealize.ShloMosaic.TcCoe Idealize.SL.Sem Idealize.ShloMosaic.StableHlo

variable {F : FTy → Type} [FloatOps F]

/-- 49 operations, the last writing main_v31. -/
abbrev opsA : List (HloOp τ sig (Elt F)) :=
  [ StableHlo.unary main_arg0 main_v0 ((extractStridedSlice S4x2047x512 ![0, 0, 0] · slices_S4x2048x512_S4x2047x512_0_0_0) : (⟨S4x2048x512, .f32⟩ : BufTy).Contents (Elt F) → (⟨S4x2047x512, .f32⟩ : BufTy).Contents (Elt F)),
    StableHlo.binary main_v0 main_arg1 main_v1 ((fun l r => Host.dotGeneral dot_S4x2047x512_S512x512_S4x2047x512_2_1_01_0_n_n none l r) : (⟨S4x2047x512, .f32⟩ : BufTy).Contents (Elt F) → (⟨S512x512, .f32⟩ : BufTy).Contents (Elt F) → (⟨S4x2047x512, .f32⟩ : BufTy).Contents (Elt F)),
    StableHlo.binary main_v1 main_v1 main_v2 (mulf : (⟨S4x2047x512, .f32⟩ : BufTy).Contents (Elt F) → (⟨S4x2047x512, .f32⟩ : BufTy).Contents (Elt F) → (⟨S4x2047x512, .f32⟩ : BufTy).Contents (Elt F)),
    StableHlo.nullary main_cst (constant S_ .f32 0x00000000#32),
    StableHlo.binary main_v2 main_cst main_v3 ((fun x v => Host.reduceAdd x v reducesTo_S4x2047x512_S4x2047_d2 h_S_) : (⟨S4x2047x512, .f32⟩ : BufTy).Contents (Elt F) → (⟨S_, .f32⟩ : BufTy).Contents (Elt F) → (⟨S4x2047, .f32⟩ : BufTy).Contents (Elt F)),
    StableHlo.unary main_v3 main_v4 (broadcastInDim S4x2047x1 ![0, 1] bcast_S4x2047_S4x2047x1_0_1 : (⟨S4x2047, .f32⟩ : BufTy).Contents (Elt F) → (⟨S4x2047x1, .f32⟩ : BufTy).Contents (Elt F)),
    StableHlo.unary main_v4 main_v5 (Host.sqrt : (⟨S4x2047x1, .f32⟩ : BufTy).Contents (Elt F) → (⟨S4x2047x1, .f32⟩ : BufTy).Contents (Elt F)),
    StableHlo.nullary main_cst_0 (constant S_ .f32 0x2B8CBCCC#32),
    StableHlo.unary main_cst_0 main_v6 (broadcastInDim S4x2047x1 ![] bcast_S_S4x2047x1 : (⟨S_, .f32⟩ : BufTy).Contents (Elt F) → (⟨S4x2047x1, .f32⟩ : BufTy).Contents (Elt F)),
    StableHlo.binary main_v5 main_v6 main_v7 (maximumf : (⟨S4x2047x1, .f32⟩ : BufTy).Contents (Elt F) → (⟨S4x2047x1, .f32⟩ : BufTy).Contents (Elt F) → (⟨S4x2047x1, .f32⟩ : BufTy).Contents (Elt F)),
    StableHlo.unary main_v7 main_v8 (broadcastInDim S4x2047x512 ![0, 1, 2] bcast_S4x2047x1_S4x2047x512_0_1_2 : (⟨S4x2047x1, .f32⟩ : BufTy).Contents (Elt F) → (⟨S4x2047x512, .f32⟩ : BufTy).Contents (Elt F)),
    StableHlo.binary main_v1 main_v8 main_v9 (Host.divf : (⟨S4x2047x512, .f32⟩ : BufTy).Contents (Elt F) → (⟨S4x2047x512, .f32⟩ : BufTy).Contents (Elt F) → (⟨S4x2047x512, .f32⟩ : BufTy).Contents (Elt F)),
    StableHlo.unary main_arg0 main_v10 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    StableHlo.binary main_v10 main_arg2 main_v11 ((fun l r => Host.dotGeneral dot_S4x2047x512_S512x512_S4x2047x512_2_1_01_0_n_n none l r) : (⟨S4x2047x512, .f32⟩ : BufTy).Contents (Elt F) → (⟨S512x512, .f32⟩ : BufTy).Contents (Elt F) → (⟨S4x2047x512, .f32⟩ : BufTy).Contents (Elt F)),
    StableHlo.binary main_v11 main_v11 main_v12 (mulf : (⟨S4x2047x512, .f32⟩ : BufTy).Contents (Elt F) → (⟨S4x2047x512, .f32⟩ : BufTy).Contents (Elt F) → (⟨S4x2047x512, .f32⟩ : BufTy).Contents (Elt F)),
    StableHlo.nullary main_cst_1 (constant S_ .f32 0x00000000#32),
    StableHlo.binary main_v12 main_cst_1 main_v13 ((fun x v => Host.reduceAdd x v reducesTo_S4x2047x512_S4x2047_d2 h_S_) : (⟨S4x2047x512, .f32⟩ : BufTy).Contents (Elt F) → (⟨S_, .f32⟩ : BufTy).Contents (Elt F) → (⟨S4x2047, .f32⟩ : BufTy).Contents (Elt F)),
    StableHlo.unary main_v13 main_v14 (broadcastInDim S4x2047x1 ![0, 1] bcast_S4x2047_S4x2047x1_0_1 : (⟨S4x2047, .f32⟩ : BufTy).Contents (Elt F) → (⟨S4x2047x1, .f32⟩ : BufTy).Contents (Elt F)),
    StableHlo.unary main_v14 main_v15 (Host.sqrt : (⟨S4x2047x1, .f32⟩ : BufTy).Contents (Elt F) → (⟨S4x2047x1, .f32⟩ : BufTy).Contents (Elt F)),
    StableHlo.nullary main_cst_2 (constant S_ .f32 0x2B8CBCCC#32),
    StableHlo.unary main_cst_2 main_v16 (broadcastInDim S4x2047x1 ![] bcast_S_S4x2047x1 : (⟨S_, .f32⟩ : BufTy).Contents (Elt F) → (⟨S4x2047x1, .f32⟩ : BufTy).Contents (Elt F)),
    StableHlo.binary main_v15 main_v16 main_v17 (maximumf : (⟨S4x2047x1, .f32⟩ : BufTy).Contents (Elt F) → (⟨S4x2047x1, .f32⟩ : BufTy).Contents (Elt F) → (⟨S4x2047x1, .f32⟩ : BufTy).Contents (Elt F)),
    StableHlo.unary main_v17 main_v18 (broadcastInDim S4x2047x512 ![0, 1, 2] bcast_S4x2047x1_S4x2047x512_0_1_2 : (⟨S4x2047x1, .f32⟩ : BufTy).Contents (Elt F) → (⟨S4x2047x512, .f32⟩ : BufTy).Contents (Elt F)),
    StableHlo.binary main_v11 main_v18 main_v19 (Host.divf : (⟨S4x2047x512, .f32⟩ : BufTy).Contents (Elt F) → (⟨S4x2047x512, .f32⟩ : BufTy).Contents (Elt F) → (⟨S4x2047x512, .f32⟩ : BufTy).Contents (Elt F)),
    StableHlo.binary main_v9 main_v19 main_v20 (mulf : (⟨S4x2047x512, .f32⟩ : BufTy).Contents (Elt F) → (⟨S4x2047x512, .f32⟩ : BufTy).Contents (Elt F) → (⟨S4x2047x512, .f32⟩ : BufTy).Contents (Elt F)),
    StableHlo.nullary main_cst_3 (constant S_ .f32 0x00000000#32),
    StableHlo.binary main_v20 main_cst_3 main_v21 ((fun x v => Host.reduceAdd x v reducesTo_S4x2047x512_S4x2047_d2 h_S_) : (⟨S4x2047x512, .f32⟩ : BufTy).Contents (Elt F) → (⟨S_, .f32⟩ : BufTy).Contents (Elt F) → (⟨S4x2047, .f32⟩ : BufTy).Contents (Elt F)),
    StableHlo.nullary main_cst_4 (constant S_ .f32 0x3F800000#32),
    StableHlo.unary main_cst_4 main_v22 (broadcastInDim S4x1 ![] bcast_S_S4x1 : (⟨S_, .f32⟩ : BufTy).Contents (Elt F) → (⟨S4x1, .f32⟩ : BufTy).Contents (Elt F)),
    StableHlo.nullary main_cst_5 (constant S_ .f32 0x3F800000#32),
    StableHlo.unary main_cst_5 main_v23 (broadcastInDim S4x2047 ![] bcast_S_S4x2047 : (⟨S_, .f32⟩ : BufTy).Contents (Elt F) → (⟨S4x2047, .f32⟩ : BufTy).Contents (Elt F)),
    StableHlo.binary main_v23 main_v21 main_v24 (subf : (⟨S4x2047, .f32⟩ : BufTy).Contents (Elt F) → (⟨S4x2047, .f32⟩ : BufTy).Contents (Elt F) → (⟨S4x2047, .f32⟩ : BufTy).Contents (Elt F)),
    StableHlo.nullary main_cst_6 (constant S_ .f32 0x40000000#32),
    StableHlo.unary main_cst_6 main_v25 (broadcastInDim S4x2047 ![] bcast_S_S4x2047 : (⟨S_, .f32⟩ : BufTy).Contents (Elt F) → (⟨S4x2047, .f32⟩ : BufTy).Contents (Elt F)),
    StableHlo.binary main_v24 main_v25 main_v26 (Host.divf : (⟨S4x2047, .f32⟩ : BufTy).Contents (Elt F) → (⟨S4x2047, .f32⟩ : BufTy).Contents (Elt F) → (⟨S4x2047, .f32⟩ : BufTy).Contents (Elt F)),
    StableHlo.nullary main_cst_7 (constant S_ .f32 0x00000000#32),
    StableHlo.nullary main_cst_8 (constant S_ .f32 0x3F800000#32),
    StableHlo.TRef.unary (.of main_cst_7) main_call0.v0 id,
    StableHlo.TRef.unary main_call0.v0 main_call0.v1 (broadcastInDim S4x2047 ![] bcast_S_S4x2047),
    StableHlo.TRef.binary main_call0.v1 (.of main_v26) main_call0.v2 maximumf,
    StableHlo.TRef.unary (.of main_cst_8) main_call0.v3 id,
    StableHlo.TRef.unary main_call0.v3 main_call0.v4 (broadcastInDim S4x2047 ![] bcast_S_S4x2047),
    StableHlo.TRef.binary main_call0.v4 main_call0.v2 main_call0.v5 minimumf,
    StableHlo.binary main_v22 main_v27 main_v28 ((fun a b => concatenate S4x2048 1 [⟨S4x1, a⟩, ⟨S4x2047, b⟩] concatenates_S4x1_S4x2047_S4x2048_d1) : (⟨S4x1, .f32⟩ : BufTy).Contents (Elt F) → (⟨S4x2047, .f32⟩ : BufTy).Contents (Elt F) → (⟨S4x2048, .f32⟩ : BufTy).Contents (Elt F)),
    StableHlo.nullary main_c (constantI S_ 32 0#32),
    StableHlo.unary main_c main_v29 (broadcastInDim S1 ![] bcast_S_S1 : (⟨S_, .i32⟩ : BufTy).Contents (Elt F) → (⟨S1, .i32⟩ : BufTy).Contents (Elt F)),
    StableHlo.nullary main_cst_9 (constant S_ .f32 0x3F800000#32),
    StableHlo.unary main_cst_9 main_v30 (broadcastInDim S4 ![] bcast_S_S4 : (⟨S_, .f32⟩ : BufTy).Contents (Elt F) → (⟨S4, .f32⟩ : BufTy).Contents (Elt F)),
    StableHlo.ternary main_v28 main_v29 main_v30 main_v31 ((fun x i u => Host.scatter scatter_S4x2048_S1_S4_0_1_1_0 (fun _ b => b) x i u) : (⟨S4x2048, .f32⟩ : BufTy).Contents (Elt F) → (⟨S1, .i32⟩ : BufTy).Contents (Elt F) → (⟨S4, .f32⟩ : BufTy).Contents (Elt F) → (⟨S4x2048, .f32⟩ : BufTy).Contents (Elt F)) ]

theorem opsA_sub : (opsA : List (HloOp τ sig (Elt F))).Forall fun op => op.bufs ⊆ tcRefs τ sig :=
  ⟨unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., unary_bufs_sub .., nullary_bufs_sub .., unary_bufs_sub .., ternary_bufs_sub ..⟩

/-- 11 operations, the last writing main_v38. -/
abbrev opsB1 : List (HloOp τ sig (Elt F)) :=
  [ StableHlo.nullary main_cst_10 (constant S_ .f32 0x3F000000#32),
    StableHlo.unary main_cst_10 main_v32 (broadcastInDim S4x2048 ![] bcast_S_S4x2048 : (⟨S_, .f32⟩ : BufTy).Contents (Elt F) → (⟨S4x2048, .f32⟩ : BufTy).Contents (Elt F)),
    StableHlo.binary main_v31 main_v32 main_v33 (cmpf .ogt : (⟨S4x2048, .f32⟩ : BufTy).Contents (Elt F) → (⟨S4x2048, .f32⟩ : BufTy).Contents (Elt F) → (⟨S4x2048, .i1⟩ : BufTy).Contents (Elt F)),
    StableHlo.unary main_v33 main_v34 (noti : (⟨S4x2048, .i1⟩ : BufTy).Contents (Elt F) → (⟨S4x2048, .i1⟩ : BufTy).Contents (Elt F)),
    StableHlo.unary main_v34 main_v35 ((extui 32 · natLt_1_32) : (⟨S4x2048, .i1⟩ : BufTy).Contents (Elt F) → (⟨S4x2048, .i32⟩ : BufTy).Contents (Elt F)),
    StableHlo.TRef.nullary main_call1.v0 (iotaInDim S4x2048 32 1),
    StableHlo.TRef.binary (.of main_v35) main_call1.v0 main_call1.v1_0 (fun x y => (Host.sort2 S4x2048 1 comparator_i32_i32_d1 x y).1),
    StableHlo.TRef.binary (.of main_v35) main_call1.v0 main_call1.v1_1 (fun x y => (Host.sort2 S4x2048 1 comparator_i32_i32_d1 x y).2),
    StableHlo.unary main_v33 main_v37 ((extui 32 · natLt_1_32) : (⟨S4x2048, .i1⟩ : BufTy).Contents (Elt F) → (⟨S4x2048, .i32⟩ : BufTy).Contents (Elt F)),
    StableHlo.nullary main_c_11 (constantI S_ 32 0#32),
    StableHlo.binary main_v37 main_c_11 main_v38 ((fun x v => Host.reduce IntOp.addi x v reducesTo_S4x2048_S4_d1 h_S_) : (⟨S4x2048, .i32⟩ : BufTy).Contents (Elt F) → (⟨S_, .i32⟩ : BufTy).Contents (Elt F) → (⟨S4, .i32⟩ : BufTy).Contents (Elt F)) ]

theorem opsB1_sub : (opsB1 : List (HloOp τ sig (Elt F))).Forall fun op => op.bufs ⊆ tcRefs τ sig :=
  ⟨nullary_bufs_sub .., unary_bufs_sub .., binary_bufs_sub .., unary_bufs_sub .., unary_bufs_sub .., nullary_bufs_sub .., binary_bufs_sub .., binary_bufs_sub .., unary_bufs_sub .., nullary_bufs_sub .., binary_bufs_sub ..⟩

/-- 28 operations, the last writing main_v45. -/
abbrev opsB2 : List (HloOp τ sig (Elt F)) :=
  [ StableHlo.unary main_v36 main_v39 (broadcastInDim S4x2048x1 ![0, 1] bcast_S4x2048_S4x2048x1_0_1 : (⟨S4x2048, .i32⟩ : BufTy).Contents (Elt F) → (⟨S4x2048x1, .i32⟩ : BufTy).Contents (Elt F)),
    StableHlo.TRef.nullary main_call2.c (constantI S_ 32 0#32),
    StableHlo.TRef.unary main_call2.c main_call2.v0 (broadcastInDim S4x2048x1 ![] bcast_S_S4x2048x1),
    StableHlo.TRef.binary (.of main_v39) main_call2.v0 main_call2.v1 (cmpi .slt),
    StableHlo.TRef.nullary main_call2.c_0 (constantI S_ 32 2048#32),
    StableHlo.TRef.unary main_call2.c_0 main_call2.v2 (broadcastInDim S4x2048x1 ![] bcast_S_S4x2048x1),
    StableHlo.TRef.binary (.of main_v39) main_call2.v2 main_call2.v3 addi,
    StableHlo.TRef.ternary main_call2.v1 main_call2.v3 (.of main_v39) main_call2.v4 select,
    StableHlo.TRef.nullary main_call2.c_1 (constantI S1 32 2047#32),
    StableHlo.TRef.nullary main_call2.c_2 (constantI S_ 32 0#32),
    StableHlo.TRef.unary main_call2.c_2 main_call2.v5 (broadcastInDim S4x2048x1 ![] bcast_S_S4x2048x1),
    StableHlo.TRef.binary main_call2.v4 main_call2.v5 main_call2.v6 (cmpi .sge),
    StableHlo.TRef.unary main_call2.c_1 main_call2.v7 (broadcastInDim S1x1x1 ![2] bcast_S1_S1x1x1_2),
    StableHlo.TRef.unary main_call2.v7 main_call2.v8 (broadcastInDim S4x2048x1 ![0, 1, 2] bcast_S1x1x1_S4x2048x1_0_1_2),
    StableHlo.TRef.binary main_call2.v4 main_call2.v8 main_call2.v9 (cmpi .sle),
    StableHlo.TRef.binary main_call2.v6 main_call2.v9 main_call2.v10 andi,
    StableHlo.TRef.nullary main_call2.c_3 (constantI S_ 1 1#1),
    StableHlo.TRef.binary main_call2.v10 main_call2.c_3 main_call2.v11 (fun x v => Host.reduce IntOp.andi x v reducesTo_S4x2048x1_S4x2048_d2 h_S_),
    StableHlo.TRef.binary (.of main_arg0) main_call2.v4 main_call2.v12 (fun x i => Host.gather gather_S4x2048x512_S4x2048x1_S4x2048x512_2_1_0_0_1_2_11512 x i),
    StableHlo.TRef.unary main_call2.v11 main_call2.v13 (broadcastInDim S4x2048x512 ![0, 1] bcast_S4x2048_S4x2048x512_0_1),
    StableHlo.TRef.nullary main_call2.cst (constant S_ .f32 0x7FC00000#32),
    StableHlo.TRef.unary main_call2.cst main_call2.v14 (broadcastInDim S4x2048x512 ![] bcast_S_S4x2048x512),
    StableHlo.TRef.ternary main_call2.v13 main_call2.v12 main_call2.v14 main_call2.v15 select,
    StableHlo.nullary main_v41 (iotaInDim S2048 32 0),
    StableHlo.unary main_v41 main_v42 (broadcastInDim S1x2048 ![1] bcast_S2048_S1x2048_1 : (⟨S2048, .i32⟩ : BufTy).Contents (Elt F) → (⟨S1x2048, .i32⟩ : BufTy).Contents (Elt F)),
    StableHlo.unary main_v38 main_v43 (broadcastInDim S4x1 ![0] bcast_S4_S4x1_0 : (⟨S4, .i32⟩ : BufTy).Contents (Elt F) → (⟨S4x1, .i32⟩ : BufTy).Contents (Elt F)),
    StableHlo.unary main_v42 main_v44 (broadcastInDim S4x2048 ![0, 1] bcast_S1x2048_S4x2048_0_1 : (⟨S1x2048, .i32⟩ : BufTy).Contents (Elt F) → (⟨S4x2048, .i32⟩ : BufTy).Contents (Elt F)),
    StableHlo.unary main_v43 main_v45 (broadcastInDim S4x2048 ![0, 1] bcast_S4x1_S4x2048_0_1 : (⟨S4x1, .i32⟩ : BufTy).Contents (Elt F) → (⟨S4x2048, .i32⟩ : BufTy).Contents (Elt F)) ]

theorem opsB2_sub : (opsB2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., unary_bufs_sub .., unary_bufs_sub ..⟩

/-- 46 operations, the last writing main_v60. -/
abbrev opsC : List (HloOp τ sig (Elt F)) :=
  [ StableHlo.binary main_v44 main_v45 main_v46 (cmpi .slt : (⟨S4x2048, .i32⟩ : BufTy).Contents (Elt F) → (⟨S4x2048, .i32⟩ : BufTy).Contents (Elt F) → (⟨S4x2048, .i1⟩ : BufTy).Contents (Elt F)),
    StableHlo.TRef.nullary main_call3.c (constantI S_ 32 0#32),
    StableHlo.TRef.unary main_call3.c main_call3.v0 (broadcastInDim S4x2048 ![] bcast_S_S4x2048),
    StableHlo.TRef.binary (.of main_v36) main_call3.v0 main_call3.v1 (cmpi .slt),
    StableHlo.TRef.nullary main_call3.c_0 (constantI S_ 32 2048#32),
    StableHlo.TRef.unary main_call3.c_0 main_call3.v2 (broadcastInDim S4x2048 ![] bcast_S_S4x2048),
    StableHlo.TRef.binary (.of main_v36) main_call3.v2 main_call3.v3 addi,
    StableHlo.TRef.ternary main_call3.v1 main_call3.v3 (.of main_v36) main_call3.v4 select,
    StableHlo.TRef.reshape main_call3.v4 main_call3.v5 rfl shapeCasts_S4x2048_S4x2048x1,
    StableHlo.TRef.nullary main_call3.c_1 (constantI S1 32 2047#32),
    StableHlo.TRef.nullary main_call3.c_2 (constantI S_ 32 0#32),
    StableHlo.TRef.unary main_call3.c_2 main_call3.v6 (broadcastInDim S4x2048x1 ![] bcast_S_S4x2048x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S4x2048x1 ![0, 1, 2] bcast_S1x1x1_S4x2048x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S4x2048x1_S4x2048_d2 h_S_),
    StableHlo.TRef.binary (.of main_v31) main_call3.v5 main_call3.v13 (fun x i => Host.gather gather_S4x2048_S4x2048x1_S4x2048_n_1_0_0_1_2_11 x i),
    StableHlo.TRef.nullary main_call3.cst (constant S_ .f32 0x7FC00000#32),
    StableHlo.TRef.unary main_call3.cst main_call3.v14 (broadcastInDim S4x2048 ![] bcast_S_S4x2048),
    StableHlo.TRef.ternary main_call3.v12 main_call3.v13 main_call3.v14 main_call3.v15 select,
    StableHlo.unary main_v46 main_v48 (uitofp .f32 : (⟨S4x2048, .i1⟩ : BufTy).Contents (Elt F) → (⟨S4x2048, .f32⟩ : BufTy).Contents (Elt F)),
    StableHlo.binary main_v47 main_v48 main_v49 (mulf : (⟨S4x2048, .f32⟩ : BufTy).Contents (Elt F) → (⟨S4x2048, .f32⟩ : BufTy).Contents (Elt F) → (⟨S4x2048, .f32⟩ : BufTy).Contents (Elt F)),
    StableHlo.nullary main_cst_12 (constant S_ .f32 0x3F800000#32),
    StableHlo.unary main_cst_12 main_v50 (broadcastInDim S4x2048 ![] bcast_S_S4x2048 : (⟨S_, .f32⟩ : BufTy).Contents (Elt F) → (⟨S4x2048, .f32⟩ : BufTy).Contents (Elt F)),
    StableHlo.binary main_v50 main_v49 main_v51 (subf : (⟨S4x2048, .f32⟩ : BufTy).Contents (Elt F) → (⟨S4x2048, .f32⟩ : BufTy).Contents (Elt F) → (⟨S4x2048, .f32⟩ : BufTy).Contents (Elt F)),
    StableHlo.nullary main_cst_13 (constant S_ .f32 0x00000000#32),
    StableHlo.nullary main_cst_14 (constant S_ .f32 0x3F800000#32),
    StableHlo.TRef.unary (.of main_cst_13) main_call4.v0 id,
    StableHlo.TRef.unary main_call4.v0 main_call4.v1 (broadcastInDim S4x2048 ![] bcast_S_S4x2048),
    StableHlo.TRef.binary main_call4.v1 (.of main_v51) main_call4.v2 maximumf,
    StableHlo.TRef.unary (.of main_cst_14) main_call4.v3 id,
    StableHlo.TRef.unary main_call4.v3 main_call4.v4 (broadcastInDim S4x2048 ![] bcast_S_S4x2048),
    StableHlo.TRef.binary main_call4.v4 main_call4.v2 main_call4.v5 minimumf,
    StableHlo.nullary main_cst_15 (constant S_ .f32 0x00000000#32),
    StableHlo.unary main_cst_15 main_v53 (broadcastInDim S4x512 ![] bcast_S_S4x512 : (⟨S_, .f32⟩ : BufTy).Contents (Elt F) → (⟨S4x512, .f32⟩ : BufTy).Contents (Elt F)),
    StableHlo.unary main_v52 main_v54 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v54 main_v55 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    StableHlo.nullary main_cst_16 (constant S_ .f32 0x3F800000#32),
    StableHlo.unary main_cst_16 main_v56 (broadcastInDim S4x2048 ![] bcast_S_S4x2048 : (⟨S_, .f32⟩ : BufTy).Contents (Elt F) → (⟨S4x2048, .f32⟩ : BufTy).Contents (Elt F)),
    StableHlo.binary main_v56 main_v52 main_v57 (subf : (⟨S4x2048, .f32⟩ : BufTy).Contents (Elt F) → (⟨S4x2048, .f32⟩ : BufTy).Contents (Elt F) → (⟨S4x2048, .f32⟩ : BufTy).Contents (Elt F)),
    StableHlo.unary main_v57 main_v58 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v58 main_v59 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    StableHlo.binary main_v59 main_v40 main_v60 (mulf : (⟨S4x2048x512, .f32⟩ : BufTy).Contents (Elt F) → (⟨S4x2048x512, .f32⟩ : BufTy).Contents (Elt F) → (⟨S4x2048x512, .f32⟩ : BufTy).Contents (Elt F)) ]

theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., unary_bufs_sub .., unary_bufs_sub .., nullary_bufs_sub .., unary_bufs_sub .., binary_bufs_sub .., unary_bufs_sub .., unary_bufs_sub .., binary_bufs_sub ..⟩

/-- 7 operations, the last writing main_v67. -/
abbrev opsS0 : List (HloOp τ sig (Elt F)) :=
  [ StableHlo.unary main_v60 main_v61 ((extractStridedSlice S4x1x512 ![0, 0, 0] · slices_S4x2048x512_S4x1x512_0_0_0) : (⟨S4x2048x512, .f32⟩ : BufTy).Contents (Elt F) → (⟨S4x1x512, .f32⟩ : BufTy).Contents (Elt F)),
    StableHlo.unary main_v55 main_v62 ((extractStridedSlice S4x1x512 ![0, 0, 0] · slices_S4x2048x512_S4x1x512_0_0_0) : (⟨S4x2048x512, .f32⟩ : BufTy).Contents (Elt F) → (⟨S4x1x512, .f32⟩ : BufTy).Contents (Elt F)),
    StableHlo.unary main_v53 main_v63 (broadcastInDim S4x1x512 ![0, 2] bcast_S4x512_S4x1x512_0_2 : (⟨S4x512, .f32⟩ : BufTy).Contents (Elt F) → (⟨S4x1x512, .f32⟩ : BufTy).Contents (Elt F)),
    StableHlo.binary main_v62 main_v63 main_v64 (mulf : (⟨S4x1x512, .f32⟩ : BufTy).Contents (Elt F) → (⟨S4x1x512, .f32⟩ : BufTy).Contents (Elt F) → (⟨S4x1x512, .f32⟩ : BufTy).Contents (Elt F)),
    StableHlo.binary main_v61 main_v64 main_v65 (addf : (⟨S4x1x512, .f32⟩ : BufTy).Contents (Elt F) → (⟨S4x1x512, .f32⟩ : BufTy).Contents (Elt F) → (⟨S4x1x512, .f32⟩ : BufTy).Contents (Elt F)),
    StableHlo.unary main_v60 main_v66 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    StableHlo.binary main_v65 main_v66 main_v67 ((fun a b => concatenate S4x2048x512 1 [⟨S4x1x512, a⟩, ⟨S4x2047x512, b⟩] concatenates_S4x1x512_S4x2047x512_S4x2048x512_d1) : (⟨S4x1x512, .f32⟩ : BufTy).Contents (Elt F) → (⟨S4x2047x512, .f32⟩ : BufTy).Contents (Elt F) → (⟨S4x2048x512, .f32⟩ : BufTy).Contents (Elt F)) ]

theorem opsS0_sub : (opsS0 : List (HloOp τ sig (Elt F))).Forall fun op => op.bufs ⊆ tcRefs τ sig :=
  ⟨unary_bufs_sub .., unary_bufs_sub .., unary_bufs_sub .., binary_bufs_sub .., binary_bufs_sub .., unary_bufs_sub .., binary_bufs_sub ..⟩

/-- 12 operations, the last writing main_v79. -/
abbrev opsS1 : List (HloOp τ sig (Elt F)) :=
  [ StableHlo.unary main_v67 main_v68 ((extractStridedSlice S4x1x512 ![0, 0, 0] · slices_S4x2048x512_S4x1x512_0_0_0) : (⟨S4x2048x512, .f32⟩ : BufTy).Contents (Elt F) → (⟨S4x1x512, .f32⟩ : BufTy).Contents (Elt F)),
    StableHlo.unary main_v55 main_v69 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    StableHlo.unary main_v67 main_v70 ((extractStridedSlice S4x2047x512 ![0, 0, 0] · slices_S4x2048x512_S4x2047x512_0_0_0) : (⟨S4x2048x512, .f32⟩ : BufTy).Contents (Elt F) → (⟨S4x2047x512, .f32⟩ : BufTy).Contents (Elt F)),
    StableHlo.binary main_v69 main_v70 main_v71 (mulf : (⟨S4x2047x512, .f32⟩ : BufTy).Contents (Elt F) → (⟨S4x2047x512, .f32⟩ : BufTy).Contents (Elt F) → (⟨S4x2047x512, .f32⟩ : BufTy).Contents (Elt F)),
    StableHlo.unary main_v67 main_v72 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    StableHlo.binary main_v71 main_v72 main_v73 (addf : (⟨S4x2047x512, .f32⟩ : BufTy).Contents (Elt F) → (⟨S4x2047x512, .f32⟩ : BufTy).Contents (Elt F) → (⟨S4x2047x512, .f32⟩ : BufTy).Contents (Elt F)),
    StableHlo.binary main_v68 main_v73 main_v74 ((fun a b => concatenate S4x2048x512 1 [⟨S4x1x512, a⟩, ⟨S4x2047x512, b⟩] concatenates_S4x1x512_S4x2047x512_S4x2048x512_d1) : (⟨S4x1x512, .f32⟩ : BufTy).Contents (Elt F) → (⟨S4x2047x512, .f32⟩ : BufTy).Contents (Elt F) → (⟨S4x2048x512, .f32⟩ : BufTy).Contents (Elt F)),
    StableHlo.unary main_v55 main_v75 ((extractStridedSlice S4x1x512 ![0, 0, 0] · slices_S4x2048x512_S4x1x512_0_0_0) : (⟨S4x2048x512, .f32⟩ : BufTy).Contents (Elt F) → (⟨S4x1x512, .f32⟩ : BufTy).Contents (Elt F)),
    StableHlo.unary main_v55 main_v76 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    StableHlo.unary main_v55 main_v77 ((extractStridedSlice S4x2047x512 ![0, 0, 0] · slices_S4x2048x512_S4x2047x512_0_0_0) : (⟨S4x2048x512, .f32⟩ : BufTy).Contents (Elt F) → (⟨S4x2047x512, .f32⟩ : BufTy).Contents (Elt F)),
    StableHlo.binary main_v76 main_v77 main_v78 (mulf : (⟨S4x2047x512, .f32⟩ : BufTy).Contents (Elt F) → (⟨S4x2047x512, .f32⟩ : BufTy).Contents (Elt F) → (⟨S4x2047x512, .f32⟩ : BufTy).Contents (Elt F)),
    StableHlo.binary main_v75 main_v78 main_v79 ((fun a b => concatenate S4x2048x512 1 [⟨S4x1x512, a⟩, ⟨S4x2047x512, b⟩] concatenates_S4x1x512_S4x2047x512_S4x2048x512_d1) : (⟨S4x1x512, .f32⟩ : BufTy).Contents (Elt F) → (⟨S4x2047x512, .f32⟩ : BufTy).Contents (Elt F) → (⟨S4x2048x512, .f32⟩ : BufTy).Contents (Elt F)) ]

theorem opsS1_sub : (opsS1 : List (HloOp τ sig (Elt F))).Forall fun op => op.bufs ⊆ tcRefs τ sig :=
  ⟨unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub ..⟩

/-- 12 operations, the last writing main_v91. -/
abbrev opsS2 : List (HloOp τ sig (Elt F)) :=
  [ StableHlo.unary main_v74 main_v80 ((extractStridedSlice S4x2x512 ![0, 0, 0] · slices_S4x2048x512_S4x2x512_0_0_0) : (⟨S4x2048x512, .f32⟩ : BufTy).Contents (Elt F) → (⟨S4x2x512, .f32⟩ : BufTy).Contents (Elt F)),
    StableHlo.unary main_v79 main_v81 ((extractStridedSlice S4x2046x512 ![0, 2, 0] · slices_S4x2048x512_S4x2046x512_0_2_0) : (⟨S4x2048x512, .f32⟩ : BufTy).Contents (Elt F) → (⟨S4x2046x512, .f32⟩ : BufTy).Contents (Elt F)),
    StableHlo.unary main_v74 main_v82 ((extractStridedSlice S4x2046x512 ![0, 0, 0] · slices_S4x2048x512_S4x2046x512_0_0_0) : (⟨S4x2048x512, .f32⟩ : BufTy).Contents (Elt F) → (⟨S4x2046x512, .f32⟩ : BufTy).Contents (Elt F)),
    StableHlo.binary main_v81 main_v82 main_v83 (mulf : (⟨S4x2046x512, .f32⟩ : BufTy).Contents (Elt F) → (⟨S4x2046x512, .f32⟩ : BufTy).Contents (Elt F) → (⟨S4x2046x512, .f32⟩ : BufTy).Contents (Elt F)),
    StableHlo.unary main_v74 main_v84 ((extractStridedSlice S4x2046x512 ![0, 2, 0] · slices_S4x2048x512_S4x2046x512_0_2_0) : (⟨S4x2048x512, .f32⟩ : BufTy).Contents (Elt F) → (⟨S4x2046x512, .f32⟩ : BufTy).Contents (Elt F)),
    StableHlo.binary main_v83 main_v84 main_v85 (addf : (⟨S4x2046x512, .f32⟩ : BufTy).Contents (Elt F) → (⟨S4x2046x512, .f32⟩ : BufTy).Contents (Elt F) → (⟨S4x2046x512, .f32⟩ : BufTy).Contents (Elt F)),
    StableHlo.binary main_v80 main_v85 main_v86 ((fun a b => concatenate S4x2048x512 1 [⟨S4x2x512, a⟩, ⟨S4x2046x512, b⟩] concatenates_S4x2x512_S4x2046x512_S4x2048x512_d1) : (⟨S4x2x512, .f32⟩ : BufTy).Contents (Elt F) → (⟨S4x2046x512, .f32⟩ : BufTy).Contents (Elt F) → (⟨S4x2048x512, .f32⟩ : BufTy).Contents (Elt F)),
    StableHlo.unary main_v79 main_v87 ((extractStridedSlice S4x2x512 ![0, 0, 0] · slices_S4x2048x512_S4x2x512_0_0_0) : (⟨S4x2048x512, .f32⟩ : BufTy).Contents (Elt F) → (⟨S4x2x512, .f32⟩ : BufTy).Contents (Elt F)),
    StableHlo.unary main_v79 main_v88 ((extractStridedSlice S4x2046x512 ![0, 2, 0] · slices_S4x2048x512_S4x2046x512_0_2_0) : (⟨S4x2048x512, .f32⟩ : BufTy).Contents (Elt F) → (⟨S4x2046x512, .f32⟩ : BufTy).Contents (Elt F)),
    StableHlo.unary main_v79 main_v89 ((extractStridedSlice S4x2046x512 ![0, 0, 0] · slices_S4x2048x512_S4x2046x512_0_0_0) : (⟨S4x2048x512, .f32⟩ : BufTy).Contents (Elt F) → (⟨S4x2046x512, .f32⟩ : BufTy).Contents (Elt F)),
    StableHlo.binary main_v88 main_v89 main_v90 (mulf : (⟨S4x2046x512, .f32⟩ : BufTy).Contents (Elt F) → (⟨S4x2046x512, .f32⟩ : BufTy).Contents (Elt F) → (⟨S4x2046x512, .f32⟩ : BufTy).Contents (Elt F)),
    StableHlo.binary main_v87 main_v90 main_v91 ((fun a b => concatenate S4x2048x512 1 [⟨S4x2x512, a⟩, ⟨S4x2046x512, b⟩] concatenates_S4x2x512_S4x2046x512_S4x2048x512_d1) : (⟨S4x2x512, .f32⟩ : BufTy).Contents (Elt F) → (⟨S4x2046x512, .f32⟩ : BufTy).Contents (Elt F) → (⟨S4x2048x512, .f32⟩ : BufTy).Contents (Elt F)) ]

theorem opsS2_sub : (opsS2 : List (HloOp τ sig (Elt F))).Forall fun op => op.bufs ⊆ tcRefs τ sig :=
  ⟨unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub ..⟩

/-- 9 operations, the last writing main_v100. -/
abbrev opsS3a : List (HloOp τ sig (Elt F)) :=
  [ StableHlo.unary main_v86 main_v92 ((extractStridedSlice S4x4x512 ![0, 0, 0] · slices_S4x2048x512_S4x4x512_0_0_0) : (⟨S4x2048x512, .f32⟩ : BufTy).Contents (Elt F) → (⟨S4x4x512, .f32⟩ : BufTy).Contents (Elt F)),
    StableHlo.unary main_v91 main_v93 ((extractStridedSlice S4x2044x512 ![0, 4, 0] · slices_S4x2048x512_S4x2044x512_0_4_0) : (⟨S4x2048x512, .f32⟩ : BufTy).Contents (Elt F) → (⟨S4x2044x512, .f32⟩ : BufTy).Contents (Elt F)),
    StableHlo.unary main_v86 main_v94 ((extractStridedSlice S4x2044x512 ![0, 0, 0] · slices_S4x2048x512_S4x2044x512_0_0_0) : (⟨S4x2048x512, .f32⟩ : BufTy).Contents (Elt F) → (⟨S4x2044x512, .f32⟩ : BufTy).Contents (Elt F)),
    StableHlo.binary main_v93 main_v94 main_v95 (mulf : (⟨S4x2044x512, .f32⟩ : BufTy).Contents (Elt F) → (⟨S4x2044x512, .f32⟩ : BufTy).Contents (Elt F) → (⟨S4x2044x512, .f32⟩ : BufTy).Contents (Elt F)),
    StableHlo.unary main_v86 main_v96 ((extractStridedSlice S4x2044x512 ![0, 4, 0] · slices_S4x2048x512_S4x2044x512_0_4_0) : (⟨S4x2048x512, .f32⟩ : BufTy).Contents (Elt F) → (⟨S4x2044x512, .f32⟩ : BufTy).Contents (Elt F)),
    StableHlo.binary main_v95 main_v96 main_v97 (addf : (⟨S4x2044x512, .f32⟩ : BufTy).Contents (Elt F) → (⟨S4x2044x512, .f32⟩ : BufTy).Contents (Elt F) → (⟨S4x2044x512, .f32⟩ : BufTy).Contents (Elt F)),
    StableHlo.binary main_v92 main_v97 main_v98 ((fun a b => concatenate S4x2048x512 1 [⟨S4x4x512, a⟩, ⟨S4x2044x512, b⟩] concatenates_S4x4x512_S4x2044x512_S4x2048x512_d1) : (⟨S4x4x512, .f32⟩ : BufTy).Contents (Elt F) → (⟨S4x2044x512, .f32⟩ : BufTy).Contents (Elt F) → (⟨S4x2048x512, .f32⟩ : BufTy).Contents (Elt F)),
    StableHlo.unary main_v91 main_v99 ((extractStridedSlice S4x4x512 ![0, 0, 0] · slices_S4x2048x512_S4x4x512_0_0_0) : (⟨S4x2048x512, .f32⟩ : BufTy).Contents (Elt F) → (⟨S4x4x512, .f32⟩ : BufTy).Contents (Elt F)),
    StableHlo.unary main_v91 main_v100 ((extractStridedSlice S4x2044x512 ![0, 4, 0] · slices_S4x2048x512_S4x2044x512_0_4_0) : (⟨S4x2048x512, .f32⟩ : BufTy).Contents (Elt F) → (⟨S4x2044x512, .f32⟩ : BufTy).Contents (Elt F)) ]

theorem opsS3a_sub : (opsS3a : List (HloOp τ sig (Elt F))).Forall fun op => op.bufs ⊆ tcRefs τ sig :=
  ⟨unary_bufs_sub .., unary_bufs_sub .., unary_bufs_sub .., binary_bufs_sub .., unary_bufs_sub .., binary_bufs_sub .., binary_bufs_sub .., unary_bufs_sub .., unary_bufs_sub ..⟩

/-- 3 operations, the last writing main_v103. -/
abbrev opsS3b : List (HloOp τ sig (Elt F)) :=
  [ StableHlo.unary main_v91 main_v101 ((extractStridedSlice S4x2044x512 ![0, 0, 0] · slices_S4x2048x512_S4x2044x512_0_0_0) : (⟨S4x2048x512, .f32⟩ : BufTy).Contents (Elt F) → (⟨S4x2044x512, .f32⟩ : BufTy).Contents (Elt F)),
    StableHlo.binary main_v100 main_v101 main_v102 (mulf : (⟨S4x2044x512, .f32⟩ : BufTy).Contents (Elt F) → (⟨S4x2044x512, .f32⟩ : BufTy).Contents (Elt F) → (⟨S4x2044x512, .f32⟩ : BufTy).Contents (Elt F)),
    StableHlo.binary main_v99 main_v102 main_v103 ((fun a b => concatenate S4x2048x512 1 [⟨S4x4x512, a⟩, ⟨S4x2044x512, b⟩] concatenates_S4x4x512_S4x2044x512_S4x2048x512_d1) : (⟨S4x4x512, .f32⟩ : BufTy).Contents (Elt F) → (⟨S4x2044x512, .f32⟩ : BufTy).Contents (Elt F) → (⟨S4x2048x512, .f32⟩ : BufTy).Contents (Elt F)) ]

theorem opsS3b_sub : (opsS3b : List (HloOp τ sig (Elt F))).Forall fun op => op.bufs ⊆ tcRefs τ sig :=
  ⟨unary_bufs_sub .., binary_bufs_sub .., binary_bufs_sub ..⟩

/-- 12 operations, the last writing main_v115. -/
abbrev opsS4 : List (HloOp τ sig (Elt F)) :=
  [ StableHlo.unary main_v98 main_v104 ((extractStridedSlice S4x8x512 ![0, 0, 0] · slices_S4x2048x512_S4x8x512_0_0_0) : (⟨S4x2048x512, .f32⟩ : BufTy).Contents (Elt F) → (⟨S4x8x512, .f32⟩ : BufTy).Contents (Elt F)),
    StableHlo.unary main_v103 main_v105 ((extractStridedSlice S4x2040x512 ![0, 8, 0] · slices_S4x2048x512_S4x2040x512_0_8_0) : (⟨S4x2048x512, .f32⟩ : BufTy).Contents (Elt F) → (⟨S4x2040x512, .f32⟩ : BufTy).Contents (Elt F)),
    StableHlo.unary main_v98 main_v106 ((extractStridedSlice S4x2040x512 ![0, 0, 0] · slices_S4x2048x512_S4x2040x512_0_0_0) : (⟨S4x2048x512, .f32⟩ : BufTy).Contents (Elt F) → (⟨S4x2040x512, .f32⟩ : BufTy).Contents (Elt F)),
    StableHlo.binary main_v105 main_v106 main_v107 (mulf : (⟨S4x2040x512, .f32⟩ : BufTy).Contents (Elt F) → (⟨S4x2040x512, .f32⟩ : BufTy).Contents (Elt F) → (⟨S4x2040x512, .f32⟩ : BufTy).Contents (Elt F)),
    StableHlo.unary main_v98 main_v108 ((extractStridedSlice S4x2040x512 ![0, 8, 0] · slices_S4x2048x512_S4x2040x512_0_8_0) : (⟨S4x2048x512, .f32⟩ : BufTy).Contents (Elt F) → (⟨S4x2040x512, .f32⟩ : BufTy).Contents (Elt F)),
    StableHlo.binary main_v107 main_v108 main_v109 (addf : (⟨S4x2040x512, .f32⟩ : BufTy).Contents (Elt F) → (⟨S4x2040x512, .f32⟩ : BufTy).Contents (Elt F) → (⟨S4x2040x512, .f32⟩ : BufTy).Contents (Elt F)),
    StableHlo.binary main_v104 main_v109 main_v110 ((fun a b => concatenate S4x2048x512 1 [⟨S4x8x512, a⟩, ⟨S4x2040x512, b⟩] concatenates_S4x8x512_S4x2040x512_S4x2048x512_d1) : (⟨S4x8x512, .f32⟩ : BufTy).Contents (Elt F) → (⟨S4x2040x512, .f32⟩ : BufTy).Contents (Elt F) → (⟨S4x2048x512, .f32⟩ : BufTy).Contents (Elt F)),
    StableHlo.unary main_v103 main_v111 ((extractStridedSlice S4x8x512 ![0, 0, 0] · slices_S4x2048x512_S4x8x512_0_0_0) : (⟨S4x2048x512, .f32⟩ : BufTy).Contents (Elt F) → (⟨S4x8x512, .f32⟩ : BufTy).Contents (Elt F)),
    StableHlo.unary main_v103 main_v112 ((extractStridedSlice S4x2040x512 ![0, 8, 0] · slices_S4x2048x512_S4x2040x512_0_8_0) : (⟨S4x2048x512, .f32⟩ : BufTy).Contents (Elt F) → (⟨S4x2040x512, .f32⟩ : BufTy).Contents (Elt F)),
    StableHlo.unary main_v103 main_v113 ((extractStridedSlice S4x2040x512 ![0, 0, 0] · slices_S4x2048x512_S4x2040x512_0_0_0) : (⟨S4x2048x512, .f32⟩ : BufTy).Contents (Elt F) → (⟨S4x2040x512, .f32⟩ : BufTy).Contents (Elt F)),
    StableHlo.binary main_v112 main_v113 main_v114 (mulf : (⟨S4x2040x512, .f32⟩ : BufTy).Contents (Elt F) → (⟨S4x2040x512, .f32⟩ : BufTy).Contents (Elt F) → (⟨S4x2040x512, .f32⟩ : BufTy).Contents (Elt F)),
    StableHlo.binary main_v111 main_v114 main_v115 ((fun a b => concatenate S4x2048x512 1 [⟨S4x8x512, a⟩, ⟨S4x2040x512, b⟩] concatenates_S4x8x512_S4x2040x512_S4x2048x512_d1) : (⟨S4x8x512, .f32⟩ : BufTy).Contents (Elt F) → (⟨S4x2040x512, .f32⟩ : BufTy).Contents (Elt F) → (⟨S4x2048x512, .f32⟩ : BufTy).Contents (Elt F)) ]

theorem opsS4_sub : (opsS4 : List (HloOp τ sig (Elt F))).Forall fun op => op.bufs ⊆ tcRefs τ sig :=
  ⟨unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub ..⟩

/-- 12 operations, the last writing main_v127. -/
abbrev opsS5 : List (HloOp τ sig (Elt F)) :=
  [ StableHlo.unary main_v110 main_v116 ((extractStridedSlice S4x16x512 ![0, 0, 0] · slices_S4x2048x512_S4x16x512_0_0_0) : (⟨S4x2048x512, .f32⟩ : BufTy).Contents (Elt F) → (⟨S4x16x512, .f32⟩ : BufTy).Contents (Elt F)),
    StableHlo.unary main_v115 main_v117 ((extractStridedSlice S4x2032x512 ![0, 16, 0] · slices_S4x2048x512_S4x2032x512_0_16_0) : (⟨S4x2048x512, .f32⟩ : BufTy).Contents (Elt F) → (⟨S4x2032x512, .f32⟩ : BufTy).Contents (Elt F)),
    StableHlo.unary main_v110 main_v118 ((extractStridedSlice S4x2032x512 ![0, 0, 0] · slices_S4x2048x512_S4x2032x512_0_0_0) : (⟨S4x2048x512, .f32⟩ : BufTy).Contents (Elt F) → (⟨S4x2032x512, .f32⟩ : BufTy).Contents (Elt F)),
    StableHlo.binary main_v117 main_v118 main_v119 (mulf : (⟨S4x2032x512, .f32⟩ : BufTy).Contents (Elt F) → (⟨S4x2032x512, .f32⟩ : BufTy).Contents (Elt F) → (⟨S4x2032x512, .f32⟩ : BufTy).Contents (Elt F)),
    StableHlo.unary main_v110 main_v120 ((extractStridedSlice S4x2032x512 ![0, 16, 0] · slices_S4x2048x512_S4x2032x512_0_16_0) : (⟨S4x2048x512, .f32⟩ : BufTy).Contents (Elt F) → (⟨S4x2032x512, .f32⟩ : BufTy).Contents (Elt F)),
    StableHlo.binary main_v119 main_v120 main_v121 (addf : (⟨S4x2032x512, .f32⟩ : BufTy).Contents (Elt F) → (⟨S4x2032x512, .f32⟩ : BufTy).Contents (Elt F) → (⟨S4x2032x512, .f32⟩ : BufTy).Contents (Elt F)),
    StableHlo.binary main_v116 main_v121 main_v122 ((fun a b => concatenate S4x2048x512 1 [⟨S4x16x512, a⟩, ⟨S4x2032x512, b⟩] concatenates_S4x16x512_S4x2032x512_S4x2048x512_d1) : (⟨S4x16x512, .f32⟩ : BufTy).Contents (Elt F) → (⟨S4x2032x512, .f32⟩ : BufTy).Contents (Elt F) → (⟨S4x2048x512, .f32⟩ : BufTy).Contents (Elt F)),
    StableHlo.unary main_v115 main_v123 ((extractStridedSlice S4x16x512 ![0, 0, 0] · slices_S4x2048x512_S4x16x512_0_0_0) : (⟨S4x2048x512, .f32⟩ : BufTy).Contents (Elt F) → (⟨S4x16x512, .f32⟩ : BufTy).Contents (Elt F)),
    StableHlo.unary main_v115 main_v124 ((extractStridedSlice S4x2032x512 ![0, 16, 0] · slices_S4x2048x512_S4x2032x512_0_16_0) : (⟨S4x2048x512, .f32⟩ : BufTy).Contents (Elt F) → (⟨S4x2032x512, .f32⟩ : BufTy).Contents (Elt F)),
    StableHlo.unary main_v115 main_v125 ((extractStridedSlice S4x2032x512 ![0, 0, 0] · slices_S4x2048x512_S4x2032x512_0_0_0) : (⟨S4x2048x512, .f32⟩ : BufTy).Contents (Elt F) → (⟨S4x2032x512, .f32⟩ : BufTy).Contents (Elt F)),
    StableHlo.binary main_v124 main_v125 main_v126 (mulf : (⟨S4x2032x512, .f32⟩ : BufTy).Contents (Elt F) → (⟨S4x2032x512, .f32⟩ : BufTy).Contents (Elt F) → (⟨S4x2032x512, .f32⟩ : BufTy).Contents (Elt F)),
    StableHlo.binary main_v123 main_v126 main_v127 ((fun a b => concatenate S4x2048x512 1 [⟨S4x16x512, a⟩, ⟨S4x2032x512, b⟩] concatenates_S4x16x512_S4x2032x512_S4x2048x512_d1) : (⟨S4x16x512, .f32⟩ : BufTy).Contents (Elt F) → (⟨S4x2032x512, .f32⟩ : BufTy).Contents (Elt F) → (⟨S4x2048x512, .f32⟩ : BufTy).Contents (Elt F)) ]

theorem opsS5_sub : (opsS5 : List (HloOp τ sig (Elt F))).Forall fun op => op.bufs ⊆ tcRefs τ sig :=
  ⟨unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub ..⟩

/-- 12 operations, the last writing main_v139. -/
abbrev opsS6 : List (HloOp τ sig (Elt F)) :=
  [ StableHlo.unary main_v122 main_v128 ((extractStridedSlice S4x32x512 ![0, 0, 0] · slices_S4x2048x512_S4x32x512_0_0_0) : (⟨S4x2048x512, .f32⟩ : BufTy).Contents (Elt F) → (⟨S4x32x512, .f32⟩ : BufTy).Contents (Elt F)),
    StableHlo.unary main_v127 main_v129 ((extractStridedSlice S4x2016x512 ![0, 32, 0] · slices_S4x2048x512_S4x2016x512_0_32_0) : (⟨S4x2048x512, .f32⟩ : BufTy).Contents (Elt F) → (⟨S4x2016x512, .f32⟩ : BufTy).Contents (Elt F)),
    StableHlo.unary main_v122 main_v130 ((extractStridedSlice S4x2016x512 ![0, 0, 0] · slices_S4x2048x512_S4x2016x512_0_0_0) : (⟨S4x2048x512, .f32⟩ : BufTy).Contents (Elt F) → (⟨S4x2016x512, .f32⟩ : BufTy).Contents (Elt F)),
    StableHlo.binary main_v129 main_v130 main_v131 (mulf : (⟨S4x2016x512, .f32⟩ : BufTy).Contents (Elt F) → (⟨S4x2016x512, .f32⟩ : BufTy).Contents (Elt F) → (⟨S4x2016x512, .f32⟩ : BufTy).Contents (Elt F)),
    StableHlo.unary main_v122 main_v132 ((extractStridedSlice S4x2016x512 ![0, 32, 0] · slices_S4x2048x512_S4x2016x512_0_32_0) : (⟨S4x2048x512, .f32⟩ : BufTy).Contents (Elt F) → (⟨S4x2016x512, .f32⟩ : BufTy).Contents (Elt F)),
    StableHlo.binary main_v131 main_v132 main_v133 (addf : (⟨S4x2016x512, .f32⟩ : BufTy).Contents (Elt F) → (⟨S4x2016x512, .f32⟩ : BufTy).Contents (Elt F) → (⟨S4x2016x512, .f32⟩ : BufTy).Contents (Elt F)),
    StableHlo.binary main_v128 main_v133 main_v134 ((fun a b => concatenate S4x2048x512 1 [⟨S4x32x512, a⟩, ⟨S4x2016x512, b⟩] concatenates_S4x32x512_S4x2016x512_S4x2048x512_d1) : (⟨S4x32x512, .f32⟩ : BufTy).Contents (Elt F) → (⟨S4x2016x512, .f32⟩ : BufTy).Contents (Elt F) → (⟨S4x2048x512, .f32⟩ : BufTy).Contents (Elt F)),
    StableHlo.unary main_v127 main_v135 ((extractStridedSlice S4x32x512 ![0, 0, 0] · slices_S4x2048x512_S4x32x512_0_0_0) : (⟨S4x2048x512, .f32⟩ : BufTy).Contents (Elt F) → (⟨S4x32x512, .f32⟩ : BufTy).Contents (Elt F)),
    StableHlo.unary main_v127 main_v136 ((extractStridedSlice S4x2016x512 ![0, 32, 0] · slices_S4x2048x512_S4x2016x512_0_32_0) : (⟨S4x2048x512, .f32⟩ : BufTy).Contents (Elt F) → (⟨S4x2016x512, .f32⟩ : BufTy).Contents (Elt F)),
    StableHlo.unary main_v127 main_v137 ((extractStridedSlice S4x2016x512 ![0, 0, 0] · slices_S4x2048x512_S4x2016x512_0_0_0) : (⟨S4x2048x512, .f32⟩ : BufTy).Contents (Elt F) → (⟨S4x2016x512, .f32⟩ : BufTy).Contents (Elt F)),
    StableHlo.binary main_v136 main_v137 main_v138 (mulf : (⟨S4x2016x512, .f32⟩ : BufTy).Contents (Elt F) → (⟨S4x2016x512, .f32⟩ : BufTy).Contents (Elt F) → (⟨S4x2016x512, .f32⟩ : BufTy).Contents (Elt F)),
    StableHlo.binary main_v135 main_v138 main_v139 ((fun a b => concatenate S4x2048x512 1 [⟨S4x32x512, a⟩, ⟨S4x2016x512, b⟩] concatenates_S4x32x512_S4x2016x512_S4x2048x512_d1) : (⟨S4x32x512, .f32⟩ : BufTy).Contents (Elt F) → (⟨S4x2016x512, .f32⟩ : BufTy).Contents (Elt F) → (⟨S4x2048x512, .f32⟩ : BufTy).Contents (Elt F)) ]

theorem opsS6_sub : (opsS6 : List (HloOp τ sig (Elt F))).Forall fun op => op.bufs ⊆ tcRefs τ sig :=
  ⟨unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub ..⟩

/-- 12 operations, the last writing main_v151. -/
abbrev opsS7 : List (HloOp τ sig (Elt F)) :=
  [ StableHlo.unary main_v134 main_v140 ((extractStridedSlice S4x64x512 ![0, 0, 0] · slices_S4x2048x512_S4x64x512_0_0_0) : (⟨S4x2048x512, .f32⟩ : BufTy).Contents (Elt F) → (⟨S4x64x512, .f32⟩ : BufTy).Contents (Elt F)),
    StableHlo.unary main_v139 main_v141 ((extractStridedSlice S4x1984x512 ![0, 64, 0] · slices_S4x2048x512_S4x1984x512_0_64_0) : (⟨S4x2048x512, .f32⟩ : BufTy).Contents (Elt F) → (⟨S4x1984x512, .f32⟩ : BufTy).Contents (Elt F)),
    StableHlo.unary main_v134 main_v142 ((extractStridedSlice S4x1984x512 ![0, 0, 0] · slices_S4x2048x512_S4x1984x512_0_0_0) : (⟨S4x2048x512, .f32⟩ : BufTy).Contents (Elt F) → (⟨S4x1984x512, .f32⟩ : BufTy).Contents (Elt F)),
    StableHlo.binary main_v141 main_v142 main_v143 (mulf : (⟨S4x1984x512, .f32⟩ : BufTy).Contents (Elt F) → (⟨S4x1984x512, .f32⟩ : BufTy).Contents (Elt F) → (⟨S4x1984x512, .f32⟩ : BufTy).Contents (Elt F)),
    StableHlo.unary main_v134 main_v144 ((extractStridedSlice S4x1984x512 ![0, 64, 0] · slices_S4x2048x512_S4x1984x512_0_64_0) : (⟨S4x2048x512, .f32⟩ : BufTy).Contents (Elt F) → (⟨S4x1984x512, .f32⟩ : BufTy).Contents (Elt F)),
    StableHlo.binary main_v143 main_v144 main_v145 (addf : (⟨S4x1984x512, .f32⟩ : BufTy).Contents (Elt F) → (⟨S4x1984x512, .f32⟩ : BufTy).Contents (Elt F) → (⟨S4x1984x512, .f32⟩ : BufTy).Contents (Elt F)),
    StableHlo.binary main_v140 main_v145 main_v146 ((fun a b => concatenate S4x2048x512 1 [⟨S4x64x512, a⟩, ⟨S4x1984x512, b⟩] concatenates_S4x64x512_S4x1984x512_S4x2048x512_d1) : (⟨S4x64x512, .f32⟩ : BufTy).Contents (Elt F) → (⟨S4x1984x512, .f32⟩ : BufTy).Contents (Elt F) → (⟨S4x2048x512, .f32⟩ : BufTy).Contents (Elt F)),
    StableHlo.unary main_v139 main_v147 ((extractStridedSlice S4x64x512 ![0, 0, 0] · slices_S4x2048x512_S4x64x512_0_0_0) : (⟨S4x2048x512, .f32⟩ : BufTy).Contents (Elt F) → (⟨S4x64x512, .f32⟩ : BufTy).Contents (Elt F)),
    StableHlo.unary main_v139 main_v148 ((extractStridedSlice S4x1984x512 ![0, 64, 0] · slices_S4x2048x512_S4x1984x512_0_64_0) : (⟨S4x2048x512, .f32⟩ : BufTy).Contents (Elt F) → (⟨S4x1984x512, .f32⟩ : BufTy).Contents (Elt F)),
    StableHlo.unary main_v139 main_v149 ((extractStridedSlice S4x1984x512 ![0, 0, 0] · slices_S4x2048x512_S4x1984x512_0_0_0) : (⟨S4x2048x512, .f32⟩ : BufTy).Contents (Elt F) → (⟨S4x1984x512, .f32⟩ : BufTy).Contents (Elt F)),
    StableHlo.binary main_v148 main_v149 main_v150 (mulf : (⟨S4x1984x512, .f32⟩ : BufTy).Contents (Elt F) → (⟨S4x1984x512, .f32⟩ : BufTy).Contents (Elt F) → (⟨S4x1984x512, .f32⟩ : BufTy).Contents (Elt F)),
    StableHlo.binary main_v147 main_v150 main_v151 ((fun a b => concatenate S4x2048x512 1 [⟨S4x64x512, a⟩, ⟨S4x1984x512, b⟩] concatenates_S4x64x512_S4x1984x512_S4x2048x512_d1) : (⟨S4x64x512, .f32⟩ : BufTy).Contents (Elt F) → (⟨S4x1984x512, .f32⟩ : BufTy).Contents (Elt F) → (⟨S4x2048x512, .f32⟩ : BufTy).Contents (Elt F)) ]

theorem opsS7_sub : (opsS7 : List (HloOp τ sig (Elt F))).Forall fun op => op.bufs ⊆ tcRefs τ sig :=
  ⟨unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub ..⟩

/-- 9 operations, the last writing main_v160. -/
abbrev opsS8a : List (HloOp τ sig (Elt F)) :=
  [ StableHlo.unary main_v146 main_v152 ((extractStridedSlice S4x128x512 ![0, 0, 0] · slices_S4x2048x512_S4x128x512_0_0_0) : (⟨S4x2048x512, .f32⟩ : BufTy).Contents (Elt F) → (⟨S4x128x512, .f32⟩ : BufTy).Contents (Elt F)),
    StableHlo.unary main_v151 main_v153 ((extractStridedSlice S4x1920x512 ![0, 128, 0] · slices_S4x2048x512_S4x1920x512_0_128_0) : (⟨S4x2048x512, .f32⟩ : BufTy).Contents (Elt F) → (⟨S4x1920x512, .f32⟩ : BufTy).Contents (Elt F)),
    StableHlo.unary main_v146 main_v154 ((extractStridedSlice S4x1920x512 ![0, 0, 0] · slices_S4x2048x512_S4x1920x512_0_0_0) : (⟨S4x2048x512, .f32⟩ : BufTy).Contents (Elt F) → (⟨S4x1920x512, .f32⟩ : BufTy).Contents (Elt F)),
    StableHlo.binary main_v153 main_v154 main_v155 (mulf : (⟨S4x1920x512, .f32⟩ : BufTy).Contents (Elt F) → (⟨S4x1920x512, .f32⟩ : BufTy).Contents (Elt F) → (⟨S4x1920x512, .f32⟩ : BufTy).Contents (Elt F)),
    StableHlo.unary main_v146 main_v156 ((extractStridedSlice S4x1920x512 ![0, 128, 0] · slices_S4x2048x512_S4x1920x512_0_128_0) : (⟨S4x2048x512, .f32⟩ : BufTy).Contents (Elt F) → (⟨S4x1920x512, .f32⟩ : BufTy).Contents (Elt F)),
    StableHlo.binary main_v155 main_v156 main_v157 (addf : (⟨S4x1920x512, .f32⟩ : BufTy).Contents (Elt F) → (⟨S4x1920x512, .f32⟩ : BufTy).Contents (Elt F) → (⟨S4x1920x512, .f32⟩ : BufTy).Contents (Elt F)),
    StableHlo.binary main_v152 main_v157 main_v158 ((fun a b => concatenate S4x2048x512 1 [⟨S4x128x512, a⟩, ⟨S4x1920x512, b⟩] concatenates_S4x128x512_S4x1920x512_S4x2048x512_d1) : (⟨S4x128x512, .f32⟩ : BufTy).Contents (Elt F) → (⟨S4x1920x512, .f32⟩ : BufTy).Contents (Elt F) → (⟨S4x2048x512, .f32⟩ : BufTy).Contents (Elt F)),
    StableHlo.unary main_v151 main_v159 ((extractStridedSlice S4x128x512 ![0, 0, 0] · slices_S4x2048x512_S4x128x512_0_0_0) : (⟨S4x2048x512, .f32⟩ : BufTy).Contents (Elt F) → (⟨S4x128x512, .f32⟩ : BufTy).Contents (Elt F)),
    StableHlo.unary main_v151 main_v160 ((extractStridedSlice S4x1920x512 ![0, 128, 0] · slices_S4x2048x512_S4x1920x512_0_128_0) : (⟨S4x2048x512, .f32⟩ : BufTy).Contents (Elt F) → (⟨S4x1920x512, .f32⟩ : BufTy).Contents (Elt F)) ]

theorem opsS8a_sub : (opsS8a : List (HloOp τ sig (Elt F))).Forall fun op => op.bufs ⊆ tcRefs τ sig :=
  ⟨unary_bufs_sub .., unary_bufs_sub .., unary_bufs_sub .., binary_bufs_sub .., unary_bufs_sub .., binary_bufs_sub .., binary_bufs_sub .., unary_bufs_sub .., unary_bufs_sub ..⟩

/-- 3 operations, the last writing main_v163. -/
abbrev opsS8b : List (HloOp τ sig (Elt F)) :=
  [ StableHlo.unary main_v151 main_v161 ((extractStridedSlice S4x1920x512 ![0, 0, 0] · slices_S4x2048x512_S4x1920x512_0_0_0) : (⟨S4x2048x512, .f32⟩ : BufTy).Contents (Elt F) → (⟨S4x1920x512, .f32⟩ : BufTy).Contents (Elt F)),
    StableHlo.binary main_v160 main_v161 main_v162 (mulf : (⟨S4x1920x512, .f32⟩ : BufTy).Contents (Elt F) → (⟨S4x1920x512, .f32⟩ : BufTy).Contents (Elt F) → (⟨S4x1920x512, .f32⟩ : BufTy).Contents (Elt F)),
    StableHlo.binary main_v159 main_v162 main_v163 ((fun a b => concatenate S4x2048x512 1 [⟨S4x128x512, a⟩, ⟨S4x1920x512, b⟩] concatenates_S4x128x512_S4x1920x512_S4x2048x512_d1) : (⟨S4x128x512, .f32⟩ : BufTy).Contents (Elt F) → (⟨S4x1920x512, .f32⟩ : BufTy).Contents (Elt F) → (⟨S4x2048x512, .f32⟩ : BufTy).Contents (Elt F)) ]

theorem opsS8b_sub : (opsS8b : List (HloOp τ sig (Elt F))).Forall fun op => op.bufs ⊆ tcRefs τ sig :=
  ⟨unary_bufs_sub .., binary_bufs_sub .., binary_bufs_sub ..⟩

/-- 12 operations, the last writing main_v175. -/
abbrev opsS9 : List (HloOp τ sig (Elt F)) :=
  [ StableHlo.unary main_v158 main_v164 ((extractStridedSlice S4x256x512 ![0, 0, 0] · slices_S4x2048x512_S4x256x512_0_0_0) : (⟨S4x2048x512, .f32⟩ : BufTy).Contents (Elt F) → (⟨S4x256x512, .f32⟩ : BufTy).Contents (Elt F)),
    StableHlo.unary main_v163 main_v165 ((extractStridedSlice S4x1792x512 ![0, 256, 0] · slices_S4x2048x512_S4x1792x512_0_256_0) : (⟨S4x2048x512, .f32⟩ : BufTy).Contents (Elt F) → (⟨S4x1792x512, .f32⟩ : BufTy).Contents (Elt F)),
    StableHlo.unary main_v158 main_v166 ((extractStridedSlice S4x1792x512 ![0, 0, 0] · slices_S4x2048x512_S4x1792x512_0_0_0) : (⟨S4x2048x512, .f32⟩ : BufTy).Contents (Elt F) → (⟨S4x1792x512, .f32⟩ : BufTy).Contents (Elt F)),
    StableHlo.binary main_v165 main_v166 main_v167 (mulf : (⟨S4x1792x512, .f32⟩ : BufTy).Contents (Elt F) → (⟨S4x1792x512, .f32⟩ : BufTy).Contents (Elt F) → (⟨S4x1792x512, .f32⟩ : BufTy).Contents (Elt F)),
    StableHlo.unary main_v158 main_v168 ((extractStridedSlice S4x1792x512 ![0, 256, 0] · slices_S4x2048x512_S4x1792x512_0_256_0) : (⟨S4x2048x512, .f32⟩ : BufTy).Contents (Elt F) → (⟨S4x1792x512, .f32⟩ : BufTy).Contents (Elt F)),
    StableHlo.binary main_v167 main_v168 main_v169 (addf : (⟨S4x1792x512, .f32⟩ : BufTy).Contents (Elt F) → (⟨S4x1792x512, .f32⟩ : BufTy).Contents (Elt F) → (⟨S4x1792x512, .f32⟩ : BufTy).Contents (Elt F)),
    StableHlo.binary main_v164 main_v169 main_v170 ((fun a b => concatenate S4x2048x512 1 [⟨S4x256x512, a⟩, ⟨S4x1792x512, b⟩] concatenates_S4x256x512_S4x1792x512_S4x2048x512_d1) : (⟨S4x256x512, .f32⟩ : BufTy).Contents (Elt F) → (⟨S4x1792x512, .f32⟩ : BufTy).Contents (Elt F) → (⟨S4x2048x512, .f32⟩ : BufTy).Contents (Elt F)),
    StableHlo.unary main_v163 main_v171 ((extractStridedSlice S4x256x512 ![0, 0, 0] · slices_S4x2048x512_S4x256x512_0_0_0) : (⟨S4x2048x512, .f32⟩ : BufTy).Contents (Elt F) → (⟨S4x256x512, .f32⟩ : BufTy).Contents (Elt F)),
    StableHlo.unary main_v163 main_v172 ((extractStridedSlice S4x1792x512 ![0, 256, 0] · slices_S4x2048x512_S4x1792x512_0_256_0) : (⟨S4x2048x512, .f32⟩ : BufTy).Contents (Elt F) → (⟨S4x1792x512, .f32⟩ : BufTy).Contents (Elt F)),
    StableHlo.unary main_v163 main_v173 ((extractStridedSlice S4x1792x512 ![0, 0, 0] · slices_S4x2048x512_S4x1792x512_0_0_0) : (⟨S4x2048x512, .f32⟩ : BufTy).Contents (Elt F) → (⟨S4x1792x512, .f32⟩ : BufTy).Contents (Elt F)),
    StableHlo.binary main_v172 main_v173 main_v174 (mulf : (⟨S4x1792x512, .f32⟩ : BufTy).Contents (Elt F) → (⟨S4x1792x512, .f32⟩ : BufTy).Contents (Elt F) → (⟨S4x1792x512, .f32⟩ : BufTy).Contents (Elt F)),
    StableHlo.binary main_v171 main_v174 main_v175 ((fun a b => concatenate S4x2048x512 1 [⟨S4x256x512, a⟩, ⟨S4x1792x512, b⟩] concatenates_S4x256x512_S4x1792x512_S4x2048x512_d1) : (⟨S4x256x512, .f32⟩ : BufTy).Contents (Elt F) → (⟨S4x1792x512, .f32⟩ : BufTy).Contents (Elt F) → (⟨S4x2048x512, .f32⟩ : BufTy).Contents (Elt F)) ]

theorem opsS9_sub : (opsS9 : List (HloOp τ sig (Elt F))).Forall fun op => op.bufs ⊆ tcRefs τ sig :=
  ⟨unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub ..⟩

/-- 12 operations, the last writing main_v187. -/
abbrev opsS10 : List (HloOp τ sig (Elt F)) :=
  [ StableHlo.unary main_v170 main_v176 ((extractStridedSlice S4x512x512 ![0, 0, 0] · slices_S4x2048x512_S4x512x512_0_0_0) : (⟨S4x2048x512, .f32⟩ : BufTy).Contents (Elt F) → (⟨S4x512x512, .f32⟩ : BufTy).Contents (Elt F)),
    StableHlo.unary main_v175 main_v177 ((extractStridedSlice S4x1536x512 ![0, 512, 0] · slices_S4x2048x512_S4x1536x512_0_512_0) : (⟨S4x2048x512, .f32⟩ : BufTy).Contents (Elt F) → (⟨S4x1536x512, .f32⟩ : BufTy).Contents (Elt F)),
    StableHlo.unary main_v170 main_v178 ((extractStridedSlice S4x1536x512 ![0, 0, 0] · slices_S4x2048x512_S4x1536x512_0_0_0) : (⟨S4x2048x512, .f32⟩ : BufTy).Contents (Elt F) → (⟨S4x1536x512, .f32⟩ : BufTy).Contents (Elt F)),
    StableHlo.binary main_v177 main_v178 main_v179 (mulf : (⟨S4x1536x512, .f32⟩ : BufTy).Contents (Elt F) → (⟨S4x1536x512, .f32⟩ : BufTy).Contents (Elt F) → (⟨S4x1536x512, .f32⟩ : BufTy).Contents (Elt F)),
    StableHlo.unary main_v170 main_v180 ((extractStridedSlice S4x1536x512 ![0, 512, 0] · slices_S4x2048x512_S4x1536x512_0_512_0) : (⟨S4x2048x512, .f32⟩ : BufTy).Contents (Elt F) → (⟨S4x1536x512, .f32⟩ : BufTy).Contents (Elt F)),
    StableHlo.binary main_v179 main_v180 main_v181 (addf : (⟨S4x1536x512, .f32⟩ : BufTy).Contents (Elt F) → (⟨S4x1536x512, .f32⟩ : BufTy).Contents (Elt F) → (⟨S4x1536x512, .f32⟩ : BufTy).Contents (Elt F)),
    StableHlo.binary main_v176 main_v181 main_v182 ((fun a b => concatenate S4x2048x512 1 [⟨S4x512x512, a⟩, ⟨S4x1536x512, b⟩] concatenates_S4x512x512_S4x1536x512_S4x2048x512_d1) : (⟨S4x512x512, .f32⟩ : BufTy).Contents (Elt F) → (⟨S4x1536x512, .f32⟩ : BufTy).Contents (Elt F) → (⟨S4x2048x512, .f32⟩ : BufTy).Contents (Elt F)),
    StableHlo.unary main_v175 main_v183 ((extractStridedSlice S4x512x512 ![0, 0, 0] · slices_S4x2048x512_S4x512x512_0_0_0) : (⟨S4x2048x512, .f32⟩ : BufTy).Contents (Elt F) → (⟨S4x512x512, .f32⟩ : BufTy).Contents (Elt F)),
    StableHlo.unary main_v175 main_v184 ((extractStridedSlice S4x1536x512 ![0, 512, 0] · slices_S4x2048x512_S4x1536x512_0_512_0) : (⟨S4x2048x512, .f32⟩ : BufTy).Contents (Elt F) → (⟨S4x1536x512, .f32⟩ : BufTy).Contents (Elt F)),
    StableHlo.unary main_v175 main_v185 ((extractStridedSlice S4x1536x512 ![0, 0, 0] · slices_S4x2048x512_S4x1536x512_0_0_0) : (⟨S4x2048x512, .f32⟩ : BufTy).Contents (Elt F) → (⟨S4x1536x512, .f32⟩ : BufTy).Contents (Elt F)),
    StableHlo.binary main_v184 main_v185 main_v186 (mulf : (⟨S4x1536x512, .f32⟩ : BufTy).Contents (Elt F) → (⟨S4x1536x512, .f32⟩ : BufTy).Contents (Elt F) → (⟨S4x1536x512, .f32⟩ : BufTy).Contents (Elt F)),
    StableHlo.binary main_v183 main_v186 main_v187 ((fun a b => concatenate S4x2048x512 1 [⟨S4x512x512, a⟩, ⟨S4x1536x512, b⟩] concatenates_S4x512x512_S4x1536x512_S4x2048x512_d1) : (⟨S4x512x512, .f32⟩ : BufTy).Contents (Elt F) → (⟨S4x1536x512, .f32⟩ : BufTy).Contents (Elt F) → (⟨S4x2048x512, .f32⟩ : BufTy).Contents (Elt F)) ]

theorem opsS10_sub : (opsS10 : List (HloOp τ sig (Elt F))).Forall fun op => op.bufs ⊆ tcRefs τ sig :=
  ⟨unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub ..⟩

/-- 12 operations, the last writing main_v199. -/
abbrev opsS11 : List (HloOp τ sig (Elt F)) :=
  [ StableHlo.unary main_v182 main_v188 ((extractStridedSlice S4x1024x512 ![0, 0, 0] · slices_S4x2048x512_S4x1024x512_0_0_0) : (⟨S4x2048x512, .f32⟩ : BufTy).Contents (Elt F) → (⟨S4x1024x512, .f32⟩ : BufTy).Contents (Elt F)),
    StableHlo.unary main_v187 main_v189 ((extractStridedSlice S4x1024x512 ![0, 1024, 0] · slices_S4x2048x512_S4x1024x512_0_1024_0) : (⟨S4x2048x512, .f32⟩ : BufTy).Contents (Elt F) → (⟨S4x1024x512, .f32⟩ : BufTy).Contents (Elt F)),
    StableHlo.unary main_v182 main_v190 ((extractStridedSlice S4x1024x512 ![0, 0, 0] · slices_S4x2048x512_S4x1024x512_0_0_0) : (⟨S4x2048x512, .f32⟩ : BufTy).Contents (Elt F) → (⟨S4x1024x512, .f32⟩ : BufTy).Contents (Elt F)),
    StableHlo.binary main_v189 main_v190 main_v191 (mulf : (⟨S4x1024x512, .f32⟩ : BufTy).Contents (Elt F) → (⟨S4x1024x512, .f32⟩ : BufTy).Contents (Elt F) → (⟨S4x1024x512, .f32⟩ : BufTy).Contents (Elt F)),
    StableHlo.unary main_v182 main_v192 ((extractStridedSlice S4x1024x512 ![0, 1024, 0] · slices_S4x2048x512_S4x1024x512_0_1024_0) : (⟨S4x2048x512, .f32⟩ : BufTy).Contents (Elt F) → (⟨S4x1024x512, .f32⟩ : BufTy).Contents (Elt F)),
    StableHlo.binary main_v191 main_v192 main_v193 (addf : (⟨S4x1024x512, .f32⟩ : BufTy).Contents (Elt F) → (⟨S4x1024x512, .f32⟩ : BufTy).Contents (Elt F) → (⟨S4x1024x512, .f32⟩ : BufTy).Contents (Elt F)),
    StableHlo.binary main_v188 main_v193 main_v194 ((fun a b => concatenate S4x2048x512 1 [⟨S4x1024x512, a⟩, ⟨S4x1024x512, b⟩] concatenates_S4x1024x512_S4x1024x512_S4x2048x512_d1) : (⟨S4x1024x512, .f32⟩ : BufTy).Contents (Elt F) → (⟨S4x1024x512, .f32⟩ : BufTy).Contents (Elt F) → (⟨S4x2048x512, .f32⟩ : BufTy).Contents (Elt F)),
    StableHlo.unary main_v187 main_v195 ((extractStridedSlice S4x1024x512 ![0, 0, 0] · slices_S4x2048x512_S4x1024x512_0_0_0) : (⟨S4x2048x512, .f32⟩ : BufTy).Contents (Elt F) → (⟨S4x1024x512, .f32⟩ : BufTy).Contents (Elt F)),
    StableHlo.unary main_v187 main_v196 ((extractStridedSlice S4x1024x512 ![0, 1024, 0] · slices_S4x2048x512_S4x1024x512_0_1024_0) : (⟨S4x2048x512, .f32⟩ : BufTy).Contents (Elt F) → (⟨S4x1024x512, .f32⟩ : BufTy).Contents (Elt F)),
    StableHlo.unary main_v187 main_v197 ((extractStridedSlice S4x1024x512 ![0, 0, 0] · slices_S4x2048x512_S4x1024x512_0_0_0) : (⟨S4x2048x512, .f32⟩ : BufTy).Contents (Elt F) → (⟨S4x1024x512, .f32⟩ : BufTy).Contents (Elt F)),
    StableHlo.binary main_v196 main_v197 main_v198 (mulf : (⟨S4x1024x512, .f32⟩ : BufTy).Contents (Elt F) → (⟨S4x1024x512, .f32⟩ : BufTy).Contents (Elt F) → (⟨S4x1024x512, .f32⟩ : BufTy).Contents (Elt F)),
    StableHlo.binary main_v195 main_v198 main_v199 ((fun a b => concatenate S4x2048x512 1 [⟨S4x1024x512, a⟩, ⟨S4x1024x512, b⟩] concatenates_S4x1024x512_S4x1024x512_S4x2048x512_d1) : (⟨S4x1024x512, .f32⟩ : BufTy).Contents (Elt F) → (⟨S4x1024x512, .f32⟩ : BufTy).Contents (Elt F) → (⟨S4x2048x512, .f32⟩ : BufTy).Contents (Elt F)) ]

theorem opsS11_sub : (opsS11 : List (HloOp τ sig (Elt F))).Forall fun op => op.bufs ⊆ tcRefs τ sig :=
  ⟨unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub ..⟩

/-- 49 operations, the last writing main_v216. -/
abbrev opsG : List (HloOp τ sig (Elt F)) :=
  [ StableHlo.unary main_v46 main_v200 (broadcastInDim S4x2048x1 ![0, 1] bcast_S4x2048_S4x2048x1_0_1 : (⟨S4x2048, .i1⟩ : BufTy).Contents (Elt F) → (⟨S4x2048x1, .i1⟩ : BufTy).Contents (Elt F)),
    StableHlo.unary main_v200 main_v201 (uitofp .f32 : (⟨S4x2048x1, .i1⟩ : BufTy).Contents (Elt F) → (⟨S4x2048x1, .f32⟩ : BufTy).Contents (Elt F)),
    StableHlo.unary main_v201 main_v202 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    StableHlo.binary main_v194 main_v202 main_v203 (mulf : (⟨S4x2048x512, .f32⟩ : BufTy).Contents (Elt F) → (⟨S4x2048x512, .f32⟩ : BufTy).Contents (Elt F) → (⟨S4x2048x512, .f32⟩ : BufTy).Contents (Elt F)),
    StableHlo.unary main_v33 main_v204 ((extui 32 · natLt_1_32) : (⟨S4x2048, .i1⟩ : BufTy).Contents (Elt F) → (⟨S4x2048, .i32⟩ : BufTy).Contents (Elt F)),
    StableHlo.TRef.nullary main_call5.call0.c (constantI S_ 32 0#32),
    StableHlo.TRef.unary main_call5.call0.c main_call5.call0.v0 (broadcastInDim S_ ![] bcast_S_S_),
    StableHlo.TRef.binary (.of main_v204) main_call5.call0.v0 main_call5.call0.v1 (fun x v => Host.reduceWindow IntOp.addi ![1, 2048] ![1, 1] ![0, 2047] ![0, 0] x v reduceWindows_S4x2048_S4x2048_w1s1p0_0_w2048s1p2047_0 h_S_),
    StableHlo.nullary main_c_17 (constantI S_ 32 1#32),
    StableHlo.unary main_c_17 main_v206 (broadcastInDim S4x2048 ![] bcast_S_S4x2048 : (⟨S_, .i32⟩ : BufTy).Contents (Elt F) → (⟨S4x2048, .i32⟩ : BufTy).Contents (Elt F)),
    StableHlo.binary main_v205 main_v206 main_v207 (subi : (⟨S4x2048, .i32⟩ : BufTy).Contents (Elt F) → (⟨S4x2048, .i32⟩ : BufTy).Contents (Elt F) → (⟨S4x2048, .i32⟩ : BufTy).Contents (Elt F)),
    StableHlo.nullary main_c_18 (constantI S_ 32 0#32),
    StableHlo.nullary main_c_19 (constantI S_ 32 2047#32),
    StableHlo.TRef.unary (.of main_c_18) main_call6.v0 id,
    StableHlo.TRef.unary main_call6.v0 main_call6.v1 (broadcastInDim S4x2048 ![] bcast_S_S4x2048),
    StableHlo.TRef.binary main_call6.v1 (.of main_v207) main_call6.v2 maxsi,
    StableHlo.TRef.unary (.of main_c_19) main_call6.v3 id,
    StableHlo.TRef.unary main_call6.v3 main_call6.v4 (broadcastInDim S4x2048 ![] bcast_S_S4x2048),
    StableHlo.TRef.binary main_call6.v4 main_call6.v2 main_call6.v5 minsi,
    StableHlo.nullary main_c_20 (constantI S_ 32 0#32),
    StableHlo.unary main_c_20 main_v209 (broadcastInDim S4x2048 ![] bcast_S_S4x2048 : (⟨S_, .i32⟩ : BufTy).Contents (Elt F) → (⟨S4x2048, .i32⟩ : BufTy).Contents (Elt F)),
    StableHlo.binary main_v207 main_v209 main_v210 (cmpi .sge : (⟨S4x2048, .i32⟩ : BufTy).Contents (Elt F) → (⟨S4x2048, .i32⟩ : BufTy).Contents (Elt F) → (⟨S4x2048, .i1⟩ : BufTy).Contents (Elt F)),
    StableHlo.unary main_v208 main_v211 (broadcastInDim S4x2048x1 ![0, 1] bcast_S4x2048_S4x2048x1_0_1 : (⟨S4x2048, .i32⟩ : BufTy).Contents (Elt F) → (⟨S4x2048x1, .i32⟩ : BufTy).Contents (Elt F)),
    StableHlo.TRef.nullary main_call7.c (constantI S_ 32 0#32),
    StableHlo.TRef.unary main_call7.c main_call7.v0 (broadcastInDim S4x2048x1 ![] bcast_S_S4x2048x1),
    StableHlo.TRef.binary (.of main_v211) main_call7.v0 main_call7.v1 (cmpi .slt),
    StableHlo.TRef.nullary main_call7.c_0 (constantI S_ 32 2048#32),
    StableHlo.TRef.unary main_call7.c_0 main_call7.v2 (broadcastInDim S4x2048x1 ![] bcast_S_S4x2048x1),
    StableHlo.TRef.binary (.of main_v211) main_call7.v2 main_call7.v3 addi,
    StableHlo.TRef.ternary main_call7.v1 main_call7.v3 (.of main_v211) main_call7.v4 select,
    StableHlo.TRef.nullary main_call7.c_1 (constantI S1 32 2047#32),
    StableHlo.TRef.nullary main_call7.c_2 (constantI S_ 32 0#32),
    StableHlo.TRef.unary main_call7.c_2 main_call7.v5 (broadcastInDim S4x2048x1 ![] bcast_S_S4x2048x1),
    StableHlo.TRef.binary main_call7.v4 main_call7.v5 main_call7.v6 (cmpi .sge),
    StableHlo.TRef.unary main_call7.c_1 main_call7.v7 (broadcastInDim S1x1x1 ![2] bcast_S1_S1x1x1_2),
    StableHlo.TRef.unary main_call7.v7 main_call7.v8 (broadcastInDim S4x2048x1 ![0, 1, 2] bcast_S1x1x1_S4x2048x1_0_1_2),
    StableHlo.TRef.binary main_call7.v4 main_call7.v8 main_call7.v9 (cmpi .sle),
    StableHlo.TRef.binary main_call7.v6 main_call7.v9 main_call7.v10 andi,
    StableHlo.TRef.nullary main_call7.c_3 (constantI S_ 1 1#1),
    StableHlo.TRef.binary main_call7.v10 main_call7.c_3 main_call7.v11 (fun x v => Host.reduce IntOp.andi x v reducesTo_S4x2048x1_S4x2048_d2 h_S_),
    StableHlo.TRef.binary (.of main_v203) main_call7.v4 main_call7.v12 (fun x i => Host.gather gather_S4x2048x512_S4x2048x1_S4x2048x512_2_1_0_0_1_2_11512 x i),
    StableHlo.TRef.unary main_call7.v11 main_call7.v13 (broadcastInDim S4x2048x512 ![0, 1] bcast_S4x2048_S4x2048x512_0_1),
    StableHlo.TRef.nullary main_call7.cst (constant S_ .f32 0x7FC00000#32),
    StableHlo.TRef.unary main_call7.cst main_call7.v14 (broadcastInDim S4x2048x512 ![] bcast_S_S4x2048x512),
    StableHlo.TRef.ternary main_call7.v13 main_call7.v12 main_call7.v14 main_call7.v15 select,
    StableHlo.unary main_v210 main_v213 (broadcastInDim S4x2048x1 ![0, 1] bcast_S4x2048_S4x2048x1_0_1 : (⟨S4x2048, .i1⟩ : BufTy).Contents (Elt F) → (⟨S4x2048x1, .i1⟩ : BufTy).Contents (Elt F)),
    StableHlo.unary main_v213 main_v214 (uitofp .f32 : (⟨S4x2048x1, .i1⟩ : BufTy).Contents (Elt F) → (⟨S4x2048x1, .f32⟩ : BufTy).Contents (Elt F)),
    StableHlo.unary main_v214 main_v215 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    StableHlo.binary main_v212 main_v215 main_v216 (mulf : (⟨S4x2048x512, .f32⟩ : BufTy).Contents (Elt F) → (⟨S4x2048x512, .f32⟩ : BufTy).Contents (Elt F) → (⟨S4x2048x512, .f32⟩ : BufTy).Contents (Elt F)) ]

theorem opsG_sub : (opsG : List (HloOp τ sig (Elt F))).Forall fun op => op.bufs ⊆ tcRefs τ sig :=
  ⟨unary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub ..⟩

/-- 12 operations, the last writing main_v226. -/
abbrev opsH : List (HloOp τ sig (Elt F)) :=
  [ StableHlo.nullary main_cst_21 (constant S_ .f32 0x3F800000#32),
    StableHlo.unary main_cst_21 main_v217 (broadcastInDim S4x2048 ![] bcast_S_S4x2048 : (⟨S_, .f32⟩ : BufTy).Contents (Elt F) → (⟨S4x2048, .f32⟩ : BufTy).Contents (Elt F)),
    StableHlo.binary main_v217 main_v31 main_v218 (subf : (⟨S4x2048, .f32⟩ : BufTy).Contents (Elt F) → (⟨S4x2048, .f32⟩ : BufTy).Contents (Elt F) → (⟨S4x2048, .f32⟩ : BufTy).Contents (Elt F)),
    StableHlo.binary main_v218 main_v31 main_v219 (maximumf : (⟨S4x2048, .f32⟩ : BufTy).Contents (Elt F) → (⟨S4x2048, .f32⟩ : BufTy).Contents (Elt F) → (⟨S4x2048, .f32⟩ : BufTy).Contents (Elt F)),
    StableHlo.nullary main_cst_22 (constant S_ .f32 0x3F800000#32),
    StableHlo.unary main_cst_22 main_v220 (broadcastInDim S4x2048 ![] bcast_S_S4x2048 : (⟨S_, .f32⟩ : BufTy).Contents (Elt F) → (⟨S4x2048, .f32⟩ : BufTy).Contents (Elt F)),
    StableHlo.binary main_v219 main_v219 main_v221 (subf : (⟨S4x2048, .f32⟩ : BufTy).Contents (Elt F) → (⟨S4x2048, .f32⟩ : BufTy).Contents (Elt F) → (⟨S4x2048, .f32⟩ : BufTy).Contents (Elt F)),
    StableHlo.binary main_v220 main_v221 main_v222 (addf : (⟨S4x2048, .f32⟩ : BufTy).Contents (Elt F) → (⟨S4x2048, .f32⟩ : BufTy).Contents (Elt F) → (⟨S4x2048, .f32⟩ : BufTy).Contents (Elt F)),
    StableHlo.unary main_v222 main_v223 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v223 main_v224 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    StableHlo.binary main_v216 main_v224 main_v225 (mulf : (⟨S4x2048x512, .f32⟩ : BufTy).Contents (Elt F) → (⟨S4x2048x512, .f32⟩ : BufTy).Contents (Elt F) → (⟨S4x2048x512, .f32⟩ : BufTy).Contents (Elt F)),
    StableHlo.binary main_arg0 main_v225 main_v226 (addf : (⟨S4x2048x512, .f32⟩ : BufTy).Contents (Elt F) → (⟨S4x2048x512, .f32⟩ : BufTy).Contents (Elt F) → (⟨S4x2048x512, .f32⟩ : BufTy).Contents (Elt F)) ]

theorem opsH_sub : (opsH : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., unary_bufs_sub .., unary_bufs_sub .., binary_bufs_sub .., binary_bufs_sub ..⟩

end Cert.HNet.Ops

end
-- ==== Proof.RDefs.lean ====
import proofs.«109756_g14800457302192_cont_week2b_463_21_alg».proof.Proof.ROps
import proofs.«109756_g14800457302192_cont_week2b_463_21_alg».proof.Proof.RMath
import Idealize.ShloMosaic.Lib.ValueIdx

noncomputable section

/-! The reference's operations as one list, and the order its sort leaves read off a valuation. -/

namespace Cert.HNet

open Idealize.ShloMosaic Idealize.ShloMosaic.TcCoe Idealize.ShloMosaic.ValueIdx Idealize.SL.Sem Cert.ReferenceIdeal Idealize.ShloMosaic.StableHlo Cert.HNet.Ops

variable {F : FTy → Type} [FloatOps F]

/-- The doubling scan's operations: the initial state's step, then the eleven strides. -/
abbrev opsS : List (HloOp τ sig (Elt F)) :=
  opsS0 ++ (opsS1 ++ (opsS2 ++ (opsS3a ++ (opsS3b ++ (opsS4 ++ (opsS5 ++ (opsS6 ++ (opsS7 ++ (opsS8a ++ (opsS8b ++ (opsS9 ++ (opsS10 ++ opsS11))))))))))))

/-- The whole reference, in program order. -/
abbrev ops : List (HloOp τ sig (Elt F)) :=
  opsA ++ (opsB1 ++ (opsB2 ++ (opsC ++ (opsS ++ (opsG ++ opsH)))))

/-- The row the sort left at rank `j` of batch row `b`: the word of the order buffer, as a number. -/
def sigmaOf (W : Valuation τ sig (Elt Ideal)) (b : Fin 4) (j : ℕ) : ℕ :=
  if h : j < 2048 then ((W (main_v36 : DevRef τ sig) : IVec S4x2048 32) (ix2 b ⟨j, h⟩)).toNat else 0

end Cert.HNet

end
-- ==== Proof.RRun0.lean ====
import proofs.«109756_g14800457302192_cont_week2b_463_21_alg».proof.Proof.ROps
import Idealize.ShloMosaic.Lib.StableHlo.Run

noncomputable section

/-! The first window of the reference's @main (the router, the mask, the sort, the count and the first gather's index) is the straight line of its operations. -/

namespace Cert.HNet

open Idealize.ShloMosaic Idealize.ShloMosaic.TcCoe Idealize.SL.Sem Cert.ReferenceIdeal Cert.ReferenceIdeal.Gen Idealize.ShloMosaic.StableHlo Cert.HNet.Ops

variable {F : FTy → Type} [FloatOps F]

set_option maxRecDepth 4096 in
set_option maxHeartbeats 1600000 in
/-- Each called function is replaced by its body at the call, the call's record supplying the buffers it names; what is
    left on the left is one operation after another, and on the right `seq` of an append is the lists' lines run in turn
    (`seq_append`). With the binds bracketed to the right on both sides the two chains agree step by step. -/
theorem part0_eq (c : Dev nD) : main_part0 (F := F) c = seq (opsA ++ (opsB1 ++ opsB2)) := by
  rw [seq_append, seq_append]
  simp only [main_part0, fn_clip.body, fn_argsort.body, fn_take_along_axis.body, seq, bind_assoc, pure_bind]
  rfl

/-- No operation of this list leaves a buffer undetermined. -/
theorem opsA_fresh : ∀ op ∈ (opsA : List (HloOp τ sig (Elt F))), op.fresh = ∅ := by
  intro _ h; (repeat (cases h with | head => rfl | tail _ h => ?_)); exact nomatch h

/-- No operation of this list leaves a buffer undetermined. -/
theorem opsB1_fresh : ∀ op ∈ (opsB1 : List (HloOp τ sig (Elt F))), op.fresh = ∅ := by
  intro _ h; (repeat (cases h with | head => rfl | tail _ h => ?_)); exact nomatch h

/-- No operation of this list leaves a buffer undetermined. -/
theorem opsB2_fresh : ∀ op ∈ (opsB2 : List (HloOp τ sig (Elt F))), op.fresh = ∅ := by
  intro _ h; (repeat (cases h with | head => rfl | tail _ h => ?_)); exact nomatch h

end Cert.HNet

end
-- ==== Proof.RRun1.lean ====
import proofs.«109756_g14800457302192_cont_week2b_463_21_alg».proof.Proof.ROps
import Idealize.ShloMosaic.Lib.StableHlo.Run

noncomputable section

/-! The second window of the reference's @main (the compacted gains and decays, the scan's initial step and its first strides) is the straight line of its operations. -/

namespace Cert.HNet

open Idealize.ShloMosaic Idealize.ShloMosaic.TcCoe Idealize.SL.Sem Cert.ReferenceIdeal Cert.ReferenceIdeal.Gen Idealize.ShloMosaic.StableHlo Cert.HNet.Ops

variable {F : FTy → Type} [FloatOps F]

set_option maxRecDepth 4096 in
set_option maxHeartbeats 1600000 in
/-- Each called function is replaced by its body at the call, the call's record supplying the buffers it names; what is
    left on the left is one operation after another, and on the right `seq` of an append is the lists' lines run in turn
    (`seq_append`). With the binds bracketed to the right on both sides the two chains agree step by step. -/
theorem part1_eq (c : Dev nD) : main_part1 (F := F) c = seq (opsC ++ (opsS0 ++ (opsS1 ++ (opsS2 ++ opsS3a)))) := by
  rw [seq_append, seq_append, seq_append, seq_append]
  simp only [main_part1, fn_take_along_axis_0.body, fn_clip_1.body, seq, bind_assoc, pure_bind]
  rfl

/-- No operation of this list leaves a buffer undetermined. -/
theorem opsC_fresh : ∀ op ∈ (opsC : List (HloOp τ sig (Elt F))), op.fresh = ∅ := by
  intro _ h; (repeat (cases h with | head => rfl | tail _ h => ?_)); exact nomatch h

/-- No operation of this list leaves a buffer undetermined. -/
theorem opsS0_fresh : ∀ op ∈ (opsS0 : List (HloOp τ sig (Elt F))), op.fresh = ∅ := by
  intro _ h; (repeat (cases h with | head => rfl | tail _ h => ?_)); exact nomatch h

/-- No operation of this list leaves a buffer undetermined. -/
theorem opsS1_fresh : ∀ op ∈ (opsS1 : List (HloOp τ sig (Elt F))), op.fresh = ∅ := by
  intro _ h; (repeat (cases h with | head => rfl | tail _ h => ?_)); exact nomatch h

/-- No operation of this list leaves a buffer undetermined. -/
theorem opsS2_fresh : ∀ op ∈ (opsS2 : List (HloOp τ sig (Elt F))), op.fresh = ∅ := by
  intro _ h; (repeat (cases h with | head => rfl | tail _ h => ?_)); exact nomatch h

/-- No operation of this list leaves a buffer undetermined. -/
theorem opsS3a_fresh : ∀ op ∈ (opsS3a : List (HloOp τ sig (Elt F))), op.fresh = ∅ := by
  intro _ h; (repeat (cases h with | head => rfl | tail _ h => ?_)); exact nomatch h

end Cert.HNet

end
-- ==== Proof.RRun2.lean ====
import proofs.«109756_g14800457302192_cont_week2b_463_21_alg».proof.Proof.ROps
import Idealize.ShloMosaic.Lib.StableHlo.Run

noncomputable section

/-! The third window of the reference's @main (the scan's middle strides) is the straight line of its operations. -/

namespace Cert.HNet

open Idealize.ShloMosaic Idealize.ShloMosaic.TcCoe Idealize.SL.Sem Cert.ReferenceIdeal Cert.ReferenceIdeal.Gen Idealize.ShloMosaic.StableHlo Cert.HNet.Ops

variable {F : FTy → Type} [FloatOps F]

set_option maxRecDepth 4096 in
set_option maxHeartbeats 1600000 in
/-- The window calls no function: it is one operation after another, and on the right `seq` of an append is the lists'
    lines run in turn (`seq_append`). With the binds bracketed to the right on both sides the two chains agree step by step. -/
theorem part2_eq (c : Dev nD) : main_part2 (F := F) c = seq (opsS3b ++ (opsS4 ++ (opsS5 ++ (opsS6 ++ (opsS7 ++ opsS8a))))) := by
  rw [seq_append, seq_append, seq_append, seq_append, seq_append]
  simp only [main_part2, seq, bind_assoc, pure_bind]
  rfl

/-- No operation of this list leaves a buffer undetermined. -/
theorem opsS3b_fresh : ∀ op ∈ (opsS3b : List (HloOp τ sig (Elt F))), op.fresh = ∅ := by
  intro _ h; (repeat (cases h with | head => rfl | tail _ h => ?_)); exact nomatch h

/-- No operation of this list leaves a buffer undetermined. -/
theorem opsS4_fresh : ∀ op ∈ (opsS4 : List (HloOp τ sig (Elt F))), op.fresh = ∅ := by
  intro _ h; (repeat (cases h with | head => rfl | tail _ h => ?_)); exact nomatch h

/-- No operation of this list leaves a buffer undetermined. -/
theorem opsS5_fresh : ∀ op ∈ (opsS5 : List (HloOp τ sig (Elt F))), op.fresh = ∅ := by
  intro _ h; (repeat (cases h with | head => rfl | tail _ h => ?_)); exact nomatch h

/-- No operation of this list leaves a buffer undetermined. -/
theorem opsS6_fresh : ∀ op ∈ (opsS6 : List (HloOp τ sig (Elt F))), op.fresh = ∅ := by
  intro _ h; (repeat (cases h with | head => rfl | tail _ h => ?_)); exact nomatch h

/-- No operation of this list leaves a buffer undetermined. -/
theorem opsS7_fresh : ∀ op ∈ (opsS7 : List (HloOp τ sig (Elt F))), op.fresh = ∅ := by
  intro _ h; (repeat (cases h with | head => rfl | tail _ h => ?_)); exact nomatch h

/-- No operation of this list leaves a buffer undetermined. -/
theorem opsS8a_fresh : ∀ op ∈ (opsS8a : List (HloOp τ sig (Elt F))), op.fresh = ∅ := by
  intro _ h; (repeat (cases h with | head => rfl | tail _ h => ?_)); exact nomatch h

end Cert.HNet

end
-- ==== Proof.RRun3.lean ====
import proofs.«109756_g14800457302192_cont_week2b_463_21_alg».proof.Proof.ROps
import Idealize.ShloMosaic.Lib.StableHlo.Run

noncomputable section

/-! The fourth window of the reference's @main (the scan's last strides, the running count and the gather back) is the straight line of its operations. -/

namespace Cert.HNet

open Idealize.ShloMosaic Idealize.ShloMosaic.TcCoe Idealize.SL.Sem Cert.ReferenceIdeal Cert.ReferenceIdeal.Gen Idealize.ShloMosaic.StableHlo Cert.HNet.Ops

variable {F : FTy → Type} [FloatOps F]

set_option maxRecDepth 4096 in
set_option maxHeartbeats 1600000 in
/-- Each called function is replaced by its body at the call, the call's record supplying the buffers it names; what is
    left on the left is one operation after another, and on the right `seq` of an append is the lists' lines run in turn
    (`seq_append`). With the binds bracketed to the right on both sides the two chains agree step by step. -/
theorem part3_eq (c : Dev nD) : main_part3 (F := F) c = seq (opsS8b ++ (opsS9 ++ (opsS10 ++ (opsS11 ++ opsG)))) := by
  rw [seq_append, seq_append, seq_append, seq_append]
  simp only [main_part3, fn_cumsum.body, fn_cumsum_2.body, fn_clip_3.body, fn_take_along_axis_4.body, seq, bind_assoc, pure_bind]
  rfl

/-- No operation of this list leaves a buffer undetermined. -/
theorem opsS8b_fresh : ∀ op ∈ (opsS8b : List (HloOp τ sig (Elt F))), op.fresh = ∅ := by
  intro _ h; (repeat (cases h with | head => rfl | tail _ h => ?_)); exact nomatch h

/-- No operation of this list leaves a buffer undetermined. -/
theorem opsS9_fresh : ∀ op ∈ (opsS9 : List (HloOp τ sig (Elt F))), op.fresh = ∅ := by
  intro _ h; (repeat (cases h with | head => rfl | tail _ h => ?_)); exact nomatch h

/-- No operation of this list leaves a buffer undetermined. -/
theorem opsS10_fresh : ∀ op ∈ (opsS10 : List (HloOp τ sig (Elt F))), op.fresh = ∅ := by
  intro _ h; (repeat (cases h with | head => rfl | tail _ h => ?_)); exact nomatch h

/-- No operation of this list leaves a buffer undetermined. -/
theorem opsS11_fresh : ∀ op ∈ (opsS11 : List (HloOp τ sig (Elt F))), op.fresh = ∅ := by
  intro _ h; (repeat (cases h with | head => rfl | tail _ h => ?_)); exact nomatch h

/-- No operation of this list leaves a buffer undetermined. -/
theorem opsG_fresh : ∀ op ∈ (opsG : List (HloOp τ sig (Elt F))), op.fresh = ∅ := by
  intro _ h; (repeat (cases h with | head => rfl | tail _ h => ?_)); exact nomatch h

end Cert.HNet

end
-- ==== Proof.RRun4.lean ====
import proofs.«109756_g14800457302192_cont_week2b_463_21_alg».proof.Proof.ROps
import Idealize.ShloMosaic.Lib.StableHlo.Run

noncomputable section

/-! The last window of the reference's @main is the straight line of its twelve operations. -/

namespace Cert.HNet

open Idealize.ShloMosaic Idealize.ShloMosaic.TcCoe Idealize.SL.Sem Cert.ReferenceIdeal Cert.ReferenceIdeal.Gen Idealize.ShloMosaic.StableHlo Cert.HNet.Ops

variable {F : FTy → Type} [FloatOps F]

/-- The window's statements are the list's operations in order, each an `hlo` step continued by the return. -/
theorem part4_eq (c : Dev nD) : main_part4 (F := F) c = seq opsH := rfl

/-- No operation of this list leaves a buffer undetermined. -/
theorem opsH_fresh : ∀ op ∈ (opsH : List (HloOp τ sig (Elt F))), op.fresh = ∅ := by
  intro _ h; (repeat (cases h with | head => rfl | tail _ h => ?_)); exact nomatch h

end Cert.HNet

end
-- ==== Proof.RRun.lean ====
import proofs.«109756_g14800457302192_cont_week2b_463_21_alg».proof.Proof.RDefs
import proofs.«109756_g14800457302192_cont_week2b_463_21_alg».proof.Proof.RRun0
import proofs.«109756_g14800457302192_cont_week2b_463_21_alg».proof.Proof.RRun1
import proofs.«109756_g14800457302192_cont_week2b_463_21_alg».proof.Proof.RRun2
import proofs.«109756_g14800457302192_cont_week2b_463_21_alg».proof.Proof.RRun3
import proofs.«109756_g14800457302192_cont_week2b_463_21_alg».proof.Proof.RRun4
import Idealize.ShloMosaic.Lib.StableHlo.Run

noncomputable section

/-! The reference program is the straight line of its operations, and its run leaves their fold. -/

namespace Cert.HNet

open Idealize.ShloMosaic Idealize.ShloMosaic.TcCoe Idealize.SL.Sem Cert.ReferenceIdeal Cert.ReferenceIdeal.Gen Idealize.ShloMosaic.StableHlo Cert.HNet.Ops

variable {F : FTy → Type} [FloatOps F]

/-- @main runs its five windows in order; each is the line of its lists, and lines run one after the other are their
    concatenation run as one. The concatenation of the windows is the whole list up to the bracketing of `++`. -/
theorem main_eq (c : Dev nD) : main (F := F) c = seq ops := by
  have h : main (F := F) c
      = main_part0 c >>= fun _ => main_part1 c >>= fun _ => main_part2 c >>= fun _ => main_part3 c >>= fun _ => main_part4 c := rfl
  rw [h, part0_eq, part1_eq, part2_eq, part3_eq, part4_eq, ← seq_append, ← seq_append, ← seq_append, ← seq_append]
  exact congrArg seq (by simp only [ops, opsS, List.append_assoc])

/-- The signature scopes no buffer: its table of scoped buffers is constantly `false`. -/
theorem scopedRefs_eq : (Finset.univ.filter fun b : Ref sig .tc => b.isScoped) = ∅ := by decide

/-- The signature has no semaphore at all. -/
theorem scopedSems_eq : (Finset.univ.filter fun sm : SemLoc sig => sm.isScoped .tc) = ∅ := by decide

/-- Every operation of the scan touches TensorCore buffers only. -/
theorem opsS_sub : (opsS : List (HloOp τ sig (Elt F))).Forall fun op => op.bufs ⊆ tcRefs τ sig :=
  List.forall_append.2 ⟨opsS0_sub, List.forall_append.2 ⟨opsS1_sub, List.forall_append.2 ⟨opsS2_sub,
    List.forall_append.2 ⟨opsS3a_sub, List.forall_append.2 ⟨opsS3b_sub, List.forall_append.2 ⟨opsS4_sub,
    List.forall_append.2 ⟨opsS5_sub, List.forall_append.2 ⟨opsS6_sub, List.forall_append.2 ⟨opsS7_sub,
    List.forall_append.2 ⟨opsS8a_sub, List.forall_append.2 ⟨opsS8b_sub, List.forall_append.2 ⟨opsS9_sub,
    List.forall_append.2 ⟨opsS10_sub, opsS11_sub⟩⟩⟩⟩⟩⟩⟩⟩⟩⟩⟩⟩⟩

/-- Every operation of the reference touches TensorCore buffers only: so do the operations of each list. -/
theorem ops_sub : (ops : List (HloOp τ sig (Elt F))).Forall fun op => op.bufs ⊆ tcRefs τ sig :=
  List.forall_append.2 ⟨opsA_sub, List.forall_append.2 ⟨opsB1_sub, List.forall_append.2 ⟨opsB2_sub,
    List.forall_append.2 ⟨opsC_sub, List.forall_append.2 ⟨opsS_sub, List.forall_append.2 ⟨opsG_sub, opsH_sub⟩⟩⟩⟩⟩⟩

/-- No operation of the scan leaves a buffer undetermined. -/
theorem opsS_fresh : ∀ op ∈ (opsS : List (HloOp τ sig (Elt F))), op.fresh = ∅ :=
  List.forall_mem_append.2 ⟨opsS0_fresh, List.forall_mem_append.2 ⟨opsS1_fresh,
    List.forall_mem_append.2 ⟨opsS2_fresh, List.forall_mem_append.2 ⟨opsS3a_fresh,
    List.forall_mem_append.2 ⟨opsS3b_fresh, List.forall_mem_append.2 ⟨opsS4_fresh,
    List.forall_mem_append.2 ⟨opsS5_fresh, List.forall_mem_append.2 ⟨opsS6_fresh,
    List.forall_mem_append.2 ⟨opsS7_fresh, List.forall_mem_append.2 ⟨opsS8a_fresh,
    List.forall_mem_append.2 ⟨opsS8b_fresh, List.forall_mem_append.2 ⟨opsS9_fresh,
    List.forall_mem_append.2 ⟨opsS10_fresh, opsS11_fresh⟩⟩⟩⟩⟩⟩⟩⟩⟩⟩⟩⟩⟩

/-- No operation of the reference leaves a buffer undetermined: none of any list does. -/
theorem ops_fresh : ∀ op ∈ (ops : List (HloOp τ sig (Elt F))), op.fresh = ∅ :=
  List.forall_mem_append.2 ⟨opsA_fresh, List.forall_mem_append.2 ⟨opsB1_fresh,
    List.forall_mem_append.2 ⟨opsB2_fresh, List.forall_mem_append.2 ⟨opsC_fresh,
    List.forall_mem_append.2 ⟨opsS_fresh, List.forall_mem_append.2 ⟨opsG_fresh, opsH_fresh⟩⟩⟩⟩⟩⟩

/-- From any memory with zero counters: every weakly fair execution of @main terminates, and every final state has each
    buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.HNet

end
-- ==== Proof.RRouter.lean ====
import proofs.«109756_g14800457302192_cont_week2b_463_21_alg».proof.Proof.RDefs
import proofs.«109756_g14800457302192_cont_week2b_463_21_alg».proof.Proof.Words
import Idealize.ShloMosaic.Lib.StableHlo.Run
import Idealize.ShloMosaic.Lib.IdealHost
import Idealize.ShloMosaic.Lib.ValueLayout
import Idealize.ShloMosaic.Lib.Pipeline.Value

noncomputable section

/-! The router: from the rows and the two weights to the boundary probabilities (the first 49 operations).

The operations are read back as one composed function of the three arguments, built from named stages;
each stage is then read at an index over arrays that hold coerced reals: a projection is a sum over the
contracted coordinate, the clamped norm is `nrm`, the inner product of the two normalized rows is the
cosine (`(∑ q k) / (|q| |k|)`, both norms positive), the halved complement is clamped to the unit
interval, and the leading column is one (the concatenated column of ones, overwritten by ones). -/

namespace Cert.HNet.Router

open Idealize.ShloMosaic Idealize.ShloMosaic.TcCoe Idealize.ShloMosaic.ValueIdx Idealize.SL.Sem Cert.ReferenceIdeal Cert.ReferenceIdeal.Gen Idealize.ShloMosaic.StableHlo Cert.HNet.Ops

/-! ## The router's stages as pure functions of arrays -/

/-- A block of rows projected by a weight, the weight's second index contracted. -/
def projT (x : FVec Ideal S4x2047x512 .f32) (w : FVec Ideal S512x512 .f32) : FVec Ideal S4x2047x512 .f32 :=
  Host.dotGeneral dot_S4x2047x512_S512x512_S4x2047x512_2_1_01_0_n_n none x w

/-- The norm of each row, clamped below by the word `0x2B8CBCCC`, with a unit last axis. -/
def nrmT (p : FVec Ideal S4x2047x512 .f32) : FVec Ideal S4x2047x1 .f32 :=
  maximumf
    (Host.sqrt (broadcastInDim S4x2047x1 ![0, 1] bcast_S4x2047_S4x2047x1_0_1
      (Host.reduceAdd (mulf p p) (constant S_ .f32 0x00000000#32) reducesTo_S4x2047x512_S4x2047_d2 h_S_)))
    (broadcastInDim S4x2047x1 ![] bcast_S_S4x2047x1 (constant S_ .f32 0x2B8CBCCC#32))

/-- Each row divided by its clamped norm. -/
def unitT (p : FVec Ideal S4x2047x512 .f32) : FVec Ideal S4x2047x512 .f32 :=
  Host.divf p (broadcastInDim S4x2047x512 ![0, 1, 2] bcast_S4x2047x1_S4x2047x512_0_1_2 (nrmT p))

/-- The inner product of the two normalized rows. -/
def cosT (q k : FVec Ideal S4x2047x512 .f32) : FVec Ideal S4x2047 .f32 :=
  Host.reduceAdd (mulf (unitT q) (unitT k)) (constant S_ .f32 0x00000000#32) reducesTo_S4x2047x512_S4x2047_d2 h_S_

/-- One minus the cosine, halved. -/
def halfT (c : FVec Ideal S4x2047 .f32) : FVec Ideal S4x2047 .f32 :=
  Host.divf (subf (broadcastInDim S4x2047 ![] bcast_S_S4x2047 (constant S_ .f32 0x3F800000#32)) c)
    (broadcastInDim S4x2047 ![] bcast_S_S4x2047 (constant S_ .f32 0x40000000#32))

/-- The clamp to the unit interval. -/
def clipT (x : FVec Ideal S4x2047 .f32) : FVec Ideal S4x2047 .f32 :=
  minimumf (broadcastInDim S4x2047 ![] bcast_S_S4x2047 (constant S_ .f32 0x3F800000#32))
    (maximumf (broadcastInDim S4x2047 ![] bcast_S_S4x2047 (constant S_ .f32 0x00000000#32)) x)

/-- A column of ones put in front, and column `0` written with ones. -/
def headT (x : FVec Ideal S4x2047 .f32) : FVec Ideal S4x2048 .f32 :=
  Host.scatter scatter_S4x2048_S1_S4_0_1_1_0 (fun _ b => b)
    (concatenate S4x2048 1
      [⟨S4x1, broadcastInDim S4x1 ![] bcast_S_S4x1 (constant S_ .f32 0x3F800000#32)⟩, ⟨S4x2047, x⟩]
      concatenates_S4x1_S4x2047_S4x2048_d1)
    (broadcastInDim S1 ![] bcast_S_S1 (constantI S_ 32 0#32))
    (broadcastInDim S4 ![] bcast_S_S4 (constant S_ .f32 0x3F800000#32))

/-- The rows `0 … 2046` and the rows `1 … 2047`. -/
def rowsLo (x : FVec Ideal S4x2048x512 .f32) : FVec Ideal S4x2047x512 .f32 :=
  extractStridedSlice S4x2047x512 ![0, 0, 0] x slices_S4x2048x512_S4x2047x512_0_0_0
def rowsHi (x : FVec Ideal S4x2048x512 .f32) : FVec Ideal S4x2047x512 .f32 :=
  extractStridedSlice S4x2047x512 ![0, 1, 0] x slices_S4x2048x512_S4x2047x512_0_1_0

/-- The whole router. -/
def routerT (x : FVec Ideal S4x2048x512 .f32) (wq wk : FVec Ideal S512x512 .f32) : FVec Ideal S4x2048 .f32 :=
  headT (clipT (halfT (cosT (projT (rowsLo x) wq) (projT (rowsHi x) wk))))

/-! ## The operations read back -/

attribute [local irreducible] Host.scatter Host.reduceAdd concatenate in
set_option maxRecDepth 8192 in
set_option maxHeartbeats 400000 in
/-- The fold of the router's operations at the probability buffer is the composed function of the
    three arguments, by computation. -/
theorem opsA_read (W : Valuation τ sig (Elt Ideal)) :
    (after opsA W (main_v31 : DevRef τ sig) : FVec Ideal S4x2048 .f32)
      = routerT (W (main_arg0 : DevRef τ sig)) (W (main_arg1 : DevRef τ sig)) (W (main_arg2 : DevRef τ sig)) := by
  simp only [after_cons, after_nil]
  rfl

open scoped BigOperators

/-- A finite sum of coerced reals is the coerced sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The rows -/

theorem rowsLo_apply (x : FVec Ideal S4x2048x512 .f32) (b : Fin 4) (l : Fin 2047) (d : Fin 512) :
    rowsLo x (ix3 b l d) = x (ix3 b ⟨l.val, by omega⟩ d) :=
  slice3_axis1_apply 0 x slices_S4x2048x512_S4x2047x512_0_0_0 b l d ⟨l.val, by omega⟩ (by simp)

theorem rowsHi_apply (x : FVec Ideal S4x2048x512 .f32) (b : Fin 4) (l : Fin 2047) (d : Fin 512) :
    rowsHi x (ix3 b l d) = x (ix3 b ⟨l.val + 1, by omega⟩ d) :=
  slice3_axis1_apply 1 x slices_S4x2048x512_S4x2047x512_0_1_0 b l d ⟨l.val + 1, by omega⟩ (by simp; omega)

/-! ## The projection -/

/-- The dimension numbers of both projections: the rows' last axis against the weight's second. -/
abbrev DD : DotDims S4x2047x512 S512x512 S4x2047x512 := dot_S4x2047x512_S512x512_S4x2047x512_2_1_01_0_n_n

theorem lhsDD_0 (j : S4x2047x512.Idx) (k : DD.contr.Idx) : (DD.lhsIdx j k 0 : ℕ) = j 0 := by
  simp [DotDims.lhsIdx, DD, dot_S4x2047x512_S512x512_S4x2047x512_2_1_01_0_n_n]; rfl
theorem lhsDD_1 (j : S4x2047x512.Idx) (k : DD.contr.Idx) : (DD.lhsIdx j k 1 : ℕ) = j 1 := by
  simp [DotDims.lhsIdx, DD, dot_S4x2047x512_S512x512_S4x2047x512_2_1_01_0_n_n]; rfl
theorem lhsDD_2 (j : S4x2047x512.Idx) (k : DD.contr.Idx) : (DD.lhsIdx j k 2 : ℕ) = k ⟨0, by decide⟩ := by
  simp [DotDims.lhsIdx, DD, dot_S4x2047x512_S512x512_S4x2047x512_2_1_01_0_n_n]; rfl
theorem rhsDD_0 (j : S4x2047x512.Idx) (k : DD.contr.Idx) : (DD.rhsIdx j k 0 : ℕ) = j 2 := by
  simp [DotDims.rhsIdx, DD, dot_S4x2047x512_S512x512_S4x2047x512_2_1_01_0_n_n]; rfl
theorem rhsDD_1 (j : S4x2047x512.Idx) (k : DD.contr.Idx) : (DD.rhsIdx j k 1 : ℕ) = k ⟨0, by decide⟩ := by
  simp [DotDims.rhsIdx, DD, dot_S4x2047x512_S512x512_S4x2047x512_2_1_01_0_n_n]; rfl

/-- The contraction index is its one coordinate, below `512`. -/
def contrDD : DD.contr.Idx ≃ Fin 512 := contrEquiv1 DD 512 rfl rfl

theorem lhsDD_eq (b : Fin 4) (l : Fin 2047) (e d : Fin 512) :
    DD.lhsIdx (ix3 b l e) (contrDD.symm d) = ix3 b l d := by
  funext a
  apply Fin.ext
  match a with
  | ⟨0, _⟩ => exact lhsDD_0 _ _
  | ⟨1, _⟩ => exact lhsDD_1 _ _
  | ⟨2, _⟩ => exact (lhsDD_2 _ _).trans (contrEquiv1_symm_val DD 512 rfl rfl d)

theorem rhsDD_eq (b : Fin 4) (l : Fin 2047) (e d : Fin 512) :
    DD.rhsIdx (ix3 b l e) (contrDD.symm d) = ix2 e d := by
  funext a
  apply Fin.ext
  match a with
  | ⟨0, _⟩ => exact rhsDD_0 _ _
  | ⟨1, _⟩ => exact (rhsDD_1 _ _).trans (contrEquiv1_symm_val DD 512 rfl rfl d)

/-- A projection at `(b, l, e)`: the sum over the contracted coordinate. -/
theorem projT_apply (x : FVec Ideal S4x2047x512 .f32) (w : FVec Ideal S512x512 .f32) (b : Fin 4) (l : Fin 2047) (e : Fin 512) :
    projT x w (ix3 b l e) = ∑ d : Fin 512, x (ix3 b l d) * w (ix2 e d) := by
  unfold projT
  simp only [Host.dotGeneral]
  rw [Ideal.dotGeneral_apply, ← Equiv.sum_comp contrDD.symm]
  exact Finset.sum_congr rfl fun d _ => by rw [lhsDD_eq, rhsDD_eq]

/-! ## Sums over the last axis, and the clamped norm -/

/-- The sums' shape fact as the witness that names the inserted index. -/
theorem redD2 : S4x2047x512.Reduces [2] S4x2047 := by decide

/-- The sum over the last axis from the zero word, at `(b, l)`. -/
theorem sumLast_apply (x : FVec Ideal S4x2047x512 .f32) (b : Fin 4) (l : Fin 2047) :
    Host.reduceAdd x (constant S_ .f32 0x00000000#32) reducesTo_S4x2047x512_S4x2047_d2 h_S_ (ix2 b l)
      = ∑ e : Fin 512, x (ix3 b l e) := by
  rw [hostReduceAdd_apply, Ideal.hostReduceAdd_single reducesTo_S4x2047x512_S4x2047_d2 redD2, constant_apply,
    Ideal.ofBits_zero_f32, zero_add]
  show ∑ e : Fin 512, x (redD2.lift (ix2 b l) e) = _
  refine Finset.sum_congr rfl fun e _ => congrArg x ?_
  funext a
  apply Fin.ext
  match a with
  | ⟨0, _⟩ => rfl
  | ⟨1, _⟩ => rfl
  | ⟨2, _⟩ => rfl

/-- The host's square root at an index. -/
theorem hostSqrt_apply {s : Shape} (a : FVec Ideal s .f32) (i : s.Idx) : Host.sqrt a i = Ideal.sqrt (a i) := rfl

theorem nrm_pos (P : ℕ → ℝ) : 0 < nrm P := lt_of_lt_of_le eps_pos (le_max_right _ _)

/-- The clamped norm of row `(b, l)`, when the row holds the reals `P`. -/
theorem nrmT_apply (p : FVec Ideal S4x2047x512 .f32) (b : Fin 4) (l : Fin 2047) (P : ℕ → ℝ)
    (hp : ∀ e : Fin 512, p (ix3 b l e) = ((P e.val : ℝ) : EReal)) (z : Fin 1) :
    nrmT p (ix3 b l z) = ((nrm P : ℝ) : EReal) := by
  unfold nrmT
  rw [maximumf_apply, broadcastInDim_scalar_apply, constant_apply, ofBits_eps]
  rw [hostSqrt_apply]
  rw [broadcastInDim_apply ![0, 1] bcast_S4x2047_S4x2047x1_0_1 _ (ix3 b l z) (ix2 b l) (fun a => by
      match a with
      | ⟨0, _⟩ => rfl
      | ⟨1, _⟩ => rfl)]
  rw [sumLast_apply]
  have hs : ∑ e : Fin 512, mulf p p (ix3 b l e) = ((∑ e : Fin 512, P e.val * P e.val : ℝ) : EReal) := by
    rw [← coe_sum]
    exact Finset.sum_congr rfl fun e _ => by rw [mulf_apply, hp e, EReal.coe_mul]
  rw [hs, Ideal.sqrt_coe, if_neg (not_lt.2 (Finset.sum_nonneg fun e _ => mul_self_nonneg _))]
  unfold nrm
  exact (EReal.coe_strictMono.monotone.map_max).symm

/-- A row divided by its clamped norm. -/
theorem unitT_apply (p : FVec Ideal S4x2047x512 .f32) (b : Fin 4) (l : Fin 2047) (P : ℕ → ℝ)
    (hp : ∀ e : Fin 512, p (ix3 b l e) = ((P e.val : ℝ) : EReal)) (e : Fin 512) :
    unitT p (ix3 b l e) = ((P e.val * (1 / nrm P) : ℝ) : EReal) := by
  unfold unitT
  rw [hostDivf_apply, broadcastInDim_apply ![0, 1, 2] bcast_S4x2047x1_S4x2047x512_0_1_2 _ (ix3 b l e) (ix3 b l 0) (fun a => by
      match a with
      | ⟨0, _⟩ => rfl
      | ⟨1, _⟩ => rfl
      | ⟨2, _⟩ => rfl),
    nrmT_apply p b l P hp 0, Ideal.div_coe (nrm_pos P).ne', hp e, EReal.coe_mul]

/-- The inner product of the two normalized rows is the cosine. -/
theorem cosT_apply (q k : FVec Ideal S4x2047x512 .f32) (b : Fin 4) (l : Fin 2047) (Q K : ℕ → ℝ)
    (hq : ∀ e : Fin 512, q (ix3 b l e) = ((Q e.val : ℝ) : EReal))
    (hk : ∀ e : Fin 512, k (ix3 b l e) = ((K e.val : ℝ) : EReal)) :
    cosT q k (ix2 b l) = (((∑ e : Fin 512, Q e.val * K e.val) / (nrm Q * nrm K) : ℝ) : EReal) := by
  unfold cosT
  rw [sumLast_apply]
  have hterm : ∀ e : Fin 512, mulf (unitT q) (unitT k) (ix3 b l e)
      = ((Q e.val * (1 / nrm Q) * (K e.val * (1 / nrm K)) : ℝ) : EReal) := fun e => by
    rw [mulf_apply, unitT_apply q b l Q hq e, unitT_apply k b l K hk e, ← EReal.coe_mul]
  rw [Finset.sum_congr rfl fun e _ => hterm e, coe_sum]
  congr 1
  have hQ := (nrm_pos Q).ne'
  have hK := (nrm_pos K).ne'
  rw [Finset.sum_div]
  exact Finset.sum_congr rfl fun e _ => by field_simp

/-- One minus a real, halved. -/
theorem halfT_apply (c : FVec Ideal S4x2047 .f32) (b : Fin 4) (l : Fin 2047) (C : ℝ) (hc : c (ix2 b l) = ((C : ℝ) : EReal)) :
    halfT c (ix2 b l) = (((1 - C) * (1 / 2) : ℝ) : EReal) := by
  unfold halfT
  rw [hostDivf_apply, subf_apply, broadcastInDim_scalar_apply, broadcastInDim_scalar_apply, constant_apply, constant_apply,
    ofBits_one, ofBits_two, hc, Ideal.div_coe (by norm_num : (2 : ℝ) ≠ 0), ← EReal.coe_sub, ← EReal.coe_mul]

/-- The clamp of a real to the unit interval. -/
theorem clipT_apply (x : FVec Ideal S4x2047 .f32) (b : Fin 4) (l : Fin 2047) (X : ℝ) (hx : x (ix2 b l) = ((X : ℝ) : EReal)) :
    clipT x (ix2 b l) = ((min 1 (max 0 X) : ℝ) : EReal) := by
  unfold clipT
  rw [minimumf_apply, maximumf_apply, broadcastInDim_scalar_apply, broadcastInDim_scalar_apply, constant_apply, constant_apply,
    ofBits_one, ofBits_zero, hx, ← EReal.coe_strictMono.monotone.map_max, ← EReal.coe_strictMono.monotone.map_min]

/-! ## The leading column: the concatenation and the scatter -/

/-- The scatter's dimension numbers: one index, naming a column; the update runs down the rows. -/
abbrev SD : ScatterDims S4x2048 S1 S4 := scatter_S4x2048_S1_S4_0_1_1_0

theorem startSD (j : S4.Idx) (idx : IVec S1 32) (hidx : ∀ i, idx i = 0#32) (a : Fin 2) : SD.start j idx a = 0 := by
  unfold ScatterDims.start
  split
  · rw [hidx]; rfl
  · rfl

theorem windowSD_0 (j : S4.Idx) : SD.window j 0 = (j 0).val := by
  simp [ScatterDims.window, SD, scatter_S4x2048_S1_S4_0_1_1_0, Shape.kept]
  rfl
theorem windowSD_1 (j : S4.Idx) : SD.window j 1 = 0 := by
  simp [ScatterDims.window, SD, scatter_S4x2048_S1_S4_0_1_1_0, Shape.kept]

/-- With the index word zero, update row `j` lands at `(j, 0)`. -/
theorem resultIdx_SD (j : S4.Idx) (idx : IVec S1 32) (hidx : ∀ i, idx i = 0#32) :
    SD.resultIdx? j idx = some (ix2 (n0 := 4) (n1 := 2048) (j 0) 0) := by
  have h : ∀ a : Fin 2, 0 ≤ SD.start j idx a + SD.window j a ∧ SD.start j idx a + (SD.window j a : ℤ) < S4x2048.size a := by
    intro a
    rw [startSD j idx hidx a]
    match a with
    | ⟨0, _⟩ =>
      show 0 ≤ 0 + ((SD.window j 0 : ℕ) : ℤ) ∧ 0 + ((SD.window j 0 : ℕ) : ℤ) < ((4 : ℕ) : ℤ)
      rw [windowSD_0]; have : (j 0).val < 4 := (j 0).isLt; omega
    | ⟨1, _⟩ =>
      show 0 ≤ 0 + ((SD.window j 1 : ℕ) : ℤ) ∧ 0 + ((SD.window j 1 : ℕ) : ℤ) < ((2048 : ℕ) : ℤ)
      rw [windowSD_1]; omega
  unfold ScatterDims.resultIdx?
  rw [dif_pos h]
  congr 1
  funext a
  apply Fin.ext
  match a with
  | ⟨0, _⟩ =>
    show (SD.start j idx 0 + ((SD.window j 0 : ℕ) : ℤ)).toNat = (j 0).val
    rw [startSD j idx hidx, windowSD_0]; omega
  | ⟨1, _⟩ =>
    show (SD.start j idx 1 + ((SD.window j 1 : ℕ) : ℤ)).toNat = 0
    rw [startSD j idx hidx, windowSD_1]; omega

/-- A property the start has and every step keeps holds of a left fold. -/
theorem foldl_inv {α β : Type} (C : β → Prop) (f : β → α → β) (L : List α) (r : β) (hr : C r)
    (hf : ∀ r a, C r → C (f r a)) : C (L.foldl f r) := by
  induction L generalizing r with
  | nil => exact hr
  | cons a L ih => exact ih _ (hf _ _ hr)

/-- The index word and the update of the router's scatter. -/
theorem idxWord_apply (i : S1.Idx) : broadcastInDim S1 ![] bcast_S_S1 (constantI S_ 32 0#32) i = 0#32 := by
  rw [broadcastInDim_scalar_apply]; rfl
theorem ones_apply (j : S4.Idx) :
    (broadcastInDim S4 ![] bcast_S_S4 (constant S_ .f32 0x3F800000#32) : FVec Ideal S4 .f32) j = ((1 : ℝ) : EReal) := by
  rw [broadcastInDim_scalar_apply, constant_apply, ofBits_one]

/-- Row `0` of each batch row is one: the column put in front holds ones, and every update writes a one. -/
theorem headT_zero (x : FVec Ideal S4x2047 .f32) (b : Fin 4) : headT x (ix2 b 0) = ((1 : ℝ) : EReal) := by
  unfold headT Host.scatter
  refine foldl_inv (fun r : FVec Ideal S4x2048 .f32 => r (ix2 b 0) = ((1 : ℝ) : EReal)) _ _ _ ?_ ?_
  · refine (concatenate_pair_apply_left (t := S4x2048) (s₁ := S4x1) (s₂ := S4x2047) (1 : Fin 2) _ x
      concatenates_S4x1_S4x2047_S4x2048_d1 _ rfl (ix2 b 0)
      (fun a => by
        match a with
        | ⟨0, _⟩ => rfl
        | ⟨1, _⟩ => rfl)).trans ?_
    rw [broadcastInDim_scalar_apply, constant_apply, ofBits_one]
  · intro r n hr
    simp only [resultIdx_SD _ _ idxWord_apply, ones_apply]
    split
    · exact ones_apply _
    · exact hr

/-- Row `l + 1` is row `l` of the array behind the column: no update reaches it. -/
theorem headT_succ (x : FVec Ideal S4x2047 .f32) (b : Fin 4) (l : Fin 2047) :
    headT x (ix2 b ⟨l.val + 1, by omega⟩) = x (ix2 b l) := by
  unfold headT Host.scatter
  refine foldl_inv (fun r : FVec Ideal S4x2048 .f32 => r (ix2 b ⟨l.val + 1, by omega⟩) = x (ix2 b l)) _ _ _ ?_ ?_
  · exact concatenate_pair_apply_right (t := S4x2048) (s₁ := S4x1) (s₂ := S4x2047) (1 : Fin 2) _ x
      concatenates_S4x1_S4x2047_S4x2048_d1 _ rfl rfl (ix2 b l)
      (fun a ha => by
        match a with
        | ⟨0, _⟩ => rfl
        | ⟨1, _⟩ => exact absurd rfl ha)
      (by show l.val + 1 = l.val + 1; rfl)
  · intro r n hr
    simp only [resultIdx_SD _ _ idxWord_apply]
    split
    · next h => exact absurd (congrArg Fin.val (congrFun h 1)) (Nat.succ_ne_zero l.val)
    · exact hr

/-! ## The router, index by index -/

/-- The router of arrays holding reals computes the boundary probabilities. -/
theorem routerT_apply (x : FVec Ideal S4x2048x512 .f32) (wq wk : FVec Ideal S512x512 .f32)
    (hs : ℕ → ℕ → ℕ → ℝ) (Wq Wk : ℕ → ℕ → ℝ)
    (h0 : ∀ (b : Fin 4) (l : Fin 2048) (d : Fin 512), x (ix3 b l d) = ((hs b.val l.val d.val : ℝ) : EReal))
    (h1 : ∀ (e d : Fin 512), wq (ix2 e d) = ((Wq e.val d.val : ℝ) : EReal))
    (h2 : ∀ (e d : Fin 512), wk (ix2 e d) = ((Wk e.val d.val : ℝ) : EReal))
    (b : Fin 4) (l : Fin 2048) :
    routerT x wq wk (ix2 b l) = ((prob Wq Wk (hs b.val) l.val : ℝ) : EReal) := by
  unfold routerT
  obtain ⟨l, hl⟩ := l
  cases l with
  | zero => exact headT_zero _ b
  | succ l' =>
    have hl' : l' < 2047 := by omega
    refine (headT_succ _ b ⟨l', hl'⟩).trans ?_
    have hq : ∀ e : Fin 512, projT (rowsLo x) wq (ix3 b ⟨l', hl'⟩ e) = ((proj Wq (hs b.val) l' e.val : ℝ) : EReal) := fun e => by
      rw [projT_apply]
      unfold proj
      rw [← coe_sum]
      exact Finset.sum_congr rfl fun d _ => by rw [rowsLo_apply, h0, h1, ← EReal.coe_mul]
    have hk : ∀ e : Fin 512, projT (rowsHi x) wk (ix3 b ⟨l', hl'⟩ e) = ((proj Wk (hs b.val) (l' + 1) e.val : ℝ) : EReal) := fun e => by
      rw [projT_apply]
      unfold proj
      rw [← coe_sum]
      exact Finset.sum_congr rfl fun d _ => by rw [rowsHi_apply, h0, h2, ← EReal.coe_mul]
    have hc := cosT_apply _ _ b ⟨l', hl'⟩ (proj Wq (hs b.val) l') (proj Wk (hs b.val) (l' + 1)) hq hk
    exact clipT_apply _ b ⟨l', hl'⟩ _ (halfT_apply _ b ⟨l', hl'⟩ _ hc)

end Cert.HNet.Router

namespace Cert.HNet

open Idealize.ShloMosaic Idealize.ShloMosaic.TcCoe Idealize.ShloMosaic.ValueIdx Idealize.SL.Sem Cert.ReferenceIdeal Cert.ReferenceIdeal.Gen Idealize.ShloMosaic.StableHlo Cert.HNet.Ops Cert.HNet.Router

/-- After the router's operations the probability buffer holds `prob`, row by row. -/
theorem router_value (W : Valuation τ sig (Elt Ideal)) (hs : ℕ → ℕ → ℕ → ℝ) (Wq Wk : ℕ → ℕ → ℝ)
    (h0 : ∀ (b : Fin 4) (l : Fin 2048) (d : Fin 512),
      (W (main_arg0 : DevRef τ sig) : Vec Ideal S4x2048x512 .f32) (ix3 b l d) = ((hs b.val l.val d.val : ℝ) : EReal))
    (h1 : ∀ (e d : Fin 512), (W (main_arg1 : DevRef τ sig) : Vec Ideal S512x512 .f32) (ix2 e d) = ((Wq e.val d.val : ℝ) : EReal))
    (h2 : ∀ (e d : Fin 512), (W (main_arg2 : DevRef τ sig) : Vec Ideal S512x512 .f32) (ix2 e d) = ((Wk e.val d.val : ℝ) : EReal))
    (b : Fin 4) (l : Fin 2048) :
    (after opsA W (main_v31 : DevRef τ sig) : Vec Ideal S4x2048 .f32) (ix2 b l) = ((prob Wq Wk (hs b.val) l.val : ℝ) : EReal) :=
  (congrFun (opsA_read W) (ix2 b l)).trans (routerT_apply _ _ _ hs Wq Wk h0 h1 h2 b l)

attribute [local irreducible] Host.scatter Host.reduceAdd concatenate in
set_option maxRecDepth 8192 in
set_option maxHeartbeats 400000 in
/-- The router's operations leave the arguments alone. -/
theorem router_frame (W : Valuation τ sig (Elt Ideal)) :
    after opsA W (main_arg0 : DevRef τ sig) = W (main_arg0 : DevRef τ sig)
    ∧ after opsA W (main_arg1 : DevRef τ sig) = W (main_arg1 : DevRef τ sig)
    ∧ after opsA W (main_arg2 : DevRef τ sig) = W (main_arg2 : DevRef τ sig) := by
  refine ⟨?_, ?_, ?_⟩ <;> (simp only [after_cons, after_nil]; rfl)

end Cert.HNet

end
-- ==== Proof.RSort.lean ====
import proofs.«109756_g14800457302192_cont_week2b_463_21_alg».proof.Proof.RDefs
import proofs.«109756_g14800457302192_cont_week2b_463_21_alg».proof.Proof.Words
import Idealize.ShloMosaic.Lib.StableHlo.Run
import Idealize.ShloMosaic.Lib.StableHlo.Predicate
import Idealize.ShloMosaic.Lib.SortFacts

noncomputable section

/-! The boundary mask, its stable sort and the count of boundaries (the 11 operations after the router). -/

namespace Cert.HNet

open Idealize.ShloMosaic Idealize.ShloMosaic.TcCoe Idealize.ShloMosaic.ValueIdx Idealize.SL.Sem Cert.ReferenceIdeal Cert.ReferenceIdeal.Gen Idealize.ShloMosaic.StableHlo Cert.HNet.Ops

namespace Argsort

/-! ## A stable sort keeps the order of what its comparator does not separate -/

section stable
variable {ι : Type} (R : ι → ι → Bool) (T : ι → ι → Prop)

/-- `b` goes before `c`: strictly so by `R`, or not after it by `R` and before it in the order `T`. -/
def LexBefore (b c : ι) : Prop := R b c = true ∨ (R c b = false ∧ T b c)

/-- Inserting `a`, which is `T`-before everything in the list, keeps the list ordered by `LexBefore`
    (`R` negatively transitive). -/
theorem pairwise_insertBefore_lex (hnt : ∀ a b c, R a b = false → R b c = false → R a c = false)
    (a : ι) (s : List ι) (hs : s.Pairwise (LexBefore R T)) (ha : ∀ c ∈ s, T a c) :
    (insertBefore R a s).Pairwise (LexBefore R T) := by
  induction s with
  | nil => exact List.pairwise_singleton _ _
  | cons b s ih =>
    rw [List.pairwise_cons] at hs
    unfold insertBefore
    split
    · rename_i h
      refine List.pairwise_cons.mpr ⟨fun c hc => ?_, ih hs.2 fun c hc => ha c (List.mem_cons_of_mem b hc)⟩
      rcases List.mem_cons.mp ((perm_insertBefore R a s).mem_iff.mp hc) with rfl | hc'
      · exact Or.inl h
      · exact hs.1 c hc'
    · rename_i h
      have hba : R b a = false := by
        cases hb : R b a
        · rfl
        · exact absurd hb h
      refine List.pairwise_cons.mpr ⟨fun c hc => ?_, List.pairwise_cons.mpr hs⟩
      rcases List.mem_cons.mp hc with rfl | hc'
      · exact Or.inr ⟨hba, ha _ List.mem_cons_self⟩
      · have hac : T a c := ha c (List.mem_cons_of_mem b hc')
        cases hRac : R a c
        · rcases hs.1 c hc' with hbc | ⟨hcb, _⟩
          · have := hnt b a c hba hRac
            rw [hbc] at this
            exact absurd this (by decide)
          · exact Or.inr ⟨hnt c b a hcb hba, hac⟩
        · exact Or.inl hRac

/-- The stable sort of a `T`-ordered list is ordered by `LexBefore`. -/
theorem pairwise_stableSort_lex (hnt : ∀ a b c, R a b = false → R b c = false → R a c = false)
    (l : List ι) (hl : l.Pairwise T) : (stableSort R l).Pairwise (LexBefore R T) := by
  induction l with
  | nil => exact List.Pairwise.nil
  | cons a l ih =>
    rw [List.pairwise_cons] at hl
    unfold stableSort
    exact pairwise_insertBefore_lex R T hnt a _ (ih hl.2) fun c hc => hl.1 c ((perm_stableSort R l).mem_iff.mp hc)

end stable

/-- The sorting permutation lists the positions by `LexBefore` of the comparator and the positions' own order. -/
theorem sortedFrom_lex {n : Nat} (R : Fin n → Fin n → Bool)
    (hnt : ∀ a b c, R a b = false → R b c = false → R a c = false) (i j : Fin n) (hij : i < j) :
    LexBefore R (· < ·) (sortedFrom R i) (sortedFrom R j) := by
  have hp : ∀ a b : Fin (sortPositions n R).length, a < b →
      LexBefore R (· < ·) ((sortPositions n R).get a) ((sortPositions n R).get b) :=
    List.pairwise_iff_get.mp (pairwise_stableSort_lex R (· < ·) hnt (List.finRange n) (List.sortedLT_finRange n).pairwise)
  unfold sortedFrom
  exact hp _ _ (by simp only [Fin.lt_def, Fin.val_cast]; exact hij)

/-! ## The eleven operations read back -/

section readback
variable (W : Valuation τ sig (Elt Ideal))

/-- The mask: the probabilities compared with the word of one half. -/
def maskTerm : IVec S4x2048 1 :=
  cmpf (F := Ideal) .ogt (W (main_v31 : DevRef τ sig))
    (broadcastInDim S4x2048 ![] bcast_S_S4x2048 (constant S_ .f32 0x3F000000#32))

/-- The sort key: the complemented mask bit widened, `0` at a boundary and `1` elsewhere. -/
def keyTerm : IVec S4x2048 32 := extui 32 (noti (maskTerm W)) natLt_1_32

theorem mask_readback : (after opsB1 W (main_v33 : DevRef τ sig) : IVec S4x2048 1) = maskTerm W := by
  after_results_simp
  rfl

theorem order_readback : (after opsB1 W (main_v36 : DevRef τ sig) : IVec S4x2048 32)
    = (Host.sort2 S4x2048 1 comparator_i32_i32_d1 (keyTerm W) (iotaInDim S4x2048 32 1)).2 := by
  after_results_simp
  rfl

theorem count_readback : (after opsB1 W (main_v38 : DevRef τ sig) : IVec S4 32)
    = Host.reduce IntOp.addi (extui 32 (maskTerm W) natLt_1_32) (constantI S_ 32 0#32) reducesTo_S4x2048_S4_d1 h_S_ := by
  after_results_simp
  rfl

end readback

/-! ## The mask, the key and the sort at an index -/

/-- Moving along the second axis of a rank-2 index replaces its second coordinate. -/
theorem along_ix2 (b : Fin 4) (j : Fin 2048) (hd : 1 < S4x2048.rank) (k : Fin (S4x2048.size ⟨1, hd⟩)) :
    (ix2 b j : S4x2048.Idx).along ⟨1, hd⟩ k = ix2 b k := by
  funext a
  match a with
  | ⟨0, _⟩ => exact Function.update_of_ne (Fin.ne_of_val_ne Nat.zero_ne_one) _ _
  | ⟨1, _⟩ => exact Function.update_self ..

/-- The second result of the two-operand sort at batch row `b`, rank `j`: the payload at the position the stable
    sort of row `b`'s pairs puts at rank `j`. -/
theorem sort2_snd_apply (K Y : IVec S4x2048 32) (b : Fin 4) (j : Fin 2048) :
    (Host.sort2 S4x2048 1 comparator_i32_i32_d1 K Y).2 (ix2 b j)
      = Y (ix2 b (sortedFrom (fun k k' : Fin 2048 =>
          comparator_i32_i32_d1 (K (ix2 b k), Y (ix2 b k)) (K (ix2 b k'), Y (ix2 b k')) == 1#1) j)) := by
  have hd : 1 < S4x2048.rank := by decide
  have hal : ∀ k : Fin (S4x2048.size ⟨1, hd⟩), (ix2 b j : S4x2048.Idx).along ⟨1, hd⟩ k = ix2 b k :=
    fun k => along_ix2 b j hd k
  unfold Host.sort2
  rw [dif_pos hd]
  simp only [hal]
  rfl

section value
variable (W : Valuation τ sig (Elt Ideal)) (P : ℕ → ℕ → ℝ)
  (hP : ∀ (b : Fin 4) (l : Fin 2048),
      (W (main_v31 : DevRef τ sig) : Vec Ideal S4x2048 .f32) (ix2 b l) = ((P b.val l.val : ℝ) : EReal))
include hP

/-- The mask bit is set exactly where the probability exceeds one half. -/
theorem maskTerm_apply (b : Fin 4) (l : Fin 2048) :
    maskTerm W (ix2 b l) = if 1 / 2 < P b.val l.val then 1#1 else 0#1 := by
  unfold maskTerm
  rw [cmpf_apply, hP b l, Predicate.bcast_scalar bcast_S_S4x2048 h_S_, constant_apply, ofBits_half]
  show Ideal.cmp .ogt ((P b.val l.val : ℝ) : EReal) ((1 / 2 : ℝ) : EReal) = _
  simp only [Ideal.cmp, EReal.coe_lt_coe_iff]
  by_cases h : 1 / 2 < P b.val l.val
  · rw [if_pos h, decide_eq_true h]; rfl
  · rw [if_neg h, decide_eq_false h]; rfl

/-- The key is `0` at a boundary row and `1` elsewhere. -/
theorem keyTerm_apply (b : Fin 4) (l : Fin 2048) :
    keyTerm W (ix2 b l) = if 1 / 2 < P b.val l.val then 0#32 else 1#32 := by
  unfold keyTerm
  rw [extui_apply]
  show (~~~ (maskTerm W (ix2 b l))).setWidth 32 = _
  rw [maskTerm_apply W P hP b l]
  by_cases h : 1 / 2 < P b.val l.val
  · rw [if_pos h, if_pos h]; decide
  · rw [if_neg h, if_neg h]; decide

/-- The comparator on two rows' pairs: a boundary row before a row that is none. -/
theorem before_apply (b : Fin 4) (k k' : Fin 2048) (y y' : BitVec 32) :
    (comparator_i32_i32_d1 (keyTerm W (ix2 b k), y) (keyTerm W (ix2 b k'), y') == 1#1)
      = decide (1 / 2 < P b.val k.val ∧ ¬ 1 / 2 < P b.val k'.val) := by
  show (IntOp.cmpi .slt (keyTerm W (ix2 b k)) (keyTerm W (ix2 b k')) == 1#1) = _
  rw [keyTerm_apply W P hP b k, keyTerm_apply W P hP b k']
  by_cases h : 1 / 2 < P b.val k.val <;> by_cases h' : 1 / 2 < P b.val k'.val
  · rw [if_pos h, if_pos h', decide_eq_false (by tauto)]; decide
  · rw [if_pos h, if_neg h', decide_eq_true ⟨h, h'⟩]; decide
  · rw [if_neg h, if_pos h', decide_eq_false (by tauto)]; decide
  · rw [if_neg h, if_neg h', decide_eq_false (by tauto)]; decide

/-- The order buffer after the eleven operations, as a number: the source position of the stable sort of the
    row's positions under "a boundary row before a row that is none". -/
theorem sigmaOf_eq (b : Fin 4) (j : ℕ) (h : j < 2048) :
    sigmaOf (after opsB1 W) b j
      = (sortedFrom (fun k k' : Fin 2048 => decide (1 / 2 < P b.val k.val ∧ ¬ 1 / 2 < P b.val k'.val)) ⟨j, h⟩).val := by
  unfold sigmaOf
  rw [dif_pos h, order_readback, sort2_snd_apply]
  have hR : (fun k k' : Fin 2048 =>
      comparator_i32_i32_d1 (keyTerm W (ix2 b k), iotaInDim S4x2048 32 1 (ix2 b k))
        (keyTerm W (ix2 b k'), iotaInDim S4x2048 32 1 (ix2 b k')) == 1#1)
      = fun k k' : Fin 2048 => decide (1 / 2 < P b.val k.val ∧ ¬ 1 / 2 < P b.val k'.val) := by
    funext k k'
    exact before_apply W P hP b k k' _ _
  rw [hR]
  show (BitVec.ofNat 32 _).toNat = _
  rw [BitVec.toNat_ofNat]
  exact Nat.mod_eq_of_lt (lt_trans (Fin.isLt _) (by norm_num))

end value

end Argsort

open Argsort

/-- From probabilities `P`: the mask bit of each row, the order the stable sort leaves, and the count, per batch row. -/
theorem sort_value (W : Valuation τ sig (Elt Ideal)) (P : ℕ → ℕ → ℝ)
    (hP : ∀ (b : Fin 4) (l : Fin 2048),
      (W (main_v31 : DevRef τ sig) : Vec Ideal S4x2048 .f32) (ix2 b l) = ((P b.val l.val : ℝ) : EReal)) :
    (∀ (b : Fin 4) (l : Fin 2048), (after opsB1 W (main_v33 : DevRef τ sig) : IVec S4x2048 1) (ix2 b l)
        = if 1 / 2 < P b.val l.val then 1#1 else 0#1)
    ∧ (∀ b : Fin 4, IsOrder 2048 (P b.val) (sigmaOf (after opsB1 W) b))
    ∧ (∀ b : Fin 4, (after opsB1 W (main_v38 : DevRef τ sig) : IVec S4 32) (ix1 b) = BitVec.ofNat 32 (cnt (P b.val) 2048)) := by
  refine ⟨fun b l => ?_, fun b => ?_, fun b => ?_⟩
  · rw [mask_readback]
    exact maskTerm_apply W P hP b l
  · -- "not before" is transitive for "a boundary row before a row that is none"
    have hnt : ∀ a c e : Fin 2048,
        decide (1 / 2 < P b.val a.val ∧ ¬ 1 / 2 < P b.val c.val) = false →
        decide (1 / 2 < P b.val c.val ∧ ¬ 1 / 2 < P b.val e.val) = false →
        decide (1 / 2 < P b.val a.val ∧ ¬ 1 / 2 < P b.val e.val) = false := by
      intro a c e h1 h2
      rw [decide_eq_false_iff_not] at h1 h2 ⊢
      tauto
    unfold IsOrder
    refine ⟨fun j hj => ?_, fun i j hij hj => ?_⟩
    · rw [sigmaOf_eq W P hP b j hj]
      exact Fin.isLt _
    · have hi : i < 2048 := lt_trans hij hj
      rw [sigmaOf_eq W P hP b i hi, sigmaOf_eq W P hP b j hj]
      have hlex := sortedFrom_lex
        (fun k k' : Fin 2048 => decide (1 / 2 < P b.val k.val ∧ ¬ 1 / 2 < P b.val k'.val)) hnt ⟨i, hi⟩ ⟨j, hj⟩ hij
      simp only [LexBefore, decide_eq_true_eq, decide_eq_false_iff_not] at hlex
      rcases hlex with h | ⟨h1, h2⟩
      · exact Or.inl h
      · by_cases hc : 1 / 2 < P b.val (sortedFrom (fun k k' : Fin 2048 =>
            decide (1 / 2 < P b.val k.val ∧ ¬ 1 / 2 < P b.val k'.val)) ⟨i, hi⟩).val
            ∧ ¬ 1 / 2 < P b.val (sortedFrom (fun k k' : Fin 2048 =>
            decide (1 / 2 < P b.val k.val ∧ ¬ 1 / 2 < P b.val k'.val)) ⟨j, hj⟩).val
        · exact Or.inl hc
        · exact Or.inr ⟨⟨fun ha => Classical.not_not.mp fun nb => hc ⟨ha, nb⟩,
            fun hb => Classical.not_not.mp fun na => h1 ⟨hb, na⟩⟩, h2⟩
  · rw [count_readback]
    apply BitVec.eq_of_toNat_eq
    have hle : cnt (P b.val) 2048 ≤ 2048 := by
      unfold cnt
      exact (Finset.card_filter_le _ _).trans (by rw [Finset.card_range])
    rw [BitVec.toNat_ofNat, Nat.mod_eq_of_lt (lt_of_le_of_lt hle (by norm_num))]
    refine (Predicate.toNat_reduce_count_cols (n := 4) (m := 2048) (by norm_num) (maskTerm W) natLt_1_32
      reducesTo_S4x2048_S4_d1 h_S_ (ix1 b)).trans ?_
    -- the bit of row `b`, column `q` is set exactly where the probability exceeds one half
    have hbit : ∀ q : Fin 2048, maskTerm W (Predicate.ij ((ix1 b : S4.Idx) 0) q) = 1#1 ↔ 1 / 2 < P b.val q.val := by
      intro q
      have e : (Predicate.ij ((ix1 b : S4.Idx) 0) q : S4x2048.Idx) = ix2 b q := by
        funext a
        match a with
        | ⟨0, _⟩ => rfl
        | ⟨1, _⟩ => rfl
      rw [e, maskTerm_apply W P hP b q]
      by_cases h : 1 / 2 < P b.val q.val
      · rw [if_pos h]; exact ⟨fun _ => h, fun _ => rfl⟩
      · rw [if_neg h]; exact ⟨fun e => absurd e (by decide), fun hh => absurd hh h⟩
    unfold cnt
    refine Finset.card_bij (fun q _ => q.val) ?_ ?_ ?_
    · intro q hq
      rw [Finset.mem_filter] at hq ⊢
      exact ⟨Finset.mem_range.mpr q.isLt, (hbit q).mp hq.2⟩
    · intro q _ q' _ h
      exact Fin.ext h
    · intro l hl
      rw [Finset.mem_filter, Finset.mem_range] at hl
      exact ⟨⟨l, hl.1⟩, Finset.mem_filter.mpr ⟨Finset.mem_univ _, (hbit ⟨l, hl.1⟩).mpr hl.2⟩, rfl⟩

/-- These operations leave the arguments and the probabilities alone. -/
theorem sort_frame (W : Valuation τ sig (Elt Ideal)) :
    after opsB1 W (main_arg0 : DevRef τ sig) = W (main_arg0 : DevRef τ sig)
    ∧ after opsB1 W (main_arg1 : DevRef τ sig) = W (main_arg1 : DevRef τ sig)
    ∧ after opsB1 W (main_arg2 : DevRef τ sig) = W (main_arg2 : DevRef τ sig)
    ∧ after opsB1 W (main_v31 : DevRef τ sig) = W (main_v31 : DevRef τ sig) := by
  refine ⟨?_, ?_, ?_, ?_⟩ <;> after_results_simp

end Cert.HNet

end
-- ==== Proof.RGatherIdx.lean ====
import proofs.«109756_g14800457302192_cont_week2b_463_21_alg».proof.Proof.RDefs

noncomputable section

/-! The reference's two batched gathers read at an index: with batch axis 0 and the start index on axis 1, result
element `(b, j, d)` is the operand at `(b, s, d)`, where `s` is the start index `idx (b, j, 0)` read signed and clamped
to the last row. -/

namespace Cert.HNet

open Idealize.ShloMosaic Idealize.ShloMosaic.ValueIdx Cert.ReferenceIdeal Cert.ReferenceIdeal.Gen

section Gather
variable {α : Type}

/-- The rows' gather: batch axis 0, the start index on axis 1, whole rows along axis 2. -/
abbrev g3 : GatherDims S4x2048x512 S4x2048x1 S4x2048x512 := gather_S4x2048x512_S4x2048x1_S4x2048x512_2_1_0_0_1_2_11512
/-- The probabilities' gather: batch axis 0, the start index on axis 1. -/
abbrev g2 : GatherDims S4x2048 S4x2048x1 S4x2048 := gather_S4x2048_S4x2048x1_S4x2048_n_1_0_0_1_2_11

theorem gather3_apply (x : S4x2048x512.Idx → α) (I : IVec S4x2048x1 32) (b : Fin 4) (j : Fin 2048) (d : Fin 512)
    (l : Fin 2048) (hl : l.val = min (I (ix3 b j 0)).toInt.toNat 2047) :
    Host.gather gather_S4x2048x512_S4x2048x1_S4x2048x512_2_1_0_0_1_2_11512 x I (ix3 b j d) = x (ix3 b l d) := by
  unfold Host.gather
  refine congrArg x (funext fun a => Fin.ext ?_)
  match a with
  | ⟨0, _⟩ =>
    have h1 : g3.start (ix3 b j d) I 0 = 0 := rfl
    have h2 : g3.batchCoord (ix3 b j d) 0 = b.val := rfl
    have h3 : g3.offCoord (ix3 b j d) 0 = 0 := rfl
    show g3.start (ix3 b j d) I 0 + g3.batchCoord (ix3 b j d) 0 + g3.offCoord (ix3 b j d) 0 = b.val
    omega
  | ⟨1, _⟩ =>
    have hsi : g3.siIdx (ix3 b j d) ⟨0, by decide⟩ = ix3 b j 0 := by
      funext e
      match e with
      | ⟨0, _⟩ => rfl
      | ⟨1, _⟩ => rfl
      | ⟨2, _⟩ => rfl
    have h1 : g3.start (ix3 b j d) I 1 = min (I (g3.siIdx (ix3 b j d) ⟨0, by decide⟩)).toInt.toNat 2047 := rfl
    have h2 : g3.batchCoord (ix3 b j d) 1 = 0 := rfl
    have h3 : g3.offCoord (ix3 b j d) 1 = 0 := rfl
    show g3.start (ix3 b j d) I 1 + g3.batchCoord (ix3 b j d) 1 + g3.offCoord (ix3 b j d) 1 = l.val
    rw [hsi] at h1
    omega
  | ⟨2, _⟩ =>
    have h1 : g3.start (ix3 b j d) I 2 = 0 := rfl
    have h2 : g3.batchCoord (ix3 b j d) 2 = 0 := rfl
    have h3 : g3.offCoord (ix3 b j d) 2 = d.val := rfl
    show g3.start (ix3 b j d) I 2 + g3.batchCoord (ix3 b j d) 2 + g3.offCoord (ix3 b j d) 2 = d.val
    omega

theorem gather2_apply (x : S4x2048.Idx → α) (I : IVec S4x2048x1 32) (b : Fin 4) (j : Fin 2048)
    (l : Fin 2048) (hl : l.val = min (I (ix3 b j 0)).toInt.toNat 2047) :
    Host.gather gather_S4x2048_S4x2048x1_S4x2048_n_1_0_0_1_2_11 x I (ix2 b j) = x (ix2 b l) := by
  unfold Host.gather
  refine congrArg x (funext fun a => Fin.ext ?_)
  match a with
  | ⟨0, _⟩ =>
    have h1 : g2.start (ix2 b j) I 0 = 0 := rfl
    have h2 : g2.batchCoord (ix2 b j) 0 = b.val := rfl
    have h3 : g2.offCoord (ix2 b j) 0 = 0 := rfl
    show g2.start (ix2 b j) I 0 + g2.batchCoord (ix2 b j) 0 + g2.offCoord (ix2 b j) 0 = b.val
    omega
  | ⟨1, _⟩ =>
    have hsi : g2.siIdx (ix2 b j) ⟨0, by decide⟩ = ix3 b j 0 := by
      funext e
      match e with
      | ⟨0, _⟩ => rfl
      | ⟨1, _⟩ => rfl
      | ⟨2, _⟩ => rfl
    have h1 : g2.start (ix2 b j) I 1 = min (I (g2.siIdx (ix2 b j) ⟨0, by decide⟩)).toInt.toNat 2047 := rfl
    have h2 : g2.batchCoord (ix2 b j) 1 = 0 := rfl
    have h3 : g2.offCoord (ix2 b j) 1 = 0 := rfl
    show g2.start (ix2 b j) I 1 + g2.batchCoord (ix2 b j) 1 + g2.offCoord (ix2 b j) 1 = l.val
    rw [hsi] at h1
    omega

end Gather

end Cert.HNet

end
-- ==== Proof.RGather.lean ====
import proofs.«109756_g14800457302192_cont_week2b_463_21_alg».proof.Proof.RGatherIdx
import proofs.«109756_g14800457302192_cont_week2b_463_21_alg».proof.Proof.Words
import Idealize.ShloMosaic.Lib.StableHlo.Run
import Idealize.ShloMosaic.Lib.StableHlo.Predicate
import Idealize.ShloMosaic.Lib.Pipeline.Value

noncomputable section

/-! The compacted rows: the two gathers along the sort's order, the validity mask, and the scan's coefficients.

The order buffer holds words below 2048, so each start index is non-negative (the wrap of negative indices takes the
index itself) and within `[0, 2047]` (the bounds mask is set and the fill is never taken): the gathers read row `σ j`.
Past the count the gathered probability is multiplied by zero, so the decay is `min 1 (max 0 (1 - 0)) = 1` and the
gain `1 - 1 = 0`; below it `min 1 (max 0 (1 - p)) = 1 - p` since `0 ≤ p ≤ 1`, and the gain is `1 - (1 - p) = p`. -/

namespace Cert.HNet

open Idealize.ShloMosaic Idealize.ShloMosaic.TcCoe Idealize.ShloMosaic.ValueIdx Idealize.SL.Sem Cert.ReferenceIdeal Cert.ReferenceIdeal.Gen Idealize.ShloMosaic.StableHlo Cert.HNet.Ops

/-! ## Words: a start index below 2048 is taken as it is -/

section Words

/-- Read signed and clamped to the last row, a word below 2048 is its value. -/
theorem min_toInt_small (w : BitVec 32) (h : w.toNat < 2048) : min w.toInt.toNat 2047 = w.toNat := by
  rw [Predicate.toInt_eq_toNat_of_lt (by omega), Int.toNat_natCast]
  omega

/-- The wrap of negative indices leaves a word below 2048 alone: it is not negative. -/
theorem wrap_small (w : BitVec 32) (h : w.toNat < 2048) :
    Scalar.select (IntOp.cmpi .slt w 0#32) (IntOp.addi w 2048#32) w = w := by
  have hc : ¬ IntOp.cmpi .slt w 0#32 = 1#1 := by
    rw [Predicate.slt_iff_toNat (by omega) (by decide)]
    exact Nat.not_lt_zero _
  rw [eq_zero_of_ne_one hc, select_zero]

/-- A word below 2048 passes the bounds test `0 ≤ w ≤ 2047`. -/
theorem inb_small (w : BitVec 32) (h : w.toNat < 2048) :
    IntOp.andi (IntOp.cmpi .sge w 0#32) (IntOp.cmpi .sle w 2047#32) = 1#1 := by
  have h2047 : (2047#32 : BitVec 32).toNat = 2047 := rfl
  rw [(Predicate.sge_iff_toNat (by omega) (by decide)).2 (Nat.zero_le _),
    (Predicate.sle_iff_toNat (by omega) (by decide)).2 (by rw [h2047]; omega)]
  rfl

/-- Rank `j` against the count `N`, both at most 2048, as words compared signed. -/
theorem valid_bit (j N : ℕ) (hj : j < 2048) (hN : N ≤ 2048) :
    IntOp.cmpi .slt (BitVec.ofNat 32 j) (BitVec.ofNat 32 N) = if j < N then 1#1 else 0#1 := by
  have hj' : (BitVec.ofNat 32 j).toNat = j := by rw [BitVec.toNat_ofNat]; omega
  have hN' : (BitVec.ofNat 32 N).toNat = N := by rw [BitVec.toNat_ofNat]; omega
  have key := Predicate.slt_iff_toNat (a := BitVec.ofNat 32 j) (b := BitVec.ofNat 32 N) (by omega) (by omega)
  rw [hj', hN'] at key
  by_cases hlt : j < N
  · rw [if_pos hlt]; exact key.2 hlt
  · rw [if_neg hlt]; exact eq_zero_of_ne_one (fun h => hlt (key.1 h))

/-- A conjunction of set bits is set. -/
theorem fold_andi_one {ι : Type} [DecidableEq ι] (S : Finset ι) (f : ι → BitVec 1) (h : ∀ i ∈ S, f i = 1#1) :
    S.fold IntOp.andi 1#1 f = 1#1 := by
  induction S using Finset.induction_on with
  | empty => rfl
  | insert a S ha ih =>
    rw [Finset.fold_insert ha, h a (Finset.mem_insert_self a S), ih (fun i hi => h i (Finset.mem_insert_of_mem hi))]
    rfl

end Words

/-! ## The broadcasts and the reshape at an index -/

section Layout
variable {α : Type}

theorem bc_col (o : S4x2048.Idx → α) (b : Fin 4) (j : Fin 2048) (e : Fin 1) :
    broadcastInDim S4x2048x1 ![0, 1] bcast_S4x2048_S4x2048x1_0_1 o (ix3 b j e) = o (ix2 b j) :=
  broadcastInDim_apply _ _ o _ (ix2 b j) (fun a => match a with | ⟨0, _⟩ => rfl | ⟨1, _⟩ => rfl)

theorem bc_full (x : S4x2048x1.Idx → α) (b : Fin 4) (j : Fin 2048) (d : Fin 512) :
    broadcastInDim S4x2048x512 ![0, 1, 2] bcast_S4x2048x1_S4x2048x512_0_1_2 x (ix3 b j d) = x (ix3 b j 0) :=
  broadcastInDim_apply _ _ x _ (ix3 b j 0) (fun a => match a with | ⟨0, _⟩ => rfl | ⟨1, _⟩ => rfl | ⟨2, _⟩ => rfl)

theorem bc_rows (m : S4x2048.Idx → α) (b : Fin 4) (j : Fin 2048) (d : Fin 512) :
    broadcastInDim S4x2048x512 ![0, 1] bcast_S4x2048_S4x2048x512_0_1 m (ix3 b j d) = m (ix2 b j) :=
  broadcastInDim_apply _ _ m _ (ix2 b j) (fun a => match a with | ⟨0, _⟩ => rfl | ⟨1, _⟩ => rfl)

theorem bc_iota (v : S2048.Idx → α) (b : Fin 4) (j : Fin 2048) :
    broadcastInDim S4x2048 ![0, 1] bcast_S1x2048_S4x2048_0_1 (broadcastInDim S1x2048 ![1] bcast_S2048_S1x2048_1 v) (ix2 b j)
      = v (ix1 j) :=
  (broadcastInDim_apply _ _ _ _ (ix2 (0 : Fin 1) j) (fun a => match a with | ⟨0, _⟩ => rfl | ⟨1, _⟩ => rfl)).trans
    (broadcastInDim_apply _ _ v _ (ix1 j) (fun a => match a with | ⟨0, _⟩ => rfl))

theorem bc_count (c : S4.Idx → α) (b : Fin 4) (j : Fin 2048) :
    broadcastInDim S4x2048 ![0, 1] bcast_S4x1_S4x2048_0_1 (broadcastInDim S4x1 ![0] bcast_S4_S4x1_0 c) (ix2 b j)
      = c (ix1 b) :=
  (broadcastInDim_apply _ _ _ _ (ix2 b (0 : Fin 1)) (fun a => match a with | ⟨0, _⟩ => rfl | ⟨1, _⟩ => rfl)).trans
    (broadcastInDim_apply _ _ c _ (ix1 b) (fun a => match a with | ⟨0, _⟩ => rfl))

theorem cast_col (x : S4x2048.Idx → α) (b : Fin 4) (j : Fin 2048) (e : Fin 1) :
    shapeCast S4x2048x1 x shapeCasts_S4x2048_S4x2048x1 (ix3 b j e) = x (ix2 b j) :=
  shapeCast_apply x _ _ _ (by
    have he : e.val = 0 := by omega
    rw [Shape.rowMajor_val_two, Shape.rowMajor_val_three]
    show b.val * 2048 + j.val = (b.val * 2048 + j.val) * 1 + e.val
    omega)

end Layout

/-! ## The operations' composed terms -/

section Terms

/-- The order buffer as a column of start indices, each wrapped (a negative index counts from the end). -/
def I3 (o : IVec S4x2048 32) : IVec S4x2048x1 32 :=
  select
    (cmpi .slt (broadcastInDim S4x2048x1 ![0, 1] bcast_S4x2048_S4x2048x1_0_1 o)
      (broadcastInDim S4x2048x1 ![] bcast_S_S4x2048x1 (constantI S_ 32 0#32)))
    (addi (broadcastInDim S4x2048x1 ![0, 1] bcast_S4x2048_S4x2048x1_0_1 o)
      (broadcastInDim S4x2048x1 ![] bcast_S_S4x2048x1 (constantI S_ 32 2048#32)))
    (broadcastInDim S4x2048x1 ![0, 1] bcast_S4x2048_S4x2048x1_0_1 o)

/-- The same column made by wrapping first and reshaping after. -/
def I5 (o : IVec S4x2048 32) : IVec S4x2048x1 32 :=
  shapeCast S4x2048x1
    (select (cmpi .slt o (broadcastInDim S4x2048 ![] bcast_S_S4x2048 (constantI S_ 32 0#32)))
      (addi o (broadcastInDim S4x2048 ![] bcast_S_S4x2048 (constantI S_ 32 2048#32))) o)
    shapeCasts_S4x2048_S4x2048x1

/-- The bounds mask of a column of start indices: every component within `[0, 2047]`. -/
def inb (I : IVec S4x2048x1 32) : IVec S4x2048 1 :=
  Host.reduce IntOp.andi
    (andi (cmpi .sge I (broadcastInDim S4x2048x1 ![] bcast_S_S4x2048x1 (constantI S_ 32 0#32)))
      (cmpi .sle I (broadcastInDim S4x2048x1 ![0, 1, 2] bcast_S1x1x1_S4x2048x1_0_1_2
        (broadcastInDim S1x1x1 ![2] bcast_S1_S1x1x1_2 (constantI S1 32 2047#32)))))
    (constantI S_ 1 1#1) reducesTo_S4x2048x1_S4x2048_d2 h_S_

/-- The rows taken along the order. -/
def T40 (x : FVec Ideal S4x2048x512 .f32) (o : IVec S4x2048 32) : FVec Ideal S4x2048x512 .f32 :=
  select (broadcastInDim S4x2048x512 ![0, 1] bcast_S4x2048_S4x2048x512_0_1 (inb (I3 o)))
    (Host.gather gather_S4x2048x512_S4x2048x1_S4x2048x512_2_1_0_0_1_2_11512 x (I3 o))
    (broadcastInDim S4x2048x512 ![] bcast_S_S4x2048x512 (constant (F := Ideal) S_ .f32 0x7FC00000#32))

/-- The probabilities taken along the order. -/
def T47 (p : FVec Ideal S4x2048 .f32) (o : IVec S4x2048 32) : FVec Ideal S4x2048 .f32 :=
  select (inb (I5 o))
    (Host.gather gather_S4x2048_S4x2048x1_S4x2048_n_1_0_0_1_2_11 p (I5 o))
    (broadcastInDim S4x2048 ![] bcast_S_S4x2048 (constant (F := Ideal) S_ .f32 0x7FC00000#32))

/-- The validity mask: rank below the count. -/
def T46 (c : IVec S4 32) : IVec S4x2048 1 :=
  cmpi .slt
    (broadcastInDim S4x2048 ![0, 1] bcast_S1x2048_S4x2048_0_1
      (broadcastInDim S1x2048 ![1] bcast_S2048_S1x2048_1 (iotaInDim S2048 32 0)))
    (broadcastInDim S4x2048 ![0, 1] bcast_S4x1_S4x2048_0_1 (broadcastInDim S4x1 ![0] bcast_S4_S4x1_0 c))

/-- The decay: one less the masked probability, clipped to the unit interval. -/
def T52 (p : FVec Ideal S4x2048 .f32) (o : IVec S4x2048 32) (c : IVec S4 32) : FVec Ideal S4x2048 .f32 :=
  minimumf (broadcastInDim S4x2048 ![] bcast_S_S4x2048 (constant (F := Ideal) S_ .f32 0x3F800000#32))
    (maximumf (broadcastInDim S4x2048 ![] bcast_S_S4x2048 (constant (F := Ideal) S_ .f32 0x00000000#32))
      (subf (broadcastInDim S4x2048 ![] bcast_S_S4x2048 (constant (F := Ideal) S_ .f32 0x3F800000#32))
        (mulf (T47 p o) (uitofp .f32 (T46 c)))))

end Terms

/-! ## The lists read back -/

section ReadBack

attribute [local irreducible] Host.reduce Host.gather in
theorem v46_eq (W : Valuation τ sig (Elt Ideal)) :
    (after opsC (after opsB2 W) (main_v46 : DevRef τ sig) : IVec S4x2048 1) = T46 (W (main_v38 : DevRef τ sig)) := by
  after_results_simp
  rfl

attribute [local irreducible] Host.reduce Host.gather in
theorem v53_eq (W : Valuation τ sig (Elt Ideal)) :
    (after opsC (after opsB2 W) (main_v53 : DevRef τ sig) : FVec Ideal S4x512 .f32)
      = (broadcastInDim S4x512 ![] bcast_S_S4x512 (constant (F := Ideal) S_ .f32 0x00000000#32) : FVec Ideal S4x512 .f32) := by
  after_results_simp

attribute [local irreducible] Host.reduce Host.gather in
theorem v55_eq (W : Valuation τ sig (Elt Ideal)) :
    (after opsC (after opsB2 W) (main_v55 : DevRef τ sig) : FVec Ideal S4x2048x512 .f32)
      = (broadcastInDim S4x2048x512 ![0, 1, 2] bcast_S4x2048x1_S4x2048x512_0_1_2
          (broadcastInDim S4x2048x1 ![0, 1] bcast_S4x2048_S4x2048x1_0_1
            (T52 (W (main_v31 : DevRef τ sig)) (W (main_v36 : DevRef τ sig)) (W (main_v38 : DevRef τ sig)))) : FVec Ideal S4x2048x512 .f32) := by
  after_results_simp
  rfl

attribute [local irreducible] Host.reduce Host.gather in
theorem v60_eq (W : Valuation τ sig (Elt Ideal)) :
    (after opsC (after opsB2 W) (main_v60 : DevRef τ sig) : FVec Ideal S4x2048x512 .f32)
      = (mulf
          (broadcastInDim S4x2048x512 ![0, 1, 2] bcast_S4x2048x1_S4x2048x512_0_1_2
            (broadcastInDim S4x2048x1 ![0, 1] bcast_S4x2048_S4x2048x1_0_1
              (subf (broadcastInDim S4x2048 ![] bcast_S_S4x2048 (constant (F := Ideal) S_ .f32 0x3F800000#32))
                (T52 (W (main_v31 : DevRef τ sig)) (W (main_v36 : DevRef τ sig)) (W (main_v38 : DevRef τ sig))))))
          (T40 (W (main_arg0 : DevRef τ sig)) (W (main_v36 : DevRef τ sig))) : FVec Ideal S4x2048x512 .f32) := by
  after_results_simp
  rfl

end ReadBack

/-! ## The terms at an index -/

section Values

/-- Below 2048 the wrapped column holds the order's word. -/
theorem I3_apply (o : IVec S4x2048 32) (b : Fin 4) (j : Fin 2048) (e : Fin 1) (h : (o (ix2 b j)).toNat < 2048) :
    I3 o (ix3 b j e) = o (ix2 b j) := by
  have hb := bc_col o b j e
  show Scalar.select
      (IntOp.cmpi .slt (broadcastInDim S4x2048x1 ![0, 1] bcast_S4x2048_S4x2048x1_0_1 o (ix3 b j e)) 0#32)
      (IntOp.addi (broadcastInDim S4x2048x1 ![0, 1] bcast_S4x2048_S4x2048x1_0_1 o (ix3 b j e)) 2048#32)
      (broadcastInDim S4x2048x1 ![0, 1] bcast_S4x2048_S4x2048x1_0_1 o (ix3 b j e)) = o (ix2 b j)
  rw [hb]
  exact wrap_small _ h

theorem I5_apply (o : IVec S4x2048 32) (b : Fin 4) (j : Fin 2048) (e : Fin 1) (h : (o (ix2 b j)).toNat < 2048) :
    I5 o (ix3 b j e) = o (ix2 b j) := by
  unfold I5
  rw [cast_col]
  exact wrap_small _ h

/-- A column of words below 2048 passes the bounds mask everywhere. -/
theorem inb_one (I : IVec S4x2048x1 32) (h : ∀ (b : Fin 4) (j : Fin 2048), (I (ix3 b j 0)).toNat < 2048)
    (b : Fin 4) (j : Fin 2048) : inb I (ix2 b j) = 1#1 := by
  unfold inb
  rw [Host.reduce_eq_fold]
  refine fold_andi_one _ _ (fun i _ => ?_)
  obtain ⟨b', j', e', rfl⟩ : ∃ b' j' e', i = ix3 b' j' e' := ⟨_, _, _, eq_ix3 i⟩
  obtain rfl : e' = 0 := Subsingleton.elim _ _
  exact inb_small _ (h b' j')

/-- The rows taken along the order: row `σ j` of the batch row. -/
theorem T40_apply (x : FVec Ideal S4x2048x512 .f32) (o : IVec S4x2048 32)
    (hσ : ∀ (b : Fin 4) (j : Fin 2048), (o (ix2 b j)).toNat < 2048) (b : Fin 4) (j : Fin 2048) (d : Fin 512)
    (l : Fin 2048) (hl : l.val = (o (ix2 b j)).toNat) : T40 x o (ix3 b j d) = x (ix3 b l d) := by
  have hI : ∀ (b : Fin 4) (j : Fin 2048), (I3 o (ix3 b j 0)).toNat < 2048 := fun b j => by
    rw [I3_apply o b j 0 (hσ b j)]; exact hσ b j
  show Scalar.select (broadcastInDim S4x2048x512 ![0, 1] bcast_S4x2048_S4x2048x512_0_1 (inb (I3 o)) (ix3 b j d))
      (Host.gather gather_S4x2048x512_S4x2048x1_S4x2048x512_2_1_0_0_1_2_11512 x (I3 o) (ix3 b j d)) _ = _
  rw [bc_rows, inb_one _ hI, select_one]
  exact gather3_apply x (I3 o) b j d l (by rw [I3_apply o b j 0 (hσ b j), hl, min_toInt_small _ (hσ b j)])

/-- The probabilities taken along the order. -/
theorem T47_apply (p : FVec Ideal S4x2048 .f32) (o : IVec S4x2048 32)
    (hσ : ∀ (b : Fin 4) (j : Fin 2048), (o (ix2 b j)).toNat < 2048) (b : Fin 4) (j : Fin 2048)
    (l : Fin 2048) (hl : l.val = (o (ix2 b j)).toNat) : T47 p o (ix2 b j) = p (ix2 b l) := by
  have hI : ∀ (b : Fin 4) (j : Fin 2048), (I5 o (ix3 b j 0)).toNat < 2048 := fun b j => by
    rw [I5_apply o b j 0 (hσ b j)]; exact hσ b j
  show Scalar.select (inb (I5 o) (ix2 b j))
      (Host.gather gather_S4x2048_S4x2048x1_S4x2048_n_1_0_0_1_2_11 p (I5 o) (ix2 b j)) _ = _
  rw [inb_one _ hI, select_one]
  exact gather2_apply p (I5 o) b j l (by rw [I5_apply o b j 0 (hσ b j), hl, min_toInt_small _ (hσ b j)])

/-- The validity mask is set exactly below the count. -/
theorem T46_apply (c : IVec S4 32) (N : ℕ → ℕ) (hN : ∀ b : Fin 4, c (ix1 b) = BitVec.ofNat 32 (N b.val))
    (hN' : ∀ b : Fin 4, N b.val ≤ 2048) (b : Fin 4) (j : Fin 2048) :
    T46 c (ix2 b j) = if j.val < N b.val then 1#1 else 0#1 := by
  show IntOp.cmpi .slt
      (broadcastInDim S4x2048 ![0, 1] bcast_S1x2048_S4x2048_0_1
        (broadcastInDim S1x2048 ![1] bcast_S2048_S1x2048_1 (iotaInDim S2048 32 0)) (ix2 b j))
      (broadcastInDim S4x2048 ![0, 1] bcast_S4x1_S4x2048_0_1 (broadcastInDim S4x1 ![0] bcast_S4_S4x1_0 c) (ix2 b j)) = _
  rw [bc_iota, bc_count, hN]
  exact valid_bit j.val (N b.val) j.isLt (hN' b)

/-- The decay: `1 - p` of the gathered probability below the count (already in the unit interval, so the clip keeps it),
    and `1` past it (the gathered probability is multiplied by zero). -/
theorem T52_apply (p : FVec Ideal S4x2048 .f32) (o : IVec S4x2048 32) (c : IVec S4 32) (P : ℕ → ℕ → ℝ) (N : ℕ → ℕ)
    (hP : ∀ (b : Fin 4) (l : Fin 2048), p (ix2 b l) = ((P b.val l.val : ℝ) : EReal))
    (hP01 : ∀ b l : ℕ, 0 ≤ P b l ∧ P b l ≤ 1)
    (hσ : ∀ (b : Fin 4) (j : Fin 2048), (o (ix2 b j)).toNat < 2048)
    (hN : ∀ b : Fin 4, c (ix1 b) = BitVec.ofNat 32 (N b.val)) (hN' : ∀ b : Fin 4, N b.val ≤ 2048)
    (b : Fin 4) (j : Fin 2048) :
    T52 p o c (ix2 b j) = (((if j.val < N b.val then 1 - P b.val (o (ix2 b j)).toNat else 1) : ℝ) : EReal) := by
  have h47 := T47_apply p o hσ b j ⟨(o (ix2 b j)).toNat, hσ b j⟩ rfl
  have h46 := T46_apply c N hN hN' b j
  obtain ⟨h0, h1⟩ := hP01 b.val (o (ix2 b j)).toNat
  show min (Ideal.ofBits .f32 0x3F800000#32)
      (max (Ideal.ofBits .f32 0x00000000#32)
        (Ideal.ofBits .f32 0x3F800000#32 - T47 p o (ix2 b j) * (((T46 c (ix2 b j)).toNat : ℝ) : EReal))) = _
  rw [h47, h46, hP, ofBits_one, ofBits_zero]
  by_cases hj : j.val < N b.val
  · rw [if_pos hj, if_pos hj]
    show min ((1 : ℝ) : EReal) (max ((0 : ℝ) : EReal)
      (((1 : ℝ) : EReal) - ((P b.val (o (ix2 b j)).toNat : ℝ) : EReal) * (((1 : ℕ) : ℝ) : EReal))) = _
    rw [Nat.cast_one, ← EReal.coe_mul, mul_one, ← EReal.coe_sub,
      max_eq_right (EReal.coe_le_coe_iff.2 (by linarith)), min_eq_right (EReal.coe_le_coe_iff.2 (by linarith))]
  · rw [if_neg hj, if_neg hj]
    show min ((1 : ℝ) : EReal) (max ((0 : ℝ) : EReal)
      (((1 : ℝ) : EReal) - ((P b.val (o (ix2 b j)).toNat : ℝ) : EReal) * (((0 : ℕ) : ℝ) : EReal))) = _
    rw [Nat.cast_zero, ← EReal.coe_mul, mul_zero, ← EReal.coe_sub, sub_zero,
      max_eq_right (EReal.coe_le_coe_iff.2 zero_le_one), min_eq_right le_rfl]

end Values

/-! ## The statements -/

/-- The order's word at rank `j`, as `sigmaOf` reads it. -/
theorem sigmaOf_eq (W : Valuation τ sig (Elt Ideal)) (b : Fin 4) (j : Fin 2048) :
    sigmaOf W b j.val = ((W (main_v36 : DevRef τ sig) : IVec S4x2048 32) (ix2 b j)).toNat := by
  unfold sigmaOf
  rw [dif_pos j.isLt]

/-- With the order buffer in range and the count buffer at `N`: the validity mask, the decay and the scaled rows. -/
theorem gather_value (W : Valuation τ sig (Elt Ideal)) (hs : ℕ → ℕ → ℕ → ℝ) (P : ℕ → ℕ → ℝ) (N : ℕ → ℕ)
    (h0 : ∀ (b : Fin 4) (l : Fin 2048) (d : Fin 512),
      (W (main_arg0 : DevRef τ sig) : Vec Ideal S4x2048x512 .f32) (ix3 b l d) = ((hs b.val l.val d.val : ℝ) : EReal))
    (hP : ∀ (b : Fin 4) (l : Fin 2048),
      (W (main_v31 : DevRef τ sig) : Vec Ideal S4x2048 .f32) (ix2 b l) = ((P b.val l.val : ℝ) : EReal))
    (hP01 : ∀ b l : ℕ, 0 ≤ P b l ∧ P b l ≤ 1)
    (hσ : ∀ (b : Fin 4) (j : ℕ), j < 2048 → sigmaOf W b j < 2048)
    (hN : ∀ b : Fin 4, (W (main_v38 : DevRef τ sig) : IVec S4 32) (ix1 b) = BitVec.ofNat 32 (N b.val))
    (hN' : ∀ b : Fin 4, N b.val ≤ 2048) :
    (∀ (b : Fin 4) (j : Fin 2048), (after opsC (after opsB2 W) (main_v46 : DevRef τ sig) : IVec S4x2048 1) (ix2 b j)
        = if j.val < N b.val then 1#1 else 0#1)
    ∧ (∀ (b : Fin 4) (j : Fin 2048) (d : Fin 512),
        (after opsC (after opsB2 W) (main_v55 : DevRef τ sig) : Vec Ideal S4x2048x512 .f32) (ix3 b j d)
          = (((if j.val < N b.val then 1 - P b.val (sigmaOf W b j.val) else 1) : ℝ) : EReal))
    ∧ (∀ (b : Fin 4) (j : Fin 2048) (d : Fin 512),
        (after opsC (after opsB2 W) (main_v60 : DevRef τ sig) : Vec Ideal S4x2048x512 .f32) (ix3 b j d)
          = (((if j.val < N b.val then P b.val (sigmaOf W b j.val) * hs b.val (sigmaOf W b j.val) d.val else 0) : ℝ) : EReal))
    ∧ (∀ (b : Fin 4) (d : Fin 512), (after opsC (after opsB2 W) (main_v53 : DevRef τ sig) : Vec Ideal S4x512 .f32) (ix2 b d) = ((0 : ℝ) : EReal)) := by
  have hσ' : ∀ (b : Fin 4) (j : Fin 2048), ((W (main_v36 : DevRef τ sig) : IVec S4x2048 32) (ix2 b j)).toNat < 2048 :=
    fun b j => by rw [← sigmaOf_eq]; exact hσ b j.val j.isLt
  have h52 := T52_apply (W (main_v31 : DevRef τ sig)) (W (main_v36 : DevRef τ sig)) (W (main_v38 : DevRef τ sig)) P N hP hP01 hσ' hN hN'
  refine ⟨fun b j => ?_, fun b j d => ?_, fun b j d => ?_, fun b d => ?_⟩
  · exact (congrFun (v46_eq W) (ix2 b j)).trans (T46_apply _ N hN hN' b j)
  · refine (congrFun (v55_eq W) (ix3 b j d)).trans ?_
    rw [bc_full, bc_col, h52, sigmaOf_eq]
  · refine (congrFun (v60_eq W) (ix3 b j d)).trans ?_
    show broadcastInDim S4x2048x512 ![0, 1, 2] bcast_S4x2048x1_S4x2048x512_0_1_2
        (broadcastInDim S4x2048x1 ![0, 1] bcast_S4x2048_S4x2048x1_0_1
          (subf (broadcastInDim S4x2048 ![] bcast_S_S4x2048 (constant (F := Ideal) S_ .f32 0x3F800000#32))
            (T52 (W (main_v31 : DevRef τ sig)) (W (main_v36 : DevRef τ sig)) (W (main_v38 : DevRef τ sig))))) (ix3 b j d)
      * T40 (W (main_arg0 : DevRef τ sig)) (W (main_v36 : DevRef τ sig)) (ix3 b j d) = _
    rw [bc_full, bc_col, T40_apply _ _ hσ' b j d ⟨_, hσ' b j⟩ rfl, h0]
    show (Ideal.ofBits .f32 0x3F800000#32
        - T52 (W (main_v31 : DevRef τ sig)) (W (main_v36 : DevRef τ sig)) (W (main_v38 : DevRef τ sig)) (ix2 b j)) * _ = _
    rw [h52, ofBits_one, sigmaOf_eq]
    by_cases hj : j.val < N b.val
    · rw [if_pos hj, if_pos hj, ← EReal.coe_sub, ← EReal.coe_mul, sub_sub_cancel]
    · rw [if_neg hj, if_neg hj, ← EReal.coe_sub, ← EReal.coe_mul, sub_self, zero_mul]
  · refine (congrFun (v53_eq W) (ix2 b d)).trans ?_
    exact ofBits_zero

attribute [local irreducible] Host.reduce Host.gather in
/-- These operations leave the arguments, the probabilities and the mask alone. -/
theorem gather_frame (W : Valuation τ sig (Elt Ideal)) :
    after opsC (after opsB2 W) (main_arg0 : DevRef τ sig) = W (main_arg0 : DevRef τ sig)
    ∧ after opsC (after opsB2 W) (main_arg1 : DevRef τ sig) = W (main_arg1 : DevRef τ sig)
    ∧ after opsC (after opsB2 W) (main_arg2 : DevRef τ sig) = W (main_arg2 : DevRef τ sig)
    ∧ after opsC (after opsB2 W) (main_v31 : DevRef τ sig) = W (main_v31 : DevRef τ sig)
    ∧ after opsC (after opsB2 W) (main_v33 : DevRef τ sig) = W (main_v33 : DevRef τ sig) := by
  refine ⟨?_, ?_, ?_, ?_, ?_⟩ <;> after_results_simp

end Cert.HNet

end
-- ==== Proof.RScanStep.lean ====
import proofs.«109756_g14800457302192_cont_week2b_463_21_alg».proof.Proof.Spec
import Idealize.ShloMosaic.Lib.ValueLayout

noncomputable section

/-! One stride of the doubling scan, read at an index.

The array of `2048` rows is cut into its first `s` rows and its last `m = 2048 - s` rows; the new array keeps the first
`s` rows and, from row `s` on, combines row `i` with row `i - s`.  Read at row `i` this is the specification's `scanStep s`
on the column's pair of sequences. -/

namespace Cert.HNet

open Idealize.ShloMosaic Idealize.ShloMosaic.ValueIdx

/-- The scan buffers' shape: batch row, sequence position, column. -/
abbrev SF : Shape := ⟨3, ![4, 2048, 512]⟩

section Cat
variable {α : Type}

/-- A concatenation along the rows read at a row of the first piece. -/
theorem cat_lo {s m : ℕ} (x : (⟨3, ![4, s, 512]⟩ : Shape).Idx → α) (y : (⟨3, ![4, m, 512]⟩ : Shape).Idx → α)
    (h : Shape.Concatenates [⟨3, ![4, s, 512]⟩, ⟨3, ![4, m, 512]⟩] SF 1)
    (bt : Fin 4) (i : Fin 2048) (d : Fin 512) (hi : i.val < s) :
    concatenate SF 1 [⟨⟨3, ![4, s, 512]⟩, x⟩, ⟨⟨3, ![4, m, 512]⟩, y⟩] h (ix3 bt i d) = x (ix3 bt ⟨i.val, hi⟩ d) :=
  concatenate_pair_apply_left 1 x y h _ rfl _ (fun b => by
    match b with
    | ⟨0, _⟩ => rfl
    | ⟨1, _⟩ => rfl
    | ⟨2, _⟩ => rfl)

/-- A concatenation along the rows read at a row of the second piece: that piece `s` rows earlier. -/
theorem cat_hi {s m : ℕ} (x : (⟨3, ![4, s, 512]⟩ : Shape).Idx → α) (y : (⟨3, ![4, m, 512]⟩ : Shape).Idx → α)
    (h : Shape.Concatenates [⟨3, ![4, s, 512]⟩, ⟨3, ![4, m, 512]⟩] SF 1)
    (bt : Fin 4) (i : Fin 2048) (d : Fin 512) (hi : s ≤ i.val) (hm : i.val - s < m) :
    concatenate SF 1 [⟨⟨3, ![4, s, 512]⟩, x⟩, ⟨⟨3, ![4, m, 512]⟩, y⟩] h (ix3 bt i d) = y (ix3 bt ⟨i.val - s, hm⟩ d) :=
  concatenate_pair_apply_right 1 x y h _ rfl rfl _
    (fun b hb => by
      match b with
      | ⟨0, _⟩ => rfl
      | ⟨1, _⟩ => exact absurd rfl hb
      | ⟨2, _⟩ => rfl)
    (by show (i.val - s) + s = i.val; omega)

end Cat

/-- The offsets' update at stride `s`: rows below `s` kept, row `i ≥ s` becomes `a i * b (i - s) + b i`. -/
theorem stepB_apply {s m : ℕ}
    (hlo : SF.Slices ![0, 0, 0] ⟨3, ![4, s, 512]⟩) (h0 : SF.Slices ![0, 0, 0] ⟨3, ![4, m, 512]⟩)
    (hs : SF.Slices ![0, s, 0] ⟨3, ![4, m, 512]⟩)
    (hc : Shape.Concatenates [⟨3, ![4, s, 512]⟩, ⟨3, ![4, m, 512]⟩] SF 1)
    (a b : FVec Ideal SF .f32) (P : ℕ → ℕ → (ℕ → ℝ) × (ℕ → ℝ))
    (ha : ∀ (bt : Fin 4) (j : Fin 2048) (d : Fin 512), a (ix3 bt j d) = (((P bt.val d.val).1 j.val : ℝ) : EReal))
    (hb : ∀ (bt : Fin 4) (j : Fin 2048) (d : Fin 512), b (ix3 bt j d) = (((P bt.val d.val).2 j.val : ℝ) : EReal))
    (bt : Fin 4) (j : Fin 2048) (d : Fin 512) :
    concatenate SF 1 [⟨⟨3, ![4, s, 512]⟩, extractStridedSlice ⟨3, ![4, s, 512]⟩ ![0, 0, 0] b hlo⟩,
        ⟨⟨3, ![4, m, 512]⟩, addf (mulf (extractStridedSlice ⟨3, ![4, m, 512]⟩ ![0, s, 0] a hs)
            (extractStridedSlice ⟨3, ![4, m, 512]⟩ ![0, 0, 0] b h0))
          (extractStridedSlice ⟨3, ![4, m, 512]⟩ ![0, s, 0] b hs)⟩] hc (ix3 bt j d)
      = (((scanStep s (P bt.val d.val)).2 j.val : ℝ) : EReal) := by
  have hsm : s + m ≤ 2048 := hs.2 1
  by_cases hj : j.val < s
  · rw [cat_lo _ _ hc bt j d hj, slice3_axis1_apply 0 b hlo bt ⟨j.val, hj⟩ d j (Nat.zero_add _).symm, hb]
    show _ = ((if j.val < s then _ else _ : ℝ) : EReal)
    rw [if_pos hj]
  · have hj' : s ≤ j.val := Nat.le_of_not_lt hj
    have hm : j.val - s < m := by
      have h2 : [s, m].sum = 2048 := by simpa using hc.2.2
      have := j.isLt; simp at h2; omega
    have hlt : j.val - s < 2048 := by have := j.isLt; omega
    rw [cat_hi _ _ hc bt j d hj' hm, addf_apply, mulf_apply,
      slice3_axis1_apply s a hs bt ⟨j.val - s, hm⟩ d j (by show j.val = s + (j.val - s); omega),
      slice3_axis1_apply 0 b h0 bt ⟨j.val - s, hm⟩ d ⟨j.val - s, hlt⟩ (Nat.zero_add _).symm,
      slice3_axis1_apply s b hs bt ⟨j.val - s, hm⟩ d j (by show j.val = s + (j.val - s); omega), ha, hb, hb]
    show _ = ((if j.val < s then _ else _ : ℝ) : EReal)
    rw [if_neg hj, EReal.coe_add, EReal.coe_mul]

/-- The coefficients' update at stride `s`: rows below `s` kept, row `i ≥ s` becomes `a i * a (i - s)`. -/
theorem stepA_apply {s m : ℕ}
    (hlo : SF.Slices ![0, 0, 0] ⟨3, ![4, s, 512]⟩) (h0 : SF.Slices ![0, 0, 0] ⟨3, ![4, m, 512]⟩)
    (hs : SF.Slices ![0, s, 0] ⟨3, ![4, m, 512]⟩)
    (hc : Shape.Concatenates [⟨3, ![4, s, 512]⟩, ⟨3, ![4, m, 512]⟩] SF 1)
    (a : FVec Ideal SF .f32) (P : ℕ → ℕ → (ℕ → ℝ) × (ℕ → ℝ))
    (ha : ∀ (bt : Fin 4) (j : Fin 2048) (d : Fin 512), a (ix3 bt j d) = (((P bt.val d.val).1 j.val : ℝ) : EReal))
    (bt : Fin 4) (j : Fin 2048) (d : Fin 512) :
    concatenate SF 1 [⟨⟨3, ![4, s, 512]⟩, extractStridedSlice ⟨3, ![4, s, 512]⟩ ![0, 0, 0] a hlo⟩,
        ⟨⟨3, ![4, m, 512]⟩, mulf (extractStridedSlice ⟨3, ![4, m, 512]⟩ ![0, s, 0] a hs)
            (extractStridedSlice ⟨3, ![4, m, 512]⟩ ![0, 0, 0] a h0)⟩] hc (ix3 bt j d)
      = (((scanStep s (P bt.val d.val)).1 j.val : ℝ) : EReal) := by
  by_cases hj : j.val < s
  · rw [cat_lo _ _ hc bt j d hj, slice3_axis1_apply 0 a hlo bt ⟨j.val, hj⟩ d j (Nat.zero_add _).symm, ha]
    show _ = ((if j.val < s then _ else _ : ℝ) : EReal)
    rw [if_pos hj]
  · have hj' : s ≤ j.val := Nat.le_of_not_lt hj
    have hm : j.val - s < m := by
      have h2 : [s, m].sum = 2048 := by simpa using hc.2.2
      have := j.isLt; simp at h2; omega
    have hlt : j.val - s < 2048 := by have := j.isLt; omega
    rw [cat_hi _ _ hc bt j d hj' hm, mulf_apply,
      slice3_axis1_apply s a hs bt ⟨j.val - s, hm⟩ d j (by show j.val = s + (j.val - s); omega),
      slice3_axis1_apply 0 a h0 bt ⟨j.val - s, hm⟩ d ⟨j.val - s, hlt⟩ (Nat.zero_add _).symm, ha, ha]
    show _ = ((if j.val < s then _ else _ : ℝ) : EReal)
    rw [if_neg hj, EReal.coe_mul]

/-- Two buffers hold, column by column, the pairs of sequences `P`: coefficients in the first, offsets in the second. -/
def Holds (va vb : FVec Ideal SF .f32) (P : ℕ → ℕ → (ℕ → ℝ) × (ℕ → ℝ)) : Prop :=
  (∀ (bt : Fin 4) (j : Fin 2048) (d : Fin 512), va (ix3 bt j d) = (((P bt.val d.val).1 j.val : ℝ) : EReal))
  ∧ (∀ (bt : Fin 4) (j : Fin 2048) (d : Fin 512), vb (ix3 bt j d) = (((P bt.val d.val).2 j.val : ℝ) : EReal))

/-- One stride on both buffers is `scanStep s` on every column's pair. -/
theorem Holds.step {s m : ℕ}
    (hlo : SF.Slices ![0, 0, 0] ⟨3, ![4, s, 512]⟩) (h0 : SF.Slices ![0, 0, 0] ⟨3, ![4, m, 512]⟩)
    (hs : SF.Slices ![0, s, 0] ⟨3, ![4, m, 512]⟩)
    (hc : Shape.Concatenates [⟨3, ![4, s, 512]⟩, ⟨3, ![4, m, 512]⟩] SF 1)
    {a b : FVec Ideal SF .f32} {P : ℕ → ℕ → (ℕ → ℝ) × (ℕ → ℝ)} (h : Holds a b P) :
    Holds
      (concatenate SF 1 [⟨⟨3, ![4, s, 512]⟩, extractStridedSlice ⟨3, ![4, s, 512]⟩ ![0, 0, 0] a hlo⟩,
        ⟨⟨3, ![4, m, 512]⟩, mulf (extractStridedSlice ⟨3, ![4, m, 512]⟩ ![0, s, 0] a hs)
            (extractStridedSlice ⟨3, ![4, m, 512]⟩ ![0, 0, 0] a h0)⟩] hc)
      (concatenate SF 1 [⟨⟨3, ![4, s, 512]⟩, extractStridedSlice ⟨3, ![4, s, 512]⟩ ![0, 0, 0] b hlo⟩,
        ⟨⟨3, ![4, m, 512]⟩, addf (mulf (extractStridedSlice ⟨3, ![4, m, 512]⟩ ![0, s, 0] a hs)
            (extractStridedSlice ⟨3, ![4, m, 512]⟩ ![0, 0, 0] b h0))
          (extractStridedSlice ⟨3, ![4, m, 512]⟩ ![0, s, 0] b hs)⟩] hc)
      (fun bt d => scanStep s (P bt d)) :=
  ⟨fun bt j d => stepA_apply hlo h0 hs hc a P h.1 bt j d,
   fun bt j d => stepB_apply hlo h0 hs hc a b P h.1 h.2 bt j d⟩

end Cert.HNet

end
-- ==== Proof.RScanA.lean ====
import proofs.«109756_g14800457302192_cont_week2b_463_21_alg».proof.Proof.RDefs
import proofs.«109756_g14800457302192_cont_week2b_463_21_alg».proof.Proof.RScanStep
import Idealize.ShloMosaic.Lib.StableHlo.Run
import Idealize.ShloMosaic.Lib.ValueLayout

noncomputable section

/-! The scan's initial step and its strides 1, 2, 4, read back from their operations. -/

namespace Cert.HNet

open Idealize.ShloMosaic Idealize.ShloMosaic.TcCoe Idealize.ShloMosaic.ValueIdx Idealize.SL.Sem Cert.ReferenceIdeal Cert.ReferenceIdeal.Gen Idealize.ShloMosaic.StableHlo Cert.HNet.Ops

/-- These operations write none of the arguments, the probabilities, the mask and the validity mask, nor the coefficients' buffer. -/
theorem keepS0 (W : Valuation τ sig (Elt Ideal)) :
    after opsS0 W (main_arg0 : DevRef τ sig) = W (main_arg0 : DevRef τ sig)
    ∧ after opsS0 W (main_arg1 : DevRef τ sig) = W (main_arg1 : DevRef τ sig)
    ∧ after opsS0 W (main_arg2 : DevRef τ sig) = W (main_arg2 : DevRef τ sig)
    ∧ after opsS0 W (main_v31 : DevRef τ sig) = W (main_v31 : DevRef τ sig)
    ∧ after opsS0 W (main_v33 : DevRef τ sig) = W (main_v33 : DevRef τ sig)
    ∧ after opsS0 W (main_v46 : DevRef τ sig) = W (main_v46 : DevRef τ sig)
    ∧ after opsS0 W (main_v55 : DevRef τ sig) = W (main_v55 : DevRef τ sig) := by
  refine ⟨?_, ?_, ?_, ?_, ?_, ?_, ?_⟩ <;> after_results_simp

/-- The initial state's step: row `0` gets `b 0 + a 0 * 0`, the other rows are kept; on reals the offsets are unchanged. -/
theorem init (W : Valuation τ sig (Elt Ideal)) (A Bf : ℕ → ℕ → ℕ → ℝ)
    (hA : ∀ (b : Fin 4) (j : Fin 2048) (d : Fin 512),
      (W (main_v55 : DevRef τ sig) : Vec Ideal S4x2048x512 .f32) (ix3 b j d) = ((A b.val j.val d.val : ℝ) : EReal))
    (hB : ∀ (b : Fin 4) (j : Fin 2048) (d : Fin 512),
      (W (main_v60 : DevRef τ sig) : Vec Ideal S4x2048x512 .f32) (ix3 b j d) = ((Bf b.val j.val d.val : ℝ) : EReal))
    (hZ : ∀ (b : Fin 4) (d : Fin 512),
      (W (main_v53 : DevRef τ sig) : Vec Ideal S4x512 .f32) (ix2 b d) = ((0 : ℝ) : EReal)) :
    Holds (after opsS0 W (main_v55 : DevRef τ sig)) (after opsS0 W (main_v67 : DevRef τ sig))
      (fun b d => (fun i => A b i d, fun i => Bf b i d)) := by
  refine ⟨fun b j d => ?_, fun b j d => ?_⟩
  · rw [(keepS0 W).2.2.2.2.2.2]
    exact hA b j d
  · after_results
    by_cases hj : j.val < 1
    · rw [cat_lo _ _ concatenates_S4x1x512_S4x2047x512_S4x2048x512_d1 b j d hj, addf_apply, mulf_apply,
        slice3_axis1_apply 0 _ slices_S4x2048x512_S4x1x512_0_0_0 b ⟨j.val, hj⟩ d j (Nat.zero_add _).symm,
        slice3_axis1_apply 0 _ slices_S4x2048x512_S4x1x512_0_0_0 b ⟨j.val, hj⟩ d j (Nat.zero_add _).symm,
        broadcastInDim_apply _ bcast_S4x512_S4x1x512_0_2 _ _ (ix2 b d) (fun a => by
          match a with
          | ⟨0, _⟩ => rfl
          | ⟨1, _⟩ => rfl),
        hA, hB, hZ, ← EReal.coe_mul, ← EReal.coe_add, mul_zero, add_zero]
    · have hj' : 1 ≤ j.val := Nat.le_of_not_lt hj
      have hm : j.val - 1 < 2047 := by have := j.isLt; omega
      rw [cat_hi _ _ concatenates_S4x1x512_S4x2047x512_S4x2048x512_d1 b j d hj' hm,
        slice3_axis1_apply 1 _ slices_S4x2048x512_S4x2047x512_0_1_0 b ⟨j.val - 1, hm⟩ d j
          (by show j.val = 1 + (j.val - 1); omega), hB]

/-- These operations write none of the arguments, the probabilities, the mask and the validity mask. -/
theorem keepS1 (W : Valuation τ sig (Elt Ideal)) :
    after opsS1 W (main_arg0 : DevRef τ sig) = W (main_arg0 : DevRef τ sig)
    ∧ after opsS1 W (main_arg1 : DevRef τ sig) = W (main_arg1 : DevRef τ sig)
    ∧ after opsS1 W (main_arg2 : DevRef τ sig) = W (main_arg2 : DevRef τ sig)
    ∧ after opsS1 W (main_v31 : DevRef τ sig) = W (main_v31 : DevRef τ sig)
    ∧ after opsS1 W (main_v33 : DevRef τ sig) = W (main_v33 : DevRef τ sig)
    ∧ after opsS1 W (main_v46 : DevRef τ sig) = W (main_v46 : DevRef τ sig) := by
  refine ⟨?_, ?_, ?_, ?_, ?_, ?_⟩ <;> after_results_simp

/-- Stride 1: the twelve operations are one `scanStep 1` on every column. -/
theorem stride1 (W : Valuation τ sig (Elt Ideal)) (P : ℕ → ℕ → (ℕ → ℝ) × (ℕ → ℝ))
    (h : Holds (W (main_v55 : DevRef τ sig)) (W (main_v67 : DevRef τ sig)) P) :
    Holds (after opsS1 W (main_v79 : DevRef τ sig)) (after opsS1 W (main_v74 : DevRef τ sig))
      (fun bt d => scanStep 1 (P bt d)) := by
  after_results
  exact Holds.step slices_S4x2048x512_S4x1x512_0_0_0 slices_S4x2048x512_S4x2047x512_0_0_0
    slices_S4x2048x512_S4x2047x512_0_1_0 concatenates_S4x1x512_S4x2047x512_S4x2048x512_d1 h

/-- These operations write none of the arguments, the probabilities, the mask and the validity mask. -/
theorem keepS2 (W : Valuation τ sig (Elt Ideal)) :
    after opsS2 W (main_arg0 : DevRef τ sig) = W (main_arg0 : DevRef τ sig)
    ∧ after opsS2 W (main_arg1 : DevRef τ sig) = W (main_arg1 : DevRef τ sig)
    ∧ after opsS2 W (main_arg2 : DevRef τ sig) = W (main_arg2 : DevRef τ sig)
    ∧ after opsS2 W (main_v31 : DevRef τ sig) = W (main_v31 : DevRef τ sig)
    ∧ after opsS2 W (main_v33 : DevRef τ sig) = W (main_v33 : DevRef τ sig)
    ∧ after opsS2 W (main_v46 : DevRef τ sig) = W (main_v46 : DevRef τ sig) := by
  refine ⟨?_, ?_, ?_, ?_, ?_, ?_⟩ <;> after_results_simp

/-- Stride 2: the twelve operations are one `scanStep 2` on every column. -/
theorem stride2 (W : Valuation τ sig (Elt Ideal)) (P : ℕ → ℕ → (ℕ → ℝ) × (ℕ → ℝ))
    (h : Holds (W (main_v79 : DevRef τ sig)) (W (main_v74 : DevRef τ sig)) P) :
    Holds (after opsS2 W (main_v91 : DevRef τ sig)) (after opsS2 W (main_v86 : DevRef τ sig))
      (fun bt d => scanStep 2 (P bt d)) := by
  after_results
  exact Holds.step slices_S4x2048x512_S4x2x512_0_0_0 slices_S4x2048x512_S4x2046x512_0_0_0
    slices_S4x2048x512_S4x2046x512_0_2_0 concatenates_S4x2x512_S4x2046x512_S4x2048x512_d1 h

/-- These operations write none of the arguments, the probabilities, the mask and the validity mask. -/
theorem keepS3 (W : Valuation τ sig (Elt Ideal)) :
    after opsS3b (after opsS3a W) (main_arg0 : DevRef τ sig) = W (main_arg0 : DevRef τ sig)
    ∧ after opsS3b (after opsS3a W) (main_arg1 : DevRef τ sig) = W (main_arg1 : DevRef τ sig)
    ∧ after opsS3b (after opsS3a W) (main_arg2 : DevRef τ sig) = W (main_arg2 : DevRef τ sig)
    ∧ after opsS3b (after opsS3a W) (main_v31 : DevRef τ sig) = W (main_v31 : DevRef τ sig)
    ∧ after opsS3b (after opsS3a W) (main_v33 : DevRef τ sig) = W (main_v33 : DevRef τ sig)
    ∧ after opsS3b (after opsS3a W) (main_v46 : DevRef τ sig) = W (main_v46 : DevRef τ sig) := by
  refine ⟨?_, ?_, ?_, ?_, ?_, ?_⟩ <;> after_results_simp

/-- Stride 4: the twelve operations are one `scanStep 4` on every column. -/
theorem stride4 (W : Valuation τ sig (Elt Ideal)) (P : ℕ → ℕ → (ℕ → ℝ) × (ℕ → ℝ))
    (h : Holds (W (main_v91 : DevRef τ sig)) (W (main_v86 : DevRef τ sig)) P) :
    Holds (after opsS3b (after opsS3a W) (main_v103 : DevRef τ sig)) (after opsS3b (after opsS3a W) (main_v98 : DevRef τ sig))
      (fun bt d => scanStep 4 (P bt d)) := by
  after_results
  exact Holds.step slices_S4x2048x512_S4x4x512_0_0_0 slices_S4x2048x512_S4x2044x512_0_0_0
    slices_S4x2048x512_S4x2044x512_0_4_0 concatenates_S4x4x512_S4x2044x512_S4x2048x512_d1 h

end Cert.HNet

end
-- ==== Proof.RScanB.lean ====
import proofs.«109756_g14800457302192_cont_week2b_463_21_alg».proof.Proof.RDefs
import proofs.«109756_g14800457302192_cont_week2b_463_21_alg».proof.Proof.RScanStep
import Idealize.ShloMosaic.Lib.StableHlo.Run
import Idealize.ShloMosaic.Lib.ValueLayout

noncomputable section

/-! The scan's strides 8, 16, 32, 64, read back from their operations. -/

namespace Cert.HNet

open Idealize.ShloMosaic Idealize.ShloMosaic.TcCoe Idealize.ShloMosaic.ValueIdx Idealize.SL.Sem Cert.ReferenceIdeal Cert.ReferenceIdeal.Gen Idealize.ShloMosaic.StableHlo Cert.HNet.Ops

/-- These operations write none of the arguments, the probabilities, the mask and the validity mask. -/
theorem keepS4 (W : Valuation τ sig (Elt Ideal)) :
    after opsS4 W (main_arg0 : DevRef τ sig) = W (main_arg0 : DevRef τ sig)
    ∧ after opsS4 W (main_arg1 : DevRef τ sig) = W (main_arg1 : DevRef τ sig)
    ∧ after opsS4 W (main_arg2 : DevRef τ sig) = W (main_arg2 : DevRef τ sig)
    ∧ after opsS4 W (main_v31 : DevRef τ sig) = W (main_v31 : DevRef τ sig)
    ∧ after opsS4 W (main_v33 : DevRef τ sig) = W (main_v33 : DevRef τ sig)
    ∧ after opsS4 W (main_v46 : DevRef τ sig) = W (main_v46 : DevRef τ sig) := by
  refine ⟨?_, ?_, ?_, ?_, ?_, ?_⟩ <;> after_results_simp

/-- Stride 8: the twelve operations are one `scanStep 8` on every column. -/
theorem stride8 (W : Valuation τ sig (Elt Ideal)) (P : ℕ → ℕ → (ℕ → ℝ) × (ℕ → ℝ))
    (h : Holds (W (main_v103 : DevRef τ sig)) (W (main_v98 : DevRef τ sig)) P) :
    Holds (after opsS4 W (main_v115 : DevRef τ sig)) (after opsS4 W (main_v110 : DevRef τ sig))
      (fun bt d => scanStep 8 (P bt d)) := by
  after_results
  exact Holds.step slices_S4x2048x512_S4x8x512_0_0_0 slices_S4x2048x512_S4x2040x512_0_0_0
    slices_S4x2048x512_S4x2040x512_0_8_0 concatenates_S4x8x512_S4x2040x512_S4x2048x512_d1 h

/-- These operations write none of the arguments, the probabilities, the mask and the validity mask. -/
theorem keepS5 (W : Valuation τ sig (Elt Ideal)) :
    after opsS5 W (main_arg0 : DevRef τ sig) = W (main_arg0 : DevRef τ sig)
    ∧ after opsS5 W (main_arg1 : DevRef τ sig) = W (main_arg1 : DevRef τ sig)
    ∧ after opsS5 W (main_arg2 : DevRef τ sig) = W (main_arg2 : DevRef τ sig)
    ∧ after opsS5 W (main_v31 : DevRef τ sig) = W (main_v31 : DevRef τ sig)
    ∧ after opsS5 W (main_v33 : DevRef τ sig) = W (main_v33 : DevRef τ sig)
    ∧ after opsS5 W (main_v46 : DevRef τ sig) = W (main_v46 : DevRef τ sig) := by
  refine ⟨?_, ?_, ?_, ?_, ?_, ?_⟩ <;> after_results_simp

/-- Stride 16: the twelve operations are one `scanStep 16` on every column. -/
theorem stride16 (W : Valuation τ sig (Elt Ideal)) (P : ℕ → ℕ → (ℕ → ℝ) × (ℕ → ℝ))
    (h : Holds (W (main_v115 : DevRef τ sig)) (W (main_v110 : DevRef τ sig)) P) :
    Holds (after opsS5 W (main_v127 : DevRef τ sig)) (after opsS5 W (main_v122 : DevRef τ sig))
      (fun bt d => scanStep 16 (P bt d)) := by
  after_results
  exact Holds.step slices_S4x2048x512_S4x16x512_0_0_0 slices_S4x2048x512_S4x2032x512_0_0_0
    slices_S4x2048x512_S4x2032x512_0_16_0 concatenates_S4x16x512_S4x2032x512_S4x2048x512_d1 h

/-- These operations write none of the arguments, the probabilities, the mask and the validity mask. -/
theorem keepS6 (W : Valuation τ sig (Elt Ideal)) :
    after opsS6 W (main_arg0 : DevRef τ sig) = W (main_arg0 : DevRef τ sig)
    ∧ after opsS6 W (main_arg1 : DevRef τ sig) = W (main_arg1 : DevRef τ sig)
    ∧ after opsS6 W (main_arg2 : DevRef τ sig) = W (main_arg2 : DevRef τ sig)
    ∧ after opsS6 W (main_v31 : DevRef τ sig) = W (main_v31 : DevRef τ sig)
    ∧ after opsS6 W (main_v33 : DevRef τ sig) = W (main_v33 : DevRef τ sig)
    ∧ after opsS6 W (main_v46 : DevRef τ sig) = W (main_v46 : DevRef τ sig) := by
  refine ⟨?_, ?_, ?_, ?_, ?_, ?_⟩ <;> after_results_simp

/-- Stride 32: the twelve operations are one `scanStep 32` on every column. -/
theorem stride32 (W : Valuation τ sig (Elt Ideal)) (P : ℕ → ℕ → (ℕ → ℝ) × (ℕ → ℝ))
    (h : Holds (W (main_v127 : DevRef τ sig)) (W (main_v122 : DevRef τ sig)) P) :
    Holds (after opsS6 W (main_v139 : DevRef τ sig)) (after opsS6 W (main_v134 : DevRef τ sig))
      (fun bt d => scanStep 32 (P bt d)) := by
  after_results
  exact Holds.step slices_S4x2048x512_S4x32x512_0_0_0 slices_S4x2048x512_S4x2016x512_0_0_0
    slices_S4x2048x512_S4x2016x512_0_32_0 concatenates_S4x32x512_S4x2016x512_S4x2048x512_d1 h

/-- These operations write none of the arguments, the probabilities, the mask and the validity mask. -/
theorem keepS7 (W : Valuation τ sig (Elt Ideal)) :
    after opsS7 W (main_arg0 : DevRef τ sig) = W (main_arg0 : DevRef τ sig)
    ∧ after opsS7 W (main_arg1 : DevRef τ sig) = W (main_arg1 : DevRef τ sig)
    ∧ after opsS7 W (main_arg2 : DevRef τ sig) = W (main_arg2 : DevRef τ sig)
    ∧ after opsS7 W (main_v31 : DevRef τ sig) = W (main_v31 : DevRef τ sig)
    ∧ after opsS7 W (main_v33 : DevRef τ sig) = W (main_v33 : DevRef τ sig)
    ∧ after opsS7 W (main_v46 : DevRef τ sig) = W (main_v46 : DevRef τ sig) := by
  refine ⟨?_, ?_, ?_, ?_, ?_, ?_⟩ <;> after_results_simp

/-- Stride 64: the twelve operations are one `scanStep 64` on every column. -/
theorem stride64 (W : Valuation τ sig (Elt Ideal)) (P : ℕ → ℕ → (ℕ → ℝ) × (ℕ → ℝ))
    (h : Holds (W (main_v139 : DevRef τ sig)) (W (main_v134 : DevRef τ sig)) P) :
    Holds (after opsS7 W (main_v151 : DevRef τ sig)) (after opsS7 W (main_v146 : DevRef τ sig))
      (fun bt d => scanStep 64 (P bt d)) := by
  after_results
  exact Holds.step slices_S4x2048x512_S4x64x512_0_0_0 slices_S4x2048x512_S4x1984x512_0_0_0
    slices_S4x2048x512_S4x1984x512_0_64_0 concatenates_S4x64x512_S4x1984x512_S4x2048x512_d1 h

end Cert.HNet

end
-- ==== Proof.RScanC.lean ====
import proofs.«109756_g14800457302192_cont_week2b_463_21_alg».proof.Proof.RDefs
import proofs.«109756_g14800457302192_cont_week2b_463_21_alg».proof.Proof.RScanStep
import Idealize.ShloMosaic.Lib.StableHlo.Run
import Idealize.ShloMosaic.Lib.ValueLayout

noncomputable section

/-! The scan's strides 128, 256, 512, 1024, read back from their operations. -/

namespace Cert.HNet

open Idealize.ShloMosaic Idealize.ShloMosaic.TcCoe Idealize.ShloMosaic.ValueIdx Idealize.SL.Sem Cert.ReferenceIdeal Cert.ReferenceIdeal.Gen Idealize.ShloMosaic.StableHlo Cert.HNet.Ops

/-- These operations write none of the arguments, the probabilities, the mask and the validity mask. -/
theorem keepS8 (W : Valuation τ sig (Elt Ideal)) :
    after opsS8b (after opsS8a W) (main_arg0 : DevRef τ sig) = W (main_arg0 : DevRef τ sig)
    ∧ after opsS8b (after opsS8a W) (main_arg1 : DevRef τ sig) = W (main_arg1 : DevRef τ sig)
    ∧ after opsS8b (after opsS8a W) (main_arg2 : DevRef τ sig) = W (main_arg2 : DevRef τ sig)
    ∧ after opsS8b (after opsS8a W) (main_v31 : DevRef τ sig) = W (main_v31 : DevRef τ sig)
    ∧ after opsS8b (after opsS8a W) (main_v33 : DevRef τ sig) = W (main_v33 : DevRef τ sig)
    ∧ after opsS8b (after opsS8a W) (main_v46 : DevRef τ sig) = W (main_v46 : DevRef τ sig) := by
  refine ⟨?_, ?_, ?_, ?_, ?_, ?_⟩ <;> after_results_simp

/-- Stride 128: the twelve operations are one `scanStep 128` on every column. -/
theorem stride128 (W : Valuation τ sig (Elt Ideal)) (P : ℕ → ℕ → (ℕ → ℝ) × (ℕ → ℝ))
    (h : Holds (W (main_v151 : DevRef τ sig)) (W (main_v146 : DevRef τ sig)) P) :
    Holds (after opsS8b (after opsS8a W) (main_v163 : DevRef τ sig)) (after opsS8b (after opsS8a W) (main_v158 : DevRef τ sig))
      (fun bt d => scanStep 128 (P bt d)) := by
  after_results
  exact Holds.step slices_S4x2048x512_S4x128x512_0_0_0 slices_S4x2048x512_S4x1920x512_0_0_0
    slices_S4x2048x512_S4x1920x512_0_128_0 concatenates_S4x128x512_S4x1920x512_S4x2048x512_d1 h

/-- These operations write none of the arguments, the probabilities, the mask and the validity mask. -/
theorem keepS9 (W : Valuation τ sig (Elt Ideal)) :
    after opsS9 W (main_arg0 : DevRef τ sig) = W (main_arg0 : DevRef τ sig)
    ∧ after opsS9 W (main_arg1 : DevRef τ sig) = W (main_arg1 : DevRef τ sig)
    ∧ after opsS9 W (main_arg2 : DevRef τ sig) = W (main_arg2 : DevRef τ sig)
    ∧ after opsS9 W (main_v31 : DevRef τ sig) = W (main_v31 : DevRef τ sig)
    ∧ after opsS9 W (main_v33 : DevRef τ sig) = W (main_v33 : DevRef τ sig)
    ∧ after opsS9 W (main_v46 : DevRef τ sig) = W (main_v46 : DevRef τ sig) := by
  refine ⟨?_, ?_, ?_, ?_, ?_, ?_⟩ <;> after_results_simp

/-- Stride 256: the twelve operations are one `scanStep 256` on every column. -/
theorem stride256 (W : Valuation τ sig (Elt Ideal)) (P : ℕ → ℕ → (ℕ → ℝ) × (ℕ → ℝ))
    (h : Holds (W (main_v163 : DevRef τ sig)) (W (main_v158 : DevRef τ sig)) P) :
    Holds (after opsS9 W (main_v175 : DevRef τ sig)) (after opsS9 W (main_v170 : DevRef τ sig))
      (fun bt d => scanStep 256 (P bt d)) := by
  after_results
  exact Holds.step slices_S4x2048x512_S4x256x512_0_0_0 slices_S4x2048x512_S4x1792x512_0_0_0
    slices_S4x2048x512_S4x1792x512_0_256_0 concatenates_S4x256x512_S4x1792x512_S4x2048x512_d1 h

/-- These operations write none of the arguments, the probabilities, the mask and the validity mask. -/
theorem keepS10 (W : Valuation τ sig (Elt Ideal)) :
    after opsS10 W (main_arg0 : DevRef τ sig) = W (main_arg0 : DevRef τ sig)
    ∧ after opsS10 W (main_arg1 : DevRef τ sig) = W (main_arg1 : DevRef τ sig)
    ∧ after opsS10 W (main_arg2 : DevRef τ sig) = W (main_arg2 : DevRef τ sig)
    ∧ after opsS10 W (main_v31 : DevRef τ sig) = W (main_v31 : DevRef τ sig)
    ∧ after opsS10 W (main_v33 : DevRef τ sig) = W (main_v33 : DevRef τ sig)
    ∧ after opsS10 W (main_v46 : DevRef τ sig) = W (main_v46 : DevRef τ sig) := by
  refine ⟨?_, ?_, ?_, ?_, ?_, ?_⟩ <;> after_results_simp

/-- Stride 512: the twelve operations are one `scanStep 512` on every column. -/
theorem stride512 (W : Valuation τ sig (Elt Ideal)) (P : ℕ → ℕ → (ℕ → ℝ) × (ℕ → ℝ))
    (h : Holds (W (main_v175 : DevRef τ sig)) (W (main_v170 : DevRef τ sig)) P) :
    Holds (after opsS10 W (main_v187 : DevRef τ sig)) (after opsS10 W (main_v182 : DevRef τ sig))
      (fun bt d => scanStep 512 (P bt d)) := by
  after_results
  exact Holds.step slices_S4x2048x512_S4x512x512_0_0_0 slices_S4x2048x512_S4x1536x512_0_0_0
    slices_S4x2048x512_S4x1536x512_0_512_0 concatenates_S4x512x512_S4x1536x512_S4x2048x512_d1 h

/-- These operations write none of the arguments, the probabilities, the mask and the validity mask. -/
theorem keepS11 (W : Valuation τ sig (Elt Ideal)) :
    after opsS11 W (main_arg0 : DevRef τ sig) = W (main_arg0 : DevRef τ sig)
    ∧ after opsS11 W (main_arg1 : DevRef τ sig) = W (main_arg1 : DevRef τ sig)
    ∧ after opsS11 W (main_arg2 : DevRef τ sig) = W (main_arg2 : DevRef τ sig)
    ∧ after opsS11 W (main_v31 : DevRef τ sig) = W (main_v31 : DevRef τ sig)
    ∧ after opsS11 W (main_v33 : DevRef τ sig) = W (main_v33 : DevRef τ sig)
    ∧ after opsS11 W (main_v46 : DevRef τ sig) = W (main_v46 : DevRef τ sig) := by
  refine ⟨?_, ?_, ?_, ?_, ?_, ?_⟩ <;> after_results_simp

/-- Stride 1024: the twelve operations are one `scanStep 1024` on every column. -/
theorem stride1024 (W : Valuation τ sig (Elt Ideal)) (P : ℕ → ℕ → (ℕ → ℝ) × (ℕ → ℝ))
    (h : Holds (W (main_v187 : DevRef τ sig)) (W (main_v182 : DevRef τ sig)) P) :
    Holds (after opsS11 W (main_v199 : DevRef τ sig)) (after opsS11 W (main_v194 : DevRef τ sig))
      (fun bt d => scanStep 1024 (P bt d)) := by
  after_results
  exact Holds.step slices_S4x2048x512_S4x1024x512_0_0_0 slices_S4x2048x512_S4x1024x512_0_0_0
    slices_S4x2048x512_S4x1024x512_0_1024_0 concatenates_S4x1024x512_S4x1024x512_S4x2048x512_d1 h

end Cert.HNet

end
-- ==== Proof.RScan.lean ====
import proofs.«109756_g14800457302192_cont_week2b_463_21_alg».proof.Proof.RDefs
import proofs.«109756_g14800457302192_cont_week2b_463_21_alg».proof.Proof.RScanStep
import proofs.«109756_g14800457302192_cont_week2b_463_21_alg».proof.Proof.RScanA
import proofs.«109756_g14800457302192_cont_week2b_463_21_alg».proof.Proof.RScanB
import proofs.«109756_g14800457302192_cont_week2b_463_21_alg».proof.Proof.RScanC
import Idealize.ShloMosaic.Lib.StableHlo.Run
import Idealize.ShloMosaic.Lib.Pipeline.Frame

noncomputable section

/-! The doubling scan's 139 operations compute the specification's `scanIter 11`, column by column. -/

namespace Cert.HNet

open Idealize.ShloMosaic Idealize.ShloMosaic.TcCoe Idealize.ShloMosaic.ValueIdx Idealize.SL.Sem Cert.ReferenceIdeal Cert.ReferenceIdeal.Gen Idealize.ShloMosaic.StableHlo Cert.HNet.Ops

/-- The scan's lists run one after the other. -/
theorem after_opsS (W : Valuation τ sig (Elt Ideal)) :
    after opsS W = after opsS11 (after opsS10 (after opsS9 (after opsS8b (after opsS8a (after opsS7 (after opsS6
      (after opsS5 (after opsS4 (after opsS3b (after opsS3a (after opsS2 (after opsS1 (after opsS0 W))))))))))))) := by
  simp only [opsS, StableHlo.after_append]

/-- Eleven rounds are the strides `1, 2, 4, …, 1024` in turn. -/
theorem scanIter_eleven (ab : (ℕ → ℝ) × (ℕ → ℝ)) :
    scanIter 11 ab = scanStep 1024 (scanStep 512 (scanStep 256 (scanStep 128 (scanStep 64 (scanStep 32
      (scanStep 16 (scanStep 8 (scanStep 4 (scanStep 2 (scanStep 1 ab)))))))))) := rfl

/-- From coefficients `A` and offsets `Bf` in the two scan buffers, and zeros in the initial state's buffer: the eleven
    strides leave `scanIter 11`'s second component. -/
theorem scan_value (W : Valuation τ sig (Elt Ideal)) (A Bf : ℕ → ℕ → ℕ → ℝ)
    (hA : ∀ (b : Fin 4) (j : Fin 2048) (d : Fin 512),
      (W (main_v55 : DevRef τ sig) : Vec Ideal S4x2048x512 .f32) (ix3 b j d) = ((A b.val j.val d.val : ℝ) : EReal))
    (hB : ∀ (b : Fin 4) (j : Fin 2048) (d : Fin 512),
      (W (main_v60 : DevRef τ sig) : Vec Ideal S4x2048x512 .f32) (ix3 b j d) = ((Bf b.val j.val d.val : ℝ) : EReal))
    (hZ : ∀ (b : Fin 4) (d : Fin 512),
      (W (main_v53 : DevRef τ sig) : Vec Ideal S4x512 .f32) (ix2 b d) = ((0 : ℝ) : EReal))
    (b : Fin 4) (j : Fin 2048) (d : Fin 512) :
    (after opsS W (main_v194 : DevRef τ sig) : Vec Ideal S4x2048x512 .f32) (ix3 b j d)
      = (((scanIter 11 (fun i => A b.val i d.val, fun i => Bf b.val i d.val)).2 j.val : ℝ) : EReal) := by
  have h0 := init W A Bf hA hB hZ
  have h1 := stride1 _ _ h0
  have h2 := stride2 _ _ h1
  have h3 := stride4 _ _ h2
  have h4 := stride8 _ _ h3
  have h5 := stride16 _ _ h4
  have h6 := stride32 _ _ h5
  have h7 := stride64 _ _ h6
  have h8 := stride128 _ _ h7
  have h9 := stride256 _ _ h8
  have h10 := stride512 _ _ h9
  have h11 := stride1024 _ _ h10
  rw [after_opsS, scanIter_eleven]
  exact h11.2 b j d

/-- The scan's operations leave the arguments, the probabilities, the mask and the validity mask alone. -/
theorem scan_frame (W : Valuation τ sig (Elt Ideal)) :
    after opsS W (main_arg0 : DevRef τ sig) = W (main_arg0 : DevRef τ sig)
    ∧ after opsS W (main_arg1 : DevRef τ sig) = W (main_arg1 : DevRef τ sig)
    ∧ after opsS W (main_arg2 : DevRef τ sig) = W (main_arg2 : DevRef τ sig)
    ∧ after opsS W (main_v31 : DevRef τ sig) = W (main_v31 : DevRef τ sig)
    ∧ after opsS W (main_v33 : DevRef τ sig) = W (main_v33 : DevRef τ sig)
    ∧ after opsS W (main_v46 : DevRef τ sig) = W (main_v46 : DevRef τ sig) := by
  rw [after_opsS]
  refine ⟨?_, ?_, ?_, ?_, ?_, ?_⟩
  · rw [(keepS11 _).1, (keepS10 _).1, (keepS9 _).1, (keepS8 _).1, (keepS7 _).1, (keepS6 _).1, (keepS5 _).1, (keepS4 _).1, (keepS3 _).1, (keepS2 _).1, (keepS1 _).1, (keepS0 _).1]
  · rw [(keepS11 _).2.1, (keepS10 _).2.1, (keepS9 _).2.1, (keepS8 _).2.1, (keepS7 _).2.1, (keepS6 _).2.1, (keepS5 _).2.1, (keepS4 _).2.1, (keepS3 _).2.1, (keepS2 _).2.1, (keepS1 _).2.1, (keepS0 _).2.1]
  · rw [(keepS11 _).2.2.1, (keepS10 _).2.2.1, (keepS9 _).2.2.1, (keepS8 _).2.2.1, (keepS7 _).2.2.1, (keepS6 _).2.2.1, (keepS5 _).2.2.1, (keepS4 _).2.2.1, (keepS3 _).2.2.1, (keepS2 _).2.2.1, (keepS1 _).2.2.1, (keepS0 _).2.2.1]
  · rw [(keepS11 _).2.2.2.1, (keepS10 _).2.2.2.1, (keepS9 _).2.2.2.1, (keepS8 _).2.2.2.1, (keepS7 _).2.2.2.1, (keepS6 _).2.2.2.1, (keepS5 _).2.2.2.1, (keepS4 _).2.2.2.1, (keepS3 _).2.2.2.1, (keepS2 _).2.2.2.1, (keepS1 _).2.2.2.1, (keepS0 _).2.2.2.1]
  · rw [(keepS11 _).2.2.2.2.1, (keepS10 _).2.2.2.2.1, (keepS9 _).2.2.2.2.1, (keepS8 _).2.2.2.2.1, (keepS7 _).2.2.2.2.1, (keepS6 _).2.2.2.2.1, (keepS5 _).2.2.2.2.1, (keepS4 _).2.2.2.2.1, (keepS3 _).2.2.2.2.1, (keepS2 _).2.2.2.2.1, (keepS1 _).2.2.2.2.1, (keepS0 _).2.2.2.2.1]
  · rw [(keepS11 _).2.2.2.2.2, (keepS10 _).2.2.2.2.2, (keepS9 _).2.2.2.2.2, (keepS8 _).2.2.2.2.2, (keepS7 _).2.2.2.2.2, (keepS6 _).2.2.2.2.2, (keepS5 _).2.2.2.2.2, (keepS4 _).2.2.2.2.2, (keepS3 _).2.2.2.2.2, (keepS2 _).2.2.2.2.2, (keepS1 _).2.2.2.2.2, (keepS0 _).2.2.2.2.2.1]

end Cert.HNet

end
-- ==== Proof.RTail.lean ====
import proofs.«109756_g14800457302192_cont_week2b_463_21_alg».proof.Proof.RDefs
import proofs.«109756_g14800457302192_cont_week2b_463_21_alg».proof.Proof.RCompact
import proofs.«109756_g14800457302192_cont_week2b_463_21_alg».proof.Proof.RGather
import proofs.«109756_g14800457302192_cont_week2b_463_21_alg».proof.Proof.Words
import Idealize.ShloMosaic.Lib.StableHlo.Run
import Idealize.ShloMosaic.Lib.StableHlo.Predicate
import Idealize.ShloMosaic.Lib.Pipeline.Frame

noncomputable section

/-! The gather back: the running count of boundaries selects the compacted state, and the residual is added.

Row 0 is a boundary, so the count `c` of boundaries among the rows `0, …, l` satisfies `1 ≤ c ≤ l + 1 ≤ 2048`: the
rank `c - 1` is a word in `[0, 2047]`, the clamp leaves it, its sign bit is set, and it lies below the number of
boundaries of the whole row, where the validity bit is one. The straight-through factor is `1 + (m - m) = 1` for the
real `m = max (1 - p) p`. -/

namespace Cert.HNet

open Idealize.ShloMosaic Idealize.ShloMosaic.TcCoe Idealize.ShloMosaic.ValueIdx Idealize.SL.Sem Cert.ReferenceIdeal Cert.ReferenceIdeal.Gen Idealize.ShloMosaic.StableHlo Cert.HNet.Ops

/-! ## The prefix sum of a table of zeros and ones -/

/-- A left fold that adds, at each step, the word of a natural number is the word of the sum. -/
theorem foldl_add_ofNat {ι : Type} (f : BitVec 32 → ι → BitVec 32) (g : ι → ℕ)
    (hf : ∀ r n, f r n = r + BitVec.ofNat 32 (g n)) (L : List ι) (a : ℕ) :
    L.foldl f (BitVec.ofNat 32 a) = BitVec.ofNat 32 (a + (L.map g).sum) := by
  induction L generalizing a with
  | nil => simp
  | cons n L ih =>
    rw [List.foldl_cons, hf, ← BitVec.ofNat_add, ih, List.map_cons, List.sum_cons, Nat.add_assoc]

/-- A window of `N + 1` positions ending at row `l ≤ N` of a row padded by `N` places on the left meets exactly
    the rows `0, …, l`: counting the window's positions that fall on a row satisfying `p` counts those rows. -/
theorem window_count (p : ℕ → Prop) [DecidablePred p] (N l : ℕ) (hl : l ≤ N) :
    ∑ c ∈ Finset.range (N + 1), (if N ≤ l + c ∧ p (l + c - N) then 1 else 0)
      = ((Finset.range (l + 1)).filter p).card := by
  rw [Finset.card_filter]
  have hN : N + 1 = (N - l) + (l + 1) := by omega
  rw [hN, Finset.sum_range_add, Finset.sum_eq_zero, Nat.zero_add]
  · refine Finset.sum_congr rfl fun k _ => ?_
    have h1 : N ≤ l + (N - l + k) := by omega
    have h2 : l + (N - l + k) - N = k := by omega
    rw [h2]
    simp only [h1, true_and]
  · intro c hc
    have hc' := Finset.mem_range.mp hc
    exact if_neg fun h => by have := h.1; omega

/-- The inclusive prefix sum along a row of a table of zeros and ones counts the ones up to and including the position. -/
theorem cumsum_read (x : IVec S4x2048 32) (v : IVec S_ 32) (P : ℕ → ℕ → ℝ)
    (hx : ∀ (b : Fin 4) (l : Fin 2048), x (ix2 b l) = if 1 / 2 < P b.val l.val then 1#32 else 0#32)
    (hv : ∀ i, v i = 0#32) (b : Fin 4) (l : Fin 2048) :
    Host.reduceWindow IntOp.addi ![1, 2048] ![1, 1] ![0, 2047] ![0, 0] x v
        reduceWindows_S4x2048_S4x2048_w1s1p0_0_w2048s1p2047_0 h_S_ (ix2 b l)
      = BitVec.ofNat 32 (cnt (P b.val) (l.val + 1)) := by
  have h0 : v (Shape.Idx.first h_S_) = BitVec.ofNat 32 0 := hv _
  unfold Host.reduceWindow
  dsimp only
  rw [h0]
  -- the window's positions, and what each of them adds
  let W : Shape := ⟨2, ![1, 2048]⟩
  let g : Fin W.numel → ℕ := fun n =>
    if 2047 ≤ l.val + (W.rowMajor.symm n 1).val ∧ 1 / 2 < P b.val (l.val + (W.rowMajor.symm n 1).val - 2047)
      then 1 else 0
  rw [foldl_add_ofNat _ g ?hf]
  case hf =>
    intro r n
    have hi0 : (W.rowMajor.symm n 0).val = 0 := by
      have h' : (W.rowMajor.symm n 0).val < 1 := (W.rowMajor.symm n 0).isLt
      omega
    have hc : (W.rowMajor.symm n 1).val < 2048 := (W.rowMajor.symm n 1).isLt
    have hl : l.val < 2048 := l.isLt
    have hb : b.val < 4 := b.isLt
    -- the table read at an index with the coordinates `b` and `l + c - 2047`
    have hread : ∀ (j : S4x2048.Idx) (k : ℕ), k < 2048 → (j 0).val = b.val → (j 1).val = k →
        x j = if 1 / 2 < P b.val k then 1#32 else 0#32 := by
      intro j k hk hj0 hj1
      have hj : j = ix2 b ⟨k, hk⟩ := by
        funext a
        match a with
        | ⟨0, _⟩ => exact Fin.ext hj0
        | ⟨1, _⟩ => exact Fin.ext hj1
      rw [hj, hx]
    show IntOp.addi r _ = r + BitVec.ofNat 32 (if 2047 ≤ l.val + (W.rowMajor.symm n 1).val ∧ 1 / 2 < P b.val (l.val + (W.rowMajor.symm n 1).val - 2047)
      then 1 else 0)
    generalize hcdef : (W.rowMajor.symm n 1).val = c at hc
    split_ifs with hin hq hq
    · have h1 : 2047 ≤ l.val * 1 + (W.rowMajor.symm n 1).val := (hin 1).1
      rw [hcdef] at h1
      rw [hread _ (l.val + c - 2047) (by omega)
        (by show b.val * 1 + (W.rowMajor.symm n 0).val - 0 = b.val; omega)
        (by show l.val * 1 + (W.rowMajor.symm n 1).val - 2047 = l.val + c - 2047; rw [hcdef]; omega),
        if_pos hq.2]
      rfl
    · have h1 : 2047 ≤ l.val * 1 + (W.rowMajor.symm n 1).val := (hin 1).1
      rw [hcdef] at h1
      rw [hread _ (l.val + c - 2047) (by omega)
        (by show b.val * 1 + (W.rowMajor.symm n 0).val - 0 = b.val; omega)
        (by show l.val * 1 + (W.rowMajor.symm n 1).val - 2047 = l.val + c - 2047; rw [hcdef]; omega),
        if_neg fun hp => hq ⟨by omega, hp⟩]
      rfl
    · exfalso
      apply hin
      intro a
      match a with
      | ⟨0, _⟩ =>
        show 0 ≤ b.val * 1 + (W.rowMajor.symm n 0).val ∧ b.val * 1 + (W.rowMajor.symm n 0).val - 0 < 4
        omega
      | ⟨1, _⟩ =>
        show 2047 ≤ l.val * 1 + (W.rowMajor.symm n 1).val ∧ l.val * 1 + (W.rowMajor.symm n 1).val - 2047 < 2048
        rw [hcdef]
        have := hq.1
        omega
    · rfl
  refine congrArg (BitVec.ofNat 32) ?_
  rw [Nat.zero_add, ← Fin.sum_univ_def]
  -- a window position is a pair (0, c): sum over the pairs instead of their row-major numbers
  rw [← Equiv.sum_comp W.rowMajor g, sum_idx2, Fin.sum_univ_one]
  simp only [g, Equiv.symm_apply_apply]
  show (∑ c : Fin 2048, if 2047 ≤ l.val + c.val ∧ 1 / 2 < P b.val (l.val + c.val - 2047) then 1 else 0) = _
  rw [Fin.sum_univ_eq_sum_range (fun c => if 2047 ≤ l.val + c ∧ 1 / 2 < P b.val (l.val + c - 2047) then 1 else 0) 2048]
  -- the window ending at row `l` meets the rows `0, …, l`
  exact window_count (fun k => 1 / 2 < P b.val k) 2047 l.val (by have := l.isLt; omega)

/-! ## The operations as functions of the mask, the scan's result and the validity bits -/

/-- The running count of boundary rows along each batch row, as words. -/
def tCount (M : IVec S4x2048 1) : IVec S4x2048 32 :=
  Host.reduceWindow IntOp.addi ![1, 2048] ![1, 1] ![0, 2047] ![0, 0] (extui 32 M natLt_1_32)
    (broadcastInDim S_ ![] bcast_S_S_ (constantI S_ 32 0#32)) reduceWindows_S4x2048_S4x2048_w1s1p0_0_w2048s1p2047_0 h_S_

/-- The rank of the last boundary at or before each row: the count less one. -/
def tRank (M : IVec S4x2048 1) : IVec S4x2048 32 :=
  subi (tCount M) (broadcastInDim S4x2048 ![] bcast_S_S4x2048 (constantI S_ 32 1#32))

/-- The rank clamped into the rows. -/
def tClip (M : IVec S4x2048 1) : IVec S4x2048 32 :=
  minsi (broadcastInDim S4x2048 ![] bcast_S_S4x2048 (constantI S_ 32 2047#32))
    (maxsi (broadcastInDim S4x2048 ![] bcast_S_S4x2048 (constantI S_ 32 0#32)) (tRank M))

/-- Whether the rank is not negative. -/
def tSign (M : IVec S4x2048 1) : IVec S4x2048 1 :=
  cmpi .sge (tRank M) (broadcastInDim S4x2048 ![] bcast_S_S4x2048 (constantI S_ 32 0#32))

/-- A state scaled row by row by a bit: the scan's result by the validity bit, the gathered state by the rank's sign. -/
def tKeep (T : FVec Ideal S4x2048x512 .f32) (s : IVec S4x2048 1) : FVec Ideal S4x2048x512 .f32 :=
  mulf (F := Ideal) T (broadcastInDim S4x2048x512 ![0, 1, 2] bcast_S4x2048x1_S4x2048x512_0_1_2
    (uitofp (F := Ideal) .f32 (broadcastInDim S4x2048x1 ![0, 1] bcast_S4x2048_S4x2048x1_0_1 s)))

/-- The residual: the rows plus the gathered state scaled by the straight-through factor. -/
def tOutH (X G : FVec Ideal S4x2048x512 .f32) (Q : FVec Ideal S4x2048 .f32) : FVec Ideal S4x2048x512 .f32 :=
  addf (F := Ideal) X (mulf (F := Ideal) G (broadcastInDim S4x2048x512 ![0, 1, 2] bcast_S4x2048x1_S4x2048x512_0_1_2
    (broadcastInDim S4x2048x1 ![0, 1] bcast_S4x2048_S4x2048x1_0_1
      (addf (F := Ideal) (broadcastInDim S4x2048 ![] bcast_S_S4x2048 (constant (F := Ideal) S_ .f32 0x3F800000#32))
        (subf (F := Ideal)
          (maximumf (F := Ideal) (subf (F := Ideal) (broadcastInDim S4x2048 ![] bcast_S_S4x2048 (constant (F := Ideal) S_ .f32 0x3F800000#32)) Q) Q)
          (maximumf (F := Ideal) (subf (F := Ideal) (broadcastInDim S4x2048 ![] bcast_S_S4x2048 (constant (F := Ideal) S_ .f32 0x3F800000#32)) Q) Q))))))

/-! ## The lists read back -/

attribute [local irreducible] Host.reduce Host.reduceWindow Host.gather in
set_option maxRecDepth 8192 in
/-- The first twenty-two operations: the masked state, the clamped rank and the rank's sign. -/
theorem tail_read1 (W : Valuation τ sig (Elt Ideal)) :
    (after (List.take 22 opsG) W (main_v203 : DevRef τ sig) : FVec Ideal S4x2048x512 .f32)
        = tKeep (W (main_v194 : DevRef τ sig)) (W (main_v46 : DevRef τ sig))
    ∧ (after (List.take 22 opsG) W (main_v208 : DevRef τ sig) : IVec S4x2048 32) = tClip (W (main_v33 : DevRef τ sig))
    ∧ (after (List.take 22 opsG) W (main_v210 : DevRef τ sig) : IVec S4x2048 1) = tSign (W (main_v33 : DevRef τ sig)) := by
  simp only [opsG, List.take_succ_cons, List.take_zero]
  refine ⟨?_, ?_, ?_⟩
  · after_results_simp
    rfl
  · after_results_simp
    rfl
  · after_results_simp
    rfl

attribute [local irreducible] Host.reduce Host.reduceWindow Host.gather in
set_option maxRecDepth 8192 in
/-- The remaining operations: the gather along the clamped rank and the sign's factor. -/
theorem tail_read2 (V : Valuation τ sig (Elt Ideal)) :
    (after (List.drop 22 opsG) V (main_v216 : DevRef τ sig) : FVec Ideal S4x2048x512 .f32)
      = tKeep (T40 (V (main_v203 : DevRef τ sig)) (V (main_v208 : DevRef τ sig))) (V (main_v210 : DevRef τ sig)) := by
  simp only [opsG, List.drop_succ_cons, List.drop_zero]
  after_results_simp
  rfl

/-- The gather back as one term of the mask, the scan's result and the validity bits. -/
theorem tail_readG (W : Valuation τ sig (Elt Ideal)) :
    (after opsG W (main_v216 : DevRef τ sig) : FVec Ideal S4x2048x512 .f32)
      = tKeep (T40 (tKeep (W (main_v194 : DevRef τ sig)) (W (main_v46 : DevRef τ sig))) (tClip (W (main_v33 : DevRef τ sig))))
          (tSign (W (main_v33 : DevRef τ sig))) := by
  obtain ⟨h203, h208, h210⟩ := tail_read1 W
  have hsplit : (opsG : List (HloOp τ sig (Elt Ideal))) = List.take 22 opsG ++ List.drop 22 opsG :=
    (List.take_append_drop 22 _).symm
  rw [hsplit, StableHlo.after_append, tail_read2, h203, h208, h210]

set_option maxRecDepth 8192 in
theorem tail_readH (V : Valuation τ sig (Elt Ideal)) :
    (after opsH V (main_v226 : DevRef τ sig) : FVec Ideal S4x2048x512 .f32)
      = tOutH (V (main_arg0 : DevRef τ sig)) (V (main_v216 : DevRef τ sig)) (V (main_v31 : DevRef τ sig)) := by
  after_results_simp
  rfl

set_option maxRecDepth 8192 in
theorem tail_G_frame (W : Valuation τ sig (Elt Ideal)) :
    after opsG W (main_arg0 : DevRef τ sig) = W (main_arg0 : DevRef τ sig)
    ∧ after opsG W (main_arg1 : DevRef τ sig) = W (main_arg1 : DevRef τ sig)
    ∧ after opsG W (main_arg2 : DevRef τ sig) = W (main_arg2 : DevRef τ sig)
    ∧ after opsG W (main_v31 : DevRef τ sig) = W (main_v31 : DevRef τ sig) := by
  refine ⟨?_, ?_, ?_, ?_⟩ <;> after_results_simp

set_option maxRecDepth 8192 in
theorem tail_H_frame (V : Valuation τ sig (Elt Ideal)) :
    after opsH V (main_arg0 : DevRef τ sig) = V (main_arg0 : DevRef τ sig)
    ∧ after opsH V (main_arg1 : DevRef τ sig) = V (main_arg1 : DevRef τ sig)
    ∧ after opsH V (main_arg2 : DevRef τ sig) = V (main_arg2 : DevRef τ sig) := by
  refine ⟨?_, ?_, ?_⟩ <;> after_results_simp

/-! ## Words -/

/-- A number below 2³² reads back from its word. -/
theorem toNat_ofNat_small (n : ℕ) (hn : n < 2 ^ 32) : (BitVec.ofNat 32 n).toNat = n := by
  rw [BitVec.toNat_ofNat]
  exact Nat.mod_eq_of_lt hn

/-- Clamping a row's word into the rows leaves it. -/
theorem clip_word (n : ℕ) (hn : n ≤ 2047) :
    IntOp.minsi 2047#32 (IntOp.maxsi 0#32 (BitVec.ofNat 32 n)) = BitVec.ofNat 32 n := by
  have hi : (BitVec.ofNat 32 n).toInt = (n : ℤ) := Predicate.toInt_ofNat_small n (by omega)
  have h0 : (0#32 : BitVec 32).toInt = 0 := by decide
  have h2 : (2047#32 : BitVec 32).toInt = 2047 := by decide
  have hmax : IntOp.maxsi 0#32 (BitVec.ofNat 32 n) = BitVec.ofNat 32 n := by
    unfold IntOp.maxsi
    rw [if_neg]
    simp only [BitVec.slt, hi, h0, decide_eq_true_eq]
    omega
  rw [hmax]
  unfold IntOp.minsi
  rw [if_neg]
  simp only [BitVec.slt, hi, h2, decide_eq_true_eq]
  omega

/-- A row's word is not negative. -/
theorem sge_zero_word (n : ℕ) (hn : n ≤ 2047) : IntOp.cmpi .sge (BitVec.ofNat 32 n) 0#32 = 1#1 := by
  rw [Predicate.sge_iff_toNat (by rw [toNat_ofNat_small n (by omega)]; omega) (by decide)]
  exact Nat.zero_le _

/-! ## The operations read at an index -/

section Apply

variable (M : IVec S4x2048 1) (P : ℕ → ℕ → ℝ)
  (hM : ∀ (b : Fin 4) (l : Fin 2048), M (ix2 b l) = if 1 / 2 < P b.val l.val then 1#1 else 0#1)
  (hP0 : ∀ b : Fin 4, 1 / 2 < P b.val 0)

include hM in
/-- The running count at row `l` is the number of boundaries among the rows `0, …, l`. -/
theorem tCount_apply (b : Fin 4) (l : Fin 2048) : tCount M (ix2 b l) = BitVec.ofNat 32 (cnt (P b.val) (l.val + 1)) := by
  unfold tCount
  refine cumsum_read _ _ P (fun b l => ?_) (fun _ => rfl) b l
  show (M (ix2 b l)).setWidth 32 = _
  rw [hM]
  split <;> rfl

include hM hP0 in
theorem tRank_apply (b : Fin 4) (l : Fin 2048) :
    tRank M (ix2 b l) = BitVec.ofNat 32 (cnt (P b.val) (l.val + 1) - 1) := by
  have h1 : 1 ≤ cnt (P b.val) (l.val + 1) := cnt_pos (P b.val) (hP0 b) (Nat.succ_pos _)
  have h2 : cnt (P b.val) (l.val + 1) ≤ l.val + 1 := cnt_le _ _
  have hl := l.isLt
  show IntOp.subi (tCount M (ix2 b l)) 1#32 = _
  rw [tCount_apply M P hM]
  exact Predicate.sub_one_ofNat _ h1 (by omega)

include hM hP0 in
theorem tClip_apply (b : Fin 4) (l : Fin 2048) :
    tClip M (ix2 b l) = BitVec.ofNat 32 (cnt (P b.val) (l.val + 1) - 1) := by
  have h2 : cnt (P b.val) (l.val + 1) ≤ l.val + 1 := cnt_le _ _
  have hl := l.isLt
  show IntOp.minsi 2047#32 (IntOp.maxsi 0#32 (tRank M (ix2 b l))) = _
  rw [tRank_apply M P hM hP0]
  exact clip_word _ (by omega)

include hM hP0 in
theorem tSign_apply (b : Fin 4) (l : Fin 2048) : tSign M (ix2 b l) = 1#1 := by
  have h2 : cnt (P b.val) (l.val + 1) ≤ l.val + 1 := cnt_le _ _
  have hl := l.isLt
  show IntOp.cmpi .sge (tRank M (ix2 b l)) 0#32 = 1#1
  rw [tRank_apply M P hM hP0]
  exact sge_zero_word _ (by omega)

end Apply

/-- Scaling by a bit, at an index: the state times the bit's value. -/
theorem tKeep_apply (T : FVec Ideal S4x2048x512 .f32) (s : IVec S4x2048 1) (b : Fin 4) (j : Fin 2048) (d : Fin 512) :
    tKeep T s (ix3 b j d) = T (ix3 b j d) * (((s (ix2 b j)).toNat : ℝ) : EReal) := by
  show T (ix3 b j d) * (broadcastInDim S4x2048x512 ![0, 1, 2] bcast_S4x2048x1_S4x2048x512_0_1_2
      (uitofp (F := Ideal) .f32 (broadcastInDim S4x2048x1 ![0, 1] bcast_S4x2048_S4x2048x1_0_1 s)) (ix3 b j d)) = _
  rw [bc_full]
  show T (ix3 b j d) * (((broadcastInDim S4x2048x1 ![0, 1] bcast_S4x2048_S4x2048x1_0_1 s (ix3 b j 0)).toNat : ℝ) : EReal) = _
  rw [bc_col]

/-- Where the bit is set the state is kept. -/
theorem tKeep_one (T : FVec Ideal S4x2048x512 .f32) (s : IVec S4x2048 1) (b : Fin 4) (j : Fin 2048) (d : Fin 512)
    (h : s (ix2 b j) = 1#1) : tKeep T s (ix3 b j d) = T (ix3 b j d) := by
  rw [tKeep_apply, h]
  show T (ix3 b j d) * (((1 : ℕ) : ℝ) : EReal) = _
  rw [Nat.cast_one, EReal.coe_one, mul_one]

/-- The straight-through factor is one: the residual adds the gathered state itself. -/
theorem tOutH_apply (X G : FVec Ideal S4x2048x512 .f32) (Q : FVec Ideal S4x2048 .f32) (q : ℝ) (b : Fin 4) (l : Fin 2048)
    (d : Fin 512) (hQ : Q (ix2 b l) = ((q : ℝ) : EReal)) :
    tOutH X G Q (ix3 b l d) = X (ix3 b l d) + G (ix3 b l d) := by
  have hc : ∀ i, broadcastInDim S4x2048 ![] bcast_S_S4x2048 (constant (F := Ideal) S_ .f32 0x3F800000#32) i = ((1 : ℝ) : EReal) :=
    fun _ => ofBits_one
  have hm : max (((1 - q : ℝ)) : EReal) ((q : ℝ) : EReal) = ((max (1 - q) q : ℝ) : EReal) :=
    (EReal.coe_strictMono.monotone.map_max).symm
  unfold tOutH
  rw [addf_apply, mulf_apply, bc_full, bc_col, addf_apply, subf_apply, maximumf_apply, subf_apply, hc, hQ]
  rw [← EReal.coe_sub, hm, ← EReal.coe_sub, sub_self, ← EReal.coe_add, add_zero, EReal.coe_one, mul_one]

/-! ## The statements -/

/-- With the scan's result `E` in its buffer: the result buffer holds the row plus the state at the rank of the last boundary. -/
theorem tail_value (W : Valuation τ sig (Elt Ideal)) (hs : ℕ → ℕ → ℕ → ℝ) (P : ℕ → ℕ → ℝ) (E : ℕ → ℕ → ℕ → ℝ)
    (h0 : ∀ (b : Fin 4) (l : Fin 2048) (d : Fin 512),
      (W (main_arg0 : DevRef τ sig) : Vec Ideal S4x2048x512 .f32) (ix3 b l d) = ((hs b.val l.val d.val : ℝ) : EReal))
    (hP : ∀ (b : Fin 4) (l : Fin 2048),
      (W (main_v31 : DevRef τ sig) : Vec Ideal S4x2048 .f32) (ix2 b l) = ((P b.val l.val : ℝ) : EReal))
    (hP0 : ∀ b : Fin 4, 1 / 2 < P b.val 0)
    (hM : ∀ (b : Fin 4) (l : Fin 2048), (W (main_v33 : DevRef τ sig) : IVec S4x2048 1) (ix2 b l)
        = if 1 / 2 < P b.val l.val then 1#1 else 0#1)
    (hV : ∀ (b : Fin 4) (j : Fin 2048), (W (main_v46 : DevRef τ sig) : IVec S4x2048 1) (ix2 b j)
        = if j.val < cnt (P b.val) 2048 then 1#1 else 0#1)
    (hE : ∀ (b : Fin 4) (j : Fin 2048) (d : Fin 512),
      (W (main_v194 : DevRef τ sig) : Vec Ideal S4x2048x512 .f32) (ix3 b j d) = ((E b.val j.val d.val : ℝ) : EReal))
    (b : Fin 4) (l : Fin 2048) (d : Fin 512) :
    (after opsH (after opsG W) (main_v226 : DevRef τ sig) : Vec Ideal S4x2048x512 .f32) (ix3 b l d)
      = ((hs b.val l.val d.val + E b.val (cnt (P b.val) (l.val + 1) - 1) d.val : ℝ) : EReal) := by
  -- the count of boundaries up to row `l`, and the rank below it
  have hl := l.isLt
  have hc1 : 1 ≤ cnt (P b.val) (l.val + 1) := cnt_pos (P b.val) (hP0 b) (Nat.succ_pos _)
  have hc2 : cnt (P b.val) (l.val + 1) ≤ l.val + 1 := cnt_le _ _
  have hc3 : cnt (P b.val) (l.val + 1) ≤ cnt (P b.val) 2048 := cnt_mono (P b.val) (by omega)
  have hclip := tClip_apply (W (main_v33 : DevRef τ sig)) P hM hP0
  have hσ : ∀ (b : Fin 4) (j : Fin 2048), ((tClip (W (main_v33 : DevRef τ sig))) (ix2 b j)).toNat < 2048 := fun b j => by
    have h2 : cnt (P b.val) (j.val + 1) ≤ j.val + 1 := cnt_le _ _
    have hj := j.isLt
    rw [hclip, toNat_ofNat_small _ (by omega)]
    omega
  have hj : cnt (P b.val) (l.val + 1) - 1 < 2048 := by omega
  -- the rank lies below the row's number of boundaries: its validity bit is set
  have hvalid : (W (main_v46 : DevRef τ sig) : IVec S4x2048 1) (ix2 b ⟨cnt (P b.val) (l.val + 1) - 1, hj⟩) = 1#1 := by
    rw [hV]
    exact if_pos (by show cnt (P b.val) (l.val + 1) - 1 < cnt (P b.val) 2048; omega)
  have hsign := tSign_apply (W (main_v33 : DevRef τ sig)) P hM hP0 b l
  have hidx : (⟨cnt (P b.val) (l.val + 1) - 1, hj⟩ : Fin 2048).val
      = ((tClip (W (main_v33 : DevRef τ sig))) (ix2 b l)).toNat := by
    rw [hclip, toNat_ofNat_small _ (by omega)]
  obtain ⟨g0, -, -, g31⟩ := tail_G_frame W
  refine (congrFun (tail_readH (after opsG W)) (ix3 b l d)).trans ?_
  rw [g0, g31, tail_readG W, tOutH_apply _ _ _ (P b.val l.val) b l d (hP b l), h0,
    tKeep_one _ _ b l d hsign, T40_apply _ _ hσ b l d ⟨_, hj⟩ hidx,
    tKeep_one (W (main_v194 : DevRef τ sig)) (W (main_v46 : DevRef τ sig)) b ⟨_, hj⟩ d hvalid, hE]
  exact (EReal.coe_add _ _).symm

/-- These operations leave the arguments alone. -/
theorem tail_frame (W : Valuation τ sig (Elt Ideal)) :
    after opsH (after opsG W) (main_arg0 : DevRef τ sig) = W (main_arg0 : DevRef τ sig)
    ∧ after opsH (after opsG W) (main_arg1 : DevRef τ sig) = W (main_arg1 : DevRef τ sig)
    ∧ after opsH (after opsG W) (main_arg2 : DevRef τ sig) = W (main_arg2 : DevRef τ sig) := by
  obtain ⟨h0, h1, h2⟩ := tail_H_frame (after opsG W)
  obtain ⟨g0, g1, g2, -⟩ := tail_G_frame W
  exact ⟨h0.trans g0, h1.trans g1, h2.trans g2⟩

end Cert.HNet

end
-- ==== Proof.RefRun.lean ====
import proofs.«109756_g14800457302192_cont_week2b_463_21_alg».proof.Proof.Gen.ReferenceIdeal
import proofs.«109756_g14800457302192_cont_week2b_463_21_alg».proof.Proof.Spec
import proofs.«109756_g14800457302192_cont_week2b_463_21_alg».proof.Proof.Scan
import proofs.«109756_g14800457302192_cont_week2b_463_21_alg».proof.Proof.RCompact
import proofs.«109756_g14800457302192_cont_week2b_463_21_alg».proof.Proof.RRun
import proofs.«109756_g14800457302192_cont_week2b_463_21_alg».proof.Proof.RRouter
import proofs.«109756_g14800457302192_cont_week2b_463_21_alg».proof.Proof.RSort
import proofs.«109756_g14800457302192_cont_week2b_463_21_alg».proof.Proof.RGather
import proofs.«109756_g14800457302192_cont_week2b_463_21_alg».proof.Proof.RScan
import proofs.«109756_g14800457302192_cont_week2b_463_21_alg».proof.Proof.RTail
import Idealize.ShloMosaic.Lib.ValueIdx
import Idealize.ShloMosaic.Lib.StableHlo.Run
import Idealize.ShloMosaic.Lib.Pipeline.Frame

noncomputable section

/-! The reference program runs and leaves the specification's result.

The run is the fold of the program's operations over the launch contents.  The fold is read stage by stage:
the router leaves the boundary probabilities; the mask, its stable sort and the count leave an order `σ` that
lists the boundary rows first and increasing; the gathers along `σ` leave the compacted coefficients; the
doubling scan leaves the first-order recurrence over the compacted rows; the running count of boundaries
selects, for each row, the state at the rank of the last boundary at or before it, which is the
specification's state by the compaction lemma; the residual is added. -/

namespace Cert.HNet

open Idealize.ShloMosaic Idealize.ShloMosaic.TcCoe Idealize.ShloMosaic.ValueIdx Idealize.SL.Sem Cert.ReferenceIdeal
  Idealize.ShloMosaic.StableHlo Cert.HNet.Ops

/-- The fold over the whole program is the folds over its stages in turn. -/
theorem after_ops (V : Valuation τ sig (Elt Ideal)) :
    after ops V = after opsH (after opsG (after opsS (after opsC (after opsB2 (after opsB1 (after opsA V)))))) := by
  show after (opsA ++ (opsB1 ++ (opsB2 ++ (opsC ++ (opsS ++ (opsG ++ opsH)))))) V = _
  rw [StableHlo.after_append opsA, StableHlo.after_append opsB1, StableHlo.after_append opsB2,
    StableHlo.after_append opsC, StableHlo.after_append opsS, StableHlo.after_append opsG]

/-- The stages in turn, from a valuation whose argument buffers hold the reals `hs`, `Wq`, `Wk`: the result buffer
    holds the specification's value, and the arguments are unchanged. -/
theorem after_ops_value (V : Valuation τ sig (Elt Ideal)) (hs : ℕ → ℕ → ℕ → ℝ) (Wq Wk : ℕ → ℕ → ℝ)
    (h0 : ∀ (b : Fin 4) (l : Fin 2048) (d : Fin 512),
      (V (main_arg0 : DevRef τ sig) : Vec Ideal S4x2048x512 .f32) (ix3 b l d) = ((hs b.val l.val d.val : ℝ) : EReal))
    (h1 : ∀ (e d : Fin 512), (V (main_arg1 : DevRef τ sig) : Vec Ideal S512x512 .f32) (ix2 e d) = ((Wq e.val d.val : ℝ) : EReal))
    (h2 : ∀ (e d : Fin 512), (V (main_arg2 : DevRef τ sig) : Vec Ideal S512x512 .f32) (ix2 e d) = ((Wk e.val d.val : ℝ) : EReal))
    (b : Fin 4) (l : Fin 2048) (d : Fin 512) :
    (after ops V (main_v226 : DevRef τ sig) : Vec Ideal S4x2048x512 .f32) (ix3 b l d)
      = ((outR Wq Wk (hs b.val) l.val d.val : ℝ) : EReal) := by
  rw [after_ops]
  -- the probabilities
  set P : ℕ → ℕ → ℝ := fun b l => prob Wq Wk (hs b) l with hPdef
  set VA := after opsA V with hVA
  obtain ⟨fA0, -, -⟩ := router_frame V
  have hPA : ∀ (b : Fin 4) (l : Fin 2048),
      (VA (main_v31 : DevRef τ sig) : Vec Ideal S4x2048 .f32) (ix2 b l) = ((P b.val l.val : ℝ) : EReal) :=
    fun b l => router_value V hs Wq Wk h0 h1 h2 b l
  have h0A : ∀ (b : Fin 4) (l : Fin 2048) (d : Fin 512),
      (VA (main_arg0 : DevRef τ sig) : Vec Ideal S4x2048x512 .f32) (ix3 b l d) = ((hs b.val l.val d.val : ℝ) : EReal) := by
    intro b l d; rw [hVA, fA0]; exact h0 b l d
  -- the mask, the order and the count
  set VB := after opsB1 VA with hVB
  obtain ⟨hMB, hOB, hNB⟩ := sort_value VA P hPA
  obtain ⟨fB0, -, -, fB31⟩ := sort_frame VA
  have hPB : ∀ (b : Fin 4) (l : Fin 2048),
      (VB (main_v31 : DevRef τ sig) : Vec Ideal S4x2048 .f32) (ix2 b l) = ((P b.val l.val : ℝ) : EReal) := by
    intro b l; rw [hVB, fB31]; exact hPA b l
  have h0B : ∀ (b : Fin 4) (l : Fin 2048) (d : Fin 512),
      (VB (main_arg0 : DevRef τ sig) : Vec Ideal S4x2048x512 .f32) (ix3 b l d) = ((hs b.val l.val d.val : ℝ) : EReal) := by
    intro b l d; rw [hVB, fB0]; exact h0A b l d
  -- the compacted coefficients
  set VC := after opsC (after opsB2 VB) with hVC
  obtain ⟨hVC46, hVC55, hVC60, hVC53⟩ := gather_value VB hs P (fun b => cnt (P b) 2048) h0B hPB
    (fun b l => prob_mem Wq Wk (hs b) l) (fun b j hj => (hOB b).1 j hj) hNB (fun b => cnt_le (P b.val) 2048)
  obtain ⟨fC0, -, -, fC31, fC33⟩ := gather_frame VB
  -- the order as a function of the batch row's number
  set σ : ℕ → ℕ → ℕ := fun b j => if hb : b < 4 then sigmaOf VB ⟨b, hb⟩ j else 0 with hσdef
  have hσ : ∀ (b : Fin 4), σ b.val = sigmaOf VB b := by
    intro b; funext j; simp only [hσdef, dif_pos b.isLt]
  have hO : ∀ b : Fin 4, IsOrder 2048 (P b.val) (σ b.val) := fun b => by rw [hσ b]; exact hOB b
  -- the scan
  set VS := after opsS VC with hVS
  obtain ⟨fS0, -, -, fS31, fS33, fS46⟩ := scan_frame VC
  have hE : ∀ (b : Fin 4) (j : Fin 2048) (d : Fin 512),
      (VS (main_v194 : DevRef τ sig) : Vec Ideal S4x2048x512 .f32) (ix3 b j d)
        = ((affRec (cdecay 2048 (P b.val) (σ b.val)) (cgain 2048 (P b.val) (σ b.val) (fun l => hs b.val l d.val)) j.val : ℝ) : EReal) := by
    intro b j d
    rw [hVS, scan_value VC (fun b j _ => cdecay 2048 (P b) (σ b) j) (fun b j d => cgain 2048 (P b) (σ b) (fun l => hs b l d) j)
      (fun b j d => by rw [hVC, hVC55 b j d, hσ b]; rfl) (fun b j d => by rw [hVC, hVC60 b j d, hσ b]; rfl) (fun b d => by rw [hVC]; exact hVC53 b d) b j d,
      scanIter_snd _ _ 11 j.val (by have := j.isLt; omega)]
  -- the gather back and the residual
  have hT := tail_value VS hs P
    (fun b j d => affRec (cdecay 2048 (P b) (σ b)) (cgain 2048 (P b) (σ b) (fun l => hs b l d)) j)
    (fun b l d => by rw [hVS, fS0, hVC, fC0]; exact h0B b l d)
    (fun b l => by rw [hVS, fS31, hVC, fC31]; exact hPB b l)
    (fun b => by show 1 / 2 < prob Wq Wk (hs b.val) 0; rw [prob_zero]; norm_num)
    (fun b l => by rw [hVS, fS33, hVC, fC33]; exact hMB b l)
    (fun b j => by rw [hVS, fS46]; exact hVC46 b j)
    hE b l d
  rw [hT]
  have hc := compact_affRec 2048 (P b.val) (σ b.val) (fun i => hs b.val i d.val)
    (by show 1 / 2 < prob Wq Wk (hs b.val) 0; rw [prob_zero]; norm_num) (hO b) l.val l.isLt
  rw [hc]
  rfl

/-- The stages leave the three argument buffers alone. -/
theorem after_ops_args (V : Valuation τ sig (Elt Ideal)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig) := by
  rw [after_ops]
  obtain ⟨a0, a1, a2⟩ := router_frame V
  obtain ⟨b0, b1, b2, -⟩ := sort_frame (after opsA V)
  obtain ⟨c0, c1, c2, -, -⟩ := gather_frame (after opsB1 (after opsA V))
  obtain ⟨s0, s1, s2, -, -, -⟩ := scan_frame (after opsC (after opsB2 (after opsB1 (after opsA V))))
  obtain ⟨t0, t1, t2⟩ := tail_frame (after opsS (after opsC (after opsB2 (after opsB1 (after opsA V)))))
  exact ⟨by rw [t0, s0, c0, b0, a0], by rw [t1, s1, c1, b1, a1], by rw [t2, s2, c2, b2, a2]⟩

open Idealize.ShloMosaic.ValueIdx in
/-- From a memory whose argument arrays hold the reals `hs`, `Wq`, `Wk`, every weakly fair execution of the
    reference ends with its result array at the specification's value, index by index, and its arguments unchanged. -/
theorem ref_run (m : (ℓ : Loc nD τ sig) → Buf (Elt Ideal) ℓ) (ρ : Dev nD → PrngReg)
    (hs : ℕ → ℕ → ℕ → ℝ) (Wq Wk : ℕ → ℕ → ℝ)
    (h0 : ∀ (c : Dev nD) (b : Fin 4) (l : Fin 2048) (d : Fin 512),
      (m ((c.tc : Thread nD τ).loc main_arg0) : Vec Ideal S4x2048x512 .f32) (ix3 b l d) = ((hs b l d : ℝ) : EReal))
    (h1 : ∀ (c : Dev nD) (e d : Fin 512),
      (m ((c.tc : Thread nD τ).loc main_arg1) : Vec Ideal S512x512 .f32) (ix2 e d) = ((Wq e d : ℝ) : EReal))
    (h2 : ∀ (c : Dev nD) (e d : Fin 512),
      (m ((c.tc : Thread nD τ).loc main_arg2) : Vec Ideal S512x512 .f32) (ix2 e d) = ((Wk e d : ℝ) : EReal)) :
    θ_run (defs (F := Ideal)) (onTc (τ := τ) (main (F := Ideal))) ⟨m, fun _ => 0, ρ⟩ fun r => ∀ c : Dev nD,
      r.2.mem ((c.tc : Thread nD τ).loc main_v226)
          = (fun i : S4x2048x512.Idx => ((outR Wq Wk (hs (i 0).val) (i 1).val (i 2).val : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run (defs (F := Ideal)) _ _).mono (fun r h c => ?_) (run_main (F := Ideal) m ρ)
  obtain ⟨a0, a1, a2⟩ := after_ops_args (launchContents m c)
  refine ⟨?_, (h c main_arg0).trans a0, (h c main_arg1).trans a1, (h c main_arg2).trans a2⟩
  rw [h c main_v226]
  funext i
  obtain ⟨b, l, d, rfl⟩ : ∃ (b : Fin 4) (l : Fin 2048) (d : Fin 512), i = ix3 b l d := ⟨i 0, i 1, i 2, eq_ix3 i⟩
  exact after_ops_value (launchContents m c) hs Wq Wk (h0 c) (h1 c) (h2 c) b l d

end Cert.HNet

end
-- ==== Proof.lean ====
/- The proof of `Cert.Claim`.

   Both idealized programs compute, on finite inputs, the same real-valued function of the three argument arrays
   (`Cert.HNet.outR`, proof/Proof/Spec.lean): the kernel directly, as a per-row first-order recurrence evaluated by
   chunked doubling scans; the reference through a stable compaction of the boundary rows, a moving average over the
   compacted rows, and a gather back.  Finiteness of the inputs makes every entry a real (Finite.lean), the kernel's
   run ends at the specification (KernelRun.lean over KernelBlock.lean), and so does the reference's (RefRun.lean). -/
import proofs.«109756_g14800457302192_cont_week2b_463_21_alg».proof.Defs
import proofs.«109756_g14800457302192_cont_week2b_463_21_alg».proof.Proof.Gen.Kernel
import proofs.«109756_g14800457302192_cont_week2b_463_21_alg».proof.Proof.Gen.Kernel.Skeleton
import proofs.«109756_g14800457302192_cont_week2b_463_21_alg».proof.Proof.Gen.Kernel.Launch
import proofs.«109756_g14800457302192_cont_week2b_463_21_alg».proof.Proof.Gen.Kernel.Points
import proofs.«109756_g14800457302192_cont_week2b_463_21_alg».proof.Proof.Gen.Kernel.Frame
import proofs.«109756_g14800457302192_cont_week2b_463_21_alg».proof.Proof.Gen.KernelIdeal
import proofs.«109756_g14800457302192_cont_week2b_463_21_alg».proof.Proof.Gen.KernelIdeal.Skeleton
import proofs.«109756_g14800457302192_cont_week2b_463_21_alg».proof.Proof.Gen.KernelIdeal.Launch
import proofs.«109756_g14800457302192_cont_week2b_463_21_alg».proof.Proof.Gen.KernelIdeal.Points
import proofs.«109756_g14800457302192_cont_week2b_463_21_alg».proof.Proof.Gen.KernelIdeal.Frame
import proofs.«109756_g14800457302192_cont_week2b_463_21_alg».proof.Proof.Gen.KernelIdeal.Value
import proofs.«109756_g14800457302192_cont_week2b_463_21_alg».proof.Proof.Gen.ReferenceIdeal
import proofs.«109756_g14800457302192_cont_week2b_463_21_alg».proof.Proof.Gen.Pre_finite_inputs
import proofs.«109756_g14800457302192_cont_week2b_463_21_alg».proof.Proof.Finite
import proofs.«109756_g14800457302192_cont_week2b_463_21_alg».proof.Proof.KernelRun
import proofs.«109756_g14800457302192_cont_week2b_463_21_alg».proof.Proof.RefRun
import Idealize.ShloMosaic.Adequacy
import Idealize.ShloMosaic.Init

noncomputable section

namespace Cert.Proof

open Idealize.ShloMosaic Idealize.ShloMosaic.ValueIdx Idealize.SL.Sem Cert.HNet

/-- The reals an array of extended reals holds where its entries are real (zero elsewhere), indexed by naturals. -/
def reals3 (A : (⟨3, ![4, 2048, 512]⟩ : Shape).Idx → EReal) (b l d : ℕ) : ℝ :=
  if h : b < 4 ∧ l < 2048 ∧ d < 512 then (A (ix3 ⟨b, h.1⟩ ⟨l, h.2.1⟩ ⟨d, h.2.2⟩)).toReal else 0

def reals2 (A : (⟨2, ![512, 512]⟩ : Shape).Idx → EReal) (e d : ℕ) : ℝ :=
  if h : e < 512 ∧ d < 512 then (A (ix2 ⟨e, h.1⟩ ⟨d, h.2⟩)).toReal else 0

theorem reals3_spec (A : (⟨3, ![4, 2048, 512]⟩ : Shape).Idx → EReal) (hA : ∀ i, ∃ r : ℝ, A i = (r : EReal))
    (b : Fin 4) (l : Fin 2048) (d : Fin 512) : A (ix3 b l d) = ((reals3 A b l d : ℝ) : EReal) := by
  obtain ⟨r, hr⟩ := hA (ix3 b l d)
  unfold reals3
  rw [dif_pos ⟨b.isLt, l.isLt, d.isLt⟩]
  show A (ix3 b l d) = _
  rw [hr, EReal.toReal_coe]

theorem reals2_spec (A : (⟨2, ![512, 512]⟩ : Shape).Idx → EReal) (hA : ∀ i, ∃ r : ℝ, A i = (r : EReal))
    (e d : Fin 512) : A (ix2 e d) = ((reals2 A e d : ℝ) : EReal) := by
  obtain ⟨r, hr⟩ := hA (ix2 e d)
  unfold reals2
  rw [dif_pos ⟨e.isLt, d.isLt⟩]
  show A (ix2 e d) = _
  rw [hr, EReal.toReal_coe]

theorem frame_k [Cert.Pre_finite_inputs.Facts] [Cert.Kernel.Facts] : Cert.frame_Kernel := fun m ρ _ => Cert.Kernel.Gen.frame m ρ
theorem frame_ki [Cert.Pre_finite_inputs.Facts] [Cert.KernelIdeal.Facts] : Cert.frame_KernelIdeal := fun m ρ _ => Cert.KernelIdeal.Gen.frame m ρ

/-- Under the precondition the three argument arrays hold reals: the sequence's and the two weights'. -/
theorem reals_of_pre (A0 : (⟨3, ![4, 2048, 512]⟩ : Shape).Idx → EReal) (A1 A2 : (⟨2, ![512, 512]⟩ : Shape).Idx → EReal)
    (h : @Cert.Pre_finite_inputs.fn Cert.Pre_finite_inputs.Gen.facts Ideal _ A0 A1 A2 = fun _ => 1#1) :
    (∀ (b : Fin 4) (l : Fin 2048) (d : Fin 512), A0 (ix3 b l d) = ((reals3 A0 b l d : ℝ) : EReal))
    ∧ (∀ e d : Fin 512, A1 (ix2 e d) = ((reals2 A1 e d : ℝ) : EReal))
    ∧ (∀ e d : Fin 512, A2 (ix2 e d) = ((reals2 A2 e d : ℝ) : EReal)) := by
  haveI := Cert.Pre_finite_inputs.Gen.facts
  obtain ⟨f0, f1, f2⟩ := finite_of_pre A0 A1 A2 h
  exact ⟨reals3_spec A0 f0, reals2_spec A1 f1, reals2_spec A2 f2⟩

theorem claim : Cert.Claim := by
  refine ⟨Cert.Kernel.Gen.facts, Cert.KernelIdeal.Gen.facts, Cert.ReferenceIdeal.Gen.facts, Cert.Pre_finite_inputs.Gen.facts, ?_, ?_, ?_, trivial, ?_⟩
  · exact fun m ρ _ => Cert.Kernel.Gen.frame m ρ
  · exact fun m ρ _ => Cert.KernelIdeal.Gen.frame m ρ
  · intro m ρ hpre
    obtain ⟨g0, g1, g2⟩ := reals_of_pre _ _ _ (hpre 0)
    refine (θ_run Cert.ReferenceIdeal.defs _ _).mono (fun _ h c => (h c).2) (ref_run m ρ
        (reals3 (m (((0 : Dev Cert.ReferenceIdeal.nD).tc : Thread Cert.ReferenceIdeal.nD Cert.ReferenceIdeal.τ).loc Cert.ReferenceIdeal.main_arg0)))
        (reals2 (m (((0 : Dev Cert.ReferenceIdeal.nD).tc : Thread Cert.ReferenceIdeal.nD Cert.ReferenceIdeal.τ).loc Cert.ReferenceIdeal.main_arg1)))
        (reals2 (m (((0 : Dev Cert.ReferenceIdeal.nD).tc : Thread Cert.ReferenceIdeal.nD Cert.ReferenceIdeal.τ).loc Cert.ReferenceIdeal.main_arg2))) ?_ ?_ ?_)
    · intro c b l d; obtain rfl : c = 0 := Subsingleton.elim _ _; exact g0 b l d
    · intro c e d; obtain rfl : c = 0 := Subsingleton.elim _ _; exact g1 e d
    · intro c e d; obtain rfl : c = 0 := Subsingleton.elim _ _; exact g2 e d
  · intro m ρ m' ρ' hpre hagree
    obtain ⟨g0, g1, g2⟩ := reals_of_pre _ _ _ (hpre 0)
    refine ⟨fun _ => resultArr (reals3 (m (((0 : Dev Cert.KernelIdeal.nD).tc : Thread Cert.KernelIdeal.nD Cert.KernelIdeal.τ).loc Cert.KernelIdeal.main_arg0)))
        (reals2 (m (((0 : Dev Cert.KernelIdeal.nD).tc : Thread Cert.KernelIdeal.nD Cert.KernelIdeal.τ).loc Cert.KernelIdeal.main_arg1)))
        (reals2 (m (((0 : Dev Cert.KernelIdeal.nD).tc : Thread Cert.KernelIdeal.nD Cert.KernelIdeal.τ).loc Cert.KernelIdeal.main_arg2))),
      kernel_run m ρ _ _ _ ?_ ?_ ?_, ref_run m' ρ' _ _ _ ?_ ?_ ?_⟩
    · intro c b l d; obtain rfl : c = 0 := Subsingleton.elim _ _; exact g0 b l d
    · intro c e d; obtain rfl : c = 0 := Subsingleton.elim _ _; exact g1 e d
    · intro c e d; obtain rfl : c = 0 := Subsingleton.elim _ _; exact g2 e d
    · intro c b l d; obtain rfl : c = 0 := Subsingleton.elim _ _; rw [(hagree 0).1]; exact g0 b l d
    · intro c e d; obtain rfl : c = 0 := Subsingleton.elim _ _; rw [(hagree 0).2.1]; exact g1 e d
    · intro c e d; obtain rfl : c = 0 := Subsingleton.elim _ _; rw [(hagree 0).2.2]; exact g2 e d

end Cert.Proof

end
